-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S512x8192 : Shape := ⟨2, ![512, 8192]⟩
abbrev S_ : Shape := ⟨0, ![]⟩

class Facts : Prop where
  bcast_S_S512x8192 : S_.BroadcastsInDim S512x8192 (![] : Fin 0 → Fin S512x8192.rank)
  reducesTo_S512x8192_S_d0_1 : S512x8192.ReducesTo [0, 1] S_
  h_S_ : 0 < S_.numel

variable [Facts]

def fn {F : FTy → Type} [FloatOps F] (main_arg0 : FVec F S512x8192 .f32) : IVec S_ 1 :=
  let main_v0 : FVec F S512x8192 .f32 := Host.absf main_arg0
  let main_cst : FVec F S_ .f32 := constant S_ .f32 0x7F800000#32
  let main_v1 : FVec F S512x8192 .f32 := broadcastInDim S512x8192 ![] bcast_S_S512x8192 main_cst
  let main_v2 : IVec S512x8192 1 := cmpf .olt main_v0 main_v1
  let main_c : IVec S_ 1 := constantI S_ 1 1#1
  let main_v3 : IVec S_ 1 := (fun x v => Host.reduce IntOp.andi x v reducesTo_S512x8192_S_d0_1 h_S_) main_v2 main_c
  main_v3
-- ==== Kernel.lean ====
abbrev S512x256 : Shape := ⟨2, ![512, 256]⟩
abbrev S32x2x512 : Shape := ⟨3, ![32, 2, 512]⟩
abbrev S32 : Shape := ⟨1, ![32]⟩
abbrev S_ : Shape := ⟨0, ![]⟩
abbrev S512 : Shape := ⟨1, ![512]⟩
abbrev S512x1 : Shape := ⟨2, ![512, 1]⟩
abbrev S512x2 : Shape := ⟨2, ![512, 2]⟩
abbrev S2x512 : Shape := ⟨2, ![2, 512]⟩
abbrev S1x2x512 : Shape := ⟨3, ![1, 2, 512]⟩
abbrev S1 : Shape := ⟨1, ![1]⟩
abbrev S32x1x512 : Shape := ⟨3, ![32, 1, 512]⟩
abbrev S1x512 : Shape := ⟨2, ![1, 512]⟩
abbrev S1x1x512 : Shape := ⟨3, ![1, 1, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S32x2x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v419 : Index := Scalar.indexCast v2
  let c0_281 : Index := 0#32
  let c0_282 : Index := 0#32
  ![v419.toNat, 0, 0]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_294 : BitVec 32 := 0#32
  let c0_i32_295 : BitVec 32 := 0#32
  ![v2.toNat, 0, 0]
def k0_dev32 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_284 : BitVec 32 := 1#32
  let v423 : BitVec 32 := Scalar.addi v2 c1_i32_284
  let c32_i32_285 : BitVec 32 := 32#32
  let c0_i32_286 : BitVec 32 := 0#32
  let v424 : BitVec 1 := Scalar.cmpi .eq c32_i32_285 c0_i32_286
  let c1_i32_287 : BitVec 32 := 1#32
  let v425 : BitVec 32 := Scalar.select v424 c1_i32_287 c32_i32_285
  let v426 : BitVec 32 := Scalar.remsi v423 v425
  let c0_i32_289 : BitVec 32 := 0#32
  let v428 : BitVec 1 := Scalar.cmpi .slt v426 c0_i32_289
  let c0_i32_290 : BitVec 32 := 0#32
  let v429 : BitVec 1 := Scalar.cmpi .slt v425 c0_i32_290
  let v430 : BitVec 1 := Scalar.xori v428 v429
  let c0_i32_288 : BitVec 32 := 0#32
  let v427 : BitVec 1 := Scalar.cmpi .ne v426 c0_i32_288
  let v431 : BitVec 1 := Scalar.andi v430 v427
  let v432 : BitVec 32 := Scalar.addi v426 v425
  let v433 : BitVec 32 := Scalar.select v431 v432 v426
  let c1_i32_292 : BitVec 32 := 1#32
  let v434 : BitVec 32 := Scalar.muli v433 c1_i32_292
  let v435 : BitVec 32 := Scalar.addi c0_i32_293 v434
  v435.toNat
def k0_dev33 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_298 : BitVec 32 := 2#32
  let v444 : BitVec 32 := Scalar.addi v2 c2_i32_298
  let c32_i32_299 : BitVec 32 := 32#32
  let c0_i32_300 : BitVec 32 := 0#32
  let v445 : BitVec 1 := Scalar.cmpi .eq c32_i32_299 c0_i32_300
  let c1_i32_301 : BitVec 32 := 1#32
  let v446 : BitVec 32 := Scalar.select v445 c1_i32_301 c32_i32_299
  let v447 : BitVec 32 := Scalar.remsi v444 v446
  let c0_i32_303 : BitVec 32 := 0#32
  let v449 : BitVec 1 := Scalar.cmpi .slt v447 c0_i32_303
  let c0_i32_304 : BitVec 32 := 0#32
  let v450 : BitVec 1 := Scalar.cmpi .slt v446 c0_i32_304
  let v451 : BitVec 1 := Scalar.xori v449 v450
  let c0_i32_302 : BitVec 32 := 0#32
  let v448 : BitVec 1 := Scalar.cmpi .ne v447 c0_i32_302
  let v452 : BitVec 1 := Scalar.andi v451 v448
  let v453 : BitVec 32 := Scalar.addi v447 v446
  let v454 : BitVec 32 := Scalar.select v452 v453 v447
  let c1_i32_306 : BitVec 32 := 1#32
  let v455 : BitVec 32 := Scalar.muli v454 c1_i32_306
  let v456 : BitVec 32 := Scalar.addi c0_i32_307 v455
  v456.toNat
def k0_dev34 (d0 : Dev nD) : Nat :=
  let c0_i32_321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_312 : BitVec 32 := 3#32
  let v465 : BitVec 32 := Scalar.addi v2 c3_i32_312
  let c32_i32_313 : BitVec 32 := 32#32
  let c0_i32_314 : BitVec 32 := 0#32
  let v466 : BitVec 1 := Scalar.cmpi .eq c32_i32_313 c0_i32_314
  let c1_i32_315 : BitVec 32 := 1#32
  let v467 : BitVec 32 := Scalar.select v466 c1_i32_315 c32_i32_313
  let v468 : BitVec 32 := Scalar.remsi v465 v467
  let c0_i32_317 : BitVec 32 := 0#32
  let v470 : BitVec 1 := Scalar.cmpi .slt v468 c0_i32_317
  let c0_i32_318 : BitVec 32 := 0#32
  let v471 : BitVec 1 := Scalar.cmpi .slt v467 c0_i32_318
  let v472 : BitVec 1 := Scalar.xori v470 v471
  let c0_i32_316 : BitVec 32 := 0#32
  let v469 : BitVec 1 := Scalar.cmpi .ne v468 c0_i32_316
  let v473 : BitVec 1 := Scalar.andi v472 v469
  let v474 : BitVec 32 := Scalar.addi v468 v467
  let v475 : BitVec 32 := Scalar.select v473 v474 v468
  let c1_i32_320 : BitVec 32 := 1#32
  let v476 : BitVec 32 := Scalar.muli v475 c1_i32_320
  let v477 : BitVec 32 := Scalar.addi c0_i32_321 v476
  v477.toNat
def k0_dev35 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_326 : BitVec 32 := 4#32
  let v486 : BitVec 32 := Scalar.addi v2 c4_i32_326
  let c32_i32_327 : BitVec 32 := 32#32
  let c0_i32_328 : BitVec 32 := 0#32
  let v487 : BitVec 1 := Scalar.cmpi .eq c32_i32_327 c0_i32_328
  let c1_i32_329 : BitVec 32 := 1#32
  let v488 : BitVec 32 := Scalar.select v487 c1_i32_329 c32_i32_327
  let v489 : BitVec 32 := Scalar.remsi v486 v488
  let c0_i32_331 : BitVec 32 := 0#32
  let v491 : BitVec 1 := Scalar.cmpi .slt v489 c0_i32_331
  let c0_i32_332 : BitVec 32 := 0#32
  let v492 : BitVec 1 := Scalar.cmpi .slt v488 c0_i32_332
  let v493 : BitVec 1 := Scalar.xori v491 v492
  let c0_i32_330 : BitVec 32 := 0#32
  let v490 : BitVec 1 := Scalar.cmpi .ne v489 c0_i32_330
  let v494 : BitVec 1 := Scalar.andi v493 v490
  let v495 : BitVec 32 := Scalar.addi v489 v488
  let v496 : BitVec 32 := Scalar.select v494 v495 v489
  let c1_i32_334 : BitVec 32 := 1#32
  let v497 : BitVec 32 := Scalar.muli v496 c1_i32_334
  let v498 : BitVec 32 := Scalar.addi c0_i32_335 v497
  v498.toNat
def k0_dev36 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_340 : BitVec 32 := 5#32
  let v507 : BitVec 32 := Scalar.addi v2 c5_i32_340
  let c32_i32_341 : BitVec 32 := 32#32
  let c0_i32_342 : BitVec 32 := 0#32
  let v508 : BitVec 1 := Scalar.cmpi .eq c32_i32_341 c0_i32_342
  let c1_i32_343 : BitVec 32 := 1#32
  let v509 : BitVec 32 := Scalar.select v508 c1_i32_343 c32_i32_341
  let v510 : BitVec 32 := Scalar.remsi v507 v509
  let c0_i32_345 : BitVec 32 := 0#32
  let v512 : BitVec 1 := Scalar.cmpi .slt v510 c0_i32_345
  let c0_i32_346 : BitVec 32 := 0#32
  let v513 : BitVec 1 := Scalar.cmpi .slt v509 c0_i32_346
  let v514 : BitVec 1 := Scalar.xori v512 v513
  let c0_i32_344 : BitVec 32 := 0#32
  let v511 : BitVec 1 := Scalar.cmpi .ne v510 c0_i32_344
  let v515 : BitVec 1 := Scalar.andi v514 v511
  let v516 : BitVec 32 := Scalar.addi v510 v509
  let v517 : BitVec 32 := Scalar.select v515 v516 v510
  let c1_i32_348 : BitVec 32 := 1#32
  let v518 : BitVec 32 := Scalar.muli v517 c1_i32_348
  let v519 : BitVec 32 := Scalar.addi c0_i32_349 v518
  v519.toNat
def k0_dev37 (d0 : Dev nD) : Nat :=
  let c0_i32_363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_354 : BitVec 32 := 6#32
  let v528 : BitVec 32 := Scalar.addi v2 c6_i32_354
  let c32_i32_355 : BitVec 32 := 32#32
  let c0_i32_356 : BitVec 32 := 0#32
  let v529 : BitVec 1 := Scalar.cmpi .eq c32_i32_355 c0_i32_356
  let c1_i32_357 : BitVec 32 := 1#32
  let v530 : BitVec 32 := Scalar.select v529 c1_i32_357 c32_i32_355
  let v531 : BitVec 32 := Scalar.remsi v528 v530
  let c0_i32_359 : BitVec 32 := 0#32
  let v533 : BitVec 1 := Scalar.cmpi .slt v531 c0_i32_359
  let c0_i32_360 : BitVec 32 := 0#32
  let v534 : BitVec 1 := Scalar.cmpi .slt v530 c0_i32_360
  let v535 : BitVec 1 := Scalar.xori v533 v534
  let c0_i32_358 : BitVec 32 := 0#32
  let v532 : BitVec 1 := Scalar.cmpi .ne v531 c0_i32_358
  let v536 : BitVec 1 := Scalar.andi v535 v532
  let v537 : BitVec 32 := Scalar.addi v531 v530
  let v538 : BitVec 32 := Scalar.select v536 v537 v531
  let c1_i32_362 : BitVec 32 := 1#32
  let v539 : BitVec 32 := Scalar.muli v538 c1_i32_362
  let v540 : BitVec 32 := Scalar.addi c0_i32_363 v539
  v540.toNat
def k0_dev38 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_368 : BitVec 32 := 7#32
  let v549 : BitVec 32 := Scalar.addi v2 c7_i32_368
  let c32_i32_369 : BitVec 32 := 32#32
  let c0_i32_370 : BitVec 32 := 0#32
  let v550 : BitVec 1 := Scalar.cmpi .eq c32_i32_369 c0_i32_370
  let c1_i32_371 : BitVec 32 := 1#32
  let v551 : BitVec 32 := Scalar.select v550 c1_i32_371 c32_i32_369
  let v552 : BitVec 32 := Scalar.remsi v549 v551
  let c0_i32_373 : BitVec 32 := 0#32
  let v554 : BitVec 1 := Scalar.cmpi .slt v552 c0_i32_373
  let c0_i32_374 : BitVec 32 := 0#32
  let v555 : BitVec 1 := Scalar.cmpi .slt v551 c0_i32_374
  let v556 : BitVec 1 := Scalar.xori v554 v555
  let c0_i32_372 : BitVec 32 := 0#32
  let v553 : BitVec 1 := Scalar.cmpi .ne v552 c0_i32_372
  let v557 : BitVec 1 := Scalar.andi v556 v553
  let v558 : BitVec 32 := Scalar.addi v552 v551
  let v559 : BitVec 32 := Scalar.select v557 v558 v552
  let c1_i32_376 : BitVec 32 := 1#32
  let v560 : BitVec 32 := Scalar.muli v559 c1_i32_376
  let v561 : BitVec 32 := Scalar.addi c0_i32_377 v560
  v561.toNat
def k0_dev39 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_382 : BitVec 32 := 8#32
  let v570 : BitVec 32 := Scalar.addi v2 c8_i32_382
  let c32_i32_383 : BitVec 32 := 32#32
  let c0_i32_384 : BitVec 32 := 0#32
  let v571 : BitVec 1 := Scalar.cmpi .eq c32_i32_383 c0_i32_384
  let c1_i32_385 : BitVec 32 := 1#32
  let v572 : BitVec 32 := Scalar.select v571 c1_i32_385 c32_i32_383
  let v573 : BitVec 32 := Scalar.remsi v570 v572
  let c0_i32_387 : BitVec 32 := 0#32
  let v575 : BitVec 1 := Scalar.cmpi .slt v573 c0_i32_387
  let c0_i32_388 : BitVec 32 := 0#32
  let v576 : BitVec 1 := Scalar.cmpi .slt v572 c0_i32_388
  let v577 : BitVec 1 := Scalar.xori v575 v576
  let c0_i32_386 : BitVec 32 := 0#32
  let v574 : BitVec 1 := Scalar.cmpi .ne v573 c0_i32_386
  let v578 : BitVec 1 := Scalar.andi v577 v574
  let v579 : BitVec 32 := Scalar.addi v573 v572
  let v580 : BitVec 32 := Scalar.select v578 v579 v573
  let c1_i32_390 : BitVec 32 := 1#32
  let v581 : BitVec 32 := Scalar.muli v580 c1_i32_390
  let v582 : BitVec 32 := Scalar.addi c0_i32_391 v581
  v582.toNat
def k0_dev40 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_396 : BitVec 32 := 9#32
  let v591 : BitVec 32 := Scalar.addi v2 c9_i32_396
  let c32_i32_397 : BitVec 32 := 32#32
  let c0_i32_398 : BitVec 32 := 0#32
  let v592 : BitVec 1 := Scalar.cmpi .eq c32_i32_397 c0_i32_398
  let c1_i32_399 : BitVec 32 := 1#32
  let v593 : BitVec 32 := Scalar.select v592 c1_i32_399 c32_i32_397
  let v594 : BitVec 32 := Scalar.remsi v591 v593
  let c0_i32_401 : BitVec 32 := 0#32
  let v596 : BitVec 1 := Scalar.cmpi .slt v594 c0_i32_401
  let c0_i32_402 : BitVec 32 := 0#32
  let v597 : BitVec 1 := Scalar.cmpi .slt v593 c0_i32_402
  let v598 : BitVec 1 := Scalar.xori v596 v597
  let c0_i32_400 : BitVec 32 := 0#32
  let v595 : BitVec 1 := Scalar.cmpi .ne v594 c0_i32_400
  let v599 : BitVec 1 := Scalar.andi v598 v595
  let v600 : BitVec 32 := Scalar.addi v594 v593
  let v601 : BitVec 32 := Scalar.select v599 v600 v594
  let c1_i32_404 : BitVec 32 := 1#32
  let v602 : BitVec 32 := Scalar.muli v601 c1_i32_404
  let v603 : BitVec 32 := Scalar.addi c0_i32_405 v602
  v603.toNat
def k0_dev41 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_410 : BitVec 32 := 10#32
  let v612 : BitVec 32 := Scalar.addi v2 c10_i32_410
  let c32_i32_411 : BitVec 32 := 32#32
  let c0_i32_412 : BitVec 32 := 0#32
  let v613 : BitVec 1 := Scalar.cmpi .eq c32_i32_411 c0_i32_412
  let c1_i32_413 : BitVec 32 := 1#32
  let v614 : BitVec 32 := Scalar.select v613 c1_i32_413 c32_i32_411
  let v615 : BitVec 32 := Scalar.remsi v612 v614
  let c0_i32_415 : BitVec 32 := 0#32
  let v617 : BitVec 1 := Scalar.cmpi .slt v615 c0_i32_415
  let c0_i32_416 : BitVec 32 := 0#32
  let v618 : BitVec 1 := Scalar.cmpi .slt v614 c0_i32_416
  let v619 : BitVec 1 := Scalar.xori v617 v618
  let c0_i32_414 : BitVec 32 := 0#32
  let v616 : BitVec 1 := Scalar.cmpi .ne v615 c0_i32_414
  let v620 : BitVec 1 := Scalar.andi v619 v616
  let v621 : BitVec 32 := Scalar.addi v615 v614
  let v622 : BitVec 32 := Scalar.select v620 v621 v615
  let c1_i32_418 : BitVec 32 := 1#32
  let v623 : BitVec 32 := Scalar.muli v622 c1_i32_418
  let v624 : BitVec 32 := Scalar.addi c0_i32_419 v623
  v624.toNat
def k0_dev42 (d0 : Dev nD) : Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_424 : BitVec 32 := 11#32
  let v633 : BitVec 32 := Scalar.addi v2 c11_i32_424
  let c32_i32_425 : BitVec 32 := 32#32
  let c0_i32_426 : BitVec 32 := 0#32
  let v634 : BitVec 1 := Scalar.cmpi .eq c32_i32_425 c0_i32_426
  let c1_i32_427 : BitVec 32 := 1#32
  let v635 : BitVec 32 := Scalar.select v634 c1_i32_427 c32_i32_425
  let v636 : BitVec 32 := Scalar.remsi v633 v635
  let c0_i32_429 : BitVec 32 := 0#32
  let v638 : BitVec 1 := Scalar.cmpi .slt v636 c0_i32_429
  let c0_i32_430 : BitVec 32 := 0#32
  let v639 : BitVec 1 := Scalar.cmpi .slt v635 c0_i32_430
  let v640 : BitVec 1 := Scalar.xori v638 v639
  let c0_i32_428 : BitVec 32 := 0#32
  let v637 : BitVec 1 := Scalar.cmpi .ne v636 c0_i32_428
  let v641 : BitVec 1 := Scalar.andi v640 v637
  let v642 : BitVec 32 := Scalar.addi v636 v635
  let v643 : BitVec 32 := Scalar.select v641 v642 v636
  let c1_i32_432 : BitVec 32 := 1#32
  let v644 : BitVec 32 := Scalar.muli v643 c1_i32_432
  let v645 : BitVec 32 := Scalar.addi c0_i32_433 v644
  v645.toNat
def k0_dev43 (d0 : Dev nD) : Nat :=
  let c0_i32_447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_438 : BitVec 32 := 12#32
  let v654 : BitVec 32 := Scalar.addi v2 c12_i32_438
  let c32_i32_439 : BitVec 32 := 32#32
  let c0_i32_440 : BitVec 32 := 0#32
  let v655 : BitVec 1 := Scalar.cmpi .eq c32_i32_439 c0_i32_440
  let c1_i32_441 : BitVec 32 := 1#32
  let v656 : BitVec 32 := Scalar.select v655 c1_i32_441 c32_i32_439
  let v657 : BitVec 32 := Scalar.remsi v654 v656
  let c0_i32_443 : BitVec 32 := 0#32
  let v659 : BitVec 1 := Scalar.cmpi .slt v657 c0_i32_443
  let c0_i32_444 : BitVec 32 := 0#32
  let v660 : BitVec 1 := Scalar.cmpi .slt v656 c0_i32_444
  let v661 : BitVec 1 := Scalar.xori v659 v660
  let c0_i32_442 : BitVec 32 := 0#32
  let v658 : BitVec 1 := Scalar.cmpi .ne v657 c0_i32_442
  let v662 : BitVec 1 := Scalar.andi v661 v658
  let v663 : BitVec 32 := Scalar.addi v657 v656
  let v664 : BitVec 32 := Scalar.select v662 v663 v657
  let c1_i32_446 : BitVec 32 := 1#32
  let v665 : BitVec 32 := Scalar.muli v664 c1_i32_446
  let v666 : BitVec 32 := Scalar.addi c0_i32_447 v665
  v666.toNat
def k0_dev44 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_452 : BitVec 32 := 13#32
  let v675 : BitVec 32 := Scalar.addi v2 c13_i32_452
  let c32_i32_453 : BitVec 32 := 32#32
  let c0_i32_454 : BitVec 32 := 0#32
  let v676 : BitVec 1 := Scalar.cmpi .eq c32_i32_453 c0_i32_454
  let c1_i32_455 : BitVec 32 := 1#32
  let v677 : BitVec 32 := Scalar.select v676 c1_i32_455 c32_i32_453
  let v678 : BitVec 32 := Scalar.remsi v675 v677
  let c0_i32_457 : BitVec 32 := 0#32
  let v680 : BitVec 1 := Scalar.cmpi .slt v678 c0_i32_457
  let c0_i32_458 : BitVec 32 := 0#32
  let v681 : BitVec 1 := Scalar.cmpi .slt v677 c0_i32_458
  let v682 : BitVec 1 := Scalar.xori v680 v681
  let c0_i32_456 : BitVec 32 := 0#32
  let v679 : BitVec 1 := Scalar.cmpi .ne v678 c0_i32_456
  let v683 : BitVec 1 := Scalar.andi v682 v679
  let v684 : BitVec 32 := Scalar.addi v678 v677
  let v685 : BitVec 32 := Scalar.select v683 v684 v678
  let c1_i32_460 : BitVec 32 := 1#32
  let v686 : BitVec 32 := Scalar.muli v685 c1_i32_460
  let v687 : BitVec 32 := Scalar.addi c0_i32_461 v686
  v687.toNat
def k0_dev45 (d0 : Dev nD) : Nat :=
  let c0_i32_475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_466 : BitVec 32 := 14#32
  let v696 : BitVec 32 := Scalar.addi v2 c14_i32_466
  let c32_i32_467 : BitVec 32 := 32#32
  let c0_i32_468 : BitVec 32 := 0#32
  let v697 : BitVec 1 := Scalar.cmpi .eq c32_i32_467 c0_i32_468
  let c1_i32_469 : BitVec 32 := 1#32
  let v698 : BitVec 32 := Scalar.select v697 c1_i32_469 c32_i32_467
  let v699 : BitVec 32 := Scalar.remsi v696 v698
  let c0_i32_471 : BitVec 32 := 0#32
  let v701 : BitVec 1 := Scalar.cmpi .slt v699 c0_i32_471
  let c0_i32_472 : BitVec 32 := 0#32
  let v702 : BitVec 1 := Scalar.cmpi .slt v698 c0_i32_472
  let v703 : BitVec 1 := Scalar.xori v701 v702
  let c0_i32_470 : BitVec 32 := 0#32
  let v700 : BitVec 1 := Scalar.cmpi .ne v699 c0_i32_470
  let v704 : BitVec 1 := Scalar.andi v703 v700
  let v705 : BitVec 32 := Scalar.addi v699 v698
  let v706 : BitVec 32 := Scalar.select v704 v705 v699
  let c1_i32_474 : BitVec 32 := 1#32
  let v707 : BitVec 32 := Scalar.muli v706 c1_i32_474
  let v708 : BitVec 32 := Scalar.addi c0_i32_475 v707
  v708.toNat
def k0_dev46 (d0 : Dev nD) : Nat :=
  let c0_i32_489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_480 : BitVec 32 := 15#32
  let v717 : BitVec 32 := Scalar.addi v2 c15_i32_480
  let c32_i32_481 : BitVec 32 := 32#32
  let c0_i32_482 : BitVec 32 := 0#32
  let v718 : BitVec 1 := Scalar.cmpi .eq c32_i32_481 c0_i32_482
  let c1_i32_483 : BitVec 32 := 1#32
  let v719 : BitVec 32 := Scalar.select v718 c1_i32_483 c32_i32_481
  let v720 : BitVec 32 := Scalar.remsi v717 v719
  let c0_i32_485 : BitVec 32 := 0#32
  let v722 : BitVec 1 := Scalar.cmpi .slt v720 c0_i32_485
  let c0_i32_486 : BitVec 32 := 0#32
  let v723 : BitVec 1 := Scalar.cmpi .slt v719 c0_i32_486
  let v724 : BitVec 1 := Scalar.xori v722 v723
  let c0_i32_484 : BitVec 32 := 0#32
  let v721 : BitVec 1 := Scalar.cmpi .ne v720 c0_i32_484
  let v725 : BitVec 1 := Scalar.andi v724 v721
  let v726 : BitVec 32 := Scalar.addi v720 v719
  let v727 : BitVec 32 := Scalar.select v725 v726 v720
  let c1_i32_488 : BitVec 32 := 1#32
  let v728 : BitVec 32 := Scalar.muli v727 c1_i32_488
  let v729 : BitVec 32 := Scalar.addi c0_i32_489 v728
  v729.toNat
def k0_dev47 (d0 : Dev nD) : Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_494 : BitVec 32 := 16#32
  let v738 : BitVec 32 := Scalar.addi v2 c16_i32_494
  let c32_i32_495 : BitVec 32 := 32#32
  let c0_i32_496 : BitVec 32 := 0#32
  let v739 : BitVec 1 := Scalar.cmpi .eq c32_i32_495 c0_i32_496
  let c1_i32_497 : BitVec 32 := 1#32
  let v740 : BitVec 32 := Scalar.select v739 c1_i32_497 c32_i32_495
  let v741 : BitVec 32 := Scalar.remsi v738 v740
  let c0_i32_499 : BitVec 32 := 0#32
  let v743 : BitVec 1 := Scalar.cmpi .slt v741 c0_i32_499
  let c0_i32_500 : BitVec 32 := 0#32
  let v744 : BitVec 1 := Scalar.cmpi .slt v740 c0_i32_500
  let v745 : BitVec 1 := Scalar.xori v743 v744
  let c0_i32_498 : BitVec 32 := 0#32
  let v742 : BitVec 1 := Scalar.cmpi .ne v741 c0_i32_498
  let v746 : BitVec 1 := Scalar.andi v745 v742
  let v747 : BitVec 32 := Scalar.addi v741 v740
  let v748 : BitVec 32 := Scalar.select v746 v747 v741
  let c1_i32_502 : BitVec 32 := 1#32
  let v749 : BitVec 32 := Scalar.muli v748 c1_i32_502
  let v750 : BitVec 32 := Scalar.addi c0_i32_503 v749
  v750.toNat
def k0_dev48 (d0 : Dev nD) : Nat :=
  let c0_i32_517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_508 : BitVec 32 := 17#32
  let v759 : BitVec 32 := Scalar.addi v2 c17_i32_508
  let c32_i32_509 : BitVec 32 := 32#32
  let c0_i32_510 : BitVec 32 := 0#32
  let v760 : BitVec 1 := Scalar.cmpi .eq c32_i32_509 c0_i32_510
  let c1_i32_511 : BitVec 32 := 1#32
  let v761 : BitVec 32 := Scalar.select v760 c1_i32_511 c32_i32_509
  let v762 : BitVec 32 := Scalar.remsi v759 v761
  let c0_i32_513 : BitVec 32 := 0#32
  let v764 : BitVec 1 := Scalar.cmpi .slt v762 c0_i32_513
  let c0_i32_514 : BitVec 32 := 0#32
  let v765 : BitVec 1 := Scalar.cmpi .slt v761 c0_i32_514
  let v766 : BitVec 1 := Scalar.xori v764 v765
  let c0_i32_512 : BitVec 32 := 0#32
  let v763 : BitVec 1 := Scalar.cmpi .ne v762 c0_i32_512
  let v767 : BitVec 1 := Scalar.andi v766 v763
  let v768 : BitVec 32 := Scalar.addi v762 v761
  let v769 : BitVec 32 := Scalar.select v767 v768 v762
  let c1_i32_516 : BitVec 32 := 1#32
  let v770 : BitVec 32 := Scalar.muli v769 c1_i32_516
  let v771 : BitVec 32 := Scalar.addi c0_i32_517 v770
  v771.toNat
def k0_dev49 (d0 : Dev nD) : Nat :=
  let c0_i32_531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_522 : BitVec 32 := 18#32
  let v780 : BitVec 32 := Scalar.addi v2 c18_i32_522
  let c32_i32_523 : BitVec 32 := 32#32
  let c0_i32_524 : BitVec 32 := 0#32
  let v781 : BitVec 1 := Scalar.cmpi .eq c32_i32_523 c0_i32_524
  let c1_i32_525 : BitVec 32 := 1#32
  let v782 : BitVec 32 := Scalar.select v781 c1_i32_525 c32_i32_523
  let v783 : BitVec 32 := Scalar.remsi v780 v782
  let c0_i32_527 : BitVec 32 := 0#32
  let v785 : BitVec 1 := Scalar.cmpi .slt v783 c0_i32_527
  let c0_i32_528 : BitVec 32 := 0#32
  let v786 : BitVec 1 := Scalar.cmpi .slt v782 c0_i32_528
  let v787 : BitVec 1 := Scalar.xori v785 v786
  let c0_i32_526 : BitVec 32 := 0#32
  let v784 : BitVec 1 := Scalar.cmpi .ne v783 c0_i32_526
  let v788 : BitVec 1 := Scalar.andi v787 v784
  let v789 : BitVec 32 := Scalar.addi v783 v782
  let v790 : BitVec 32 := Scalar.select v788 v789 v783
  let c1_i32_530 : BitVec 32 := 1#32
  let v791 : BitVec 32 := Scalar.muli v790 c1_i32_530
  let v792 : BitVec 32 := Scalar.addi c0_i32_531 v791
  v792.toNat
def k0_dev50 (d0 : Dev nD) : Nat :=
  let c0_i32_545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_536 : BitVec 32 := 19#32
  let v801 : BitVec 32 := Scalar.addi v2 c19_i32_536
  let c32_i32_537 : BitVec 32 := 32#32
  let c0_i32_538 : BitVec 32 := 0#32
  let v802 : BitVec 1 := Scalar.cmpi .eq c32_i32_537 c0_i32_538
  let c1_i32_539 : BitVec 32 := 1#32
  let v803 : BitVec 32 := Scalar.select v802 c1_i32_539 c32_i32_537
  let v804 : BitVec 32 := Scalar.remsi v801 v803
  let c0_i32_541 : BitVec 32 := 0#32
  let v806 : BitVec 1 := Scalar.cmpi .slt v804 c0_i32_541
  let c0_i32_542 : BitVec 32 := 0#32
  let v807 : BitVec 1 := Scalar.cmpi .slt v803 c0_i32_542
  let v808 : BitVec 1 := Scalar.xori v806 v807
  let c0_i32_540 : BitVec 32 := 0#32
  let v805 : BitVec 1 := Scalar.cmpi .ne v804 c0_i32_540
  let v809 : BitVec 1 := Scalar.andi v808 v805
  let v810 : BitVec 32 := Scalar.addi v804 v803
  let v811 : BitVec 32 := Scalar.select v809 v810 v804
  let c1_i32_544 : BitVec 32 := 1#32
  let v812 : BitVec 32 := Scalar.muli v811 c1_i32_544
  let v813 : BitVec 32 := Scalar.addi c0_i32_545 v812
  v813.toNat
def k0_dev51 (d0 : Dev nD) : Nat :=
  let c0_i32_559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_550 : BitVec 32 := 20#32
  let v822 : BitVec 32 := Scalar.addi v2 c20_i32_550
  let c32_i32_551 : BitVec 32 := 32#32
  let c0_i32_552 : BitVec 32 := 0#32
  let v823 : BitVec 1 := Scalar.cmpi .eq c32_i32_551 c0_i32_552
  let c1_i32_553 : BitVec 32 := 1#32
  let v824 : BitVec 32 := Scalar.select v823 c1_i32_553 c32_i32_551
  let v825 : BitVec 32 := Scalar.remsi v822 v824
  let c0_i32_555 : BitVec 32 := 0#32
  let v827 : BitVec 1 := Scalar.cmpi .slt v825 c0_i32_555
  let c0_i32_556 : BitVec 32 := 0#32
  let v828 : BitVec 1 := Scalar.cmpi .slt v824 c0_i32_556
  let v829 : BitVec 1 := Scalar.xori v827 v828
  let c0_i32_554 : BitVec 32 := 0#32
  let v826 : BitVec 1 := Scalar.cmpi .ne v825 c0_i32_554
  let v830 : BitVec 1 := Scalar.andi v829 v826
  let v831 : BitVec 32 := Scalar.addi v825 v824
  let v832 : BitVec 32 := Scalar.select v830 v831 v825
  let c1_i32_558 : BitVec 32 := 1#32
  let v833 : BitVec 32 := Scalar.muli v832 c1_i32_558
  let v834 : BitVec 32 := Scalar.addi c0_i32_559 v833
  v834.toNat
def k0_dev52 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_564 : BitVec 32 := 21#32
  let v843 : BitVec 32 := Scalar.addi v2 c21_i32_564
  let c32_i32_565 : BitVec 32 := 32#32
  let c0_i32_566 : BitVec 32 := 0#32
  let v844 : BitVec 1 := Scalar.cmpi .eq c32_i32_565 c0_i32_566
  let c1_i32_567 : BitVec 32 := 1#32
  let v845 : BitVec 32 := Scalar.select v844 c1_i32_567 c32_i32_565
  let v846 : BitVec 32 := Scalar.remsi v843 v845
  let c0_i32_569 : BitVec 32 := 0#32
  let v848 : BitVec 1 := Scalar.cmpi .slt v846 c0_i32_569
  let c0_i32_570 : BitVec 32 := 0#32
  let v849 : BitVec 1 := Scalar.cmpi .slt v845 c0_i32_570
  let v850 : BitVec 1 := Scalar.xori v848 v849
  let c0_i32_568 : BitVec 32 := 0#32
  let v847 : BitVec 1 := Scalar.cmpi .ne v846 c0_i32_568
  let v851 : BitVec 1 := Scalar.andi v850 v847
  let v852 : BitVec 32 := Scalar.addi v846 v845
  let v853 : BitVec 32 := Scalar.select v851 v852 v846
  let c1_i32_572 : BitVec 32 := 1#32
  let v854 : BitVec 32 := Scalar.muli v853 c1_i32_572
  let v855 : BitVec 32 := Scalar.addi c0_i32_573 v854
  v855.toNat
def k0_dev53 (d0 : Dev nD) : Nat :=
  let c0_i32_587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_578 : BitVec 32 := 22#32
  let v864 : BitVec 32 := Scalar.addi v2 c22_i32_578
  let c32_i32_579 : BitVec 32 := 32#32
  let c0_i32_580 : BitVec 32 := 0#32
  let v865 : BitVec 1 := Scalar.cmpi .eq c32_i32_579 c0_i32_580
  let c1_i32_581 : BitVec 32 := 1#32
  let v866 : BitVec 32 := Scalar.select v865 c1_i32_581 c32_i32_579
  let v867 : BitVec 32 := Scalar.remsi v864 v866
  let c0_i32_583 : BitVec 32 := 0#32
  let v869 : BitVec 1 := Scalar.cmpi .slt v867 c0_i32_583
  let c0_i32_584 : BitVec 32 := 0#32
  let v870 : BitVec 1 := Scalar.cmpi .slt v866 c0_i32_584
  let v871 : BitVec 1 := Scalar.xori v869 v870
  let c0_i32_582 : BitVec 32 := 0#32
  let v868 : BitVec 1 := Scalar.cmpi .ne v867 c0_i32_582
  let v872 : BitVec 1 := Scalar.andi v871 v868
  let v873 : BitVec 32 := Scalar.addi v867 v866
  let v874 : BitVec 32 := Scalar.select v872 v873 v867
  let c1_i32_586 : BitVec 32 := 1#32
  let v875 : BitVec 32 := Scalar.muli v874 c1_i32_586
  let v876 : BitVec 32 := Scalar.addi c0_i32_587 v875
  v876.toNat
def k0_dev54 (d0 : Dev nD) : Nat :=
  let c0_i32_601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_592 : BitVec 32 := 23#32
  let v885 : BitVec 32 := Scalar.addi v2 c23_i32_592
  let c32_i32_593 : BitVec 32 := 32#32
  let c0_i32_594 : BitVec 32 := 0#32
  let v886 : BitVec 1 := Scalar.cmpi .eq c32_i32_593 c0_i32_594
  let c1_i32_595 : BitVec 32 := 1#32
  let v887 : BitVec 32 := Scalar.select v886 c1_i32_595 c32_i32_593
  let v888 : BitVec 32 := Scalar.remsi v885 v887
  let c0_i32_597 : BitVec 32 := 0#32
  let v890 : BitVec 1 := Scalar.cmpi .slt v888 c0_i32_597
  let c0_i32_598 : BitVec 32 := 0#32
  let v891 : BitVec 1 := Scalar.cmpi .slt v887 c0_i32_598
  let v892 : BitVec 1 := Scalar.xori v890 v891
  let c0_i32_596 : BitVec 32 := 0#32
  let v889 : BitVec 1 := Scalar.cmpi .ne v888 c0_i32_596
  let v893 : BitVec 1 := Scalar.andi v892 v889
  let v894 : BitVec 32 := Scalar.addi v888 v887
  let v895 : BitVec 32 := Scalar.select v893 v894 v888
  let c1_i32_600 : BitVec 32 := 1#32
  let v896 : BitVec 32 := Scalar.muli v895 c1_i32_600
  let v897 : BitVec 32 := Scalar.addi c0_i32_601 v896
  v897.toNat
def k0_dev55 (d0 : Dev nD) : Nat :=
  let c0_i32_615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_606 : BitVec 32 := 24#32
  let v906 : BitVec 32 := Scalar.addi v2 c24_i32_606
  let c32_i32_607 : BitVec 32 := 32#32
  let c0_i32_608 : BitVec 32 := 0#32
  let v907 : BitVec 1 := Scalar.cmpi .eq c32_i32_607 c0_i32_608
  let c1_i32_609 : BitVec 32 := 1#32
  let v908 : BitVec 32 := Scalar.select v907 c1_i32_609 c32_i32_607
  let v909 : BitVec 32 := Scalar.remsi v906 v908
  let c0_i32_611 : BitVec 32 := 0#32
  let v911 : BitVec 1 := Scalar.cmpi .slt v909 c0_i32_611
  let c0_i32_612 : BitVec 32 := 0#32
  let v912 : BitVec 1 := Scalar.cmpi .slt v908 c0_i32_612
  let v913 : BitVec 1 := Scalar.xori v911 v912
  let c0_i32_610 : BitVec 32 := 0#32
  let v910 : BitVec 1 := Scalar.cmpi .ne v909 c0_i32_610
  let v914 : BitVec 1 := Scalar.andi v913 v910
  let v915 : BitVec 32 := Scalar.addi v909 v908
  let v916 : BitVec 32 := Scalar.select v914 v915 v909
  let c1_i32_614 : BitVec 32 := 1#32
  let v917 : BitVec 32 := Scalar.muli v916 c1_i32_614
  let v918 : BitVec 32 := Scalar.addi c0_i32_615 v917
  v918.toNat
def k0_dev56 (d0 : Dev nD) : Nat :=
  let c0_i32_629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_620 : BitVec 32 := 25#32
  let v927 : BitVec 32 := Scalar.addi v2 c25_i32_620
  let c32_i32_621 : BitVec 32 := 32#32
  let c0_i32_622 : BitVec 32 := 0#32
  let v928 : BitVec 1 := Scalar.cmpi .eq c32_i32_621 c0_i32_622
  let c1_i32_623 : BitVec 32 := 1#32
  let v929 : BitVec 32 := Scalar.select v928 c1_i32_623 c32_i32_621
  let v930 : BitVec 32 := Scalar.remsi v927 v929
  let c0_i32_625 : BitVec 32 := 0#32
  let v932 : BitVec 1 := Scalar.cmpi .slt v930 c0_i32_625
  let c0_i32_626 : BitVec 32 := 0#32
  let v933 : BitVec 1 := Scalar.cmpi .slt v929 c0_i32_626
  let v934 : BitVec 1 := Scalar.xori v932 v933
  let c0_i32_624 : BitVec 32 := 0#32
  let v931 : BitVec 1 := Scalar.cmpi .ne v930 c0_i32_624
  let v935 : BitVec 1 := Scalar.andi v934 v931
  let v936 : BitVec 32 := Scalar.addi v930 v929
  let v937 : BitVec 32 := Scalar.select v935 v936 v930
  let c1_i32_628 : BitVec 32 := 1#32
  let v938 : BitVec 32 := Scalar.muli v937 c1_i32_628
  let v939 : BitVec 32 := Scalar.addi c0_i32_629 v938
  v939.toNat
def k0_dev57 (d0 : Dev nD) : Nat :=
  let c0_i32_643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_634 : BitVec 32 := 26#32
  let v948 : BitVec 32 := Scalar.addi v2 c26_i32_634
  let c32_i32_635 : BitVec 32 := 32#32
  let c0_i32_636 : BitVec 32 := 0#32
  let v949 : BitVec 1 := Scalar.cmpi .eq c32_i32_635 c0_i32_636
  let c1_i32_637 : BitVec 32 := 1#32
  let v950 : BitVec 32 := Scalar.select v949 c1_i32_637 c32_i32_635
  let v951 : BitVec 32 := Scalar.remsi v948 v950
  let c0_i32_639 : BitVec 32 := 0#32
  let v953 : BitVec 1 := Scalar.cmpi .slt v951 c0_i32_639
  let c0_i32_640 : BitVec 32 := 0#32
  let v954 : BitVec 1 := Scalar.cmpi .slt v950 c0_i32_640
  let v955 : BitVec 1 := Scalar.xori v953 v954
  let c0_i32_638 : BitVec 32 := 0#32
  let v952 : BitVec 1 := Scalar.cmpi .ne v951 c0_i32_638
  let v956 : BitVec 1 := Scalar.andi v955 v952
  let v957 : BitVec 32 := Scalar.addi v951 v950
  let v958 : BitVec 32 := Scalar.select v956 v957 v951
  let c1_i32_642 : BitVec 32 := 1#32
  let v959 : BitVec 32 := Scalar.muli v958 c1_i32_642
  let v960 : BitVec 32 := Scalar.addi c0_i32_643 v959
  v960.toNat
def k0_dev58 (d0 : Dev nD) : Nat :=
  let c0_i32_657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_648 : BitVec 32 := 27#32
  let v969 : BitVec 32 := Scalar.addi v2 c27_i32_648
  let c32_i32_649 : BitVec 32 := 32#32
  let c0_i32_650 : BitVec 32 := 0#32
  let v970 : BitVec 1 := Scalar.cmpi .eq c32_i32_649 c0_i32_650
  let c1_i32_651 : BitVec 32 := 1#32
  let v971 : BitVec 32 := Scalar.select v970 c1_i32_651 c32_i32_649
  let v972 : BitVec 32 := Scalar.remsi v969 v971
  let c0_i32_653 : BitVec 32 := 0#32
  let v974 : BitVec 1 := Scalar.cmpi .slt v972 c0_i32_653
  let c0_i32_654 : BitVec 32 := 0#32
  let v975 : BitVec 1 := Scalar.cmpi .slt v971 c0_i32_654
  let v976 : BitVec 1 := Scalar.xori v974 v975
  let c0_i32_652 : BitVec 32 := 0#32
  let v973 : BitVec 1 := Scalar.cmpi .ne v972 c0_i32_652
  let v977 : BitVec 1 := Scalar.andi v976 v973
  let v978 : BitVec 32 := Scalar.addi v972 v971
  let v979 : BitVec 32 := Scalar.select v977 v978 v972
  let c1_i32_656 : BitVec 32 := 1#32
  let v980 : BitVec 32 := Scalar.muli v979 c1_i32_656
  let v981 : BitVec 32 := Scalar.addi c0_i32_657 v980
  v981.toNat
def k0_dev59 (d0 : Dev nD) : Nat :=
  let c0_i32_671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_662 : BitVec 32 := 28#32
  let v990 : BitVec 32 := Scalar.addi v2 c28_i32_662
  let c32_i32_663 : BitVec 32 := 32#32
  let c0_i32_664 : BitVec 32 := 0#32
  let v991 : BitVec 1 := Scalar.cmpi .eq c32_i32_663 c0_i32_664
  let c1_i32_665 : BitVec 32 := 1#32
  let v992 : BitVec 32 := Scalar.select v991 c1_i32_665 c32_i32_663
  let v993 : BitVec 32 := Scalar.remsi v990 v992
  let c0_i32_667 : BitVec 32 := 0#32
  let v995 : BitVec 1 := Scalar.cmpi .slt v993 c0_i32_667
  let c0_i32_668 : BitVec 32 := 0#32
  let v996 : BitVec 1 := Scalar.cmpi .slt v992 c0_i32_668
  let v997 : BitVec 1 := Scalar.xori v995 v996
  let c0_i32_666 : BitVec 32 := 0#32
  let v994 : BitVec 1 := Scalar.cmpi .ne v993 c0_i32_666
  let v998 : BitVec 1 := Scalar.andi v997 v994
  let v999 : BitVec 32 := Scalar.addi v993 v992
  let v1000 : BitVec 32 := Scalar.select v998 v999 v993
  let c1_i32_670 : BitVec 32 := 1#32
  let v1001 : BitVec 32 := Scalar.muli v1000 c1_i32_670
  let v1002 : BitVec 32 := Scalar.addi c0_i32_671 v1001
  v1002.toNat
def k0_dev60 (d0 : Dev nD) : Nat :=
  let c0_i32_685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_676 : BitVec 32 := 29#32
  let v1011 : BitVec 32 := Scalar.addi v2 c29_i32_676
  let c32_i32_677 : BitVec 32 := 32#32
  let c0_i32_678 : BitVec 32 := 0#32
  let v1012 : BitVec 1 := Scalar.cmpi .eq c32_i32_677 c0_i32_678
  let c1_i32_679 : BitVec 32 := 1#32
  let v1013 : BitVec 32 := Scalar.select v1012 c1_i32_679 c32_i32_677
  let v1014 : BitVec 32 := Scalar.remsi v1011 v1013
  let c0_i32_681 : BitVec 32 := 0#32
  let v1016 : BitVec 1 := Scalar.cmpi .slt v1014 c0_i32_681
  let c0_i32_682 : BitVec 32 := 0#32
  let v1017 : BitVec 1 := Scalar.cmpi .slt v1013 c0_i32_682
  let v1018 : BitVec 1 := Scalar.xori v1016 v1017
  let c0_i32_680 : BitVec 32 := 0#32
  let v1015 : BitVec 1 := Scalar.cmpi .ne v1014 c0_i32_680
  let v1019 : BitVec 1 := Scalar.andi v1018 v1015
  let v1020 : BitVec 32 := Scalar.addi v1014 v1013
  let v1021 : BitVec 32 := Scalar.select v1019 v1020 v1014
  let c1_i32_684 : BitVec 32 := 1#32
  let v1022 : BitVec 32 := Scalar.muli v1021 c1_i32_684
  let v1023 : BitVec 32 := Scalar.addi c0_i32_685 v1022
  v1023.toNat
def k0_dev61 (d0 : Dev nD) : Nat :=
  let c0_i32_699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_690 : BitVec 32 := 30#32
  let v1032 : BitVec 32 := Scalar.addi v2 c30_i32_690
  let c32_i32_691 : BitVec 32 := 32#32
  let c0_i32_692 : BitVec 32 := 0#32
  let v1033 : BitVec 1 := Scalar.cmpi .eq c32_i32_691 c0_i32_692
  let c1_i32_693 : BitVec 32 := 1#32
  let v1034 : BitVec 32 := Scalar.select v1033 c1_i32_693 c32_i32_691
  let v1035 : BitVec 32 := Scalar.remsi v1032 v1034
  let c0_i32_695 : BitVec 32 := 0#32
  let v1037 : BitVec 1 := Scalar.cmpi .slt v1035 c0_i32_695
  let c0_i32_696 : BitVec 32 := 0#32
  let v1038 : BitVec 1 := Scalar.cmpi .slt v1034 c0_i32_696
  let v1039 : BitVec 1 := Scalar.xori v1037 v1038
  let c0_i32_694 : BitVec 32 := 0#32
  let v1036 : BitVec 1 := Scalar.cmpi .ne v1035 c0_i32_694
  let v1040 : BitVec 1 := Scalar.andi v1039 v1036
  let v1041 : BitVec 32 := Scalar.addi v1035 v1034
  let v1042 : BitVec 32 := Scalar.select v1040 v1041 v1035
  let c1_i32_698 : BitVec 32 := 1#32
  let v1043 : BitVec 32 := Scalar.muli v1042 c1_i32_698
  let v1044 : BitVec 32 := Scalar.addi c0_i32_699 v1043
  v1044.toNat
def k0_dev62 (d0 : Dev nD) : Nat :=
  let c0_i32_713 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_704 : BitVec 32 := 31#32
  let v1053 : BitVec 32 := Scalar.addi v2 c31_i32_704
  let c32_i32_705 : BitVec 32 := 32#32
  let c0_i32_706 : BitVec 32 := 0#32
  let v1054 : BitVec 1 := Scalar.cmpi .eq c32_i32_705 c0_i32_706
  let c1_i32_707 : BitVec 32 := 1#32
  let v1055 : BitVec 32 := Scalar.select v1054 c1_i32_707 c32_i32_705
  let v1056 : BitVec 32 := Scalar.remsi v1053 v1055
  let c0_i32_709 : BitVec 32 := 0#32
  let v1058 : BitVec 1 := Scalar.cmpi .slt v1056 c0_i32_709
  let c0_i32_710 : BitVec 32 := 0#32
  let v1059 : BitVec 1 := Scalar.cmpi .slt v1055 c0_i32_710
  let v1060 : BitVec 1 := Scalar.xori v1058 v1059
  let c0_i32_708 : BitVec 32 := 0#32
  let v1057 : BitVec 1 := Scalar.cmpi .ne v1056 c0_i32_708
  let v1061 : BitVec 1 := Scalar.andi v1060 v1057
  let v1062 : BitVec 32 := Scalar.addi v1056 v1055
  let v1063 : BitVec 32 := Scalar.select v1061 v1062 v1056
  let c1_i32_712 : BitVec 32 := 1#32
  let v1064 : BitVec 32 := Scalar.muli v1063 c1_i32_712
  let v1065 : BitVec 32 := Scalar.addi c0_i32_713 v1064
  v1065.toNat
def k0_off4 (d0 : Dev nD) (c1_i32_718 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1074 : BitVec 32 := Scalar.addi v2 c1_i32_718
  let c32_i32_719 : BitVec 32 := 32#32
  let c0_i32_720 : BitVec 32 := 0#32
  let v1075 : BitVec 1 := Scalar.cmpi .eq c32_i32_719 c0_i32_720
  let c1_i32_721 : BitVec 32 := 1#32
  let v1076 : BitVec 32 := Scalar.select v1075 c1_i32_721 c32_i32_719
  let v1077 : BitVec 32 := Scalar.remsi v1074 v1076
  let c0_i32_723 : BitVec 32 := 0#32
  let v1079 : BitVec 1 := Scalar.cmpi .slt v1077 c0_i32_723
  let c0_i32_724 : BitVec 32 := 0#32
  let v1080 : BitVec 1 := Scalar.cmpi .slt v1076 c0_i32_724
  let v1081 : BitVec 1 := Scalar.xori v1079 v1080
  let c0_i32_722 : BitVec 32 := 0#32
  let v1078 : BitVec 1 := Scalar.cmpi .ne v1077 c0_i32_722
  let v1082 : BitVec 1 := Scalar.andi v1081 v1078
  let v1083 : BitVec 32 := Scalar.addi v1077 v1076
  let v1084 : BitVec 32 := Scalar.select v1082 v1083 v1077
  ![v1084.toNat]
def k0_off5 (d0 : Dev nD) (c1_i32_718 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1074 : BitVec 32 := Scalar.addi v2 c1_i32_718
  let c32_i32_719 : BitVec 32 := 32#32
  let c0_i32_720 : BitVec 32 := 0#32
  let v1075 : BitVec 1 := Scalar.cmpi .eq c32_i32_719 c0_i32_720
  let c1_i32_721 : BitVec 32 := 1#32
  let v1076 : BitVec 32 := Scalar.select v1075 c1_i32_721 c32_i32_719
  let v1077 : BitVec 32 := Scalar.remsi v1074 v1076
  let c0_i32_723 : BitVec 32 := 0#32
  let v1079 : BitVec 1 := Scalar.cmpi .slt v1077 c0_i32_723
  let c0_i32_724 : BitVec 32 := 0#32
  let v1080 : BitVec 1 := Scalar.cmpi .slt v1076 c0_i32_724
  let v1081 : BitVec 1 := Scalar.xori v1079 v1080
  let c0_i32_722 : BitVec 32 := 0#32
  let v1078 : BitVec 1 := Scalar.cmpi .ne v1077 c0_i32_722
  let v1082 : BitVec 1 := Scalar.andi v1081 v1078
  let v1083 : BitVec 32 := Scalar.addi v1077 v1076
  let v1084 : BitVec 32 := Scalar.select v1082 v1083 v1077
  let c0_i32_728 : BitVec 32 := 0#32
  let c0_i32_729 : BitVec 32 := 0#32
  ![v1084.toNat, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S512 : S512x256.Reduces [1] S512
  shapeCasts_S512_S512x1 : S512.ShapeCasts S512x1
  broadcasts_S512x1_S512x256 : S512x1.Broadcasts S512x256
  concatenates_S512x1_S512x1_S512x2_d1 : Shape.Concatenates [S512x1, S512x1] S512x2 1
  transposes_S512x2_p1_0_S2x512 : S512x2.Transposes [1, 0] S2x512
  shapeCasts_S2x512_S1x2x512 : S2x512.ShapeCasts S1x2x512
  h_S1x2x512 : 0 < S1x2x512.numel
  shapeCasts_S1x2x512_S1x2x512 : S1x2x512.ShapeCasts S1x2x512
  hamt_31 : (31#32 : BitVec 32).msb = false
  inb_S32_S1_1 : ∀ a, (![1] : Fin 1 → Nat) a + S1.size a ≤ S32.size a
  squeezes_S1_S_ : S1.Squeezes S_
  squeezes_S1x2x512_S2x512 : S1x2x512.Squeezes S2x512
  inb_S32_S1_2 : ∀ a, (![2] : Fin 1 → Nat) a + S1.size a ≤ S32.size a
  inb_S32_S1_3 : ∀ a, (![3] : Fin 1 → Nat) a + S1.size a ≤ S32.size a
  inb_S32_S1_4 : ∀ a, (![4] : Fin 1 → Nat) a + S1.size a ≤ S32.size a
  inb_S32_S1_5 : ∀ a, (![5] : Fin 1 → Nat) a + S1.size a ≤ S32.size a
  inb_S32_S1_6 : ∀ a, (![6] : Fin 1 → Nat) a + S1.size a ≤ S32.size a
  inb_S32_S1_7 : ∀ a, (![7] : Fin 1 → Nat) a + S1.size a ≤ S32.size a
  inb_S32_S1_8 : ∀ a, (![8] : Fin 1 → Nat) a + S1.size a ≤ S32.size a
  inb_S32_S1_9 : ∀ a, (![9] : Fin 1 → Nat) a + S1.size a ≤ S32.size a
  inb_S32_S1_10 : ∀ a, (![10] : Fin 1 → Nat) a + S1.size a ≤ S32.size a
  inb_S32_S1_11 : ∀ a, (![11] : Fin 1 → Nat) a + S1.size a ≤ S32.size a
  inb_S32_S1_12 : ∀ a, (![12] : Fin 1 → Nat) a + S1.size a ≤ S32.size a
  inb_S32_S1_13 : ∀ a, (![13] : Fin 1 → Nat) a + S1.size a ≤ S32.size a
  inb_S32_S1_14 : ∀ a, (![14] : Fin 1 → Nat) a + S1.size a ≤ S32.size a
  inb_S32_S1_15 : ∀ a, (![15] : Fin 1 → Nat) a + S1.size a ≤ S32.size a
  inb_S32_S1_16 : ∀ a, (![16] : Fin 1 → Nat) a + S1.size a ≤ S32.size a
  inb_S32_S1_17 : ∀ a, (![17] : Fin 1 → Nat) a + S1.size a ≤ S32.size a
  inb_S32_S1_18 : ∀ a, (![18] : Fin 1 → Nat) a + S1.size a ≤ S32.size a
  inb_S32_S1_19 : ∀ a, (![19] : Fin 1 → Nat) a + S1.size a ≤ S32.size a
  inb_S32_S1_20 : ∀ a, (![20] : Fin 1 → Nat) a + S1.size a ≤ S32.size a
  inb_S32_S1_21 : ∀ a, (![21] : Fin 1 → Nat) a + S1.size a ≤ S32.size a
  inb_S32_S1_22 : ∀ a, (![22] : Fin 1 → Nat) a + S1.size a ≤ S32.size a
  inb_S32_S1_23 : ∀ a, (![23] : Fin 1 → Nat) a + S1.size a ≤ S32.size a
  inb_S32_S1_24 : ∀ a, (![24] : Fin 1 → Nat) a + S1.size a ≤ S32.size a
  inb_S32_S1_25 : ∀ a, (![25] : Fin 1 → Nat) a + S1.size a ≤ S32.size a
  inb_S32_S1_26 : ∀ a, (![26] : Fin 1 → Nat) a + S1.size a ≤ S32.size a
  inb_S32_S1_27 : ∀ a, (![27] : Fin 1 → Nat) a + S1.size a ≤ S32.size a
  inb_S32_S1_28 : ∀ a, (![28] : Fin 1 → Nat) a + S1.size a ≤ S32.size a
  inb_S32_S1_29 : ∀ a, (![29] : Fin 1 → Nat) a + S1.size a ≤ S32.size a
  inb_S32_S1_30 : ∀ a, (![30] : Fin 1 → Nat) a + S1.size a ≤ S32.size a
  inb_S32_S1_31 : ∀ a, (![31] : Fin 1 → Nat) a + S1.size a ≤ S32.size a
  inb_S32x2x512_S32x2x512_0_0_0 : ∀ a, (![0, 0, 0] : Fin 3 → Nat) a + S32x2x512.size a ≤ S32x2x512.size a
  h_S32x2x512 : 0 < S32x2x512.numel
  slices_S32x2x512_o0_0_0_S32x1x512 : S32x2x512.Slices ![0, 0, 0] S32x1x512
  slices_S32x2x512_o0_1_0_S32x1x512 : S32x2x512.Slices ![0, 1, 0] S32x1x512
  reduces_S32x1x512_S1x512 : S32x1x512.Reduces [0] S1x512
  shapeCasts_S1x512_S1x1x512 : S1x512.ShapeCasts S1x1x512
  broadcasts_S1x1x512_S32x1x512 : S1x1x512.Broadcasts S32x1x512
  concatenates_S1x512_S1x512_S2x512_d0 : Shape.Concatenates [S1x512, S1x512] S2x512 0
  transposes_S2x512_p1_0_S512x2 : S2x512.Transposes [1, 0] S512x2
  slices_S512x2_o0_0_S512x1 : S512x2.Slices ![0, 0] S512x1
  slices_S512x2_o0_1_S512x1 : S512x2.Slices ![0, 1] S512x1
  hcc0_scratch1 : 2 + S32.numel ≤ 66
  hcc0_scratch2 : 34 + S32.numel ≤ 66
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_off1_inb : ∀ d0 : Dev nD, ∀ a, (k0_off1 d0) a + S1x2x512.size a ≤ S32x2x512.size a
  k0_off2_inb : ∀ d0 : Dev nD, ∀ a, (k0_off2 d0) a + S1.size a ≤ S32.size a
  k0_off3_inb : ∀ d0 : Dev nD, ∀ a, (k0_off3 d0) a + S1x2x512.size a ≤ S32x2x512.size a
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_off4_inb : ∀ d0 : Dev nD, ∀ (r : Fin 31), ∀ a, (k0_off4 d0 (BitVec.ofNat 32 (1 + r.val))) a + S1.size a ≤ S32.size a
  k0_off5_inb : ∀ d0 : Dev nD, ∀ (r : Fin 31), ∀ a, (k0_off5 d0 (BitVec.ofNat 32 (1 + r.val))) a + S1x2x512.size a ≤ S32x2x512.size a
  hstage0_0 : ∀ j, (stage0_0 j).IsWhole
  hstage0_1 : ∀ j, (stage0_1 j).IsWhole

variable [Facts₀]

abbrev cc0_scratch1 : DmaSems sig S32 := SemArray.consecutive 2 S32 hcc0_scratch1
abbrev cc0_scratch2 : DmaSems sig S32 := SemArray.consecutive 34 S32 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x8192 : Shape := ⟨2, ![512, 8192]⟩
abbrev S_ : Shape := ⟨0, ![]⟩
abbrev S512 : Shape := ⟨1, ![512]⟩
abbrev S512x1 : Shape := ⟨2, ![512, 1]⟩

abbrev nBuf : Space → Nat
  | .hbm => 12
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S_, .f32⟩
  | .hbm, ⟨2, _⟩ => ⟨S512, .f32⟩
  | .hbm, ⟨3, _⟩ => ⟨S512x1, .f32⟩
  | .hbm, ⟨4, _⟩ => ⟨S512x8192, .f32⟩
  | .hbm, ⟨5, _⟩ => ⟨S512x8192, .f32⟩
  | .hbm, ⟨6, _⟩ => ⟨S512x8192, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S512x8192, .f32⟩
  | .hbm, ⟨11, _⟩ => ⟨S512x8192, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  reducesTo_S512x8192_S512_d1 : S512x8192.ReducesTo [1] S512
  h_S_ : 0 < S_.numel
  bcast_S512_S512x1_0 : S512.BroadcastsInDim S512x1 (![0] : Fin 1 → Fin S512x1.rank)
  bcast_S512x1_S512x8192_0_1 : S512x1.BroadcastsInDim S512x8192 (![0, 1] : Fin 2 → Fin S512x8192.rank)

variable [Facts₀]

class Facts : Prop extends Facts₀ where

variable [Facts]
-- ==== Proof.KernelIdealRun.Mesh.lean ====
/- The ring of thirty-two devices: the device `d` places after `c`, the one `d` places before it,
   and that the two undo each other. Every peer a device talks to is `shift c d` for an offset `1 ≤ d ≤ 31`. -/
import proofs.«901066_g7700000000001067_dist_softmax_colshard_i_m512_n256_v7x_i32_bf16_1_alg».proof.Proof.Gen.KernelIdeal

noncomputable section

namespace Cert.KernelIdealRun

open Cert.KernelIdeal Cert.KernelIdeal.Gen
open Idealize.ShloMosaic

/-- The device `d` places after `c` around the ring. -/
def shift (c : Dev nD) (d : ℕ) : Dev nD := ⟨(c.val + d) % 32, Nat.mod_lt _ (by decide)⟩

/-- The device `d` places before `c`: the one whose `d`-th successor is `c`. -/
def unshift (c : Dev nD) (d : ℕ) : Dev nD := ⟨(c.val + (32 - d % 32)) % 32, Nat.mod_lt _ (by decide)⟩

theorem shift_val (c : Dev nD) (d : ℕ) : (shift c d).val = (c.val + d) % 32 := rfl
theorem unshift_val (c : Dev nD) (d : ℕ) : (unshift c d).val = (c.val + (32 - d % 32)) % 32 := rfl

theorem shift_unshift (c : Dev nD) (d : ℕ) : shift (unshift c d) d = c := by
  apply Fin.ext; rw [shift_val, unshift_val]; have := c.isLt; have hd := Nat.mod_lt d (show 0 < 32 by decide)
  have : (32 : ℕ) = nD := rfl
  omega
theorem unshift_shift (c : Dev nD) (d : ℕ) : unshift (shift c d) d = c := by
  apply Fin.ext; rw [unshift_val, shift_val]; have := c.isLt; have hd := Nat.mod_lt d (show 0 < 32 by decide)
  have : (32 : ℕ) = nD := rfl
  omega

/-- Distinct offsets below 32 reach distinct devices. -/
theorem shift_inj (c : Dev nD) {d d' : ℕ} (hd : d < 32) (hd' : d' < 32) (h : shift c d = shift c d') : d = d' := by
  have := congrArg Fin.val h; rw [shift_val, shift_val] at this; have := c.isLt
  have : (32 : ℕ) = nD := rfl
  omega
/-- A nonzero offset below 32 never comes back to the device itself. -/
theorem shift_ne_self (c : Dev nD) {d : ℕ} (h1 : 1 ≤ d) (hd : d < 32) : shift c d ≠ c := by
  intro h; have := congrArg Fin.val h; rw [shift_val] at this; have := c.isLt
  have : (32 : ℕ) = nD := rfl
  omega
theorem unshift_ne_self (c : Dev nD) {d : ℕ} (h1 : 1 ≤ d) (hd : d < 32) : unshift c d ≠ c := by
  intro h; have := congrArg Fin.val h; rw [unshift_val] at this; have := c.isLt
  have : (32 : ℕ) = nD := rfl
  omega

/-- The offset from `c` to `p`: the `d < 32` with `shift c d = p`. -/
def offTo (c p : Dev nD) : ℕ := (p.val + (32 - c.val)) % 32
theorem offTo_lt (c p : Dev nD) : offTo c p < 32 := Nat.mod_lt _ (by decide)
theorem shift_offTo (c p : Dev nD) : shift c (offTo c p) = p := by
  apply Fin.ext; rw [shift_val]; unfold offTo; have := c.isLt; have := p.isLt
  have : (32 : ℕ) = nD := rfl
  omega
theorem offTo_shift (c : Dev nD) {d : ℕ} (hd : d < 32) : offTo c (shift c d) = d := by
  unfold offTo; rw [shift_val]; have := c.isLt
  have : (32 : ℕ) = nD := rfl
  omega
theorem offTo_pos {c p : Dev nD} (h : p ≠ c) : 1 ≤ offTo c p := by
  by_contra h0
  have h00 : offTo c p = 0 := by omega
  have := shift_offTo c p; rw [h00] at this
  apply h; rw [← this]; apply Fin.ext; rw [shift_val]; have := c.isLt
  have : (32 : ℕ) = nD := rfl
  omega

end Cert.KernelIdealRun

end
-- ==== Proof.KernelIdealRun.DevTable.lean ====
import proofs.«901066_g7700000000001067_dist_softmax_colshard_i_m512_n256_v7x_i32_bf16_1_alg».proof.Proof.KernelIdealRun.Mesh

set_option Elab.async false

noncomputable section

namespace Cert.KernelIdealRun

open Cert.KernelIdeal Cert.KernelIdeal.Gen
open Idealize.ShloMosaic

theorem dev1_eq (c : Dev nD) : (⟨k0_dev1 c, k0_dev1_lt c⟩ : Dev nD) = shift c 1 := by revert c; decide +kernel
theorem dev2_eq (c : Dev nD) : (⟨k0_dev2 c, k0_dev2_lt c⟩ : Dev nD) = shift c 2 := by revert c; decide +kernel
theorem dev3_eq (c : Dev nD) : (⟨k0_dev3 c, k0_dev3_lt c⟩ : Dev nD) = shift c 3 := by revert c; decide +kernel
theorem dev4_eq (c : Dev nD) : (⟨k0_dev4 c, k0_dev4_lt c⟩ : Dev nD) = shift c 4 := by revert c; decide +kernel
theorem dev5_eq (c : Dev nD) : (⟨k0_dev5 c, k0_dev5_lt c⟩ : Dev nD) = shift c 5 := by revert c; decide +kernel
theorem dev6_eq (c : Dev nD) : (⟨k0_dev6 c, k0_dev6_lt c⟩ : Dev nD) = shift c 6 := by revert c; decide +kernel
theorem dev7_eq (c : Dev nD) : (⟨k0_dev7 c, k0_dev7_lt c⟩ : Dev nD) = shift c 7 := by revert c; decide +kernel
theorem dev8_eq (c : Dev nD) : (⟨k0_dev8 c, k0_dev8_lt c⟩ : Dev nD) = shift c 8 := by revert c; decide +kernel
theorem dev9_eq (c : Dev nD) : (⟨k0_dev9 c, k0_dev9_lt c⟩ : Dev nD) = shift c 9 := by revert c; decide +kernel
theorem dev10_eq (c : Dev nD) : (⟨k0_dev10 c, k0_dev10_lt c⟩ : Dev nD) = shift c 10 := by revert c; decide +kernel
theorem dev11_eq (c : Dev nD) : (⟨k0_dev11 c, k0_dev11_lt c⟩ : Dev nD) = shift c 11 := by revert c; decide +kernel
theorem dev12_eq (c : Dev nD) : (⟨k0_dev12 c, k0_dev12_lt c⟩ : Dev nD) = shift c 12 := by revert c; decide +kernel
theorem dev13_eq (c : Dev nD) : (⟨k0_dev13 c, k0_dev13_lt c⟩ : Dev nD) = shift c 13 := by revert c; decide +kernel
theorem dev14_eq (c : Dev nD) : (⟨k0_dev14 c, k0_dev14_lt c⟩ : Dev nD) = shift c 14 := by revert c; decide +kernel
theorem dev15_eq (c : Dev nD) : (⟨k0_dev15 c, k0_dev15_lt c⟩ : Dev nD) = shift c 15 := by revert c; decide +kernel
theorem dev16_eq (c : Dev nD) : (⟨k0_dev16 c, k0_dev16_lt c⟩ : Dev nD) = shift c 16 := by revert c; decide +kernel
theorem dev17_eq (c : Dev nD) : (⟨k0_dev17 c, k0_dev17_lt c⟩ : Dev nD) = shift c 17 := by revert c; decide +kernel
theorem dev18_eq (c : Dev nD) : (⟨k0_dev18 c, k0_dev18_lt c⟩ : Dev nD) = shift c 18 := by revert c; decide +kernel
theorem dev19_eq (c : Dev nD) : (⟨k0_dev19 c, k0_dev19_lt c⟩ : Dev nD) = shift c 19 := by revert c; decide +kernel
theorem dev20_eq (c : Dev nD) : (⟨k0_dev20 c, k0_dev20_lt c⟩ : Dev nD) = shift c 20 := by revert c; decide +kernel
theorem dev21_eq (c : Dev nD) : (⟨k0_dev21 c, k0_dev21_lt c⟩ : Dev nD) = shift c 21 := by revert c; decide +kernel
theorem dev22_eq (c : Dev nD) : (⟨k0_dev22 c, k0_dev22_lt c⟩ : Dev nD) = shift c 22 := by revert c; decide +kernel
theorem dev23_eq (c : Dev nD) : (⟨k0_dev23 c, k0_dev23_lt c⟩ : Dev nD) = shift c 23 := by revert c; decide +kernel
theorem dev24_eq (c : Dev nD) : (⟨k0_dev24 c, k0_dev24_lt c⟩ : Dev nD) = shift c 24 := by revert c; decide +kernel
theorem dev25_eq (c : Dev nD) : (⟨k0_dev25 c, k0_dev25_lt c⟩ : Dev nD) = shift c 25 := by revert c; decide +kernel
theorem dev26_eq (c : Dev nD) : (⟨k0_dev26 c, k0_dev26_lt c⟩ : Dev nD) = shift c 26 := by revert c; decide +kernel
theorem dev27_eq (c : Dev nD) : (⟨k0_dev27 c, k0_dev27_lt c⟩ : Dev nD) = shift c 27 := by revert c; decide +kernel
theorem dev28_eq (c : Dev nD) : (⟨k0_dev28 c, k0_dev28_lt c⟩ : Dev nD) = shift c 28 := by revert c; decide +kernel
theorem dev29_eq (c : Dev nD) : (⟨k0_dev29 c, k0_dev29_lt c⟩ : Dev nD) = shift c 29 := by revert c; decide +kernel
theorem dev30_eq (c : Dev nD) : (⟨k0_dev30 c, k0_dev30_lt c⟩ : Dev nD) = shift c 30 := by revert c; decide +kernel
theorem dev31_eq (c : Dev nD) : (⟨k0_dev31 c, k0_dev31_lt c⟩ : Dev nD) = shift c 31 := by revert c; decide +kernel
theorem dev32_eq (c : Dev nD) : (⟨k0_dev32 c, k0_dev32_lt c⟩ : Dev nD) = shift c 1 := by revert c; decide +kernel
theorem dev33_eq (c : Dev nD) : (⟨k0_dev33 c, k0_dev33_lt c⟩ : Dev nD) = shift c 2 := by revert c; decide +kernel
theorem dev34_eq (c : Dev nD) : (⟨k0_dev34 c, k0_dev34_lt c⟩ : Dev nD) = shift c 3 := by revert c; decide +kernel
theorem dev35_eq (c : Dev nD) : (⟨k0_dev35 c, k0_dev35_lt c⟩ : Dev nD) = shift c 4 := by revert c; decide +kernel
theorem dev36_eq (c : Dev nD) : (⟨k0_dev36 c, k0_dev36_lt c⟩ : Dev nD) = shift c 5 := by revert c; decide +kernel
theorem dev37_eq (c : Dev nD) : (⟨k0_dev37 c, k0_dev37_lt c⟩ : Dev nD) = shift c 6 := by revert c; decide +kernel
theorem dev38_eq (c : Dev nD) : (⟨k0_dev38 c, k0_dev38_lt c⟩ : Dev nD) = shift c 7 := by revert c; decide +kernel
theorem dev39_eq (c : Dev nD) : (⟨k0_dev39 c, k0_dev39_lt c⟩ : Dev nD) = shift c 8 := by revert c; decide +kernel
theorem dev40_eq (c : Dev nD) : (⟨k0_dev40 c, k0_dev40_lt c⟩ : Dev nD) = shift c 9 := by revert c; decide +kernel
theorem dev41_eq (c : Dev nD) : (⟨k0_dev41 c, k0_dev41_lt c⟩ : Dev nD) = shift c 10 := by revert c; decide +kernel
theorem dev42_eq (c : Dev nD) : (⟨k0_dev42 c, k0_dev42_lt c⟩ : Dev nD) = shift c 11 := by revert c; decide +kernel
theorem dev43_eq (c : Dev nD) : (⟨k0_dev43 c, k0_dev43_lt c⟩ : Dev nD) = shift c 12 := by revert c; decide +kernel
theorem dev44_eq (c : Dev nD) : (⟨k0_dev44 c, k0_dev44_lt c⟩ : Dev nD) = shift c 13 := by revert c; decide +kernel
theorem dev45_eq (c : Dev nD) : (⟨k0_dev45 c, k0_dev45_lt c⟩ : Dev nD) = shift c 14 := by revert c; decide +kernel
theorem dev46_eq (c : Dev nD) : (⟨k0_dev46 c, k0_dev46_lt c⟩ : Dev nD) = shift c 15 := by revert c; decide +kernel
theorem dev47_eq (c : Dev nD) : (⟨k0_dev47 c, k0_dev47_lt c⟩ : Dev nD) = shift c 16 := by revert c; decide +kernel
theorem dev48_eq (c : Dev nD) : (⟨k0_dev48 c, k0_dev48_lt c⟩ : Dev nD) = shift c 17 := by revert c; decide +kernel
theorem dev49_eq (c : Dev nD) : (⟨k0_dev49 c, k0_dev49_lt c⟩ : Dev nD) = shift c 18 := by revert c; decide +kernel
theorem dev50_eq (c : Dev nD) : (⟨k0_dev50 c, k0_dev50_lt c⟩ : Dev nD) = shift c 19 := by revert c; decide +kernel
theorem dev51_eq (c : Dev nD) : (⟨k0_dev51 c, k0_dev51_lt c⟩ : Dev nD) = shift c 20 := by revert c; decide +kernel
theorem dev52_eq (c : Dev nD) : (⟨k0_dev52 c, k0_dev52_lt c⟩ : Dev nD) = shift c 21 := by revert c; decide +kernel
theorem dev53_eq (c : Dev nD) : (⟨k0_dev53 c, k0_dev53_lt c⟩ : Dev nD) = shift c 22 := by revert c; decide +kernel
theorem dev54_eq (c : Dev nD) : (⟨k0_dev54 c, k0_dev54_lt c⟩ : Dev nD) = shift c 23 := by revert c; decide +kernel
theorem dev55_eq (c : Dev nD) : (⟨k0_dev55 c, k0_dev55_lt c⟩ : Dev nD) = shift c 24 := by revert c; decide +kernel
theorem dev56_eq (c : Dev nD) : (⟨k0_dev56 c, k0_dev56_lt c⟩ : Dev nD) = shift c 25 := by revert c; decide +kernel
theorem dev57_eq (c : Dev nD) : (⟨k0_dev57 c, k0_dev57_lt c⟩ : Dev nD) = shift c 26 := by revert c; decide +kernel
theorem dev58_eq (c : Dev nD) : (⟨k0_dev58 c, k0_dev58_lt c⟩ : Dev nD) = shift c 27 := by revert c; decide +kernel
theorem dev59_eq (c : Dev nD) : (⟨k0_dev59 c, k0_dev59_lt c⟩ : Dev nD) = shift c 28 := by revert c; decide +kernel
theorem dev60_eq (c : Dev nD) : (⟨k0_dev60 c, k0_dev60_lt c⟩ : Dev nD) = shift c 29 := by revert c; decide +kernel
theorem dev61_eq (c : Dev nD) : (⟨k0_dev61 c, k0_dev61_lt c⟩ : Dev nD) = shift c 30 := by revert c; decide +kernel
theorem dev62_eq (c : Dev nD) : (⟨k0_dev62 c, k0_dev62_lt c⟩ : Dev nD) = shift c 31 := by revert c; decide +kernel
theorem off4_1_eq (c : Dev nD) : k0_off4 c 1#32 = ![(shift c 1).val] := by revert c; decide +kernel
theorem off4_2_eq (c : Dev nD) : k0_off4 c 2#32 = ![(shift c 2).val] := by revert c; decide +kernel
theorem off4_3_eq (c : Dev nD) : k0_off4 c 3#32 = ![(shift c 3).val] := by revert c; decide +kernel
theorem off4_4_eq (c : Dev nD) : k0_off4 c 4#32 = ![(shift c 4).val] := by revert c; decide +kernel
theorem off4_5_eq (c : Dev nD) : k0_off4 c 5#32 = ![(shift c 5).val] := by revert c; decide +kernel
theorem off4_6_eq (c : Dev nD) : k0_off4 c 6#32 = ![(shift c 6).val] := by revert c; decide +kernel
theorem off4_7_eq (c : Dev nD) : k0_off4 c 7#32 = ![(shift c 7).val] := by revert c; decide +kernel
theorem off4_8_eq (c : Dev nD) : k0_off4 c 8#32 = ![(shift c 8).val] := by revert c; decide +kernel
theorem off4_9_eq (c : Dev nD) : k0_off4 c 9#32 = ![(shift c 9).val] := by revert c; decide +kernel
theorem off4_10_eq (c : Dev nD) : k0_off4 c 10#32 = ![(shift c 10).val] := by revert c; decide +kernel
theorem off4_11_eq (c : Dev nD) : k0_off4 c 11#32 = ![(shift c 11).val] := by revert c; decide +kernel
theorem off4_12_eq (c : Dev nD) : k0_off4 c 12#32 = ![(shift c 12).val] := by revert c; decide +kernel
theorem off4_13_eq (c : Dev nD) : k0_off4 c 13#32 = ![(shift c 13).val] := by revert c; decide +kernel
theorem off4_14_eq (c : Dev nD) : k0_off4 c 14#32 = ![(shift c 14).val] := by revert c; decide +kernel
theorem off4_15_eq (c : Dev nD) : k0_off4 c 15#32 = ![(shift c 15).val] := by revert c; decide +kernel
theorem off4_16_eq (c : Dev nD) : k0_off4 c 16#32 = ![(shift c 16).val] := by revert c; decide +kernel
theorem off4_17_eq (c : Dev nD) : k0_off4 c 17#32 = ![(shift c 17).val] := by revert c; decide +kernel
theorem off4_18_eq (c : Dev nD) : k0_off4 c 18#32 = ![(shift c 18).val] := by revert c; decide +kernel
theorem off4_19_eq (c : Dev nD) : k0_off4 c 19#32 = ![(shift c 19).val] := by revert c; decide +kernel
theorem off4_20_eq (c : Dev nD) : k0_off4 c 20#32 = ![(shift c 20).val] := by revert c; decide +kernel
theorem off4_21_eq (c : Dev nD) : k0_off4 c 21#32 = ![(shift c 21).val] := by revert c; decide +kernel
theorem off4_22_eq (c : Dev nD) : k0_off4 c 22#32 = ![(shift c 22).val] := by revert c; decide +kernel
theorem off4_23_eq (c : Dev nD) : k0_off4 c 23#32 = ![(shift c 23).val] := by revert c; decide +kernel
theorem off4_24_eq (c : Dev nD) : k0_off4 c 24#32 = ![(shift c 24).val] := by revert c; decide +kernel
theorem off4_25_eq (c : Dev nD) : k0_off4 c 25#32 = ![(shift c 25).val] := by revert c; decide +kernel
theorem off4_26_eq (c : Dev nD) : k0_off4 c 26#32 = ![(shift c 26).val] := by revert c; decide +kernel
theorem off4_27_eq (c : Dev nD) : k0_off4 c 27#32 = ![(shift c 27).val] := by revert c; decide +kernel
theorem off4_28_eq (c : Dev nD) : k0_off4 c 28#32 = ![(shift c 28).val] := by revert c; decide +kernel
theorem off4_29_eq (c : Dev nD) : k0_off4 c 29#32 = ![(shift c 29).val] := by revert c; decide +kernel
theorem off4_30_eq (c : Dev nD) : k0_off4 c 30#32 = ![(shift c 30).val] := by revert c; decide +kernel
theorem off4_31_eq (c : Dev nD) : k0_off4 c 31#32 = ![(shift c 31).val] := by revert c; decide +kernel
theorem off5_1_eq (c : Dev nD) : k0_off5 c 1#32 = ![(shift c 1).val, 0, 0] := by revert c; decide +kernel
theorem off5_2_eq (c : Dev nD) : k0_off5 c 2#32 = ![(shift c 2).val, 0, 0] := by revert c; decide +kernel
theorem off5_3_eq (c : Dev nD) : k0_off5 c 3#32 = ![(shift c 3).val, 0, 0] := by revert c; decide +kernel
theorem off5_4_eq (c : Dev nD) : k0_off5 c 4#32 = ![(shift c 4).val, 0, 0] := by revert c; decide +kernel
theorem off5_5_eq (c : Dev nD) : k0_off5 c 5#32 = ![(shift c 5).val, 0, 0] := by revert c; decide +kernel
theorem off5_6_eq (c : Dev nD) : k0_off5 c 6#32 = ![(shift c 6).val, 0, 0] := by revert c; decide +kernel
theorem off5_7_eq (c : Dev nD) : k0_off5 c 7#32 = ![(shift c 7).val, 0, 0] := by revert c; decide +kernel
theorem off5_8_eq (c : Dev nD) : k0_off5 c 8#32 = ![(shift c 8).val, 0, 0] := by revert c; decide +kernel
theorem off5_9_eq (c : Dev nD) : k0_off5 c 9#32 = ![(shift c 9).val, 0, 0] := by revert c; decide +kernel
theorem off5_10_eq (c : Dev nD) : k0_off5 c 10#32 = ![(shift c 10).val, 0, 0] := by revert c; decide +kernel
theorem off5_11_eq (c : Dev nD) : k0_off5 c 11#32 = ![(shift c 11).val, 0, 0] := by revert c; decide +kernel
theorem off5_12_eq (c : Dev nD) : k0_off5 c 12#32 = ![(shift c 12).val, 0, 0] := by revert c; decide +kernel
theorem off5_13_eq (c : Dev nD) : k0_off5 c 13#32 = ![(shift c 13).val, 0, 0] := by revert c; decide +kernel
theorem off5_14_eq (c : Dev nD) : k0_off5 c 14#32 = ![(shift c 14).val, 0, 0] := by revert c; decide +kernel
theorem off5_15_eq (c : Dev nD) : k0_off5 c 15#32 = ![(shift c 15).val, 0, 0] := by revert c; decide +kernel
theorem off5_16_eq (c : Dev nD) : k0_off5 c 16#32 = ![(shift c 16).val, 0, 0] := by revert c; decide +kernel
theorem off5_17_eq (c : Dev nD) : k0_off5 c 17#32 = ![(shift c 17).val, 0, 0] := by revert c; decide +kernel
theorem off5_18_eq (c : Dev nD) : k0_off5 c 18#32 = ![(shift c 18).val, 0, 0] := by revert c; decide +kernel
theorem off5_19_eq (c : Dev nD) : k0_off5 c 19#32 = ![(shift c 19).val, 0, 0] := by revert c; decide +kernel
theorem off5_20_eq (c : Dev nD) : k0_off5 c 20#32 = ![(shift c 20).val, 0, 0] := by revert c; decide +kernel
theorem off5_21_eq (c : Dev nD) : k0_off5 c 21#32 = ![(shift c 21).val, 0, 0] := by revert c; decide +kernel
theorem off5_22_eq (c : Dev nD) : k0_off5 c 22#32 = ![(shift c 22).val, 0, 0] := by revert c; decide +kernel
theorem off5_23_eq (c : Dev nD) : k0_off5 c 23#32 = ![(shift c 23).val, 0, 0] := by revert c; decide +kernel
theorem off5_24_eq (c : Dev nD) : k0_off5 c 24#32 = ![(shift c 24).val, 0, 0] := by revert c; decide +kernel
theorem off5_25_eq (c : Dev nD) : k0_off5 c 25#32 = ![(shift c 25).val, 0, 0] := by revert c; decide +kernel
theorem off5_26_eq (c : Dev nD) : k0_off5 c 26#32 = ![(shift c 26).val, 0, 0] := by revert c; decide +kernel
theorem off5_27_eq (c : Dev nD) : k0_off5 c 27#32 = ![(shift c 27).val, 0, 0] := by revert c; decide +kernel
theorem off5_28_eq (c : Dev nD) : k0_off5 c 28#32 = ![(shift c 28).val, 0, 0] := by revert c; decide +kernel
theorem off5_29_eq (c : Dev nD) : k0_off5 c 29#32 = ![(shift c 29).val, 0, 0] := by revert c; decide +kernel
theorem off5_30_eq (c : Dev nD) : k0_off5 c 30#32 = ![(shift c 30).val, 0, 0] := by revert c; decide +kernel
theorem off5_31_eq (c : Dev nD) : k0_off5 c 31#32 = ![(shift c 31).val, 0, 0] := by revert c; decide +kernel

end Cert.KernelIdealRun

end
-- ==== Proof.KernelIdealRun.Sched.lean ====
/- The protocol of the thirty-two kernels, as a schedule of duties.

   Every device owns one barrier cell, thirty-two send cells and thirty-two receive cells. At entry it signals the
   barrier cell of each of its thirty-one peers, and with the signal to peer `t` it hands `t` row `t` of its own
   buffer of statistics — the row `t` will write — and the fact that its receive cell for `t` is at round 0. It stores
   its own statistics in its own row, waits for the thirty-one signals, and then copies its own row into that row of
   every peer's buffer: the copy at offset `d` completes on the sender's send cell `d` (giving back the share of the
   row it read) and on the target's receive cell for the sender (handing over the row, now holding the sender's
   statistics). After the thirty-one receive waits a device holds every row at the gathered statistics. -/
import proofs.«901066_g7700000000001067_dist_softmax_colshard_i_m512_n256_v7x_i32_bf16_1_alg».proof.Proof.KernelIdealRun.DevTable
import proofs.«901066_g7700000000001067_dist_softmax_colshard_i_m512_n256_v7x_i32_bf16_1_alg».proof.Proof.Gen.KernelIdeal.Skeleton
import proofs.«901066_g7700000000001067_dist_softmax_colshard_i_m512_n256_v7x_i32_bf16_1_alg».proof.Proof.Gen.KernelIdeal.Launch
import Idealize.ShloMosaic.Lib.Pipeline.Launch
import Idealize.ShloMosaic.Lib.Pipeline.Kit
import Idealize.ShloMosaic.Lib.Transfers
import Idealize.ShloMosaic.Lib.Ring
import Idealize.ShloMosaic.Lib.Tactic

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's own (duties named by a number below 32) -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Memrefs, semaphores, cells -/

abbrev xM : Memref sig .tc .vmem S512x256 .f32 := Memref.whole cc0_stg0_0
abbrev oM : Memref sig .tc .vmem S512x256 .f32 := Memref.whole cc0_stg1_0
abbrev sM : Memref sig .tc .vmem S32x2x512 .f32 := Memref.whole cc0_scratch0

theorem row_inb (p : Dev nD) : ∀ a, (![p.val, 0, 0] : Fin 3 → Nat) a + S1x2x512.size a ≤ S32x2x512.size a := by
  revert p; decide

/-- Row `p` of the buffer of statistics, as the kernel names it: the 1×2×512 slice at `[p, 0, 0]`, squeezed to 2×512. -/
abbrev rowM (p : Dev nD) : Memref sig .tc .vmem S2x512 .f32 :=
  (sM.slice (Rect.unit (s := S32x2x512) ![p.val, 0, 0] S1x2x512.size (row_inb p)) (fun _ => rfl)).squeeze S2x512 squeezes_S1x2x512_S2x512

theorem sem_inb (d : Fin 32) : ∀ a, (![d.val] : Fin 1 → Nat) a + S1.size a ≤ S32.size a := by
  revert d; decide

/-- The runtime's barrier semaphore of collective id 0; send semaphore `d`; receive semaphore `j`. -/
abbrev barS : Sem sig := (SemArray.scalar (sig.barrier 0 rfl) : Sems sig S_).sem
abbrev sendS (d : Fin 32) : DmaSem sig := ((cc0_scratch1.slice (Rect.unit (s := S32) ![d.val] S1.size (sem_inb d))).squeeze S_ squeezes_S1_S_).sem
abbrev recvS (j : Fin 32) : DmaSem sig := ((cc0_scratch2.slice (Rect.unit (s := S32) ![j.val] S1.size (sem_inb j))).squeeze S_ squeezes_S1_S_).sem

abbrev barCell (c : Dev nD) : GSem nD τ sig := ((c : Thread nD τ), .reg barS)
abbrev sendCell (c : Dev nD) (d : Fin 32) : GSem nD τ sig := ((c : Thread nD τ), .dma (sendS d))
abbrev recvCell (c : Dev nD) (j : Fin 32) : GSem nD τ sig := ((c : Thread nD τ), .dma (recvS j))

/-- Which send (receive) semaphore a DMA semaphore is, if any: the two arrays lie at 2 … 33 and 34 … 65 of the pool. -/
def sendOf (q : DmaSem sig) : Option (Fin 32) := if h : 2 ≤ q.val ∧ q.val < 34 then some ⟨q.val - 2, by omega⟩ else none
def recvOf (q : DmaSem sig) : Option (Fin 32) := if h : 34 ≤ q.val then some ⟨q.val - 34, by have := q.isLt; have h66 : sig.nDmaSem = 66 := rfl; omega⟩ else none

/-- The credit of one row's transfer, in the DMA semaphores' units. -/
abbrev N : ℕ := (rowM (0 : Dev nD)).view.dmaCredit

/-! ## Contents -/

/-- Device `c`'s block of the input as staged for the body. -/
def xstg (c : Dev nD) : (cc0_stg0_0 : Ref sig .tc).ty.Contents (Elt F) :=
  (win0_0.blk (0 : Fin 1)).view.read (Elt F) ((s₀ m ρ).mem ((c : Thread nD τ).loc main_arg0))

/-- An index of the buffer of statistics read as an index of one row of it. -/
abbrev rowIdx (i : S32x2x512.Idx) : S1x2x512.Idx := fun a => match a with
  | ⟨0, _⟩ => ⟨0, Nat.one_pos⟩
  | ⟨1, _⟩ => ⟨(i 1).val, (i 1).isLt⟩
  | ⟨2, _⟩ => ⟨(i 2).val, (i 2).isLt⟩

/-- The gathered statistics: row `p` holds what device `p` computes of its own block. -/
def allStats : (cc0_scratch0 : Ref sig .tc).ty.Contents (Elt F) :=
  fun i => k0_pay4 (xstg m ρ ⟨(i 0).val, (i 0).isLt⟩) (rowIdx i)

/-- What device `c` stores as its result. -/
def outAt (c : Dev nD) : (cc0_stg1_0 : Ref sig .tc).ty.Contents (Elt F) :=
  k0_pay5 (k0_pay2 (xstg m ρ c)) (k0_pay3 (xstg m ρ c)) (allStats m ρ)

/-- Row `j` of device `p`'s buffer of statistics held at share `q` and contents `f`. -/
def rowPts (p j : Dev nD) (q : PosShare TreeShare) (f : (cc0_scratch0 : Ref sig .tc).ty.Contents (Elt F)) : sProp 𝕄 :=
  (rowM j).view.loc (p : Thread nD τ) ↦[(rowM j).view.set]{q} f

/-! ## The schedule -/

/-- With its signal to `t`'s barrier cell, device `p` hands `t` row `t` of its own buffer and that its receive cell
    for `t` has reached round 0. -/
def barPay (t p : Dev nD) : sProp 𝕄 := iprop((∃ f, rowPts p t fullShare f) ∗ reached ER (recvCell p t) 0)
/-- The copy from `j` landing on `p`'s receive cell `j` hands `p` its row `j` at the gathered statistics. -/
def recvPay (p j : Dev nD) : sProp 𝕄 := rowPts p j fullShare (allStats m ρ)
/-- The copy at offset `d` read out gives `c` back the share of its own row that copy read. -/
def sendPay (c : Dev nD) (d : Fin 32) : sProp 𝕄 := rowPts c c (Transfers.shareTok fullShare 32 d) (allStats m ρ)

/-- One round, round 0: a barrier cell has one duty per peer, named by the peer, of one unit; send cell `d ≠ 0` and
    receive cell `j ≠` its owner have the one duty `0` of a row's credit; the two unused cells have none. -/
def Rd : Rounds.Schedule (GSem nD τ sig) (Fin 32) 𝕄 where
  duties g r :=
    if r = 0 ∧ g.1.2 = .tc then
      match g.2 with
      | .reg s => if s = barS then Finset.univ.erase g.1.1 else ∅
      | .dma q =>
        match sendOf q, recvOf q with
        | some d, _ => if d = 0 then ∅ else {0}
        | none, some j => if j = g.1.1 then ∅ else {0}
        | none, none => ∅
    else ∅
  unitless _ := False
  amount g _ _ := if g.2 = .reg barS then 1 else N
  payload g _ d :=
    match g.2 with
    | .reg _ => barPay g.1.1 d
    | .dma q =>
      match sendOf q, recvOf q with
      | some k, _ => sendPay m ρ g.1.1 k
      | none, some j => recvPay m ρ g.1.1 j
      | none, none => iprop(emp)
  amount_pos g _ _ _ := by
    by_cases h : g.2 = .reg barS
    · rw [if_pos h]; exact Nat.one_pos
    · rw [if_neg h]; exact View.dmaCredit_pos _ (by decide)

end Cert.KernelIdealRun

end
-- ==== Proof.KernelIdealRun.Tables.lean ====
/- The schedule's tables read at each kind of cell: which duties, what amounts, which payloads; and the
   peers of a device listed by their offset around the ring. -/
import proofs.«901066_g7700000000001067_dist_softmax_colshard_i_m512_n256_v7x_i32_bf16_1_alg».proof.Proof.KernelIdealRun.Sched

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- Send semaphore d is the pool's semaphore 2 + d. -/
theorem sendS_val (d : Fin 32) : (sendS d).val = 2 + d.val := by revert d; decide
/-- Receive semaphore j is the pool's semaphore 34 + j. -/
theorem recvS_val (j : Fin 32) : (recvS j).val = 34 + j.val := by revert j; decide

theorem sendOf_of_val (q : DmaSem sig) (d : Fin 32) (h : q.val = 2 + d.val) : sendOf q = some d := by
  have := d.isLt
  unfold sendOf
  rw [dif_pos ⟨by omega, by omega⟩]
  exact congrArg some (Fin.ext (by show q.val - 2 = d.val; omega))
theorem recvOf_of_val (q : DmaSem sig) (j : Fin 32) (h : q.val = 34 + j.val) : recvOf q = some j := by
  have := j.isLt
  unfold recvOf
  rw [dif_pos (by omega)]
  exact congrArg some (Fin.ext (by show q.val - 34 = j.val; omega))
theorem sendOf_of_ge (q : DmaSem sig) (h : 34 ≤ q.val) : sendOf q = none := by
  unfold sendOf
  rw [dif_neg (by omega)]

theorem sendOf_sendS (d : Fin 32) : sendOf (sendS d) = some d := sendOf_of_val _ d (sendS_val d)
theorem recvOf_recvS (j : Fin 32) : recvOf (recvS j) = some j := recvOf_of_val _ j (recvS_val j)
theorem sendOf_recvS (j : Fin 32) : sendOf (recvS j) = none := sendOf_of_ge _ (by rw [recvS_val]; omega)
theorem sendS_inj {d d' : Fin 32} (h : sendS d = sendS d') : d = d' := by
  have := congrArg Fin.val h
  rw [sendS_val, sendS_val] at this
  exact Fin.ext (by omega)
theorem recvS_inj {j j' : Fin 32} (h : recvS j = recvS j') : j = j' := by
  have := congrArg Fin.val h
  rw [recvS_val, recvS_val] at this
  exact Fin.ext (by omega)
theorem sendS_ne_recvS (d j : Fin 32) : sendS d ≠ recvS j := by
  intro h
  have := congrArg Fin.val h
  rw [sendS_val, recvS_val] at this
  have := d.isLt
  omega
theorem send_ne_bar (d : Fin 32) : (SemLoc.dma (sendS d) : SemLoc sig) ≠ .reg barS := fun h => by cases h
theorem recv_ne_bar (j : Fin 32) : (SemLoc.dma (recvS j) : SemLoc sig) ≠ .reg barS := fun h => by cases h

/-! ## Duties, amounts, payloads -/

section Tables
variable (c : Dev nD)

theorem duties_bar : (Rd (F := F) m ρ).duties (barCell c) 0 = Finset.univ.erase c := by
  dsimp only [Rd]; rw [if_pos ⟨rfl, rfl⟩, if_pos rfl]
theorem duties_send (d : Fin 32) (hd : d ≠ 0) : (Rd (F := F) m ρ).duties (sendCell c d) 0 = {0} := by
  dsimp only [Rd]; rw [if_pos ⟨rfl, rfl⟩, sendOf_sendS]; exact if_neg hd
theorem duties_send_zero (r : ℕ) : (Rd (F := F) m ρ).duties (sendCell c 0) r = ∅ := by
  dsimp only [Rd]; rw [sendOf_sendS]; exact ite_eq_right_iff.mpr fun _ => if_pos rfl
theorem duties_recv (j : Dev nD) (hj : j ≠ c) : (Rd (F := F) m ρ).duties (recvCell c j) 0 = {0} := by
  dsimp only [Rd]; rw [if_pos ⟨rfl, rfl⟩, sendOf_recvS, recvOf_recvS]; exact if_neg hj
theorem duties_recv_self (r : ℕ) : (Rd (F := F) m ρ).duties (recvCell c c) r = ∅ := by
  dsimp only [Rd]; rw [sendOf_recvS, recvOf_recvS]; exact ite_eq_right_iff.mpr fun _ => if_pos rfl
theorem duties_later (g : GSem nD τ sig) : ∀ r, 1 ≤ r → (Rd (F := F) m ρ).duties g r = ∅ := fun r hr => by
  dsimp only [Rd]; rw [if_neg fun h => by have := h.1; omega]

theorem amount_bar (r : ℕ) (p : Fin 32) : (Rd (F := F) m ρ).amount (barCell c) r p = 1 := by
  dsimp only [Rd]; exact if_pos rfl
theorem amount_send (d : Fin 32) (r : ℕ) (k : Fin 32) : (Rd (F := F) m ρ).amount (sendCell c d) r k = N := by
  dsimp only [Rd]; exact if_neg (send_ne_bar d)
theorem amount_recv (j : Fin 32) (r : ℕ) (k : Fin 32) : (Rd (F := F) m ρ).amount (recvCell c j) r k = N := by
  dsimp only [Rd]; exact if_neg (recv_ne_bar j)

theorem expect_bar : (Rd (F := F) m ρ).expect (barCell c) 0 = 31 := by
  unfold Schedule.expect Schedule.amountOf
  rw [duties_bar, Finset.sum_congr rfl fun p _ => amount_bar m ρ c 0 p, Finset.sum_const,
    Finset.card_erase_of_mem (Finset.mem_univ c), Finset.card_univ, Fintype.card_fin, smul_eq_mul]
  rfl
theorem expect_send (d : Fin 32) (hd : d ≠ 0) : (Rd (F := F) m ρ).expect (sendCell c d) 0 = N := by
  unfold Schedule.expect Schedule.amountOf; rw [duties_send m ρ c d hd, Finset.sum_singleton, amount_send]
theorem expect_recv (j : Dev nD) (hj : j ≠ c) : (Rd (F := F) m ρ).expect (recvCell c j) 0 = N := by
  unfold Schedule.expect Schedule.amountOf; rw [duties_recv m ρ c j hj, Finset.sum_singleton, amount_recv]

theorem payload_bar (r : ℕ) (p : Dev nD) : (Rd (F := F) m ρ).payload (barCell c) r p = barPay c p := rfl
theorem payload_send (d : Fin 32) (r : ℕ) (k : Fin 32) : (Rd (F := F) m ρ).payload (sendCell c d) r k = sendPay m ρ c d := by
  dsimp only [Rd]; rw [sendOf_sendS] <;> rfl
theorem payload_recv (j : Dev nD) (r : ℕ) (k : Fin 32) : (Rd (F := F) m ρ).payload (recvCell c j) r k = recvPay m ρ c j := by
  dsimp only [Rd]; rw [sendOf_recvS, recvOf_recvS] <;> rfl

/-- The whole of the barrier cell's round, no duty taken: every peer's payload. -/
theorem rest_bar : bigSep ((Rd (F := F) m ρ).duties (barCell c) 0 \ ∅) (fun p => (Rd (F := F) m ρ).payload (barCell c) 0 p)
    = bigSep (Finset.univ.erase c) (fun p : Dev nD => barPay (F := F) c p) := by
  rw [Finset.sdiff_empty, duties_bar]
  exact bigSep_congr fun p _ => payload_bar m ρ c 0 p
theorem rest_send (d : Fin 32) (hd : d ≠ 0) :
    bigSep ((Rd (F := F) m ρ).duties (sendCell c d) 0 \ ∅) (fun k => (Rd (F := F) m ρ).payload (sendCell c d) 0 k) = sendPay m ρ c d := by
  rw [Finset.sdiff_empty, duties_send m ρ c d hd, bigSep_singleton, payload_send]
theorem rest_recv (j : Dev nD) (hj : j ≠ c) :
    bigSep ((Rd (F := F) m ρ).duties (recvCell c j) 0 \ ∅) (fun k => (Rd (F := F) m ρ).payload (recvCell c j) 0 k) = recvPay m ρ c j := by
  rw [Finset.sdiff_empty, duties_recv m ρ c j hj, bigSep_singleton, payload_recv]

end Tables

/-! ## A device's peers, by offset -/

/-- The offsets of a device's thirty-one peers. -/
abbrev offs : List ℕ := List.range' 1 31

/-- The chain over the image of a list under a map is the chain of the composed family over the list. -/
theorem bigSepL_map {M : Type _} [URA M] {I J : Type _} (f : J → I) (l : List J) (Φ : I → sProp M) :
    bigSepL (l.map f) Φ = bigSepL l (fun j => Φ (f j)) := by
  induction l with
  | nil => rfl
  | cons j l ih => rw [List.map_cons, bigSepL_cons, bigSepL_cons, ih]

/-- A family over a device's peers is the family over the offsets 1 … 31, each peer named `shift c d`. -/
theorem peers_list (c : Dev nD) (Φ : Dev nD → sProp 𝕄) :
    bigSep (Finset.univ.erase c) Φ = bigSepL offs (fun d => Φ (shift c d)) := by
  have hmem : ∀ d ∈ offs, 1 ≤ d ∧ d < 32 := by
    intro d hd; rw [List.mem_range'_1] at hd; omega
  have hnd : (offs.map (shift c)).Nodup := by
    refine List.Nodup.map_on ?_ (by decide : offs.Nodup)
    intro d hd d' hd' h
    exact shift_inj c (hmem d hd).2 (hmem d' hd').2 h
  have hset : Finset.univ.erase c = (offs.map (shift c)).toFinset := by
    ext p
    simp only [Finset.mem_erase, Finset.mem_univ, _root_.and_true, List.mem_toFinset, List.mem_map]
    constructor
    · intro hp
      exact ⟨offTo c p, by rw [List.mem_range'_1]; exact ⟨offTo_pos hp, by have := offTo_lt c p; omega⟩, shift_offTo c p⟩
    · rintro ⟨d, hd, rfl⟩
      exact shift_ne_self c (hmem d hd).1 (hmem d hd).2
  rw [bigSep_eq_bigSepL_of_eq _ hset hnd, bigSepL_map]

end Cert.KernelIdealRun

end
-- ==== Proof.KernelIdealRun.State.lean ====
/- What a device's body starts from and what it leaves: the cells' invariants, the device's positions in its own
   cells, the tokens of the duties it pays, the credit it is owed, what it owes, and the pipeline's proof data. -/
import proofs.«901066_g7700000000001067_dist_softmax_colshard_i_m512_n256_v7x_i32_bf16_1_alg».proof.Proof.KernelIdealRun.Tables

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device owes at launch, and the levels -/

/-- One unit to the barrier cell of each peer at the offsets `ds`; -/
def owedBar (c : Dev nD) : List ℕ → CellTallies nD τ sig Unit
  | [] => 0
  | d :: ds => owedBar c ds + tallyAt (barCell (shift c d)) () 1
/-- a row's credit to the receive cell for `c` of each peer at the offsets `ds`. -/
def owedRecv (c : Dev nD) : List ℕ → CellTallies nD τ sig Unit
  | [] => 0
  | d :: ds => owedRecv c ds + tallyAt (recvCell (shift c d) c) () N

/-- At launch a device owes both to every peer. -/
def O₀ (c : Dev nD) : CellTallies nD τ sig Unit := owedRecv c offs + owedBar c offs

def L (g : GSem nD τ sig) : Finset Unit := if g.1.2 = .tc then {()} else ∅
/-- Barrier cells at level 1, receive cells at 2, everything else (staging, send) at 0. -/
def lv (g : GSem nD τ sig) (_ : Unit) : ℕ :=
  if g.2 = .reg barS then 1 else match g.2 with
    | .reg _ => 0
    | .dma q => if (recvOf q).isSome ∧ (sendOf q).isNone then 2 else 0

/-! ## The ghost state -/

/-- Every device's cells' invariants at the names `K`, and that each cell has reached round 0. -/
def records (K : GSem nD τ sig → ℕ) : sProp 𝕄 :=
  iprop((bigSep Finset.univ fun t : Dev nD => iprop(cellInv ER (Rd m ρ) (K (barCell t)) (barCell t)
      ∗ (bigSep Finset.univ fun d : Fin 32 => cellInv ER (Rd m ρ) (K (sendCell t d)) (sendCell t d))
      ∗ (bigSep Finset.univ fun j : Fin 32 => cellInv ER (Rd m ρ) (K (recvCell t j)) (recvCell t j))))
    ∗ (bigSep Finset.univ fun t : Dev nD => iprop(reached ER (barCell t) 0
      ∗ (bigSep Finset.univ fun d : Fin 32 => reached ER (sendCell t d) 0)
      ∗ (bigSep Finset.univ fun j : Fin 32 => reached ER (recvCell t j) 0))))

instance records_persistent (K : GSem nD τ sig → ℕ) : BI.Persistent (records m ρ K) := by unfold records; infer_instance

/-- What stays with device `c`: its positions at round 0 of its own cells, and the tokens of the duties IT pays —
    each peer's barrier duty named `c`, each peer's receive-for-`c` duty, its own send duties. -/
def linear (c : Dev nD) : sProp 𝕄 :=
  iprop((atPos ER (barCell c) 0 ∅ 0
      ∗ (bigSep Finset.univ fun d : Fin 32 => atPos ER (sendCell c d) 0 ∅ 0)
      ∗ (bigSep Finset.univ fun j : Fin 32 => atPos ER (recvCell c j) 0 ∅ 0))
    ∗ (bigSep (Finset.univ.erase c) fun t : Dev nD => dutyTok ER (barCell t) 0 c)
    ∗ (bigSep (Finset.univ.erase c) fun t : Dev nD => dutyTok ER (recvCell t c) 0 0)
    ∗ (bigSep (Finset.univ.erase (0 : Fin 32)) fun d : Fin 32 => dutyTok ER (sendCell c d) 0 0))

/-- The ghost state device `c` starts from, at the names `K`. -/
def ghost (K : GSem nD τ sig → ℕ) (c : Dev nD) : sProp 𝕄 := iprop(records m ρ K ∗ linear c)

/-- The credit a device is owed at launch: its barrier's thirty-one units and a row's credit on its receive cell for
    each peer. -/
def launchCreds (c : Dev nD) : sProp 𝕄 :=
  iprop(cred (tallyAt (barCell c) () 31) ∗ bigSep (Finset.univ.erase c) fun j : Dev nD => cred (tallyAt (recvCell c j) () N))

/-- What device `c`'s body starts from besides its buffers. -/
def start (c : Dev nD) : sProp 𝕄 := iprop((∃ K, ghost m ρ K c) ∗ launchCreds c ∗ levAts L lv)

/-- Before the point: that and the buffer of statistics, whole, at any contents. -/
def Φ₀ (c : Dev nD) : sProp 𝕄 := iprop(start m ρ c ∗ ∃ f, (((c : Thread nD τ).loc cc0_scratch0) ↦{fullShare} f))
/-- After it: the buffer whole again, and every own send and receive cell closed, its counter at zero. -/
def Φ₁ (c : Dev nD) : sProp 𝕄 :=
  iprop((∃ f, (((c : Thread nD τ).loc cc0_scratch0) ↦{fullShare} f))
    ∗ (bigSep Finset.univ fun d : Fin 32 => semVal (sendCell c d) 0)
    ∗ (bigSep Finset.univ fun j : Fin 32 => semVal (recvCell c j) 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.KernelIdealRun

end
-- ==== Proof.KernelIdealRun.Rows.lean ====
/- The buffer of statistics row by row: the thirty-two rows are pairwise disjoint and cover it, so holding the buffer
   is holding its rows; what the store into a device's own row and a copy landing in a row leave there. -/
import proofs.«901066_g7700000000001067_dist_softmax_colshard_i_m512_n256_v7x_i32_bf16_1_alg».proof.Proof.KernelIdealRun.Sched

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A row's elements are the unit rectangle of one row at the row's offset. -/
theorem rowM_set (j : Dev nD) :
    (rowM j).view.set = (Rect.unit (s := S32x2x512) ![j.val, 0, 0] S1x2x512.size (row_inb j)).set := by
  show ((View.slice (View.whole cc0_scratch0) _).reshape S2x512 _).set = _
  rw [View.set_reshape, View.set_slice_whole]

omit [FloatOps F] in
/-- Distinct rows share no element. -/
theorem rows_disjoint (j j' : Dev nD) (h : j ≠ j') :
    Disjoint (rowM j).view.set (rowM j').view.set := by
  rw [rowM_set, rowM_set]
  exact Ring.lead_disjoint (s := S32x2x512) (NB := 32) (0 : Fin 3) 1 (fun p : Fin 32 => ![p.val, 0, 0]) S1x2x512.size row_inb
    (fun b => by simp) (by decide) j j' h

omit [FloatOps F] in
/-- The rows cover the buffer. -/
theorem rows_cover :
    Finset.univ.biUnion (fun j : Dev nD => (rowM j).view.set) = (Finset.univ : Finset (rowM (0 : Dev nD)).view.ty.Idx) := by
  ext i
  simp only [Finset.mem_biUnion, Finset.mem_univ, true_and, iff_true]
  have h0 : (i 0).val < 32 := (i 0).isLt
  have h1 : (i 1).val < 2 := (i 1).isLt
  have h2 : (i 2).val < 512 := (i 2).isLt
  refine ⟨⟨(i 0).val, h0⟩, ?_⟩
  rw [rowM_set]
  refine Rect.mem_set_unit.mpr fun a => ?_
  match a with
  | ⟨0, _⟩ => exact ⟨Nat.le_refl _, Nat.lt_succ_self _⟩
  | ⟨1, _⟩ => exact ⟨Nat.zero_le _, by simpa using h1⟩
  | ⟨2, _⟩ => exact ⟨Nat.zero_le _, by simpa using h2⟩

omit [FloatOps F] in
/-- The buffer held whole is its rows held one by one, at any share and contents. -/
theorem scratch_rows (p : Dev nD) (q : PosShare TreeShare) (f : (cc0_scratch0 : Ref sig .tc).ty.Contents (Elt F)) :
    ((((p : Thread nD τ).loc cc0_scratch0) ↦{q} f) : sProp 𝕄) = bigSep Finset.univ fun j : Dev nD => rowPts p j q f := by
  have hd : ∀ t ∈ (Finset.univ : Finset (Dev nD)), ∀ t' ∈ (Finset.univ : Finset (Dev nD)), t ≠ t' →
      Disjoint ((rowM t).view.set : Finset (Idx ((p : Thread nD τ).loc cc0_scratch0))) ((rowM t').view.set) :=
    fun b _ b' _ h => rows_disjoint b b' h
  have h := pointsTo_biUnion (nD := nD) (τ := τ) (sig := sig) (Ix := Unit) (Val := Elt F) (Name := ℕ) (U := UU) (Lvl := ℕ) (ℓ := (p : Thread nD τ).loc cc0_scratch0) (q := q) (f := f) Finset.univ
    (fun j : Dev nD => ((rowM j).view.set : Finset (Idx ((p : Thread nD τ).loc cc0_scratch0)))) hd
  have hc : Finset.univ.biUnion (fun j : Dev nD => (rowM j).view.set)
      = (Finset.univ : Finset ((p : Thread nD τ).loc cc0_scratch0).ty.Idx) := rows_cover
  rw [hc] at h
  exact h

omit [FloatOps F] in
/-- A row's points-to, spelled at the buffer's own location. -/
theorem rowPts_eq (p j : Dev nD) (q : PosShare TreeShare) (f : (cc0_scratch0 : Ref sig .tc).ty.Contents (Elt F)) :
    (rowPts p j q f : sProp 𝕄) = (((p : Thread nD τ).loc cc0_scratch0) ↦[(rowM j).view.set]{q} f) := rfl

omit [FloatOps F] in
/-- Rows held each at some contents join to the buffer held whole at some contents. -/
theorem scratch_rows_join (p : Dev nD) :
    (bigSep Finset.univ fun j : Dev nD => iprop(∃ f, rowPts (F := F) p j fullShare f))
      ⊢ (iprop(∃ g, (((p : Thread nD τ).loc cc0_scratch0) ↦{fullShare} g)) : sProp 𝕄) := by
  have hd : ∀ t t' : Dev nD, t ≠ t' →
      Disjoint ((rowM t).view.set : Finset (Idx ((p : Thread nD τ).loc cc0_scratch0))) ((rowM t').view.set) :=
    fun b b' h => rows_disjoint b b' h
  have hc : Finset.univ.biUnion (fun j : Dev nD => (rowM j).view.set)
      = (Finset.univ : Finset ((p : Thread nD τ).loc cc0_scratch0).ty.Idx) := rows_cover
  simp only [rowPts_eq]
  -- row 0's contents name a buffer's worth of contents for the join to start from
  rw [bigSep_univ_at _ (0 : Dev nD)]
  iintro ⟨⟨%f₀, H0⟩, Hrest⟩
  iapply (Ring.pointsTo_blocks_join_exists (nD := nD) (τ := τ) (sig := sig) (Ix := Unit) (Val := Elt F) (Name := ℕ) (U := UU) (Lvl := ℕ) (ℓ := (p : Thread nD τ).loc cc0_scratch0) (q := fullShare)
    (fun j : Dev nD => ((rowM j).view.set : Finset (Idx ((p : Thread nD τ).loc cc0_scratch0)))) hd hc f₀)
  rw [bigSep_univ_at _ (0 : Dev nD)]
  isplitl [H0]
  · iexists f₀; iexact H0
  · iexact Hrest

omit [FloatOps F] in
/-- Every row's transfer credits a DMA semaphore the same amount. -/
theorem row_amount (j : Dev nD) (q : DmaSem sig) : (rowM j).view.amount (.dma q) = N := rfl

omit [FloatOps F] in
/-- The wait on a row's transfer waits for this amount. -/
theorem row_credit (j : Dev nD) : (rowM j).view.dmaCredit = N := rfl

omit [FloatOps F] in
/-- The kernel's own-row rectangle (its printed offset chain) lies in the device's own row: for the store … -/
theorem store_own_sub (c : Dev nD) :
    (sM.access (Rect.unit (s := S32x2x512) (k0_off1 c) S1x2x512.size (k0_off1_inb c))).setOn Finset.univ
      ⊆ (rowM c).view.set := by
  rw [View.setOn_univ, rowM_set]
  show ((View.whole cc0_scratch0).slice _).set ⊆ _
  rw [View.set_slice_whole, Rect.unit_congr (k0_off1_eq c) (k0_off1_inb c) (row_inb c)]
omit [FloatOps F] in
/-- … and for the load before it. -/
theorem load_own_sub (c : Dev nD) :
    sM.view.setOn (Rect.unit (s := S32x2x512) (k0_off1 c) S1x2x512.size (k0_off1_inb c)).toLoadRect.set
      ⊆ (rowM c).view.set := by
  rw [rowM_set, Rect.unit_congr (k0_off1_eq c) (k0_off1_inb c) (row_inb c)]
  show Finset.map (Function.Embedding.refl _) _ ⊆ _
  rw [Finset.map_refl]

omit [FloatOps F] in
/-- Writing a whole row's worth through the unit rectangle at row `c`'s offset leaves, on row `c`, the payload at the
    element's index within the row. -/
theorem write_row_aux (c : Dev nD) (off : Fin 3 → ℕ) (h : off = ![c.val, 0, 0]) (inb : ∀ a, off a + S1x2x512.size a ≤ S32x2x512.size a)
    (f : (cc0_scratch0 : Ref sig .tc).ty.Contents (Elt F)) (w : S1x2x512.Idx → Elt F .f32)
    (i : S32x2x512.Idx) (hi : i ∈ (rowM c).view.set) :
    (sM.access (Rect.unit (s := S32x2x512) off S1x2x512.size inb)).write (Elt F) f w Finset.univ i = w (rowIdx i) := by
  subst h
  rw [rowM_set, ← Rect.map_emb_univ] at hi
  obtain ⟨x, -, rfl⟩ := Finset.mem_map.mp hi
  have hx : rowIdx ((Rect.unit (s := S32x2x512) ![c.val, 0, 0] S1x2x512.size (row_inb c)).emb x) = x := by
    funext a
    match a with
    | ⟨0, _⟩ => exact Fin.ext (by have h : (x 0).val < 1 := (x 0).isLt; show (0 : ℕ) = (x 0).val; omega)
    | ⟨1, _⟩ => exact Fin.ext (show ((![c.val, 0, 0] : Fin 3 → ℕ) 1 + 1 * (x 1).val) = (x 1).val by simp)
    | ⟨2, _⟩ => exact Fin.ext (show ((![c.val, 0, 0] : Fin 3 → ℕ) 2 + 1 * (x 2).val) = (x 2).val by simp)
  rw [hx]
  have hw := View.write_emb_of_mem (v := sM.access (Rect.unit (s := S32x2x512) ![c.val, 0, 0] S1x2x512.size inb)) (Val := Elt F) f w
    (M := Finset.univ) (x := x) (Finset.mem_univ _)
  rw [cast_eq] at hw
  exact hw

/-- After the store of its statistics, a device's own row holds the gathered statistics' row for it. -/
theorem store_own_val (c : Dev nD) (f : (cc0_scratch0 : Ref sig .tc).ty.Contents (Elt F))
    (i : S32x2x512.Idx) (hi : i ∈ (rowM c).view.set) :
    (sM.access (Rect.unit (s := S32x2x512) (k0_off1 c) S1x2x512.size (k0_off1_inb c))).write (Elt F) f (k0_pay4 (xstg m ρ c)) Finset.univ i
      = allStats m ρ i := by
  rw [write_row_aux c _ (k0_off1_eq c) _ f _ i hi]
  have h0 : (⟨(i 0).val, (i 0).isLt⟩ : Dev nD) = c := by
    rw [rowM_set] at hi
    have h := (Rect.mem_set_unit.mp hi) 0
    have h1 : (![c.val, 0, 0] : Fin 3 → ℕ) 0 = c.val := rfl
    have h2 : S1x2x512.size 0 = 1 := rfl
    rw [h1, h2] at h
    exact Fin.ext (by show (i 0).val = c.val; omega)
  unfold allStats
  rw [h0]

omit [FloatOps F] in
/-- A copy of row `c` landing in row `c` of another buffer leaves there what the source held there. -/
theorem landed_val (c : Dev nD) (fd fs : (cc0_scratch0 : Ref sig .tc).ty.Contents (Elt F))
    (i : S32x2x512.Idx) (hi : i ∈ (rowM c).view.set) :
    (rowM c).view.write (Elt F) fd ((rowM c).view.read (Elt F) fs) Finset.univ i = fs i := by
  obtain ⟨x, -, rfl⟩ := Finset.mem_map.mp hi
  rw [View.write_emb_of_mem _ _ (Finset.mem_univ _), View.read_apply, cast_cast, cast_eq]

/-- The offsets of the whole buffer's load are zero on every axis. -/
theorem zero3 : (![0, 0, 0] : Fin 3 → ℕ) = fun _ => 0 := by
  funext a; match a with
  | ⟨0, _⟩ => rfl
  | ⟨1, _⟩ => rfl
  | ⟨2, _⟩ => rfl

omit [FloatOps F] in
/-- The load of the whole buffer reads its contents. -/
theorem read_scratch (f : (cc0_scratch0 : Ref sig .tc).ty.Contents (Elt F)) :
    sM.view.readAt (Elt F) (Rect.unit (s := S32x2x512) ![0, 0, 0] S32x2x512.size inb_S32x2x512_S32x2x512_0_0_0).toLoadRect f = f :=
  Memref.readAt_unit_zero (Elt F) cc0_scratch0 zero3 _ f

end Cert.KernelIdealRun

end
-- ==== Proof.KernelIdealRun.Levels.lean ====
/- The order in which waits are allowed: a wait on a cell is allowed while everything the waiter still owes sits on
   cells of a higher level. Barrier cells are at level 1, receive cells at 2, the rest at 0. And the credit the
   launch deals a device: its barrier's thirty-one units and each receive cell's row credit. -/
import proofs.«901066_g7700000000001067_dist_softmax_colshard_i_m512_n256_v7x_i32_bf16_1_alg».proof.Proof.KernelIdealRun.State

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl

omit [FloatOps F] in
theorem lv_bar (c : Dev nD) : lv (barCell c) () = 1 := if_pos rfl
omit [FloatOps F] in
theorem lv_recv (c : Dev nD) (j : Fin 32) : lv (recvCell c j) () = 2 := by
  unfold lv
  rw [if_neg (recv_ne_bar j)]
  show (if (recvOf (recvS j)).isSome ∧ (sendOf (recvS j)).isNone then 2 else 0) = 2
  rw [recvOf_recvS, sendOf_recvS]
  exact if_pos ⟨rfl, rfl⟩
omit [FloatOps F] in
theorem lv_send (c : Dev nD) (d : Fin 32) : lv (sendCell c d) () = 0 := by
  unfold lv
  rw [if_neg (send_ne_bar d)]
  show (if (recvOf (sendS d)).isSome ∧ (sendOf (sendS d)).isNone then 2 else 0) = 0
  rw [sendOf_sendS]
  exact if_neg fun h => Bool.noConfusion h.2

omit [FloatOps F] in
/-- Whatever the offsets, a device's receive debts sit on receive cells for it. -/
theorem owedRecv_pos {c : Dev nD} {ds : List ℕ} {g : GSem nD τ sig} {u : Unit} (h : 0 < owedRecv c ds g u) :
    ∃ t : Dev nD, g = recvCell t c := by
  induction ds with
  | nil => exact absurd h (Nat.lt_irrefl 0)
  | cons d ds ih =>
    rcases Pipeline.add_pos_cases (show 0 < (owedRecv c ds + tallyAt (recvCell (shift c d) c) () N) g u from h) with h1 | h1
    · exact ih h1
    · exact ⟨shift c d, (Pipeline.tallyAt_pos h1).1⟩

omit [FloatOps F] in
/-- Whatever the offsets, a device's barrier debts sit on barrier cells. -/
theorem owedBar_pos {c : Dev nD} {ds : List ℕ} {g : GSem nD τ sig} {u : Unit} (h : 0 < owedBar c ds g u) :
    ∃ t : Dev nD, g = barCell t := by
  induction ds with
  | nil => exact absurd h (Nat.lt_irrefl 0)
  | cons d ds ih =>
    rcases Pipeline.add_pos_cases (show 0 < (owedBar c ds + tallyAt (barCell (shift c d)) () 1) g u from h) with h1 | h1
    · exact ih h1
    · exact ⟨shift c d, (Pipeline.tallyAt_pos h1).1⟩

omit [FloatOps F] in
/-- A cell a device owes to at launch is a peer's receive cell or a peer's barrier cell. -/
theorem O₀_pos {c : Dev nD} {g : GSem nD τ sig} {u : Unit} (h : 0 < O₀ c g u) :
    (∃ t : Dev nD, g = recvCell t c) ∨ (∃ t : Dev nD, g = barCell t) := by
  rcases Pipeline.add_pos_cases (show 0 < (owedRecv c offs + owedBar c offs) g u from h) with h1 | h1
  · exact Or.inl (owedRecv_pos h1)
  · exact Or.inr (owedBar_pos h1)

omit [FloatOps F] in
/-- A wait on a cell of level 0 (a staging cell, a send cell) is allowed whatever of the launch's debts is left. -/
theorem mayWait_zero_level (c : Dev nD) (q : DmaSem sig) (hq : lv ((c : Thread nD τ), .dma q) () = 0)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨t, rfl⟩ | ⟨t, rfl⟩ <;> (rw [L_tc]; exact Finset.mem_singleton_self _))
      (fun p hp => by rw [Finset.mem_singleton.mp hp]; exact Nat.le_of_eq hq)
      (fun g u hg => by
        rcases O₀_pos hg with ⟨t, rfl⟩ | ⟨t, rfl⟩
        · rw [lv_recv]; decide
        · rw [lv_bar]; decide)
  · rw [MayWait_zero]; iintro -; iempintro

omit [FloatOps F] in
/-- At its barrier wait a device owes its peers' receive credits only: receive cells, above its barrier cell. -/
theorem mayWait_bar (c : Dev nD) :
    (levAts L lv : sProp 𝕄) ⊢ MayWait (c : Thread nD τ) (.reg barS) () (owedRecv c offs) :=
  MayOwe.of_cut (L := L) (lev := lv) 1 (fun p hp => by rw [Finset.mem_singleton.mp hp, L_tc]; exact Finset.mem_singleton_self _)
    (fun g u hg => by obtain ⟨t, rfl⟩ := owedRecv_pos hg; rw [L_tc]; exact Finset.mem_singleton_self _)
    (fun p hp => by rw [Finset.mem_singleton.mp hp]; exact Nat.le_of_eq (lv_bar c))
    (fun g u hg => by obtain ⟨t, rfl⟩ := owedRecv_pos hg; rw [lv_recv]; decide)

omit [FloatOps F] in
/-- The level of a transfer cell is read off its semaphore alone. -/
theorem lv_dma (t : Thread nD τ) (q : DmaSem sig) :
    lv (t, .dma q) () = if (recvOf q).isSome ∧ (sendOf q).isNone then 2 else 0 := by
  unfold lv
  rw [if_neg (fun h => by cases h)]

/-- The pipeline's own staging waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_zero_level c _ (by rw [lv_dma]; fin_cases w <;> fin_cases s <;> decide) _ (by
      rcases t with ⟨_ | _, ht⟩
      · exact Or.inl rfl
      · exact Or.inr rfl)

/-! ## The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} {j j' : Fin 32} : Iff (recvCell a j = recvCell b j') (a = b ∧ j = j') :=
  ⟨fun h => ⟨Fin.ext (congrArg (fun g : GSem nD τ sig => g.1.1.val) h), recvS_inj (SemLoc.dma.inj (congrArg Prod.snd h))⟩,
    fun h => by rw [h.1, h.2]⟩

omit [FloatOps F] in
/-- The device whose k-th successor is c is the k-th predecessor of c. -/
theorem shift_eq_iff (d c : Dev nD) (k : ℕ) : Iff (shift d k = c) (d = unshift c k) :=
  ⟨fun h => by rw [← h, unshift_shift], fun h => by rw [h, shift_unshift]⟩

omit [FloatOps F] in
/-- Receive debts put nothing on a barrier cell, -/
theorem owedRecv_bar (d c : Dev nD) (ds : List ℕ) : owedRecv d ds (barCell c) () = 0 := by
  induction ds with
  | nil => rfl
  | cons k ds ih =>
    show (owedRecv d ds + tallyAt (recvCell (shift d k) d) () N) (barCell c) () = 0
    rw [Pi.add_apply, Finsupp.add_apply, ih, tallyAt_ne_cell (fun h => recv_ne_bar d (congrArg Prod.snd h).symm), Finsupp.zero_apply, Nat.add_zero]

omit [FloatOps F] in
/-- barrier debts nothing on a receive cell, -/
theorem owedBar_recv (d c : Dev nD) (j : Fin 32) (ds : List ℕ) : owedBar d ds (recvCell c j) () = 0 := by
  induction ds with
  | nil => rfl
  | cons k ds ih =>
    show (owedBar d ds + tallyAt (barCell (shift d k)) () 1) (recvCell c j) () = 0
    rw [Pi.add_apply, Finsupp.add_apply, ih, tallyAt_ne_cell (fun h => recv_ne_bar j (congrArg Prod.snd h)), Finsupp.zero_apply, Nat.add_zero]

omit [FloatOps F] in
/-- and a device's receive debts nothing on a receive cell for another device. -/
theorem owedRecv_other {d j : Dev nD} (h : d ≠ j) (c : Dev nD) (ds : List ℕ) : owedRecv d ds (recvCell c j) () = 0 := by
  induction ds with
  | nil => rfl
  | cons k ds ih =>
    show (owedRecv d ds + tallyAt (recvCell (shift d k) d) () N) (recvCell c j) () = 0
    rw [Pi.add_apply, Finsupp.add_apply, ih, tallyAt_ne_cell (fun h' => h (recv_eq_iff.mp h').2.symm), Finsupp.zero_apply, Nat.add_zero]

omit [FloatOps F] in
/-- Summed over the devices, the barrier debts at the offsets ds put one unit per offset on a barrier cell: at offset k
    the one device that owes it is the k-th predecessor of its owner. -/
theorem sum_owedBar (c : Dev nD) (ds : List ℕ) : ∑ d : Dev nD, owedBar d ds (barCell c) () = ds.length := by
  induction ds with
  | nil => exact Finset.sum_const_zero
  | cons k ds ih =>
    have hd : ∀ d : Dev nD, owedBar d (k :: ds) (barCell c) () = owedBar d ds (barCell c) () + if d = unshift c k then 1 else 0 := fun d => by
      show (owedBar d ds + tallyAt (barCell (shift d k)) () 1) (barCell c) () = _
      rw [Pi.add_apply, Finsupp.add_apply, tallyAt_apply]
      by_cases h : d = unshift c k
      · rw [if_pos h, if_pos ⟨by rw [h, shift_unshift], rfl⟩]
      · rw [if_neg h, if_neg (fun h' => h ((shift_eq_iff d c k).mp (bar_eq_iff.mp h'.1).symm))]
    rw [Finset.sum_congr rfl fun d _ => hd d, Finset.sum_add_distrib, ih, Finset.sum_ite_eq' Finset.univ (unshift c k) fun _ => 1,
      if_pos (Finset.mem_univ _), List.length_cons]

omit [FloatOps F] in
/-- Over distinct offsets below 32, a device's receive debts put a row's credit on the receive cell for it of the device
    c exactly when the offset from it to c is among them. -/
theorem owedRecv_self (j c : Dev nD) (ds : List ℕ) (hnd : ds.Nodup) (hlt : ∀ k ∈ ds, k < 32) :
    owedRecv j ds (recvCell c j) () = if offTo j c ∈ ds then N else 0 := by
  induction ds with
  | nil => rw [if_neg (List.not_mem_nil)]; rfl
  | cons k ds ih =>
    have hk : k < 32 := hlt k List.mem_cons_self
    show (owedRecv j ds + tallyAt (recvCell (shift j k) j) () N) (recvCell c j) () = _
    rw [Pi.add_apply, Finsupp.add_apply, ih (List.nodup_cons.mp hnd).2 (fun k' hk' => hlt k' (List.mem_cons_of_mem _ hk')), tallyAt_apply]
    by_cases h : k = offTo j c
    · have hn : offTo j c ∉ ds := h ▸ (List.nodup_cons.mp hnd).1
      rw [if_neg hn, if_pos ⟨by rw [h, shift_offTo], rfl⟩, if_pos (h ▸ List.mem_cons_self), Nat.zero_add]
    · have hs : ¬ (recvCell c j = recvCell (shift j k) j ∧ () = ()) := fun h' =>
        h (shift_inj j hk (offTo_lt j c) ((recv_eq_iff.mp h'.1).1.symm.trans (shift_offTo j c).symm))
      rw [if_neg hs, Nat.add_zero]
      by_cases hm : offTo j c ∈ ds
      · rw [if_pos hm, if_pos (List.mem_cons_of_mem _ hm)]
      · rw [if_neg hm, if_neg (fun h' => by
          rcases List.mem_cons.mp h' with h'' | h''
          · exact h h''.symm
          · exact hm h'')]

omit [FloatOps F] in
/-- What device d owes the receive cell of c for a peer j: a row's credit when d is that peer. -/
theorem owed_recv (d c j : Dev nD) (hj : j ≠ c) : O₀ d (recvCell c j) () = if d = j then N else 0 := by
  show (owedRecv d offs + owedBar d offs) (recvCell c j) () = _
  rw [Pi.add_apply, Finsupp.add_apply, owedBar_recv, Nat.add_zero]
  by_cases h : d = j
  · subst h
    rw [if_pos rfl, owedRecv_self d c offs List.nodup_range' (fun k hk => by have := List.mem_range'_1.mp hk; omega),
      if_pos (List.mem_range'_1.mpr ⟨offTo_pos hj.symm, by have := offTo_lt d c; omega⟩)]
  · rw [if_neg h, owedRecv_other h]

omit [FloatOps F] in
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  have hd : ∀ d : Dev nD, O₀ d (barCell c) () = owedBar d offs (barCell c) () := fun d => by
    show (owedRecv d offs + owedBar d offs) (barCell c) () = _
    rw [Pi.add_apply, Finsupp.add_apply, owedRecv_bar, Nat.zero_add]
  rw [Pipeline.launchCredit_owing, Finsupp.single_eq_same, Finset.sum_congr rfl fun d _ => hd d, sum_owedBar]
  rfl

omit [FloatOps F] in
theorem launch_recv (c j : Dev nD) (hj : j ≠ c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j hj,
    Finset.sum_ite_eq' Finset.univ j fun _ => N, if_pos (Finset.mem_univ _)]

omit [FloatOps F] in
/-- What every device owes a barrier cell adds up to thirty-one units, a receive cell for a peer to a row's credit. -/
theorem creds (c : Dev nD) : (Pipeline.launchCred O₀ c : sProp 𝕄) ⊢ launchCreds c := by
  unfold Pipeline.launchCred launchCreds
  rw [bigSep_univ_at _ (SemLoc.reg barS), launch_bar]
  refine sep_mono_right ?_
  have hinj : Function.Injective fun j : Dev nD => (SemLoc.dma (recvS j) : SemLoc sig) := fun a b h => recvS_inj (SemLoc.dma.inj h)
  have hmap : (bigSep (Finset.univ.erase c) fun j : Dev nD => (cred (tallyAt (recvCell c j) () N) : sProp 𝕄))
      = bigSep ((Finset.univ.erase c).map ⟨_, hinj⟩) fun sm : SemLoc sig =>
          (cred (tallyOn ((c : Thread nD τ), sm) (launchCredit (Pipeline.owing O₀) 0 ((c : Thread nD τ), sm))) : sProp 𝕄) := by
    rw [bigSep_map]
    exact bigSep_congr fun j hj => by rw [← launch_recv c j (Finset.ne_of_mem_erase hj)]; rfl
  rw [hmap]
  refine bigSep_subset fun sm hsm => ?_
  obtain ⟨j, _, rfl⟩ := Finset.mem_map.mp hsm
  exact Finset.mem_erase.mpr ⟨recv_ne_bar j, Finset.mem_univ _⟩

end Cert.KernelIdealRun

end
-- ==== Proof.KernelIdealRun.SemTable.lean ====
import proofs.«901066_g7700000000001067_dist_softmax_colshard_i_m512_n256_v7x_i32_bf16_1_alg».proof.Proof.KernelIdealRun.Sched

noncomputable section

namespace Cert.KernelIdealRun

open Cert.KernelIdeal Cert.KernelIdeal.Gen
open Idealize.ShloMosaic

theorem rowP3_eq (c : Dev nD) (h : ∀ a, k0_off3 c a + S1x2x512.size a ≤ S32x2x512.size a) (hs) :
    ((Memref.whole cc0_scratch0 : Memref sig .tc .vmem S32x2x512 .f32).slice (Rect.unit (s := S32x2x512) (k0_off3 c) S1x2x512.size h) hs).squeeze S2x512 squeezes_S1x2x512_S2x512 = rowM c := by
  rw [Memref.slice_unit_congr _ (k0_off3_eq c) h (row_inb c) hs (fun _ => rfl)]
theorem recvOwn_eq (c : Dev nD) (h : ∀ a, k0_off2 c a + S1.size a ≤ S32.size a) :
    ((cc0_scratch2.slice (Rect.unit (s := S32) (k0_off2 c) S1.size h)).squeeze S_ squeezes_S1_S_).sem = recvS c := by
  rw [SemArray.slice_unit_congr _ (k0_off2_eq c) h (sem_inb c)]
theorem rowP5_1_eq (c : Dev nD) (h : ∀ a, k0_off5 c 1#32 a + S1x2x512.size a ≤ S32x2x512.size a) (hs) :
    ((Memref.whole cc0_scratch0 : Memref sig .tc .vmem S32x2x512 .f32).slice (Rect.unit (s := S32x2x512) (k0_off5 c 1#32) S1x2x512.size h) hs).squeeze S2x512 squeezes_S1x2x512_S2x512 = rowM (shift c 1) := by
  rw [Memref.slice_unit_congr _ (off5_1_eq c) h (row_inb (shift c 1)) hs (fun _ => rfl)]
theorem rowP5_2_eq (c : Dev nD) (h : ∀ a, k0_off5 c 2#32 a + S1x2x512.size a ≤ S32x2x512.size a) (hs) :
    ((Memref.whole cc0_scratch0 : Memref sig .tc .vmem S32x2x512 .f32).slice (Rect.unit (s := S32x2x512) (k0_off5 c 2#32) S1x2x512.size h) hs).squeeze S2x512 squeezes_S1x2x512_S2x512 = rowM (shift c 2) := by
  rw [Memref.slice_unit_congr _ (off5_2_eq c) h (row_inb (shift c 2)) hs (fun _ => rfl)]
theorem rowP5_3_eq (c : Dev nD) (h : ∀ a, k0_off5 c 3#32 a + S1x2x512.size a ≤ S32x2x512.size a) (hs) :
    ((Memref.whole cc0_scratch0 : Memref sig .tc .vmem S32x2x512 .f32).slice (Rect.unit (s := S32x2x512) (k0_off5 c 3#32) S1x2x512.size h) hs).squeeze S2x512 squeezes_S1x2x512_S2x512 = rowM (shift c 3) := by
  rw [Memref.slice_unit_congr _ (off5_3_eq c) h (row_inb (shift c 3)) hs (fun _ => rfl)]
theorem rowP5_4_eq (c : Dev nD) (h : ∀ a, k0_off5 c 4#32 a + S1x2x512.size a ≤ S32x2x512.size a) (hs) :
    ((Memref.whole cc0_scratch0 : Memref sig .tc .vmem S32x2x512 .f32).slice (Rect.unit (s := S32x2x512) (k0_off5 c 4#32) S1x2x512.size h) hs).squeeze S2x512 squeezes_S1x2x512_S2x512 = rowM (shift c 4) := by
  rw [Memref.slice_unit_congr _ (off5_4_eq c) h (row_inb (shift c 4)) hs (fun _ => rfl)]
theorem rowP5_5_eq (c : Dev nD) (h : ∀ a, k0_off5 c 5#32 a + S1x2x512.size a ≤ S32x2x512.size a) (hs) :
    ((Memref.whole cc0_scratch0 : Memref sig .tc .vmem S32x2x512 .f32).slice (Rect.unit (s := S32x2x512) (k0_off5 c 5#32) S1x2x512.size h) hs).squeeze S2x512 squeezes_S1x2x512_S2x512 = rowM (shift c 5) := by
  rw [Memref.slice_unit_congr _ (off5_5_eq c) h (row_inb (shift c 5)) hs (fun _ => rfl)]
theorem rowP5_6_eq (c : Dev nD) (h : ∀ a, k0_off5 c 6#32 a + S1x2x512.size a ≤ S32x2x512.size a) (hs) :
    ((Memref.whole cc0_scratch0 : Memref sig .tc .vmem S32x2x512 .f32).slice (Rect.unit (s := S32x2x512) (k0_off5 c 6#32) S1x2x512.size h) hs).squeeze S2x512 squeezes_S1x2x512_S2x512 = rowM (shift c 6) := by
  rw [Memref.slice_unit_congr _ (off5_6_eq c) h (row_inb (shift c 6)) hs (fun _ => rfl)]
theorem rowP5_7_eq (c : Dev nD) (h : ∀ a, k0_off5 c 7#32 a + S1x2x512.size a ≤ S32x2x512.size a) (hs) :
    ((Memref.whole cc0_scratch0 : Memref sig .tc .vmem S32x2x512 .f32).slice (Rect.unit (s := S32x2x512) (k0_off5 c 7#32) S1x2x512.size h) hs).squeeze S2x512 squeezes_S1x2x512_S2x512 = rowM (shift c 7) := by
  rw [Memref.slice_unit_congr _ (off5_7_eq c) h (row_inb (shift c 7)) hs (fun _ => rfl)]
theorem rowP5_8_eq (c : Dev nD) (h : ∀ a, k0_off5 c 8#32 a + S1x2x512.size a ≤ S32x2x512.size a) (hs) :
    ((Memref.whole cc0_scratch0 : Memref sig .tc .vmem S32x2x512 .f32).slice (Rect.unit (s := S32x2x512) (k0_off5 c 8#32) S1x2x512.size h) hs).squeeze S2x512 squeezes_S1x2x512_S2x512 = rowM (shift c 8) := by
  rw [Memref.slice_unit_congr _ (off5_8_eq c) h (row_inb (shift c 8)) hs (fun _ => rfl)]
theorem rowP5_9_eq (c : Dev nD) (h : ∀ a, k0_off5 c 9#32 a + S1x2x512.size a ≤ S32x2x512.size a) (hs) :
    ((Memref.whole cc0_scratch0 : Memref sig .tc .vmem S32x2x512 .f32).slice (Rect.unit (s := S32x2x512) (k0_off5 c 9#32) S1x2x512.size h) hs).squeeze S2x512 squeezes_S1x2x512_S2x512 = rowM (shift c 9) := by
  rw [Memref.slice_unit_congr _ (off5_9_eq c) h (row_inb (shift c 9)) hs (fun _ => rfl)]
theorem rowP5_10_eq (c : Dev nD) (h : ∀ a, k0_off5 c 10#32 a + S1x2x512.size a ≤ S32x2x512.size a) (hs) :
    ((Memref.whole cc0_scratch0 : Memref sig .tc .vmem S32x2x512 .f32).slice (Rect.unit (s := S32x2x512) (k0_off5 c 10#32) S1x2x512.size h) hs).squeeze S2x512 squeezes_S1x2x512_S2x512 = rowM (shift c 10) := by
  rw [Memref.slice_unit_congr _ (off5_10_eq c) h (row_inb (shift c 10)) hs (fun _ => rfl)]
theorem rowP5_11_eq (c : Dev nD) (h : ∀ a, k0_off5 c 11#32 a + S1x2x512.size a ≤ S32x2x512.size a) (hs) :
    ((Memref.whole cc0_scratch0 : Memref sig .tc .vmem S32x2x512 .f32).slice (Rect.unit (s := S32x2x512) (k0_off5 c 11#32) S1x2x512.size h) hs).squeeze S2x512 squeezes_S1x2x512_S2x512 = rowM (shift c 11) := by
  rw [Memref.slice_unit_congr _ (off5_11_eq c) h (row_inb (shift c 11)) hs (fun _ => rfl)]
theorem rowP5_12_eq (c : Dev nD) (h : ∀ a, k0_off5 c 12#32 a + S1x2x512.size a ≤ S32x2x512.size a) (hs) :
    ((Memref.whole cc0_scratch0 : Memref sig .tc .vmem S32x2x512 .f32).slice (Rect.unit (s := S32x2x512) (k0_off5 c 12#32) S1x2x512.size h) hs).squeeze S2x512 squeezes_S1x2x512_S2x512 = rowM (shift c 12) := by
  rw [Memref.slice_unit_congr _ (off5_12_eq c) h (row_inb (shift c 12)) hs (fun _ => rfl)]
theorem rowP5_13_eq (c : Dev nD) (h : ∀ a, k0_off5 c 13#32 a + S1x2x512.size a ≤ S32x2x512.size a) (hs) :
    ((Memref.whole cc0_scratch0 : Memref sig .tc .vmem S32x2x512 .f32).slice (Rect.unit (s := S32x2x512) (k0_off5 c 13#32) S1x2x512.size h) hs).squeeze S2x512 squeezes_S1x2x512_S2x512 = rowM (shift c 13) := by
  rw [Memref.slice_unit_congr _ (off5_13_eq c) h (row_inb (shift c 13)) hs (fun _ => rfl)]
theorem rowP5_14_eq (c : Dev nD) (h : ∀ a, k0_off5 c 14#32 a + S1x2x512.size a ≤ S32x2x512.size a) (hs) :
    ((Memref.whole cc0_scratch0 : Memref sig .tc .vmem S32x2x512 .f32).slice (Rect.unit (s := S32x2x512) (k0_off5 c 14#32) S1x2x512.size h) hs).squeeze S2x512 squeezes_S1x2x512_S2x512 = rowM (shift c 14) := by
  rw [Memref.slice_unit_congr _ (off5_14_eq c) h (row_inb (shift c 14)) hs (fun _ => rfl)]
theorem rowP5_15_eq (c : Dev nD) (h : ∀ a, k0_off5 c 15#32 a + S1x2x512.size a ≤ S32x2x512.size a) (hs) :
    ((Memref.whole cc0_scratch0 : Memref sig .tc .vmem S32x2x512 .f32).slice (Rect.unit (s := S32x2x512) (k0_off5 c 15#32) S1x2x512.size h) hs).squeeze S2x512 squeezes_S1x2x512_S2x512 = rowM (shift c 15) := by
  rw [Memref.slice_unit_congr _ (off5_15_eq c) h (row_inb (shift c 15)) hs (fun _ => rfl)]
theorem rowP5_16_eq (c : Dev nD) (h : ∀ a, k0_off5 c 16#32 a + S1x2x512.size a ≤ S32x2x512.size a) (hs) :
    ((Memref.whole cc0_scratch0 : Memref sig .tc .vmem S32x2x512 .f32).slice (Rect.unit (s := S32x2x512) (k0_off5 c 16#32) S1x2x512.size h) hs).squeeze S2x512 squeezes_S1x2x512_S2x512 = rowM (shift c 16) := by
  rw [Memref.slice_unit_congr _ (off5_16_eq c) h (row_inb (shift c 16)) hs (fun _ => rfl)]
theorem rowP5_17_eq (c : Dev nD) (h : ∀ a, k0_off5 c 17#32 a + S1x2x512.size a ≤ S32x2x512.size a) (hs) :
    ((Memref.whole cc0_scratch0 : Memref sig .tc .vmem S32x2x512 .f32).slice (Rect.unit (s := S32x2x512) (k0_off5 c 17#32) S1x2x512.size h) hs).squeeze S2x512 squeezes_S1x2x512_S2x512 = rowM (shift c 17) := by
  rw [Memref.slice_unit_congr _ (off5_17_eq c) h (row_inb (shift c 17)) hs (fun _ => rfl)]
theorem rowP5_18_eq (c : Dev nD) (h : ∀ a, k0_off5 c 18#32 a + S1x2x512.size a ≤ S32x2x512.size a) (hs) :
    ((Memref.whole cc0_scratch0 : Memref sig .tc .vmem S32x2x512 .f32).slice (Rect.unit (s := S32x2x512) (k0_off5 c 18#32) S1x2x512.size h) hs).squeeze S2x512 squeezes_S1x2x512_S2x512 = rowM (shift c 18) := by
  rw [Memref.slice_unit_congr _ (off5_18_eq c) h (row_inb (shift c 18)) hs (fun _ => rfl)]
theorem rowP5_19_eq (c : Dev nD) (h : ∀ a, k0_off5 c 19#32 a + S1x2x512.size a ≤ S32x2x512.size a) (hs) :
    ((Memref.whole cc0_scratch0 : Memref sig .tc .vmem S32x2x512 .f32).slice (Rect.unit (s := S32x2x512) (k0_off5 c 19#32) S1x2x512.size h) hs).squeeze S2x512 squeezes_S1x2x512_S2x512 = rowM (shift c 19) := by
  rw [Memref.slice_unit_congr _ (off5_19_eq c) h (row_inb (shift c 19)) hs (fun _ => rfl)]
theorem rowP5_20_eq (c : Dev nD) (h : ∀ a, k0_off5 c 20#32 a + S1x2x512.size a ≤ S32x2x512.size a) (hs) :
    ((Memref.whole cc0_scratch0 : Memref sig .tc .vmem S32x2x512 .f32).slice (Rect.unit (s := S32x2x512) (k0_off5 c 20#32) S1x2x512.size h) hs).squeeze S2x512 squeezes_S1x2x512_S2x512 = rowM (shift c 20) := by
  rw [Memref.slice_unit_congr _ (off5_20_eq c) h (row_inb (shift c 20)) hs (fun _ => rfl)]
theorem rowP5_21_eq (c : Dev nD) (h : ∀ a, k0_off5 c 21#32 a + S1x2x512.size a ≤ S32x2x512.size a) (hs) :
    ((Memref.whole cc0_scratch0 : Memref sig .tc .vmem S32x2x512 .f32).slice (Rect.unit (s := S32x2x512) (k0_off5 c 21#32) S1x2x512.size h) hs).squeeze S2x512 squeezes_S1x2x512_S2x512 = rowM (shift c 21) := by
  rw [Memref.slice_unit_congr _ (off5_21_eq c) h (row_inb (shift c 21)) hs (fun _ => rfl)]
theorem rowP5_22_eq (c : Dev nD) (h : ∀ a, k0_off5 c 22#32 a + S1x2x512.size a ≤ S32x2x512.size a) (hs) :
    ((Memref.whole cc0_scratch0 : Memref sig .tc .vmem S32x2x512 .f32).slice (Rect.unit (s := S32x2x512) (k0_off5 c 22#32) S1x2x512.size h) hs).squeeze S2x512 squeezes_S1x2x512_S2x512 = rowM (shift c 22) := by
  rw [Memref.slice_unit_congr _ (off5_22_eq c) h (row_inb (shift c 22)) hs (fun _ => rfl)]
theorem rowP5_23_eq (c : Dev nD) (h : ∀ a, k0_off5 c 23#32 a + S1x2x512.size a ≤ S32x2x512.size a) (hs) :
    ((Memref.whole cc0_scratch0 : Memref sig .tc .vmem S32x2x512 .f32).slice (Rect.unit (s := S32x2x512) (k0_off5 c 23#32) S1x2x512.size h) hs).squeeze S2x512 squeezes_S1x2x512_S2x512 = rowM (shift c 23) := by
  rw [Memref.slice_unit_congr _ (off5_23_eq c) h (row_inb (shift c 23)) hs (fun _ => rfl)]
theorem rowP5_24_eq (c : Dev nD) (h : ∀ a, k0_off5 c 24#32 a + S1x2x512.size a ≤ S32x2x512.size a) (hs) :
    ((Memref.whole cc0_scratch0 : Memref sig .tc .vmem S32x2x512 .f32).slice (Rect.unit (s := S32x2x512) (k0_off5 c 24#32) S1x2x512.size h) hs).squeeze S2x512 squeezes_S1x2x512_S2x512 = rowM (shift c 24) := by
  rw [Memref.slice_unit_congr _ (off5_24_eq c) h (row_inb (shift c 24)) hs (fun _ => rfl)]
theorem rowP5_25_eq (c : Dev nD) (h : ∀ a, k0_off5 c 25#32 a + S1x2x512.size a ≤ S32x2x512.size a) (hs) :
    ((Memref.whole cc0_scratch0 : Memref sig .tc .vmem S32x2x512 .f32).slice (Rect.unit (s := S32x2x512) (k0_off5 c 25#32) S1x2x512.size h) hs).squeeze S2x512 squeezes_S1x2x512_S2x512 = rowM (shift c 25) := by
  rw [Memref.slice_unit_congr _ (off5_25_eq c) h (row_inb (shift c 25)) hs (fun _ => rfl)]
theorem rowP5_26_eq (c : Dev nD) (h : ∀ a, k0_off5 c 26#32 a + S1x2x512.size a ≤ S32x2x512.size a) (hs) :
    ((Memref.whole cc0_scratch0 : Memref sig .tc .vmem S32x2x512 .f32).slice (Rect.unit (s := S32x2x512) (k0_off5 c 26#32) S1x2x512.size h) hs).squeeze S2x512 squeezes_S1x2x512_S2x512 = rowM (shift c 26) := by
  rw [Memref.slice_unit_congr _ (off5_26_eq c) h (row_inb (shift c 26)) hs (fun _ => rfl)]
theorem rowP5_27_eq (c : Dev nD) (h : ∀ a, k0_off5 c 27#32 a + S1x2x512.size a ≤ S32x2x512.size a) (hs) :
    ((Memref.whole cc0_scratch0 : Memref sig .tc .vmem S32x2x512 .f32).slice (Rect.unit (s := S32x2x512) (k0_off5 c 27#32) S1x2x512.size h) hs).squeeze S2x512 squeezes_S1x2x512_S2x512 = rowM (shift c 27) := by
  rw [Memref.slice_unit_congr _ (off5_27_eq c) h (row_inb (shift c 27)) hs (fun _ => rfl)]
theorem rowP5_28_eq (c : Dev nD) (h : ∀ a, k0_off5 c 28#32 a + S1x2x512.size a ≤ S32x2x512.size a) (hs) :
    ((Memref.whole cc0_scratch0 : Memref sig .tc .vmem S32x2x512 .f32).slice (Rect.unit (s := S32x2x512) (k0_off5 c 28#32) S1x2x512.size h) hs).squeeze S2x512 squeezes_S1x2x512_S2x512 = rowM (shift c 28) := by
  rw [Memref.slice_unit_congr _ (off5_28_eq c) h (row_inb (shift c 28)) hs (fun _ => rfl)]
theorem rowP5_29_eq (c : Dev nD) (h : ∀ a, k0_off5 c 29#32 a + S1x2x512.size a ≤ S32x2x512.size a) (hs) :
    ((Memref.whole cc0_scratch0 : Memref sig .tc .vmem S32x2x512 .f32).slice (Rect.unit (s := S32x2x512) (k0_off5 c 29#32) S1x2x512.size h) hs).squeeze S2x512 squeezes_S1x2x512_S2x512 = rowM (shift c 29) := by
  rw [Memref.slice_unit_congr _ (off5_29_eq c) h (row_inb (shift c 29)) hs (fun _ => rfl)]
theorem rowP5_30_eq (c : Dev nD) (h : ∀ a, k0_off5 c 30#32 a + S1x2x512.size a ≤ S32x2x512.size a) (hs) :
    ((Memref.whole cc0_scratch0 : Memref sig .tc .vmem S32x2x512 .f32).slice (Rect.unit (s := S32x2x512) (k0_off5 c 30#32) S1x2x512.size h) hs).squeeze S2x512 squeezes_S1x2x512_S2x512 = rowM (shift c 30) := by
  rw [Memref.slice_unit_congr _ (off5_30_eq c) h (row_inb (shift c 30)) hs (fun _ => rfl)]
theorem rowP5_31_eq (c : Dev nD) (h : ∀ a, k0_off5 c 31#32 a + S1x2x512.size a ≤ S32x2x512.size a) (hs) :
    ((Memref.whole cc0_scratch0 : Memref sig .tc .vmem S32x2x512 .f32).slice (Rect.unit (s := S32x2x512) (k0_off5 c 31#32) S1x2x512.size h) hs).squeeze S2x512 squeezes_S1x2x512_S2x512 = rowM (shift c 31) := by
  rw [Memref.slice_unit_congr _ (off5_31_eq c) h (row_inb (shift c 31)) hs (fun _ => rfl)]
theorem recvw_1_eq (c : Dev nD) (h : ∀ a, k0_off4 c 1#32 a + S1.size a ≤ S32.size a) :
    ((cc0_scratch2.slice (Rect.unit (s := S32) (k0_off4 c 1#32) S1.size h)).squeeze S_ squeezes_S1_S_).sem = recvS (shift c 1) := by
  rw [SemArray.slice_unit_congr _ (off4_1_eq c) h (sem_inb (shift c 1))]
theorem recvw_2_eq (c : Dev nD) (h : ∀ a, k0_off4 c 2#32 a + S1.size a ≤ S32.size a) :
    ((cc0_scratch2.slice (Rect.unit (s := S32) (k0_off4 c 2#32) S1.size h)).squeeze S_ squeezes_S1_S_).sem = recvS (shift c 2) := by
  rw [SemArray.slice_unit_congr _ (off4_2_eq c) h (sem_inb (shift c 2))]
theorem recvw_3_eq (c : Dev nD) (h : ∀ a, k0_off4 c 3#32 a + S1.size a ≤ S32.size a) :
    ((cc0_scratch2.slice (Rect.unit (s := S32) (k0_off4 c 3#32) S1.size h)).squeeze S_ squeezes_S1_S_).sem = recvS (shift c 3) := by
  rw [SemArray.slice_unit_congr _ (off4_3_eq c) h (sem_inb (shift c 3))]
theorem recvw_4_eq (c : Dev nD) (h : ∀ a, k0_off4 c 4#32 a + S1.size a ≤ S32.size a) :
    ((cc0_scratch2.slice (Rect.unit (s := S32) (k0_off4 c 4#32) S1.size h)).squeeze S_ squeezes_S1_S_).sem = recvS (shift c 4) := by
  rw [SemArray.slice_unit_congr _ (off4_4_eq c) h (sem_inb (shift c 4))]
theorem recvw_5_eq (c : Dev nD) (h : ∀ a, k0_off4 c 5#32 a + S1.size a ≤ S32.size a) :
    ((cc0_scratch2.slice (Rect.unit (s := S32) (k0_off4 c 5#32) S1.size h)).squeeze S_ squeezes_S1_S_).sem = recvS (shift c 5) := by
  rw [SemArray.slice_unit_congr _ (off4_5_eq c) h (sem_inb (shift c 5))]
theorem recvw_6_eq (c : Dev nD) (h : ∀ a, k0_off4 c 6#32 a + S1.size a ≤ S32.size a) :
    ((cc0_scratch2.slice (Rect.unit (s := S32) (k0_off4 c 6#32) S1.size h)).squeeze S_ squeezes_S1_S_).sem = recvS (shift c 6) := by
  rw [SemArray.slice_unit_congr _ (off4_6_eq c) h (sem_inb (shift c 6))]
theorem recvw_7_eq (c : Dev nD) (h : ∀ a, k0_off4 c 7#32 a + S1.size a ≤ S32.size a) :
    ((cc0_scratch2.slice (Rect.unit (s := S32) (k0_off4 c 7#32) S1.size h)).squeeze S_ squeezes_S1_S_).sem = recvS (shift c 7) := by
  rw [SemArray.slice_unit_congr _ (off4_7_eq c) h (sem_inb (shift c 7))]
theorem recvw_8_eq (c : Dev nD) (h : ∀ a, k0_off4 c 8#32 a + S1.size a ≤ S32.size a) :
    ((cc0_scratch2.slice (Rect.unit (s := S32) (k0_off4 c 8#32) S1.size h)).squeeze S_ squeezes_S1_S_).sem = recvS (shift c 8) := by
  rw [SemArray.slice_unit_congr _ (off4_8_eq c) h (sem_inb (shift c 8))]
theorem recvw_9_eq (c : Dev nD) (h : ∀ a, k0_off4 c 9#32 a + S1.size a ≤ S32.size a) :
    ((cc0_scratch2.slice (Rect.unit (s := S32) (k0_off4 c 9#32) S1.size h)).squeeze S_ squeezes_S1_S_).sem = recvS (shift c 9) := by
  rw [SemArray.slice_unit_congr _ (off4_9_eq c) h (sem_inb (shift c 9))]
theorem recvw_10_eq (c : Dev nD) (h : ∀ a, k0_off4 c 10#32 a + S1.size a ≤ S32.size a) :
    ((cc0_scratch2.slice (Rect.unit (s := S32) (k0_off4 c 10#32) S1.size h)).squeeze S_ squeezes_S1_S_).sem = recvS (shift c 10) := by
  rw [SemArray.slice_unit_congr _ (off4_10_eq c) h (sem_inb (shift c 10))]
theorem recvw_11_eq (c : Dev nD) (h : ∀ a, k0_off4 c 11#32 a + S1.size a ≤ S32.size a) :
    ((cc0_scratch2.slice (Rect.unit (s := S32) (k0_off4 c 11#32) S1.size h)).squeeze S_ squeezes_S1_S_).sem = recvS (shift c 11) := by
  rw [SemArray.slice_unit_congr _ (off4_11_eq c) h (sem_inb (shift c 11))]
theorem recvw_12_eq (c : Dev nD) (h : ∀ a, k0_off4 c 12#32 a + S1.size a ≤ S32.size a) :
    ((cc0_scratch2.slice (Rect.unit (s := S32) (k0_off4 c 12#32) S1.size h)).squeeze S_ squeezes_S1_S_).sem = recvS (shift c 12) := by
  rw [SemArray.slice_unit_congr _ (off4_12_eq c) h (sem_inb (shift c 12))]
theorem recvw_13_eq (c : Dev nD) (h : ∀ a, k0_off4 c 13#32 a + S1.size a ≤ S32.size a) :
    ((cc0_scratch2.slice (Rect.unit (s := S32) (k0_off4 c 13#32) S1.size h)).squeeze S_ squeezes_S1_S_).sem = recvS (shift c 13) := by
  rw [SemArray.slice_unit_congr _ (off4_13_eq c) h (sem_inb (shift c 13))]
theorem recvw_14_eq (c : Dev nD) (h : ∀ a, k0_off4 c 14#32 a + S1.size a ≤ S32.size a) :
    ((cc0_scratch2.slice (Rect.unit (s := S32) (k0_off4 c 14#32) S1.size h)).squeeze S_ squeezes_S1_S_).sem = recvS (shift c 14) := by
  rw [SemArray.slice_unit_congr _ (off4_14_eq c) h (sem_inb (shift c 14))]
theorem recvw_15_eq (c : Dev nD) (h : ∀ a, k0_off4 c 15#32 a + S1.size a ≤ S32.size a) :
    ((cc0_scratch2.slice (Rect.unit (s := S32) (k0_off4 c 15#32) S1.size h)).squeeze S_ squeezes_S1_S_).sem = recvS (shift c 15) := by
  rw [SemArray.slice_unit_congr _ (off4_15_eq c) h (sem_inb (shift c 15))]
theorem recvw_16_eq (c : Dev nD) (h : ∀ a, k0_off4 c 16#32 a + S1.size a ≤ S32.size a) :
    ((cc0_scratch2.slice (Rect.unit (s := S32) (k0_off4 c 16#32) S1.size h)).squeeze S_ squeezes_S1_S_).sem = recvS (shift c 16) := by
  rw [SemArray.slice_unit_congr _ (off4_16_eq c) h (sem_inb (shift c 16))]
theorem recvw_17_eq (c : Dev nD) (h : ∀ a, k0_off4 c 17#32 a + S1.size a ≤ S32.size a) :
    ((cc0_scratch2.slice (Rect.unit (s := S32) (k0_off4 c 17#32) S1.size h)).squeeze S_ squeezes_S1_S_).sem = recvS (shift c 17) := by
  rw [SemArray.slice_unit_congr _ (off4_17_eq c) h (sem_inb (shift c 17))]
theorem recvw_18_eq (c : Dev nD) (h : ∀ a, k0_off4 c 18#32 a + S1.size a ≤ S32.size a) :
    ((cc0_scratch2.slice (Rect.unit (s := S32) (k0_off4 c 18#32) S1.size h)).squeeze S_ squeezes_S1_S_).sem = recvS (shift c 18) := by
  rw [SemArray.slice_unit_congr _ (off4_18_eq c) h (sem_inb (shift c 18))]
theorem recvw_19_eq (c : Dev nD) (h : ∀ a, k0_off4 c 19#32 a + S1.size a ≤ S32.size a) :
    ((cc0_scratch2.slice (Rect.unit (s := S32) (k0_off4 c 19#32) S1.size h)).squeeze S_ squeezes_S1_S_).sem = recvS (shift c 19) := by
  rw [SemArray.slice_unit_congr _ (off4_19_eq c) h (sem_inb (shift c 19))]
theorem recvw_20_eq (c : Dev nD) (h : ∀ a, k0_off4 c 20#32 a + S1.size a ≤ S32.size a) :
    ((cc0_scratch2.slice (Rect.unit (s := S32) (k0_off4 c 20#32) S1.size h)).squeeze S_ squeezes_S1_S_).sem = recvS (shift c 20) := by
  rw [SemArray.slice_unit_congr _ (off4_20_eq c) h (sem_inb (shift c 20))]
theorem recvw_21_eq (c : Dev nD) (h : ∀ a, k0_off4 c 21#32 a + S1.size a ≤ S32.size a) :
    ((cc0_scratch2.slice (Rect.unit (s := S32) (k0_off4 c 21#32) S1.size h)).squeeze S_ squeezes_S1_S_).sem = recvS (shift c 21) := by
  rw [SemArray.slice_unit_congr _ (off4_21_eq c) h (sem_inb (shift c 21))]
theorem recvw_22_eq (c : Dev nD) (h : ∀ a, k0_off4 c 22#32 a + S1.size a ≤ S32.size a) :
    ((cc0_scratch2.slice (Rect.unit (s := S32) (k0_off4 c 22#32) S1.size h)).squeeze S_ squeezes_S1_S_).sem = recvS (shift c 22) := by
  rw [SemArray.slice_unit_congr _ (off4_22_eq c) h (sem_inb (shift c 22))]
theorem recvw_23_eq (c : Dev nD) (h : ∀ a, k0_off4 c 23#32 a + S1.size a ≤ S32.size a) :
    ((cc0_scratch2.slice (Rect.unit (s := S32) (k0_off4 c 23#32) S1.size h)).squeeze S_ squeezes_S1_S_).sem = recvS (shift c 23) := by
  rw [SemArray.slice_unit_congr _ (off4_23_eq c) h (sem_inb (shift c 23))]
theorem recvw_24_eq (c : Dev nD) (h : ∀ a, k0_off4 c 24#32 a + S1.size a ≤ S32.size a) :
    ((cc0_scratch2.slice (Rect.unit (s := S32) (k0_off4 c 24#32) S1.size h)).squeeze S_ squeezes_S1_S_).sem = recvS (shift c 24) := by
  rw [SemArray.slice_unit_congr _ (off4_24_eq c) h (sem_inb (shift c 24))]
theorem recvw_25_eq (c : Dev nD) (h : ∀ a, k0_off4 c 25#32 a + S1.size a ≤ S32.size a) :
    ((cc0_scratch2.slice (Rect.unit (s := S32) (k0_off4 c 25#32) S1.size h)).squeeze S_ squeezes_S1_S_).sem = recvS (shift c 25) := by
  rw [SemArray.slice_unit_congr _ (off4_25_eq c) h (sem_inb (shift c 25))]
theorem recvw_26_eq (c : Dev nD) (h : ∀ a, k0_off4 c 26#32 a + S1.size a ≤ S32.size a) :
    ((cc0_scratch2.slice (Rect.unit (s := S32) (k0_off4 c 26#32) S1.size h)).squeeze S_ squeezes_S1_S_).sem = recvS (shift c 26) := by
  rw [SemArray.slice_unit_congr _ (off4_26_eq c) h (sem_inb (shift c 26))]
theorem recvw_27_eq (c : Dev nD) (h : ∀ a, k0_off4 c 27#32 a + S1.size a ≤ S32.size a) :
    ((cc0_scratch2.slice (Rect.unit (s := S32) (k0_off4 c 27#32) S1.size h)).squeeze S_ squeezes_S1_S_).sem = recvS (shift c 27) := by
  rw [SemArray.slice_unit_congr _ (off4_27_eq c) h (sem_inb (shift c 27))]
theorem recvw_28_eq (c : Dev nD) (h : ∀ a, k0_off4 c 28#32 a + S1.size a ≤ S32.size a) :
    ((cc0_scratch2.slice (Rect.unit (s := S32) (k0_off4 c 28#32) S1.size h)).squeeze S_ squeezes_S1_S_).sem = recvS (shift c 28) := by
  rw [SemArray.slice_unit_congr _ (off4_28_eq c) h (sem_inb (shift c 28))]
theorem recvw_29_eq (c : Dev nD) (h : ∀ a, k0_off4 c 29#32 a + S1.size a ≤ S32.size a) :
    ((cc0_scratch2.slice (Rect.unit (s := S32) (k0_off4 c 29#32) S1.size h)).squeeze S_ squeezes_S1_S_).sem = recvS (shift c 29) := by
  rw [SemArray.slice_unit_congr _ (off4_29_eq c) h (sem_inb (shift c 29))]
theorem recvw_30_eq (c : Dev nD) (h : ∀ a, k0_off4 c 30#32 a + S1.size a ≤ S32.size a) :
    ((cc0_scratch2.slice (Rect.unit (s := S32) (k0_off4 c 30#32) S1.size h)).squeeze S_ squeezes_S1_S_).sem = recvS (shift c 30) := by
  rw [SemArray.slice_unit_congr _ (off4_30_eq c) h (sem_inb (shift c 30))]
theorem recvw_31_eq (c : Dev nD) (h : ∀ a, k0_off4 c 31#32 a + S1.size a ≤ S32.size a) :
    ((cc0_scratch2.slice (Rect.unit (s := S32) (k0_off4 c 31#32) S1.size h)).squeeze S_ squeezes_S1_S_).sem = recvS (shift c 31) := by
  rw [SemArray.slice_unit_congr _ (off4_31_eq c) h (sem_inb (shift c 31))]

end Cert.KernelIdealRun

end
-- ==== Proof.KernelIdealRun.Steps.lean ====
/- One thread's body, step by step. Each of the four kinds of remote step — the signal to a peer's barrier cell, the
   copy of the device's own row to a peer, the wait for a peer's row, the wait for a copy to have been read out — is
   stated once at a symbolic offset `d`, over what is left for the offsets still to come (a list). -/
import proofs.«901066_g7700000000001067_dist_softmax_colshard_i_m512_n256_v7x_i32_bf16_1_alg».proof.Proof.KernelIdealRun.State
import proofs.«901066_g7700000000001067_dist_softmax_colshard_i_m512_n256_v7x_i32_bf16_1_alg».proof.Proof.KernelIdealRun.Rows
import proofs.«901066_g7700000000001067_dist_softmax_colshard_i_m512_n256_v7x_i32_bf16_1_alg».proof.Proof.KernelIdealRun.Levels
import proofs.«901066_g7700000000001067_dist_softmax_colshard_i_m512_n256_v7x_i32_bf16_1_alg».proof.Proof.KernelIdealRun.SemTable

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- An offset as a semaphore index. -/
def fo (d : ℕ) : Fin 32 := shift (0 : Dev nD) d

/-- The left and the right of a separating conjunction alone. -/
theorem sepL {M : Type _} [URA M] {P Q : sProp M} : iprop(P ∗ Q) ⊢ P := by iintro ⟨H, -⟩; iexact H
theorem sepR {M : Type _} [URA M] {P Q : sProp M} : iprop(P ∗ Q) ⊢ Q := by iintro ⟨-, H⟩; iexact H

section Access
variable (K : GSem nD τ sig → ℕ)

theorem inv_bar (t : Dev nD) : records m ρ K ⊢ cellInv ER (Rd m ρ) (K (barCell t)) (barCell t) := by
  unfold records
  exact sepL.trans ((bigSep_elim (Finset.mem_univ t)).trans sepL)
theorem inv_send (t : Dev nD) (d : Fin 32) : records m ρ K ⊢ cellInv ER (Rd m ρ) (K (sendCell t d)) (sendCell t d) := by
  unfold records
  exact sepL.trans ((bigSep_elim (Finset.mem_univ t)).trans (sepR.trans (sepL.trans (bigSep_elim (Finset.mem_univ d)))))
theorem inv_recv (t : Dev nD) (j : Fin 32) : records m ρ K ⊢ cellInv ER (Rd m ρ) (K (recvCell t j)) (recvCell t j) := by
  unfold records
  exact sepL.trans ((bigSep_elim (Finset.mem_univ t)).trans (sepR.trans (sepR.trans (bigSep_elim (Finset.mem_univ j)))))
theorem reached_bar (t : Dev nD) : records m ρ K ⊢ reached ER (barCell t) 0 := by
  unfold records
  exact sepR.trans ((bigSep_elim (Finset.mem_univ t)).trans sepL)
theorem reached_send (t : Dev nD) (d : Fin 32) : records m ρ K ⊢ reached ER (sendCell t d) 0 := by
  unfold records
  exact sepR.trans ((bigSep_elim (Finset.mem_univ t)).trans (sepR.trans (sepL.trans (bigSep_elim (Finset.mem_univ d)))))
theorem reached_recv (t : Dev nD) (j : Fin 32) : records m ρ K ⊢ reached ER (recvCell t j) 0 := by
  unfold records
  exact sepR.trans ((bigSep_elim (Finset.mem_univ t)).trans (sepR.trans (sepR.trans (bigSep_elim (Finset.mem_univ j)))))

end Access

/-- The chain over a list with a head is the head's assertion beside the tail's chain. -/
theorem bigSepL_cons' {M : Type _} [URA M] {I : Type _} (i : I) (l : List I) (Φ : I → sProp M) :
    bigSepL (i :: l) Φ = iprop(Φ i ∗ bigSepL l Φ) := bigSepL_cons i l Φ

/-- Every row's transfer credit is the one amount. -/
theorem row_credit_local (j : Dev nD) : (rowM j : Memref sig .tc .vmem S2x512 .f32).view.dmaCredit = N := by
  first | rfl | (revert j; decide)

section Steps
variable (K : GSem nD τ sig → ℕ) (c : Dev nD)

/-- What the signal to the peer at offset `d` spends: that peer's barrier duty named `c`, and row `shift c d` of
    `c`'s own buffer, which goes to that peer. -/
def sigRes (d : ℕ) : sProp 𝕄 := iprop(dutyTok ER (barCell (shift c d)) 0 c ∗ ∃ f, rowPts (F := F) c (shift c d) fullShare f)

/-- THE SIGNAL to the peer at offset `d`. -/
theorem step_signal (d : ℕ) (hd1 : 1 ≤ d) (hd : d < 32) (ds : List ℕ) (W : Waits sig Unit)
    {α : Type} {Q : α → sProp 𝕄} {k : PUnit → Prog (TpuEff nD τ sig (Elt F) Λ₀ .tc) α} :
    iprop(records m ρ K ∗ owes (c : Thread nD τ) (owedRecv c offs + owedBar c (d :: ds)) W ∗ bigSepL (d :: ds) (sigRes (F := F) c))
      ⊢ iprop((iprop(owes (c : Thread nD τ) (owedRecv c offs + owedBar c ds) W ∗ bigSepL ds (sigRes (F := F) c))
            -∗ wp frame (wpE' (defs₀ (F := F)) 𝒱₀ (c : Thread nD τ) none PendingWaitsCtx.empty) Set.univ (k ⟨⟩) Q)
          -∗ wp frame (wpE' (defs₀ (F := F)) 𝒱₀ (c : Thread nD τ) none PendingWaitsCtx.empty) Set.univ (.op (.semSignal (shift c d : Thread nD τ) barS (1#32).toNat) k) Q) := by
  rw [show bigSepL (d :: ds) (sigRes (F := F) c) = iprop(sigRes (F := F) c d ∗ bigSepL ds (sigRes (F := F) c)) from bigSepL_cons _ _ _]
  unfold sigRes
  iintro ⟨#HR, HO, ⟨Htok, %f, Hrow⟩, Hres⟩ Hk
  have hne : shift c d ≠ c := shift_ne_self c hd1 hd
  iapply (Rounds.wp_signal 𝒱₀ ER (Rd m ρ) (c : Thread nD τ) none (dst := (shift c d : Thread nD τ)) (sem := barS) (r := 0) (d := c)
      (κ := K (barCell (shift c d)))
      (by rw [duties_bar]; exact Finset.mem_erase.mpr ⟨hne.symm, Finset.mem_univ _⟩)
      ((amount_bar m ρ (shift c d) 0 c).trans (by decide)) () (owedRecv c offs + owedBar c ds)
      (by
        show owedRecv c offs + (owedBar c ds + tallyAt (barCell (shift c d)) () 1) = _
        exact (add_assoc _ _ _).symm) (W := W))
    $$ [HO Htok Hrow]
  · isplitr; · iapply (inv_bar m ρ K (shift c d)); iexact HR
    isplitl [HO]; · iexact HO
    isplitl [Htok]; · iexact Htok
    isplitl [Hrow]
    · rw [payload_bar]; unfold barPay
      isplitl [Hrow]; · iexists f; iexact Hrow
      iapply (reached_recv m ρ K c (shift c d)); iexact HR
    · iapply (reached_bar m ρ K (shift c d)); iexact HR
  iintro HO
  iapply Hk
  isplitl [HO]; · iexact HO
  iexact Hres

/-- What the copy to the peer at offset `d` spends: that peer's row `c` (it came with the peer's barrier signal), the
    peer's receive-for-`c` duty, `c`'s own send duty `d`, and the share of `c`'s own row this copy reads. -/
def sendRes (d : ℕ) : sProp 𝕄 :=
  iprop((∃ f, rowPts (F := F) (shift c d) c fullShare f) ∗ dutyTok ER (recvCell (shift c d) c) 0 0
    ∗ dutyTok ER (sendCell c (fo d)) 0 0 ∗ rowPts c c (Transfers.shareTok fullShare 32 (fo d)) (allStats m ρ))

/-- The credit a copy leaves on its send cell. -/
def sendCred (d : ℕ) : sProp 𝕄 := cred (tallyAt (sendCell c (fo d)) () N)

/-- THE COPY of `c`'s own row into row `c` of the peer at offset `d`. -/
theorem step_send (d : ℕ) (hd1 : 1 ≤ d) (hd : d < 32) (ds : List ℕ) (W : Waits sig Unit)
    {hsc : (rowM c : Memref sig (Dev.tc (shift c d) : Thread nD τ).2.kind .vmem S2x512 .f32).view.ref.isScScratch = false}
    {hsrc : (rowM c : Memref sig .tc .vmem S2x512 .f32).view.WordExact} {hdst : (rowM c : Memref sig .tc .vmem S2x512 .f32).view.WordExact}
    {hsem : DmaTarget.Typed .vmem (.dma (recvS c)) (.remote (Dev.tc (shift c d) : Thread nD τ) (rowM c : Memref sig .tc .vmem S2x512 .f32) (.dma (sendS (fo d))) hsc)}
    {α : Type} {Q : α → sProp 𝕄} {k : PUnit → Prog (TpuEff nD τ sig (Elt F) Λ₀ .tc) α} :
    iprop(records m ρ K ∗ owes (c : Thread nD τ) (owedRecv c (d :: ds)) W ∗ bigSepL (d :: ds) (sendRes m ρ c))
      ⊢ iprop((iprop(owes (c : Thread nD τ) (owedRecv c ds) W ∗ bigSepL ds (sendRes m ρ c) ∗ sendCred (F := F) c d)
            -∗ wp frame (wpE' (defs₀ (F := F)) 𝒱₀ (c : Thread nD τ) none PendingWaitsCtx.empty) Set.univ (k ⟨⟩) Q)
          -∗ wp frame (wpE' (defs₀ (F := F)) 𝒱₀ (c : Thread nD τ) none PendingWaitsCtx.empty) Set.univ
              (.op (.enqueueDma (rowM c) (.remote (Dev.tc (shift c d) : Thread nD τ) (rowM c) (.dma (sendS (fo d))) hsc) (.dma (recvS c)) hsrc hdst hsem) k) Q) := by
  rw [show bigSepL (d :: ds) (sendRes m ρ c) = iprop(sendRes m ρ c d ∗ bigSepL ds (sendRes m ρ c)) from bigSepL_cons _ _ _]
  unfold sendRes
  iintro ⟨#HR, HO, ⟨⟨%f, Hdst⟩, HtokR, HtokS, Hsrc⟩, Hres⟩ Hk
  have hne : shift c d ≠ c := shift_ne_self c hd1 hd
  have hfo : fo d ≠ 0 := shift_ne_self (0 : Dev nD) hd1 hd
  unfold rowPts
  iapply (Rounds.wp_send_pointsTo 𝒱₀ ER (Rd m ρ) (c : Thread nD τ) none (c' := (shift c d : Thread nD τ)) (src := rowM c) (dst := rowM c)
      (q := Transfers.shareTok fullShare 32 (fo d)) (fs := allStats m ρ) (fd := f)
      (sS := .dma (sendS (fo d))) (sem := .dma (recvS c)) (r₁ := 0) (r₂ := 0) (d₁ := 0) (d₂ := 0)
      (κ₁ := K (sendCell c (fo d))) (κ₂ := K (recvCell (shift c d) c))
      (by rw [duties_send m ρ c (fo d) hfo]; exact Finset.mem_singleton_self _)
      (by rw [duties_recv m ρ (shift c d) c hne.symm]; exact Finset.mem_singleton_self _)
      () () N (row_amount c (recvS c)) (amount_send m ρ c (fo d) 0 0) (amount_recv m ρ (shift c d) c 0 0)
      (owedRecv c ds) rfl (W := W)
      (by rw [payload_send]; unfold sendPay rowPts; exact .rfl)
      (by
        rw [payload_recv]; unfold recvPay rowPts
        exact Entails.of_eq (pointsTo_congr fun i hi => landed_val c f (allStats m ρ) i hi)))
    $$ [HO Hdst HtokR HtokS Hsrc]
  · isplitr; · iapply (inv_send m ρ K c (fo d)); iexact HR
    isplitr; · iapply (inv_recv m ρ K (shift c d) c); iexact HR
    isplitl [Hsrc]; · iexact Hsrc
    isplitl [Hdst]; · iexact Hdst
    isplitl [HO]; · iexact HO
    isplitl [HtokS]; · iexact HtokS
    isplitr; · iapply (reached_send m ρ K c (fo d)); iexact HR
    isplitl [HtokR]; · iexact HtokR
    iapply (reached_recv m ρ K (shift c d) c); iexact HR
  iintro ⟨Hc, HO⟩
  iapply Hk
  isplitl [HO]; · iexact HO
  isplitl [Hres]; · iexact Hres
  unfold sendCred
  iexact Hc

/-- What the wait for the peer at offset `d`'s row spends: the credit on the receive cell for that peer, and `c`'s
    position in that cell. -/
def recvRes (d : ℕ) : sProp 𝕄 :=
  iprop(cred (tallyAt (recvCell c (shift c d)) () N) ∗ atPos ER (recvCell c (shift c d)) 0 ∅ 0)
/-- What it leaves: row `shift c d` of `c`'s buffer at the gathered statistics, and the cell closed, its counter at zero. -/
def recvGot (d : ℕ) : sProp 𝕄 :=
  iprop(rowPts c (shift c d) fullShare (allStats m ρ) ∗ semVal (recvCell c (shift c d)) 0)

/-- THE WAIT for the row of the peer at offset `d`, owing nothing. -/
theorem step_recv_wait (d : ℕ) (hd1 : 1 ≤ d) (hd : d < 32) (ds : List ℕ) (W : Waits sig Unit)
    {sp' : Space} {s' : Shape} {e' : EltTy} {src : Memref sig .tc sp' s' e'} {hsrc : src.view.WordExact}
    {hdst : (rowM (shift c d) : Memref sig .tc .vmem S2x512 .f32).view.WordExact}
    {α : Type} {Q : α → sProp 𝕄} {k : PUnit → Prog (TpuEff nD τ sig (Elt F) Λ₀ .tc) α} :
    iprop(records m ρ K ∗ owes (c : Thread nD τ) 0 W ∗ bigSepL (d :: ds) (recvRes (F := F) c))
      ⊢ iprop((iprop((∃ W', owes (c : Thread nD τ) 0 W') ∗ bigSepL ds (recvRes (F := F) c) ∗ recvGot m ρ c d)
            -∗ wp frame (wpE' (defs₀ (F := F)) 𝒱₀ (c : Thread nD τ) none PendingWaitsCtx.empty) Set.univ (k ⟨⟩) Q)
          -∗ wp frame (wpE' (defs₀ (F := F)) 𝒱₀ (c : Thread nD τ) none PendingWaitsCtx.empty) Set.univ (.op (.waitDma2 (recvS (shift c d)) src (rowM (shift c d)) hsrc hdst) k) Q) := by
  have hne : shift c d ≠ c := shift_ne_self c hd1 hd
  rw [bigSepL_cons', show recvRes (F := F) c d
      = iprop(cred (tallyAt (recvCell c (shift c d)) () N) ∗ atPos ER (recvCell c (shift c d)) 0 ∅ 0) from rfl]
  iintro ⟨#HR, HO, ⟨Hc, Hat⟩, Hrest⟩ Hk
  ihave #HI := (inv_recv m ρ K c (shift c d)) $$ HR
  iapply (Rounds.wp_wait_rest_token 𝒱₀ ER (Rd m ρ) (c : Thread nD τ) none (κ := K (recvCell c (shift c d)))
      (sm := .dma (recvS (shift c d))) (k' := (rowM (shift c d) : Memref sig .tc .vmem S2x512 .f32).view.dmaCredit)
      (wpE_waitDma2_eq 𝒱₀ (c : Thread nD τ) none Set.univ) (Set.mem_univ _) () (O := 0) (W := W) (R := 0) (m := 0) (T := ∅)
      (by rw [Nat.zero_add, expect_recv m ρ c (shift c d) hne] <;> exact row_credit_local _)) $$ [Hc HO Hat]
  · isplitr; · iexact HI
    isplitl [Hc]; · rw [row_credit_local]; iexact Hc
    isplitl [HO]; · iexact HO
    isplitr; · rw [MayWait_zero]; iempintro
    iexact Hat
  iintro ⟨HO, Hat, -, Hpay⟩
  ihave Hrow := (Entails.of_eq (rest_recv m ρ c (shift c d) hne)) $$ Hpay
  imod (Rounds.cell_close ER (Rd m ρ) (Set.mem_univ (K (recvCell c (shift c d)))) (fun h => h) (R := 0 + 1)
      (duties_later m ρ (recvCell c (shift c d)))) $$ [Hat] with Hz
  · isplitr; · iexact HI
    iexact Hat
  iapply Hk
  isplitl [HO]; · iexists _; iexact HO
  isplitl [Hrest]; · iexact Hrest
  unfold recvGot recvPay
  isplitl [Hrow]; · iexact Hrow
  iexact Hz

/-- What the wait for the copy at offset `d` to have been read out spends, -/
def sendWaitRes (d : ℕ) : sProp 𝕄 :=
  iprop(sendCred (F := F) c d ∗ atPos ER (sendCell c (fo d)) 0 ∅ 0)
/-- and what it leaves: the share of the own row that copy read, back, and the cell closed. -/
def sendGot (d : ℕ) : sProp 𝕄 :=
  iprop(rowPts c c (Transfers.shareTok fullShare 32 (fo d)) (allStats m ρ) ∗ semVal (sendCell c (fo d)) 0)

/-- THE WAIT for the copy at offset `d` to have been read out of the own row, owing nothing. -/
theorem step_send_wait (d : ℕ) (hd1 : 1 ≤ d) (hd : d < 32) (ds : List ℕ) (W : Waits sig Unit)
    {sp' : Space} {s' : Shape} {e' : EltTy} {src : Memref sig .tc sp' s' e'} {hsrc : src.view.WordExact}
    {hdst : (rowM c : Memref sig .tc .vmem S2x512 .f32).view.WordExact}
    {α : Type} {Q : α → sProp 𝕄} {k : PUnit → Prog (TpuEff nD τ sig (Elt F) Λ₀ .tc) α} :
    iprop(records m ρ K ∗ owes (c : Thread nD τ) 0 W ∗ bigSepL (d :: ds) (sendWaitRes (F := F) c))
      ⊢ iprop((iprop((∃ W', owes (c : Thread nD τ) 0 W') ∗ bigSepL ds (sendWaitRes (F := F) c) ∗ sendGot m ρ c d)
            -∗ wp frame (wpE' (defs₀ (F := F)) 𝒱₀ (c : Thread nD τ) none PendingWaitsCtx.empty) Set.univ (k ⟨⟩) Q)
          -∗ wp frame (wpE' (defs₀ (F := F)) 𝒱₀ (c : Thread nD τ) none PendingWaitsCtx.empty) Set.univ (.op (.waitDma2 (sendS (fo d)) src (rowM c) hsrc hdst) k) Q) := by
  have hfo : fo d ≠ 0 := shift_ne_self (0 : Dev nD) hd1 hd
  rw [bigSepL_cons', show sendWaitRes (F := F) c d
      = iprop(cred (tallyAt (sendCell c (fo d)) () N) ∗ atPos ER (sendCell c (fo d)) 0 ∅ 0) from rfl]
  iintro ⟨#HR, HO, ⟨Hc, Hat⟩, Hrest⟩ Hk
  ihave #HI := (inv_send m ρ K c (fo d)) $$ HR
  iapply (Rounds.wp_wait_rest_token 𝒱₀ ER (Rd m ρ) (c : Thread nD τ) none (κ := K (sendCell c (fo d)))
      (sm := .dma (sendS (fo d))) (k' := (rowM c : Memref sig .tc .vmem S2x512 .f32).view.dmaCredit)
      (wpE_waitDma2_eq 𝒱₀ (c : Thread nD τ) none Set.univ) (Set.mem_univ _) () (O := 0) (W := W) (R := 0) (m := 0) (T := ∅)
      (by rw [Nat.zero_add, expect_send m ρ c (fo d) hfo] <;> exact row_credit_local _)) $$ [Hc HO Hat]
  · isplitr; · iexact HI
    isplitl [Hc]; · rw [row_credit_local]; iexact Hc
    isplitl [HO]; · iexact HO
    isplitr; · rw [MayWait_zero]; iempintro
    iexact Hat
  iintro ⟨HO, Hat, -, Hpay⟩
  ihave Hrow := (Entails.of_eq (rest_send m ρ c (fo d) hfo)) $$ Hpay
  imod (Rounds.cell_close ER (Rd m ρ) (Set.mem_univ (K (sendCell c (fo d)))) (fun h => h) (R := 0 + 1)
      (duties_later m ρ (sendCell c (fo d)))) $$ [Hat] with Hz
  · isplitr; · iexact HI
    iexact Hat
  iapply Hk
  isplitl [HO]; · iexists _; iexact HO
  isplitl [Hrest]; · iexact Hrest
  unfold sendGot sendPay
  isplitl [Hrow]; · iexact Hrow
  iexact Hz

end Steps

end Cert.KernelIdealRun

end
-- ==== Proof.KernelIdealRun.Prep.lean ====
/- Regrouping what a device holds between the phases of its body: the families over its peers turned into lists over
   the offsets 1 … 31 that the steps consume one at a time; the shares of its own row that the thirty-one copies read;
   the buffer of statistics put together for the load of it all, and taken apart again. -/
import proofs.«901066_g7700000000001067_dist_softmax_colshard_i_m512_n256_v7x_i32_bf16_1_alg».proof.Proof.KernelIdealRun.Steps

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Lists -/

omit [FloatOps F] in
/-- A chain's head and tail, written with the separating conjunction of the logic's own notation. -/
theorem bigSepL_cons_sep (d : ℕ) (l : List ℕ) (A : ℕ → sProp 𝕄) : bigSepL (d :: l) A = iprop(A d ∗ bigSepL l A) := bigSepL_cons d l A

omit [FloatOps F] in
/-- A family over a device's peers is the family over the offsets 1 … 31, each peer named by its offset. -/
theorem peers_list' (c : Dev nD) (Φ : Dev nD → sProp 𝕄) :
    bigSep (Finset.univ.erase c) Φ = bigSepL offs (fun d => Φ (shift c d)) := by
  have hmem : ∀ d ∈ offs, 1 ≤ d ∧ d < 32 := by
    intro d hd; rw [List.mem_range'_1] at hd; omega
  have hnd : (offs.map (shift c)).Nodup := by
    refine List.Nodup.map_on ?_ (List.nodup_range' : offs.Nodup)
    intro d hd d' hd' h
    exact shift_inj c (hmem d hd).2 (hmem d' hd').2 h
  have hset : Finset.univ.erase c = (offs.map (shift c)).toFinset := by
    ext p
    rw [Finset.mem_erase, List.mem_toFinset, List.mem_map]
    constructor
    · intro hp
      exact ⟨offTo c p, List.mem_range'_1.mpr ⟨offTo_pos hp.1, by have := offTo_lt c p; omega⟩, shift_offTo c p⟩
    · rintro ⟨d, hd, rfl⟩
      exact ⟨shift_ne_self c (hmem d hd).1 (hmem d hd).2, Finset.mem_univ _⟩
  rw [bigSep_eq_bigSepL_of_eq _ hset hnd, bigSepL_map]

omit [FloatOps F] in
theorem bigSepL_sep (l : List ℕ) (A B : ℕ → sProp 𝕄) :
    (iprop(bigSepL l A ∗ bigSepL l B) : sProp 𝕄) ⊣⊢ bigSepL l (fun d => iprop(A d ∗ B d)) := by
  induction l with
  | nil => exact ⟨by iintro -; iempintro, by iintro -; isplitl <;> iempintro⟩
  | cons d l ih =>
    rw [bigSepL_cons_sep, bigSepL_cons_sep, bigSepL_cons_sep]
    constructor
    · iintro ⟨⟨Ha, Hla⟩, Hb, Hlb⟩
      isplitl [Ha Hb]
      · isplitl [Ha] <;> iassumption
      · iapply ih.1; isplitl [Hla] <;> iassumption
    · iintro ⟨⟨Ha, Hb⟩, Hl⟩
      ihave Hl' := ih.2 $$ Hl
      icases Hl' with ⟨Hla, Hlb⟩
      isplitl [Ha Hla]
      · isplitl [Ha] <;> iassumption
      · isplitl [Hb] <;> iassumption
omit [FloatOps F] in
theorem bigSepL_mono (l : List ℕ) (A B : ℕ → sProp 𝕄) (h : ∀ d ∈ l, A d ⊢ B d) : bigSepL l A ⊢ bigSepL l B := by
  induction l with
  | nil => exact .rfl
  | cons d l ih =>
    rw [bigSepL_cons_sep, bigSepL_cons_sep]
    exact (sep_mono_left (h d List.mem_cons_self)).trans (sep_mono_right (ih fun d' hd' => h d' (List.mem_cons_of_mem _ hd')))
omit [FloatOps F] in
/-- A chain with one more offset at its end. -/
theorem bigSepL_snoc (l : List ℕ) (d : ℕ) (A : ℕ → sProp 𝕄) : (bigSepL (l ++ [d]) A : sProp 𝕄) ⊣⊢ iprop(bigSepL l A ∗ A d) := by
  induction l with
  | nil =>
    show (A d : sProp 𝕄) ⊣⊢ iprop(emp ∗ A d)
    constructor
    · iintro H; isplitr
      · iempintro
      · iexact H
    · iintro ⟨-, H⟩; iexact H
  | cons x l ih =>
    rw [List.cons_append, bigSepL_cons_sep, bigSepL_cons_sep]
    constructor
    · iintro ⟨Hx, Hl⟩
      ihave Hl' := ih.1 $$ Hl
      icases Hl' with ⟨Hl, Hd⟩
      isplitl [Hx Hl]
      · isplitl [Hx] <;> iassumption
      · iexact Hd
    · iintro ⟨⟨Hx, Hl⟩, Hd⟩
      isplitl [Hx]; · iexact Hx
      iapply ih.2; isplitl [Hl] <;> iassumption
omit [FloatOps F] in
theorem bigSepL_reverse (l : List ℕ) (A : ℕ → sProp 𝕄) : (bigSepL l.reverse A : sProp 𝕄) ⊣⊢ bigSepL l A := by
  induction l with
  | nil => exact ⟨.rfl, .rfl⟩
  | cons x l ih =>
    rw [List.reverse_cons, bigSepL_cons_sep]
    constructor
    · refine (bigSepL_snoc _ x A).1.trans ?_
      iintro ⟨Hl, Hx⟩
      isplitl [Hx]; · iexact Hx
      iapply ih.1; iexact Hl
    · refine .trans ?_ (bigSepL_snoc _ x A).2
      iintro ⟨Hx, Hl⟩
      isplitl [Hl]
      · iapply ih.2; iexact Hl
      · iexact Hx

omit [FloatOps F] in
/-- A family over the nonzero semaphore indices is the family over the offsets 1 … 31. -/
theorem sends_list (Φ : Fin 32 → sProp 𝕄) :
    bigSep (Finset.univ.erase (0 : Fin 32)) Φ = bigSepL offs (fun d => Φ (fo d)) :=
  peers_list' (0 : Dev nD) Φ

omit [FloatOps F] in
theorem fo_ne_zero {d : ℕ} (hd1 : 1 ≤ d) (hd : d < 32) : fo d ≠ 0 := shift_ne_self (0 : Dev nD) hd1 hd

/-! ## Before the signals -/

section Prep
variable (c : Dev nD)

omit [FloatOps F] in
/-- The buffer of statistics held whole: the device's own row, and the rows it will hand to its peers. -/
theorem scratch_own (q : PosShare TreeShare) (f : (cc0_scratch0 : Ref sig .tc).ty.Contents (Elt F)) :
    ((((c : Thread nD τ).loc cc0_scratch0) ↦{q} f) : sProp 𝕄)
      ⊣⊢ iprop(rowPts c c q f ∗ bigSep (Finset.univ.erase c) fun t : Dev nD => rowPts c t q f) := by
  rw [scratch_rows, bigSep_univ_at _ c]

omit [FloatOps F] in
/-- What the thirty-one signals spend, offset by offset. -/
theorem prep_signals (f : (cc0_scratch0 : Ref sig .tc).ty.Contents (Elt F)) :
    iprop((bigSep (Finset.univ.erase c) fun t : Dev nD => dutyTok ER (barCell t) 0 c)
        ∗ (bigSep (Finset.univ.erase c) fun t : Dev nD => rowPts (F := F) c t fullShare f))
      ⊢ bigSepL offs (sigRes (F := F) c) := by
  rw [← bigSep_sep', peers_list' c]
  refine bigSepL_mono _ _ _ fun d hd => ?_
  unfold sigRes
  iintro ⟨H1, H2⟩
  isplitl [H1]; · iexact H1
  iexists f; iexact H2

/-! ## The own row's shares -/

omit [FloatOps F] in
/-- The own row held in full: what stays with the device for its own loads, the token no copy uses, and one token for
    each of the thirty-one copies. -/
theorem own_row_shares (f : (cc0_scratch0 : Ref sig .tc).ty.Contents (Elt F)) :
    (rowPts c c fullShare f : sProp 𝕄)
      ⊣⊢ iprop(rowPts c c (Transfers.shareDrop fullShare 32) f ∗ rowPts c c (Transfers.shareTok fullShare 32 0) f
          ∗ bigSepL offs (fun d => rowPts c c (Transfers.shareTok fullShare 32 (fo d)) f)) := by
  have h : (rowPts c c fullShare f : sProp 𝕄)
      ⊣⊢ iprop(rowPts c c (Transfers.shareDrop fullShare 32) f
          ∗ bigSep Finset.univ (fun i : Fin 32 => rowPts c c (Transfers.shareTok fullShare 32 i) f)) :=
    Transfers.pointsTo_toks fullShare 32
  rw [bigSep_univ_at _ (0 : Fin 32), sends_list] at h
  exact h

/-! ## Before the copies, before the waits -/

/-- What the thirty-one copies spend, offset by offset: the peers' rows that came with their barrier signals, the
    tokens of the duties the copies pay, and the shares of the own row they read. -/
theorem prep_sends :
    iprop((bigSep (Finset.univ.erase c) fun p : Dev nD => barPay (F := F) c p)
        ∗ (bigSep (Finset.univ.erase c) fun t : Dev nD => dutyTok ER (recvCell t c) 0 0)
        ∗ (bigSep (Finset.univ.erase (0 : Fin 32)) fun d : Fin 32 => dutyTok ER (sendCell c d) 0 0)
        ∗ bigSepL offs (fun d => rowPts c c (Transfers.shareTok fullShare 32 (fo d)) (allStats m ρ)))
      ⊢ bigSepL offs (sendRes m ρ c) := by
  rw [peers_list' c, peers_list' c, sends_list]
  refine (sep_mono_right (sep_mono_right (bigSepL_sep offs _ _).1)).trans ?_
  refine (sep_mono_right (bigSepL_sep offs _ _).1).trans ?_
  refine (bigSepL_sep offs _ _).1.trans (bigSepL_mono _ _ _ fun d hd => ?_)
  unfold sendRes barPay
  iintro ⟨⟨H1, -⟩, H2, H3, H4⟩
  isplitl [H1]; · iexact H1
  isplitl [H2]; · iexact H2
  isplitl [H3]; · iexact H3
  iexact H4

omit [FloatOps F] in
theorem prep_recvs :
    iprop((bigSep (Finset.univ.erase c) fun j : Dev nD => cred (tallyAt (recvCell c j) () N))
        ∗ (bigSep (Finset.univ.erase c) fun j : Dev nD => atPos ER (recvCell c j) 0 ∅ 0))
      ⊢ bigSepL offs (recvRes (F := F) c) := by
  rw [← bigSep_sep', peers_list' c]
  refine bigSepL_mono _ _ _ fun d hd => ?_
  unfold recvRes
  exact .rfl

omit [FloatOps F] in
theorem prep_send_waits :
    iprop(bigSepL offs (sendCred (F := F) c)
        ∗ (bigSep (Finset.univ.erase (0 : Fin 32)) fun d : Fin 32 => atPos ER (sendCell c d) 0 ∅ 0))
      ⊢ bigSepL offs (sendWaitRes (F := F) c) := by
  rw [sends_list]
  refine (bigSepL_sep offs _ _).1.trans (bigSepL_mono _ _ _ fun d hd => ?_)
  unfold sendWaitRes
  exact .rfl

/-! ## The gathered buffer -/

/-- After the receive waits: the whole buffer at the share the device kept of its own row, holding the gathered
    statistics — enough to load it —, and the way back to the rows in full. -/
theorem gather (W : (cc0_scratch0 : Ref sig .tc).ty.Contents (Elt F)) (hW : W = allStats m ρ) :
    iprop(rowPts c c (Transfers.shareDrop fullShare 32) W
        ∗ bigSepL offs (fun d => rowPts c (shift c d) fullShare W))
      ⊢ iprop(((((c : Thread nD τ).loc cc0_scratch0) ↦{Transfers.shareDrop fullShare 32} W) : sProp 𝕄)
          ∗ (((((c : Thread nD τ).loc cc0_scratch0) ↦{Transfers.shareDrop fullShare 32} W) : sProp 𝕄)
              -∗ iprop(rowPts c c (Transfers.shareDrop fullShare 32) W
                  ∗ bigSep (Finset.univ.erase c) fun t : Dev nD => rowPts c t fullShare W))) := by
  have hsplit : ∀ t : Dev nD, (rowPts c t fullShare W : sProp 𝕄)
      = iprop(rowPts c t (Transfers.shareDrop fullShare 32) W
          ∗ bigSep Finset.univ (fun i : Fin 32 => rowPts c t (Transfers.shareTok fullShare 32 i) W)) := fun t =>
    BI.Entails.antisymm (Transfers.pointsTo_toks fullShare 32).1 (Transfers.pointsTo_toks fullShare 32).2
  have key : (iprop(rowPts c c (Transfers.shareDrop fullShare 32) W
          ∗ bigSep (Finset.univ.erase c) fun t : Dev nD => rowPts c t fullShare W) : sProp 𝕄)
      = iprop(((((c : Thread nD τ).loc cc0_scratch0) ↦{Transfers.shareDrop fullShare 32} W) : sProp 𝕄)
          ∗ bigSep (Finset.univ.erase c) fun t : Dev nD =>
              bigSep Finset.univ (fun i : Fin 32 => rowPts c t (Transfers.shareTok fullShare 32 i) W)) := by
    rw [bigSep_congr (fun t _ => hsplit t), bigSep_sep', BI.Entails.antisymm (scratch_own c (Transfers.shareDrop fullShare 32) W).1 (scratch_own c (Transfers.shareDrop fullShare 32) W).2]
    refine BI.Entails.antisymm (show _ ⊢ (_ : sProp 𝕄) from ?_) (show _ ⊢ (_ : sProp 𝕄) from ?_)
    · iintro ⟨H1, H2, H3⟩
      isplitl [H1 H2]
      · isplitl [H1] <;> iassumption
      · iexact H3
    · iintro ⟨⟨H1, H2⟩, H3⟩
      isplitl [H1]; · iexact H1
      isplitl [H2] <;> iassumption
  rw [← peers_list' c (fun t : Dev nD => rowPts (F := F) c t fullShare W), key]
  iintro ⟨HX, HF⟩
  isplitl [HX]; · iexact HX
  iintro HX
  isplitl [HX]; · iexact HX
  iexact HF

/-! ## At the end -/

omit [FloatOps F] in
theorem finish_send_sems :
    iprop(semVal (sendCell c 0) 0 ∗ bigSepL offs (fun d => (semVal (sendCell c (fo d)) 0 : sProp 𝕄)))
      ⊢ bigSep Finset.univ fun d : Fin 32 => (semVal (sendCell c d) 0 : sProp 𝕄) := by
  rw [bigSep_univ_at _ (0 : Fin 32), sends_list]
omit [FloatOps F] in
theorem finish_recv_sems :
    iprop(semVal (recvCell c c) 0 ∗ bigSepL offs (fun d => (semVal (recvCell c (shift c d)) 0 : sProp 𝕄)))
      ⊢ bigSep Finset.univ fun j : Fin 32 => (semVal (recvCell c j) 0 : sProp 𝕄) := by
  rw [bigSep_univ_at _ c, peers_list' c]

end Prep

end Cert.KernelIdealRun

end
-- ==== Proof.KernelIdealRun.Body.lean ====
/- One thread's body, from what the launch hands it to what it leaves: thirty-one signals, the local statistics,
   the barrier wait, thirty-one copies, thirty-one receive waits, the gathered statistics loaded and the result
   stored, thirty-one send waits. -/
import proofs.«901066_g7700000000001067_dist_softmax_colshard_i_m512_n256_v7x_i32_bf16_1_alg».proof.Proof.KernelIdealRun.Prep

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem offs_eq : offs = [1, 2, 3, 4, 5, 6, 7, 8, 9, 10, 11, 12, 13, 14, 15, 16, 17, 18, 19, 20, 21, 22, 23, 24, 25, 26, 27, 28, 29, 30, 31] := by decide

section Body
variable (K : GSem nD τ sig → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ launchCreds c ∗ levAts L lv ∗ ∃ f, (((c : Thread nD τ).loc cc0_scratch0) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

theorem fetch_0 (t : Fin cfg0.N) : (cfg0.win (0 : Fin 2)).fetch t = true := by rw [fin_N t]; rfl

abbrev r0 : Rect S512x256 := Rect.unit (s := S512x256) ![0, 0] S512x256.size inb_S512x256_S512x256_0_0
omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S512x256 .f32).view.readAt (Elt F) r0.toLoadRect f = f :=
  Memref.readAt_unit_zero (Elt F) cc0_stg0_0 hz _ f
omit [FloatOps F] in
theorem write_out (f w : (cc0_stg1_0 : Ref sig .tc).ty.Contents (Elt F)) :
    ((oM : Memref sig .tc .vmem S512x256 .f32).access r0 : View sig .tc _ _ _).write (Elt F) f w Finset.univ = w :=
  Memref.write_access_unit_zero_univ (Elt F) cc0_stg1_0 hz _ f w

set_option hygiene false in
macro "sig_step" d:num : tactic => `(tactic| (
  iapply (step_signal m ρ K c $d (by decide) (by decide) _ W) $$ [HO Hsig]
  · isplitr; · iexact HR
    isplitl [HO] <;> iassumption
  iintro ⟨HO, Hsig⟩))

omit [FloatOps F] in
theorem rev_eq : ([31, 30, 29, 28, 27, 26, 25, 24, 23, 22, 21, 20, 19, 18, 17, 16, 15, 14, 13, 12, 11, 10, 9, 8, 7, 6, 5, 4, 3, 2, 1] : List ℕ) = offs.reverse := by decide

/-- The copy step with the target device named by an equation (substituted, not rewritten: the transfer's typing
    evidence depends on the device). -/
theorem step_send' (c : Dev nD) (d : ℕ) (hd1 : 1 ≤ d) (hd : d < 32) (ds : List ℕ) (W : Waits sig Unit) (n : Dev nD) (hn : n = shift c d)
    {hsc : (rowM c : Memref sig (Dev.tc n : Thread nD τ).2.kind .vmem S2x512 .f32).view.ref.isScScratch = false}
    {hsrc : (rowM c : Memref sig .tc .vmem S2x512 .f32).view.WordExact} {hdst : (rowM c : Memref sig .tc .vmem S2x512 .f32).view.WordExact}
    {hsem : DmaTarget.Typed .vmem (.dma (recvS c)) (.remote (Dev.tc n : Thread nD τ) (rowM c : Memref sig .tc .vmem S2x512 .f32) (.dma (sendS (fo d))) hsc)}
    {α : Type} {Q : α → sProp 𝕄} {k : PUnit → Prog (TpuEff nD τ sig (Elt F) Λ₀ .tc) α} :
    iprop(records m ρ K ∗ owes (c : Thread nD τ) (owedRecv c (d :: ds)) W ∗ bigSepL (d :: ds) (sendRes m ρ c))
      ⊢ iprop((iprop(owes (c : Thread nD τ) (owedRecv c ds) W ∗ bigSepL ds (sendRes m ρ c) ∗ sendCred (F := F) c d)
            -∗ wp frame (wpE' (defs₀ (F := F)) 𝒱₀ (c : Thread nD τ) none PendingWaitsCtx.empty) Set.univ (k ⟨⟩) Q)
          -∗ wp frame (wpE' (defs₀ (F := F)) 𝒱₀ (c : Thread nD τ) none PendingWaitsCtx.empty) Set.univ
              (.op (.enqueueDma (rowM c) (.remote (Dev.tc n : Thread nD τ) (rowM c) (.dma (sendS (fo d))) hsc) (.dma (recvS c)) hsrc hdst hsem) k) Q) := by
  subst hn
  exact step_send m ρ K c d hd1 hd ds W

open Lean in
set_option hygiene false in
macro "send_step" d:num : tactic => do
  let id := mkIdent (Name.mkSimple s!"dev{d.getNat + 31}_eq")
  `(tactic| (
  iapply (step_send' m ρ K c $d (by decide) (by decide) _ _ _ ($id c)) $$ [HO Hsend]
  · isplitr; · iexact HR
    isplitl [HO] <;> iassumption
  iintro ⟨HO, Hsend, Hc1⟩
  ihave Hcr := (Entails.of_eq (bigSepL_cons' $d _ (sendCred (F := F) c)).symm) $$ [Hc1 Hcr]
  · isplitl [Hc1] <;> iassumption))

set_option hygiene false in
macro "recv_step" d:num : tactic => `(tactic| (
  iapply (step_recv_wait m ρ K c $d (by decide) (by decide) _ _) $$ [HO Hrecv]
  · isplitr; · iexact HR
    isplitl [HO] <;> iassumption
  iintro ⟨⟨%W', HO⟩, Hrecv, Hg1⟩
  ihave Hgot := (Entails.of_eq (bigSepL_cons' $d _ (recvGot m ρ c)).symm) $$ [Hg1 Hgot]
  · isplitl [Hg1] <;> iassumption))

set_option hygiene false in
macro "sendw_step" d:num : tactic => `(tactic| (
  iapply (step_send_wait m ρ K c $d (by decide) (by decide) _ _) $$ [HO Hsw]
  · isplitr; · iexact HR
    isplitl [HO] <;> iassumption
  iintro ⟨⟨%W', HO⟩, Hsw, Hg1⟩
  ihave Hsgot := (Entails.of_eq (bigSepL_cons' $d _ (sendGot m ρ c)).symm) $$ [Hg1 Hsgot]
  · isplitl [Hg1] <;> iassumption))

attribute [local sl_rounds] duties_bar amount_bar payload_bar expect_bar barPay rowPts

set_option maxRecDepth 100000 in
set_option maxHeartbeats 16000000 in
/-- The body, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel,
    semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c, dev11_eq c, dev12_eq c, dev13_eq c, dev14_eq c, dev15_eq c, dev16_eq c, dev17_eq c, dev18_eq c, dev19_eq c, dev20_eq c, dev21_eq c, dev22_eq c, dev23_eq c, dev24_eq c, dev25_eq c, dev26_eq c, dev27_eq c, dev28_eq c, dev29_eq c, dev30_eq c, dev31_eq c, dev32_eq c, dev33_eq c, dev34_eq c, dev35_eq c, dev36_eq c, dev37_eq c, dev38_eq c, dev39_eq c, dev40_eq c, dev41_eq c, dev42_eq c, dev43_eq c, dev44_eq c, dev45_eq c, dev46_eq c, dev47_eq c, dev48_eq c, dev49_eq c, dev50_eq c, dev51_eq c, dev52_eq c, dev53_eq c, dev54_eq c, dev55_eq c, dev56_eq c, dev57_eq c, dev58_eq c, dev59_eq c, dev60_eq c, dev61_eq c, dev62_eq c, rowP3_eq c, recvOwn_eq c, rowP5_1_eq c, rowP5_2_eq c, rowP5_3_eq c, rowP5_4_eq c, rowP5_5_eq c, rowP5_6_eq c, rowP5_7_eq c, rowP5_8_eq c, rowP5_9_eq c, rowP5_10_eq c, rowP5_11_eq c, rowP5_12_eq c, rowP5_13_eq c, rowP5_14_eq c, rowP5_15_eq c, rowP5_16_eq c, rowP5_17_eq c, rowP5_18_eq c, rowP5_19_eq c, rowP5_20_eq c, rowP5_21_eq c, rowP5_22_eq c, rowP5_23_eq c, rowP5_24_eq c, rowP5_25_eq c, rowP5_26_eq c, rowP5_27_eq c, rowP5_28_eq c, rowP5_29_eq c, rowP5_30_eq c, rowP5_31_eq c, recvw_1_eq c, recvw_2_eq c, recvw_3_eq c, recvw_4_eq c, recvw_5_eq c, recvw_6_eq c, recvw_7_eq c, recvw_8_eq c, recvw_9_eq c, recvw_10_eq c, recvw_11_eq c, recvw_12_eq c, recvw_13_eq c, recvw_14_eq c, recvw_15_eq c, recvw_16_eq c, recvw_17_eq c, recvw_18_eq c, recvw_19_eq c, recvw_20_eq c, recvw_21_eq c, recvw_22_eq c, recvw_23_eq c, recvw_24_eq c, recvw_25_eq c, recvw_26_eq c, recvw_27_eq c, recvw_28_eq c, recvw_29_eq c, recvw_30_eq c, recvw_31_eq c]
  unfold bodyPre ghost linear launchCreds
  iintro ⟨⟨⟨⟨#HR, ⟨HatB, HatS, HatV⟩, HtB, HtV, HtS⟩, ⟨HcB, HcV⟩, #Hlev, ⟨%f0, Hscr⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  ihave HO := (Entails.of_eq (congrArg (fun O => (owes (c : Thread nD τ) O W : sProp 𝕄))
    (show (dats m ρ 0 c).owed t₀.castSucc = owedRecv c offs + owedBar c [1, 2, 3, 4, 5, 6, 7, 8, 9, 10, 11, 12, 13, 14, 15, 16, 17, 18, 19, 20, 21, 22, 23, 24, 25, 26, 27, 28, 29, 30, 31] from congrArg (fun l => owedRecv c offs + owedBar c l) offs_eq))) $$ HO
  -- the buffer of statistics: the own row, and the rows that go to the peers with the signals
  ihave Hrows := (scratch_own c fullShare f0).1 $$ Hscr
  icases Hrows with ⟨Hown, Hpeers⟩
  ihave Hsig := (prep_signals c f0) $$ [HtB Hpeers]
  · isplitl [HtB] <;> iassumption
  ihave Hsig := (Entails.of_eq (congrArg (fun l => (bigSepL l (sigRes (F := F) c) : sProp 𝕄)) offs_eq)) $$ Hsig
  -- (1) the thirty-one signals
  sig_step 1
  sig_step 2
  sig_step 3
  sig_step 4
  sig_step 5
  sig_step 6
  sig_step 7
  sig_step 8
  sig_step 9
  sig_step 10
  sig_step 11
  sig_step 12
  sig_step 13
  sig_step 14
  sig_step 15
  sig_step 16
  sig_step 17
  sig_step 18
  sig_step 19
  sig_step 20
  sig_step 21
  sig_step 22
  sig_step 23
  sig_step 24
  sig_step 25
  sig_step 26
  sig_step 27
  sig_step 28
  sig_step 29
  sig_step 30
  sig_step 31
  ihave HO := (Entails.of_eq (congrArg (fun O => (owes (c : Thread nD τ) O W : sProp 𝕄))
    (show owedRecv c offs + owedBar c [] = owedRecv c offs from add_zero _))) $$ HO
  -- (2) the local statistics, stored in the own row
  ihave Hx := (Entails.of_eq (show (((c : Thread nD τ).loc cc0_stg0_0 ↦{fullShare} xstg m ρ c) : sProp 𝕄) = (xM.view.loc (c : Thread nD τ) ↦[xM.view.set]{fullShare} xstg m ρ c) from by simp only [Memref.view_whole, View.set_whole] <;> rfl)) $$ Hx
  ihave Hown := (Entails.of_eq (show (rowPts c c fullShare f0 : sProp 𝕄) = ((rowM c).view.loc (c : Thread nD τ) ↦[(rowM c).view.set]{fullShare} f0) from rfl)) $$ Hown
  ihave #HIbc := (inv_bar m ρ K c) $$ HR
  ihave #Hmw := (mayWait_bar c) $$ Hlev
  sl_exec
  sl_unfold_words
  rw [read_x]
  ihave Hx := (Entails.of_eq (show (((c : Thread nD τ).loc cc0_stg0_0 ↦{fullShare} xstg m ρ c) : sProp 𝕄) = (xM.view.loc (c : Thread nD τ) ↦[xM.view.set]{fullShare} xstg m ρ c) from by simp only [Memref.view_whole, View.set_whole] <;> rfl).symm) $$ Hx
  ihave Hown : ((((c : Thread nD τ).loc cc0_scratch0) ↦[(rowM c).view.set]{fullShare} (sM.access (Rect.unit (s := S32x2x512) (k0_off1 c) S1x2x512.size (k0_off1_inb c))).write (Elt F) f0 (k0_pay4 (xstg m ρ c)) Finset.univ) : sProp 𝕄) $$ [Hown]
  · iexact Hown
  ihave Hown := (Entails.of_eq ((pointsTo_congr fun i hi => store_own_val m ρ c f0 i hi).trans (rowPts_eq c c fullShare (allStats m ρ)).symm)) $$ Hown
  ihave Hown := (own_row_shares c (allStats m ρ)).1 $$ Hown
  icases Hown with ⟨Hkeep, Htok0, Htoks⟩
  -- (3) the wait for the thirty-one signals: every peer's row for this device comes with them
  ihave Hp : bigSep (Finset.univ.erase c) (fun p : Dev nD => barPay (F := F) c p) $$ [HatB_pay1]
  · iexact HatB_pay1
  ihave HO : owes (c : Thread nD τ) (owedRecv c offs) (insert (SemLoc.reg barS, ()) W) $$ [HO]
  · iexact HO
  -- (4) the thirty-one copies
  ihave Hsend := (prep_sends m ρ c) $$ [Hp HtV HtS Htoks]
  · isplitl [Hp]; · iexact Hp
    isplitl [HtV]; · iexact HtV
    isplitl [HtS] <;> iassumption
  ihave Hsend := (Entails.of_eq (congrArg (fun l => (bigSepL l (sendRes m ρ c) : sProp 𝕄)) offs_eq)) $$ Hsend
  ihave HO := (Entails.of_eq (congrArg (fun l => (owes (c : Thread nD τ) (owedRecv c l) (insert (SemLoc.reg barS, ()) W) : sProp 𝕄)) offs_eq)) $$ HO
  ihave Hcr : bigSepL ([] : List ℕ) (sendCred (F := F) c) $$ []
  · iempintro
  send_step 1
  send_step 2
  send_step 3
  send_step 4
  send_step 5
  send_step 6
  send_step 7
  send_step 8
  send_step 9
  send_step 10
  send_step 11
  send_step 12
  send_step 13
  send_step 14
  send_step 15
  send_step 16
  send_step 17
  send_step 18
  send_step 19
  send_step 20
  send_step 21
  send_step 22
  send_step 23
  send_step 24
  send_step 25
  send_step 26
  send_step 27
  send_step 28
  send_step 29
  send_step 30
  send_step 31
  -- (5) the thirty-one receive waits
  ihave HO := (Entails.of_eq (congrArg (fun O => (owes (c : Thread nD τ) O (insert (SemLoc.reg barS, ()) W) : sProp 𝕄))
    (show owedRecv c [] = 0 from rfl))) $$ HO
  ihave HatV := (Entails.of_eq (bigSep_univ_at (fun j : Fin 32 => (atPos ER (recvCell c j) 0 ∅ 0 : sProp 𝕄)) c)) $$ HatV
  icases HatV with ⟨HatVc, HatVp⟩
  ihave Hrecv := (prep_recvs c) $$ [HcV HatVp]
  · isplitl [HcV] <;> iassumption
  ihave Hrecv := (Entails.of_eq (congrArg (fun l => (bigSepL l (recvRes (F := F) c) : sProp 𝕄)) offs_eq)) $$ Hrecv
  ihave Hgot : bigSepL ([] : List ℕ) (recvGot m ρ c) $$ []
  · iempintro
  recv_step 1
  recv_step 2
  recv_step 3
  recv_step 4
  recv_step 5
  recv_step 6
  recv_step 7
  recv_step 8
  recv_step 9
  recv_step 10
  recv_step 11
  recv_step 12
  recv_step 13
  recv_step 14
  recv_step 15
  recv_step 16
  recv_step 17
  recv_step 18
  recv_step 19
  recv_step 20
  recv_step 21
  recv_step 22
  recv_step 23
  recv_step 24
  recv_step 25
  recv_step 26
  recv_step 27
  recv_step 28
  recv_step 29
  recv_step 30
  recv_step 31
  -- (6) the gathered statistics loaded, the result stored
  ihave Hgot := (Entails.of_eq (congrArg (fun l => (bigSepL l (recvGot m ρ c) : sProp 𝕄)) rev_eq)) $$ Hgot
  ihave Hgot := (bigSepL_reverse offs (recvGot m ρ c)).1 $$ Hgot
  ihave Hgot := (Entails.of_eq (show (bigSepL offs (recvGot m ρ c) : sProp 𝕄)
    = bigSepL offs (fun d => iprop(rowPts c (shift c d) fullShare (allStats m ρ) ∗ semVal (recvCell c (shift c d)) 0)) from rfl)) $$ Hgot
  ihave Hgot := (bigSepL_sep offs (fun d => rowPts c (shift c d) fullShare (allStats m ρ)) (fun d => (semVal (recvCell c (shift c d)) 0 : sProp 𝕄))).2 $$ Hgot
  icases Hgot with ⟨Hprows, Hvsems⟩
  ihave Hg := (gather m ρ c (allStats m ρ) rfl) $$ [Hkeep Hprows]
  · isplitl [Hkeep] <;> iassumption
  icases Hg with ⟨Hbuf, Hback⟩
  ihave Hbuf := (Entails.of_eq (show (((c : Thread nD τ).loc cc0_scratch0 ↦{Transfers.shareDrop fullShare 32} allStats m ρ) : sProp 𝕄) = (sM.view.loc (c : Thread nD τ) ↦[sM.view.set]{Transfers.shareDrop fullShare 32} allStats m ρ) from by simp only [Memref.view_whole, View.set_whole] <;> rfl)) $$ Hbuf
  ihave Hout := (Entails.of_eq (show (((c : Thread nD τ).loc cc0_stg1_0 ↦{fullShare} g1) : sProp 𝕄) = (oM.view.loc (c : Thread nD τ) ↦[oM.view.set]{fullShare} g1) from by simp only [Memref.view_whole, View.set_whole] <;> rfl)) $$ Hout
  sl_exec
  sl_unfold_words
  rw [read_scratch]
  ihave Hout : ((oM.view.loc (c : Thread nD τ) ↦[oM.view.set]{fullShare} ((oM : Memref sig .tc .vmem S512x256 .f32).access r0 : View sig .tc _ _ _).write (Elt F) g1 (k0_pay5 (k0_pay2 (xstg m ρ c)) (k0_pay3 (xstg m ρ c)) (allStats m ρ)) Finset.univ) : sProp 𝕄) $$ [Hout]
  · iexact Hout
  rw [write_out]
  ihave Hbuf := (Entails.of_eq (show (((c : Thread nD τ).loc cc0_scratch0 ↦{Transfers.shareDrop fullShare 32} allStats m ρ) : sProp 𝕄) = (sM.view.loc (c : Thread nD τ) ↦[sM.view.set]{Transfers.shareDrop fullShare 32} allStats m ρ) from by simp only [Memref.view_whole, View.set_whole] <;> rfl).symm) $$ Hbuf
  ihave Hout := (Entails.of_eq (show (((c : Thread nD τ).loc cc0_stg1_0 ↦{fullShare} (k0_pay5 (k0_pay2 (xstg m ρ c)) (k0_pay3 (xstg m ρ c)) (allStats m ρ))) : sProp 𝕄) = (oM.view.loc (c : Thread nD τ) ↦[oM.view.set]{fullShare} (k0_pay5 (k0_pay2 (xstg m ρ c)) (k0_pay3 (xstg m ρ c)) (allStats m ρ))) from by simp only [Memref.view_whole, View.set_whole] <;> rfl).symm) $$ Hout
  ihave Hr := Hback $$ Hbuf
  icases Hr with ⟨Hkeep, Hprows⟩
  -- (7) the thirty-one send waits
  ihave Hcr := (Entails.of_eq (congrArg (fun l => (bigSepL l (sendCred (F := F) c) : sProp 𝕄)) rev_eq)) $$ Hcr
  ihave Hcr := (bigSepL_reverse offs (sendCred (F := F) c)).1 $$ Hcr
  ihave HatS := (Entails.of_eq (bigSep_univ_at (fun d : Fin 32 => (atPos ER (sendCell c d) 0 ∅ 0 : sProp 𝕄)) 0)) $$ HatS
  icases HatS with ⟨HatS0, HatSp⟩
  ihave Hsw := (prep_send_waits c) $$ [Hcr HatSp]
  · isplitl [Hcr] <;> iassumption
  ihave Hsw := (Entails.of_eq (congrArg (fun l => (bigSepL l (sendWaitRes (F := F) c) : sProp 𝕄)) offs_eq)) $$ Hsw
  ihave Hsgot : bigSepL ([] : List ℕ) (sendGot m ρ c) $$ []
  · iempintro
  sendw_step 1
  sendw_step 2
  sendw_step 3
  sendw_step 4
  sendw_step 5
  sendw_step 6
  sendw_step 7
  sendw_step 8
  sendw_step 9
  sendw_step 10
  sendw_step 11
  sendw_step 12
  sendw_step 13
  sendw_step 14
  sendw_step 15
  sendw_step 16
  sendw_step 17
  sendw_step 18
  sendw_step 19
  sendw_step 20
  sendw_step 21
  sendw_step 22
  sendw_step 23
  sendw_step 24
  sendw_step 25
  sendw_step 26
  sendw_step 27
  sendw_step 28
  sendw_step 29
  sendw_step 30
  sendw_step 31
  -- (8) the two unused cells closed, the shares of the own row put together, the buffer whole again
  imod (Rounds.cell_close ER (Rd m ρ) (Set.mem_univ (K (sendCell c 0))) (fun h => h) (R := 0) (fun r _ => duties_send_zero m ρ c r)) $$ [HatS0] with Hz0
  · isplitr; · iapply (inv_send m ρ K c 0); iexact HR
    iexact HatS0
  imod (Rounds.cell_close ER (Rd m ρ) (Set.mem_univ (K (recvCell c c))) (fun h => h) (R := 0) (fun r _ => duties_recv_self m ρ c r)) $$ [HatVc] with Hzc
  · isplitr; · iapply (inv_recv m ρ K c c); iexact HR
    iexact HatVc
  ihave Hsgot := (Entails.of_eq (congrArg (fun l => (bigSepL l (sendGot m ρ c) : sProp 𝕄)) rev_eq)) $$ Hsgot
  ihave Hsgot := (bigSepL_reverse offs (sendGot m ρ c)).1 $$ Hsgot
  ihave Hsgot := (Entails.of_eq (show (bigSepL offs (sendGot m ρ c) : sProp 𝕄)
    = bigSepL offs (fun d => iprop(rowPts c c (Transfers.shareTok fullShare 32 (fo d)) (allStats m ρ) ∗ semVal (sendCell c (fo d)) 0)) from rfl)) $$ Hsgot
  ihave Hsgot := (bigSepL_sep offs (fun d => rowPts c c (Transfers.shareTok fullShare 32 (fo d)) (allStats m ρ)) (fun d => (semVal (sendCell c (fo d)) 0 : sProp 𝕄))).2 $$ Hsgot
  icases Hsgot with ⟨Htoks, Hssems⟩
  ihave Hown := (own_row_shares c (allStats m ρ)).2 $$ [Hkeep Htok0 Htoks]
  · isplitl [Hkeep]; · iexact Hkeep
    isplitl [Htok0] <;> iassumption
  ihave Hscr := (scratch_own c fullShare (allStats m ρ)).2 $$ [Hown Hprows]
  · isplitl [Hown] <;> iassumption
  ihave HzS := (finish_send_sems (F := F) c) $$ [Hz0 Hssems]
  · isplitl [Hz0] <;> iassumption
  ihave HzV := (finish_recv_sems (F := F) c) $$ [Hzc Hvsems]
  · isplitl [Hzc] <;> iassumption
  rw [wp_ret]; imodintro
  iapply Hk
  unfold bodyPost Φ₁ Dat.owesAt Pipeline.owesWithin
  rw [show (dats m ρ 0 c).owed t₀.succ = 0 from rfl]
  isplitl [Hscr HzS HzV]
  · isplitl [Hscr]; · iexists _; iexact Hscr
    isplitl [HzS]; · iexact HzS
    iexact HzV
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Body

set_option maxRecDepth 100000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 100000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-- info: 'Cert.KernelIdealRun.body_obligation' depends on axioms: [propext, Classical.choice, Quot.sound] -/
#guard_msgs in #print axioms body_obligation

end Cert.KernelIdealRun

end
-- ==== Proof.KernelIdealRun.Launch.Fund.lean ====
/- The protocol's ghost state at launch: the cells of the thirty-two devices and their duty tokens as one launch
   element, what that element deals each device, and the one update that allocates every cell's invariant and hands each
   device the ghost state its body starts from. -/
import proofs.«901066_g7700000000001067_dist_softmax_colshard_i_m512_n256_v7x_i32_bf16_1_alg».proof.Proof.KernelIdealRun.Levels
import proofs.«901066_g7700000000001067_dist_softmax_colshard_i_m512_n256_v7x_i32_bf16_1_alg».proof.Proof.KernelIdealRun.Rows

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's sixty-five cells -/

/-- The cells of one device: its barrier cell, its thirty-two send cells, its thirty-two receive cells. -/
abbrev KI : Type := Unit ⊕ Fin 32 ⊕ Fin 32

abbrev csem : KI → SemLoc sig
  | .inl _ => .reg barS
  | .inr (.inl d) => .dma (sendS d)
  | .inr (.inr j) => .dma (recvS j)

abbrev kcell (ck : Dev nD × KI) : GSem nD τ sig := ((ck.1 : Thread nD τ), csem ck.2)

theorem csem_injective : Function.Injective csem := by
  rintro (_ | d | j) (_ | d' | j') h
  · rfl
  · exact absurd h.symm (send_ne_bar d')
  · exact absurd h.symm (recv_ne_bar j')
  · exact absurd h (send_ne_bar d)
  · rw [sendS_inj (SemLoc.dma.inj h)]
  · exact absurd (SemLoc.dma.inj h) (sendS_ne_recvS d j')
  · exact absurd h (recv_ne_bar j)
  · exact absurd (SemLoc.dma.inj h).symm (sendS_ne_recvS d' j)
  · rw [recvS_inj (SemLoc.dma.inj h)]

theorem kcell_injective : Function.Injective (kcell : Dev nD × KI → GSem nD τ sig) := by
  rintro ⟨c, k⟩ ⟨c', k'⟩ h
  have h1 : c = c' := congrArg (fun g : GSem nD τ sig => g.1.1) h
  subst h1
  have hk : k = k' := csem_injective (congrArg Prod.snd h)
  subst hk; rfl

/-- All the protocol's cells, on every device. -/
def ringCells : Finset (GSem nD τ sig) := Finset.univ.map ⟨kcell, kcell_injective⟩

/-- The kernel's own scoped semaphores, as the launch indexes them: the send semaphores, then the receive semaphores. -/
abbrev osem : Fin 32 ⊕ Fin 32 → SemLoc sig
  | .inl d => .dma (sendS d)
  | .inr j => .dma (recvS j)

/-! ## The duty tokens -/

/-- The tokens minted with a device's own cells: its barrier cell's duty for every name, its send cells' and its
    receive cells' duty 0. -/
abbrev tokOf (ck : Dev nD × (Fin 32 ⊕ Fin 32 ⊕ Fin 32)) : GSem nD τ sig × ℕ × Fin 32 := match ck.2 with
  | .inl p => (barCell ck.1, 0, p)
  | .inr (.inl d) => (sendCell ck.1 d, 0, 0)
  | .inr (.inr j) => (recvCell ck.1 j, 0, 0)

theorem tokOf_injective : Function.Injective (tokOf : Dev nD × (Fin 32 ⊕ Fin 32 ⊕ Fin 32) → GSem nD τ sig × ℕ × Fin 32) := by
  rintro ⟨c, k⟩ ⟨c', k'⟩ h
  have h1 : c = c' := by
    have := congrArg (fun x : GSem nD τ sig × ℕ × Fin 32 => x.1.1.1) h
    rcases k with p | d | j <;> rcases k' with p' | d' | j' <;> exact this
  subst h1
  have hg := congrArg (fun x : GSem nD τ sig × ℕ × Fin 32 => x.1.2) h
  have hd := congrArg (fun x : GSem nD τ sig × ℕ × Fin 32 => x.2.2) h
  rcases k with p | d | j <;> rcases k' with p' | d' | j'
  · have hp : p = p' := hd
    subst hp; rfl
  · exact absurd hg.symm (send_ne_bar d')
  · exact absurd hg.symm (recv_ne_bar j')
  · exact absurd hg (send_ne_bar d)
  · have hp : d = d' := sendS_inj (SemLoc.dma.inj hg)
    subst hp; rfl
  · exact absurd (SemLoc.dma.inj hg) (sendS_ne_recvS d j')
  · exact absurd hg (recv_ne_bar j)
  · exact absurd (SemLoc.dma.inj hg).symm (sendS_ne_recvS d' j)
  · have hp : j = j' := recvS_inj (SemLoc.dma.inj hg)
    subst hp; rfl

def ringToks : Finset (GSem nD τ sig × ℕ × Fin 32) := Finset.univ.map ⟨tokOf, tokOf_injective⟩

/-- The launch element: the pipeline's copy for the staging cells, the protocol's for its own. -/
def u₀ : UU :=
  (initOf (Pipeline.cells cfgs cellOf_inj) (Pipeline.launchToks cfgs cellOf_inj), initOf ringCells ringToks)

/-- The tokens of the duties of device `c`'s own cells: its barrier cell's one per peer, its send cell's at each
    nonzero offset, its receive cell's for each peer. -/
def toks (c : Dev nD) : sProp 𝕄 :=
  iprop((bigSep (Finset.univ.erase c) fun p : Dev nD => dutyTok ER (barCell c) 0 p)
    ∗ (bigSep (Finset.univ.erase (0 : Fin 32)) fun d : Fin 32 => dutyTok ER (sendCell c d) 0 0)
    ∗ (bigSep (Finset.univ.erase c) fun j : Dev nD => dutyTok ER (recvCell c j) 0 0))

/-- What the launch element deals device `c`: the round state at counter zero of each of its cells, its position
    in each and that each has reached round 0, and its own cells' duty tokens. -/
def G (c : Dev nD) : sProp 𝕄 :=
  iprop((bigSep Finset.univ fun k : KI => roundState ER (Rd m ρ) (kcell (c, k)) 0)
    ∗ (bigSep Finset.univ fun k : KI => iprop(atPos ER (kcell (c, k)) 0 ∅ 0 ∗ reached ER (kcell (c, k)) 0)) ∗ toks c)

/-- What the global step makes of it: the ghost state the device's body starts from, at some names. -/
def G' (c : Dev nD) : sProp 𝕄 := iprop(∃ K, ghost m ρ K c)

/-- The kernel's sixty-four scoped semaphores are scoped, pairwise distinct, and no staging semaphore. -/
theorem ownSemFacts : Pipeline.OwnSemFacts cfg0.spec osem := by decide

/-- Every payload of the schedule is a points-to, or one beside a persistent mark. -/
instance launch_payload_storable (g : GSem nD τ sig) (r : ℕ) (d : Fin 32) :
    BI.Storable (upEmb : UEmb _ 𝕄) ((Rd (F := F) m ρ).payload g r d) := by
  show BI.Storable upEmb (match g.2 with
    | .reg _ => barPay g.1.1 d
    | .dma q =>
      match sendOf q, recvOf q with
      | some k, _ => sendPay m ρ g.1.1 k
      | none, some j => recvPay m ρ g.1.1 j
      | none, none => iprop(emp))
  unfold barPay recvPay sendPay rowPts
  (repeat' split) <;> infer_instance

omit [FloatOps F] in
/-- A family over a device's cells, cell by cell. -/
theorem bigSep_cells (c : Dev nD) (Φ : GSem nD τ sig → sProp 𝕄) :
    (bigSep Finset.univ fun k : KI => Φ (kcell (c, k)))
      = iprop(Φ (barCell c) ∗ (bigSep Finset.univ fun d : Fin 32 => Φ (sendCell c d)) ∗ bigSep Finset.univ fun j : Fin 32 => Φ (recvCell c j)) := by
  rw [bigSep_univ_sum, bigSep_univ_sum, bigSep_univ_of_subsingleton ()]; rfl

omit [FloatOps F] in
/-- The kernel's own semaphores at zero are its send cells' and its receive cells' counters at zero; -/
theorem ownSems0_eq (c : Dev nD) : (Pipeline.ownSems0 (Ix := Unit) (Name := ℕ) (U := UU) (Lvl := ℕ) (Val := Elt F) (τ := τ) osem c : sProp 𝕄)
    = iprop((bigSep Finset.univ fun d : Fin 32 => semVal (sendCell c d) 0) ∗ (bigSep Finset.univ fun j : Fin 32 => semVal (recvCell c j) 0)) := by
  unfold Pipeline.ownSems0; rw [bigSep_univ_sum]; rfl

omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KI => semVal (kcell (c, k)) 0 : sProp 𝕄) := by
  rw [ownSems0_eq, unscopedSems0_eq, bigSep_cells c (fun g => semVal g 0)]
  iintro ⟨⟨HS, HV⟩, HB⟩
  isplitl [HB]; · iexact HB
  isplitl [HS] <;> iassumption

/-- The protocol's launch element is every device's part. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : KI => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    refine bigSep_mono fun c _ => ?_
    rw [bigSep_univ_sum, bigSep_univ_sum]
    unfold toks
    exact Idealize.SL.BI.sep_mono (bigSep_subset (Finset.erase_subset c Finset.univ))
      (Idealize.SL.BI.sep_mono (bigSep_subset (Finset.erase_subset (0 : Fin 32) Finset.univ)) (bigSep_subset (Finset.erase_subset c Finset.univ)))
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- The launch element funds the pipeline's copy and deals every device its part of the protocol's. -/
theorem fund_all : (ownU (u₀ : UU) : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_ring m ρ) $$ HX with HG
  imodintro
  isplitl [HP] <;> iassumption

/-- One device's cells allocated: each cell's invariant at some name, from its counter at zero and its round state. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : KI => iprop(∃ κ : ℕ, cellInv ER (Rd m ρ) κ (kcell (c, k))))
          ∗ (bigSep Finset.univ fun k : KI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : KI => semVal (kcell (c, k)) 0) ∗ bigSep Finset.univ fun k : KI => roundState ER (Rd m ρ) (kcell (c, k)) 0)
      ⊢ (|={Set.univ}=> bigSep Finset.univ fun k : KI => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Every device's starting ghost state -/

/-- The records, cell by cell over all devices. -/
theorem records_eq (K : GSem nD τ sig → ℕ) :
    records m ρ K = iprop((bigSep Finset.univ fun ck : Dev nD × KI => cellInv ER (Rd m ρ) (K (kcell ck)) (kcell ck))
      ∗ bigSep Finset.univ fun ck : Dev nD × KI => reached ER (kcell ck) 0) := by
  unfold records
  rw [bigSep_univ_prod, bigSep_univ_prod,
    bigSep_congr (s := Finset.univ) fun (t : Dev nD) _ => bigSep_cells t (fun g => cellInv ER (Rd m ρ) (K g) g),
    bigSep_congr (s := Finset.univ) fun (t : Dev nD) _ => bigSep_cells (F := F) t (fun g => reached ER g 0)]

/-- The tokens as the devices hold them at their bodies' start: each device holds the tokens of the duties it pays. -/
def payToks (c : Dev nD) : sProp 𝕄 :=
  iprop((bigSep (Finset.univ.erase c) fun t : Dev nD => dutyTok ER (barCell t) 0 c)
    ∗ (bigSep (Finset.univ.erase c) fun t : Dev nD => dutyTok ER (recvCell t c) 0 0)
    ∗ (bigSep (Finset.univ.erase (0 : Fin 32)) fun d : Fin 32 => dutyTok ER (sendCell c d) 0 0))

omit [FloatOps F] in
/-- The tokens dealt to their payers: a barrier cell's token named `p` goes to device `p`, a receive cell's token to
    the device the cell receives from; the send cells' stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_erase_comm (fun c p : Dev nD => (dutyTok ER (barCell c) 0 p : sProp 𝕄)),
    bigSep_erase_comm (fun c j : Dev nD => (dutyTok ER (recvCell c j) 0 0 : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : GSem nD τ sig → ℕ) (c : Dev nD) : iprop(records m ρ K ∗ linear c) ⊢ G' m ρ c := by
  unfold G'
  iintro H
  iexists K
  unfold ghost
  iexact H

theorem regroup :
    (bigSep Finset.univ fun c : Dev nD => iprop((bigSep Finset.univ fun k : KI => iprop(∃ κ : ℕ, cellInv ER (Rd m ρ) κ (kcell (c, k))))
          ∗ (bigSep Finset.univ fun k : KI => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × KI => iprop(∃ κ : ℕ, cellInv ER (Rd m ρ) κ (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun ck : Dev nD × KI => (reached ER (kcell ck) 0 : sProp 𝕄))]
  iintro ⟨HI, ⟨Hat, #HR⟩, Htok⟩
  ihave HK := (BI.bigSep_exists_pi Finset.univ (fun (ck : Dev nD × KI) (κ : ℕ) => (cellInv ER (Rd m ρ) κ (kcell ck) : sProp 𝕄))) $$ HI
  icases HK with ⟨%K', #HI⟩
  obtain ⟨K, hK⟩ : ∃ K : GSem nD τ sig → ℕ, ∀ ck, K (kcell ck) = K' ck :=
    ⟨fun g => K' (Function.invFun kcell g), fun ck => congrArg K' (Function.leftInverse_invFun kcell_injective ck)⟩
  have eI : (bigSep Finset.univ fun ck : Dev nD × KI => (cellInv ER (Rd m ρ) (K (kcell ck)) (kcell ck) : sProp 𝕄))
      = bigSep Finset.univ fun ck : Dev nD × KI => cellInv ER (Rd m ρ) (K' ck) (kcell ck) :=
    bigSep_congr fun ck _ => by rw [hK ck]
  ihave Htk := (toks_around (F := F)) $$ Htok
  iapply (bigSep_with_persistent (R := records m ρ K) fun c _ => ghost_intro m ρ K c)
  isplitr
  · rw [records_eq, eI]
    isplitl; · iexact HI
    iexact HR
  · iapply ((Entails.of_eq (bigSep_sep' Finset.univ (fun c : Dev nD => bigSep Finset.univ fun k : KI => (atPos ER (kcell (c, k)) 0 ∅ 0 : sProp 𝕄)) payToks).symm).trans
      (bigSep_mono fun c _ => show _ ⊢ linear c from Entails.of_eq (by unfold linear payToks; rw [bigSep_cells c (fun g => atPos ER g 0 ∅ 0)])))
    isplitl [Hat]; · iexact Hat
    iexact Htk

/-- The global step: from every device's own and unscoped semaphores at zero and its part of the launch element, every
    cell's invariant allocated and every device's starting ghost state. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.KernelIdealRun.fund_all' depends on axioms: [propext, Classical.choice, Quot.sound] -/
#guard_msgs in #print axioms fund_all

/-- info: 'Cert.KernelIdealRun.glob' depends on axioms: [propext, Classical.choice, Quot.sound] -/
#guard_msgs in #print axioms glob

end Cert.KernelIdealRun

end
-- ==== Proof.KernelIdealRun.Launch.lean ====
/- The launch: the protocol's ghost state funded and dealt to the devices, every cell's invariant allocated, the
   credit tokens read off what the devices owe, and the run of all thirty-two kernels to its end with each device's
   result array at its computed contents and the input unchanged. -/
import proofs.«901066_g7700000000001067_dist_softmax_colshard_i_m512_n256_v7x_i32_bf16_1_alg».proof.Proof.KernelIdealRun.Launch.Fund

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The staged block of the input is the device's whole input array. -/
theorem xstg_eq (c : Dev nD) : xstg m ρ c = m ((c : Thread nD τ).loc main_arg0) := by
  unfold xstg s₀
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-! ## The arrays after the run -/

/-- The arrays after the run, as the pipeline's proof data name them. -/
def finalA (c : Dev nD) (w : Fin cfg0.W) : Buf (Elt F) ((cfg0.win w).arr.view.loc (c : Thread nD τ)) := (dats m ρ 0 c).arrAt w cfg0.N

/-- The input array is never written: after the run it holds what it held. -/
theorem finalA_x (c : Dev nD) : finalA m ρ c (0 : Fin 2) = m ((c : Thread nD τ).loc main_arg0) :=
  (dats (F := F) m ρ 0 c).arrAt_in (0 : Fin 2) rfl _

/-- The result array's one block is the whole array, written back once: after the run it holds what the body left
    in the staging buffer. -/
theorem finalA_o (c : Dev nD) : finalA m ρ c (1 : Fin 2) = outAt m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  have hz : (fun a => (win0_1.index (0 : Fin 1)) a * main_v1.ty.shape.size a) = fun _ => 0 :=
    funext fun a => by fin_cases a <;> decide
  exact Memref.write_access_unit_zero_univ (Elt F) main_v1 hz (fun a => by fin_cases a <;> decide) _ _

/-! ## The launch theorem's side conditions -/

theorem share_eq (c : Dev nD) (w : Fin cfg0.W) : (dats m ρ 0 c).share w = fullShare := by unfold Dat.share; split <;> rfl

/-- What a device's body starts from, out of what the launch hands it: its ghost state, its credit, the levels. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- Before the one point: that and the buffer of statistics, the kernel's one scoped buffer that is no staging buffer. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

/-- After it: the buffer whole again and the kernel's own semaphores at zero go back to the launch. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨Hr, HzS, HzV⟩
  isplitr; · iempintro
  isplitl [HzS HzV]
  · isplitl [HzS] <;> iassumption
  iexact Hr

/-! ## The run -/

set_option maxRecDepth 8000 in
/-- At the compiled mesh of thirty-two devices, for any float values, from any memory with zero counters: given the
    body's obligation on every device, every weakly fair execution of @main terminates, and every final state has
    each device's result array at the computed contents and its input array unchanged. -/
theorem run_values (hbody : ∀ c : Dev nD, BodyObligation (dats (F := F) m ρ 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := fund_all m ρ)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c => ⟨((h c).1 (1 : Fin 2)).trans (finalA_o m ρ c), ((h c).1 (0 : Fin 2)).trans (finalA_x m ρ c)⟩)

/-- info: 'Cert.KernelIdealRun.run_values' depends on axioms: [propext, Classical.choice, Quot.sound] -/
#guard_msgs in #print axioms run_values

end Cert.KernelIdealRun

end
-- ==== Proof.KernelRun.Mesh.lean ====
/- The ring of thirty-two devices: the device `d` places after `c`, the one `d` places before it,
   and that the two undo each other. Every peer a device talks to is `shift c d` for an offset `1 ≤ d ≤ 31`. -/
import proofs.«901066_g7700000000001067_dist_softmax_colshard_i_m512_n256_v7x_i32_bf16_1_alg».proof.Proof.Gen.Kernel

noncomputable section

namespace Cert.KernelRun

open Cert.Kernel Cert.Kernel.Gen
open Idealize.ShloMosaic

/-- The device `d` places after `c` around the ring. -/
def shift (c : Dev nD) (d : ℕ) : Dev nD := ⟨(c.val + d) % 32, Nat.mod_lt _ (by decide)⟩

/-- The device `d` places before `c`: the one whose `d`-th successor is `c`. -/
def unshift (c : Dev nD) (d : ℕ) : Dev nD := ⟨(c.val + (32 - d % 32)) % 32, Nat.mod_lt _ (by decide)⟩

theorem shift_val (c : Dev nD) (d : ℕ) : (shift c d).val = (c.val + d) % 32 := rfl
theorem unshift_val (c : Dev nD) (d : ℕ) : (unshift c d).val = (c.val + (32 - d % 32)) % 32 := rfl

theorem shift_unshift (c : Dev nD) (d : ℕ) : shift (unshift c d) d = c := by
  apply Fin.ext; rw [shift_val, unshift_val]; have := c.isLt; have hd := Nat.mod_lt d (show 0 < 32 by decide)
  have : (32 : ℕ) = nD := rfl
  omega
theorem unshift_shift (c : Dev nD) (d : ℕ) : unshift (shift c d) d = c := by
  apply Fin.ext; rw [unshift_val, shift_val]; have := c.isLt; have hd := Nat.mod_lt d (show 0 < 32 by decide)
  have : (32 : ℕ) = nD := rfl
  omega

/-- Distinct offsets below 32 reach distinct devices. -/
theorem shift_inj (c : Dev nD) {d d' : ℕ} (hd : d < 32) (hd' : d' < 32) (h : shift c d = shift c d') : d = d' := by
  have := congrArg Fin.val h; rw [shift_val, shift_val] at this; have := c.isLt
  have : (32 : ℕ) = nD := rfl
  omega
/-- A nonzero offset below 32 never comes back to the device itself. -/
theorem shift_ne_self (c : Dev nD) {d : ℕ} (h1 : 1 ≤ d) (hd : d < 32) : shift c d ≠ c := by
  intro h; have := congrArg Fin.val h; rw [shift_val] at this; have := c.isLt
  have : (32 : ℕ) = nD := rfl
  omega
theorem unshift_ne_self (c : Dev nD) {d : ℕ} (h1 : 1 ≤ d) (hd : d < 32) : unshift c d ≠ c := by
  intro h; have := congrArg Fin.val h; rw [unshift_val] at this; have := c.isLt
  have : (32 : ℕ) = nD := rfl
  omega

/-- The offset from `c` to `p`: the `d < 32` with `shift c d = p`. -/
def offTo (c p : Dev nD) : ℕ := (p.val + (32 - c.val)) % 32
theorem offTo_lt (c p : Dev nD) : offTo c p < 32 := Nat.mod_lt _ (by decide)
theorem shift_offTo (c p : Dev nD) : shift c (offTo c p) = p := by
  apply Fin.ext; rw [shift_val]; unfold offTo; have := c.isLt; have := p.isLt
  have : (32 : ℕ) = nD := rfl
  omega
theorem offTo_shift (c : Dev nD) {d : ℕ} (hd : d < 32) : offTo c (shift c d) = d := by
  unfold offTo; rw [shift_val]; have := c.isLt
  have : (32 : ℕ) = nD := rfl
  omega
theorem offTo_pos {c p : Dev nD} (h : p ≠ c) : 1 ≤ offTo c p := by
  by_contra h0
  have h00 : offTo c p = 0 := by omega
  have := shift_offTo c p; rw [h00] at this
  apply h; rw [← this]; apply Fin.ext; rw [shift_val]; have := c.isLt
  have : (32 : ℕ) = nD := rfl
  omega

end Cert.KernelRun

end
-- ==== Proof.KernelRun.DevTable.lean ====
import proofs.«901066_g7700000000001067_dist_softmax_colshard_i_m512_n256_v7x_i32_bf16_1_alg».proof.Proof.KernelRun.Mesh

set_option Elab.async false

noncomputable section

namespace Cert.KernelRun

open Cert.Kernel Cert.Kernel.Gen
open Idealize.ShloMosaic

theorem dev1_eq (c : Dev nD) : (⟨k0_dev1 c, k0_dev1_lt c⟩ : Dev nD) = shift c 1 := by revert c; decide +kernel
theorem dev2_eq (c : Dev nD) : (⟨k0_dev2 c, k0_dev2_lt c⟩ : Dev nD) = shift c 2 := by revert c; decide +kernel
theorem dev3_eq (c : Dev nD) : (⟨k0_dev3 c, k0_dev3_lt c⟩ : Dev nD) = shift c 3 := by revert c; decide +kernel
theorem dev4_eq (c : Dev nD) : (⟨k0_dev4 c, k0_dev4_lt c⟩ : Dev nD) = shift c 4 := by revert c; decide +kernel
theorem dev5_eq (c : Dev nD) : (⟨k0_dev5 c, k0_dev5_lt c⟩ : Dev nD) = shift c 5 := by revert c; decide +kernel
theorem dev6_eq (c : Dev nD) : (⟨k0_dev6 c, k0_dev6_lt c⟩ : Dev nD) = shift c 6 := by revert c; decide +kernel
theorem dev7_eq (c : Dev nD) : (⟨k0_dev7 c, k0_dev7_lt c⟩ : Dev nD) = shift c 7 := by revert c; decide +kernel
theorem dev8_eq (c : Dev nD) : (⟨k0_dev8 c, k0_dev8_lt c⟩ : Dev nD) = shift c 8 := by revert c; decide +kernel
theorem dev9_eq (c : Dev nD) : (⟨k0_dev9 c, k0_dev9_lt c⟩ : Dev nD) = shift c 9 := by revert c; decide +kernel
theorem dev10_eq (c : Dev nD) : (⟨k0_dev10 c, k0_dev10_lt c⟩ : Dev nD) = shift c 10 := by revert c; decide +kernel
theorem dev11_eq (c : Dev nD) : (⟨k0_dev11 c, k0_dev11_lt c⟩ : Dev nD) = shift c 11 := by revert c; decide +kernel
theorem dev12_eq (c : Dev nD) : (⟨k0_dev12 c, k0_dev12_lt c⟩ : Dev nD) = shift c 12 := by revert c; decide +kernel
theorem dev13_eq (c : Dev nD) : (⟨k0_dev13 c, k0_dev13_lt c⟩ : Dev nD) = shift c 13 := by revert c; decide +kernel
theorem dev14_eq (c : Dev nD) : (⟨k0_dev14 c, k0_dev14_lt c⟩ : Dev nD) = shift c 14 := by revert c; decide +kernel
theorem dev15_eq (c : Dev nD) : (⟨k0_dev15 c, k0_dev15_lt c⟩ : Dev nD) = shift c 15 := by revert c; decide +kernel
theorem dev16_eq (c : Dev nD) : (⟨k0_dev16 c, k0_dev16_lt c⟩ : Dev nD) = shift c 16 := by revert c; decide +kernel
theorem dev17_eq (c : Dev nD) : (⟨k0_dev17 c, k0_dev17_lt c⟩ : Dev nD) = shift c 17 := by revert c; decide +kernel
theorem dev18_eq (c : Dev nD) : (⟨k0_dev18 c, k0_dev18_lt c⟩ : Dev nD) = shift c 18 := by revert c; decide +kernel
theorem dev19_eq (c : Dev nD) : (⟨k0_dev19 c, k0_dev19_lt c⟩ : Dev nD) = shift c 19 := by revert c; decide +kernel
theorem dev20_eq (c : Dev nD) : (⟨k0_dev20 c, k0_dev20_lt c⟩ : Dev nD) = shift c 20 := by revert c; decide +kernel
theorem dev21_eq (c : Dev nD) : (⟨k0_dev21 c, k0_dev21_lt c⟩ : Dev nD) = shift c 21 := by revert c; decide +kernel
theorem dev22_eq (c : Dev nD) : (⟨k0_dev22 c, k0_dev22_lt c⟩ : Dev nD) = shift c 22 := by revert c; decide +kernel
theorem dev23_eq (c : Dev nD) : (⟨k0_dev23 c, k0_dev23_lt c⟩ : Dev nD) = shift c 23 := by revert c; decide +kernel
theorem dev24_eq (c : Dev nD) : (⟨k0_dev24 c, k0_dev24_lt c⟩ : Dev nD) = shift c 24 := by revert c; decide +kernel
theorem dev25_eq (c : Dev nD) : (⟨k0_dev25 c, k0_dev25_lt c⟩ : Dev nD) = shift c 25 := by revert c; decide +kernel
theorem dev26_eq (c : Dev nD) : (⟨k0_dev26 c, k0_dev26_lt c⟩ : Dev nD) = shift c 26 := by revert c; decide +kernel
theorem dev27_eq (c : Dev nD) : (⟨k0_dev27 c, k0_dev27_lt c⟩ : Dev nD) = shift c 27 := by revert c; decide +kernel
theorem dev28_eq (c : Dev nD) : (⟨k0_dev28 c, k0_dev28_lt c⟩ : Dev nD) = shift c 28 := by revert c; decide +kernel
theorem dev29_eq (c : Dev nD) : (⟨k0_dev29 c, k0_dev29_lt c⟩ : Dev nD) = shift c 29 := by revert c; decide +kernel
theorem dev30_eq (c : Dev nD) : (⟨k0_dev30 c, k0_dev30_lt c⟩ : Dev nD) = shift c 30 := by revert c; decide +kernel
theorem dev31_eq (c : Dev nD) : (⟨k0_dev31 c, k0_dev31_lt c⟩ : Dev nD) = shift c 31 := by revert c; decide +kernel
theorem dev32_eq (c : Dev nD) : (⟨k0_dev32 c, k0_dev32_lt c⟩ : Dev nD) = shift c 1 := by revert c; decide +kernel
theorem dev33_eq (c : Dev nD) : (⟨k0_dev33 c, k0_dev33_lt c⟩ : Dev nD) = shift c 2 := by revert c; decide +kernel
theorem dev34_eq (c : Dev nD) : (⟨k0_dev34 c, k0_dev34_lt c⟩ : Dev nD) = shift c 3 := by revert c; decide +kernel
theorem dev35_eq (c : Dev nD) : (⟨k0_dev35 c, k0_dev35_lt c⟩ : Dev nD) = shift c 4 := by revert c; decide +kernel
theorem dev36_eq (c : Dev nD) : (⟨k0_dev36 c, k0_dev36_lt c⟩ : Dev nD) = shift c 5 := by revert c; decide +kernel
theorem dev37_eq (c : Dev nD) : (⟨k0_dev37 c, k0_dev37_lt c⟩ : Dev nD) = shift c 6 := by revert c; decide +kernel
theorem dev38_eq (c : Dev nD) : (⟨k0_dev38 c, k0_dev38_lt c⟩ : Dev nD) = shift c 7 := by revert c; decide +kernel
theorem dev39_eq (c : Dev nD) : (⟨k0_dev39 c, k0_dev39_lt c⟩ : Dev nD) = shift c 8 := by revert c; decide +kernel
theorem dev40_eq (c : Dev nD) : (⟨k0_dev40 c, k0_dev40_lt c⟩ : Dev nD) = shift c 9 := by revert c; decide +kernel
theorem dev41_eq (c : Dev nD) : (⟨k0_dev41 c, k0_dev41_lt c⟩ : Dev nD) = shift c 10 := by revert c; decide +kernel
theorem dev42_eq (c : Dev nD) : (⟨k0_dev42 c, k0_dev42_lt c⟩ : Dev nD) = shift c 11 := by revert c; decide +kernel
theorem dev43_eq (c : Dev nD) : (⟨k0_dev43 c, k0_dev43_lt c⟩ : Dev nD) = shift c 12 := by revert c; decide +kernel
theorem dev44_eq (c : Dev nD) : (⟨k0_dev44 c, k0_dev44_lt c⟩ : Dev nD) = shift c 13 := by revert c; decide +kernel
theorem dev45_eq (c : Dev nD) : (⟨k0_dev45 c, k0_dev45_lt c⟩ : Dev nD) = shift c 14 := by revert c; decide +kernel
theorem dev46_eq (c : Dev nD) : (⟨k0_dev46 c, k0_dev46_lt c⟩ : Dev nD) = shift c 15 := by revert c; decide +kernel
theorem dev47_eq (c : Dev nD) : (⟨k0_dev47 c, k0_dev47_lt c⟩ : Dev nD) = shift c 16 := by revert c; decide +kernel
theorem dev48_eq (c : Dev nD) : (⟨k0_dev48 c, k0_dev48_lt c⟩ : Dev nD) = shift c 17 := by revert c; decide +kernel
theorem dev49_eq (c : Dev nD) : (⟨k0_dev49 c, k0_dev49_lt c⟩ : Dev nD) = shift c 18 := by revert c; decide +kernel
theorem dev50_eq (c : Dev nD) : (⟨k0_dev50 c, k0_dev50_lt c⟩ : Dev nD) = shift c 19 := by revert c; decide +kernel
theorem dev51_eq (c : Dev nD) : (⟨k0_dev51 c, k0_dev51_lt c⟩ : Dev nD) = shift c 20 := by revert c; decide +kernel
theorem dev52_eq (c : Dev nD) : (⟨k0_dev52 c, k0_dev52_lt c⟩ : Dev nD) = shift c 21 := by revert c; decide +kernel
theorem dev53_eq (c : Dev nD) : (⟨k0_dev53 c, k0_dev53_lt c⟩ : Dev nD) = shift c 22 := by revert c; decide +kernel
theorem dev54_eq (c : Dev nD) : (⟨k0_dev54 c, k0_dev54_lt c⟩ : Dev nD) = shift c 23 := by revert c; decide +kernel
theorem dev55_eq (c : Dev nD) : (⟨k0_dev55 c, k0_dev55_lt c⟩ : Dev nD) = shift c 24 := by revert c; decide +kernel
theorem dev56_eq (c : Dev nD) : (⟨k0_dev56 c, k0_dev56_lt c⟩ : Dev nD) = shift c 25 := by revert c; decide +kernel
theorem dev57_eq (c : Dev nD) : (⟨k0_dev57 c, k0_dev57_lt c⟩ : Dev nD) = shift c 26 := by revert c; decide +kernel
theorem dev58_eq (c : Dev nD) : (⟨k0_dev58 c, k0_dev58_lt c⟩ : Dev nD) = shift c 27 := by revert c; decide +kernel
theorem dev59_eq (c : Dev nD) : (⟨k0_dev59 c, k0_dev59_lt c⟩ : Dev nD) = shift c 28 := by revert c; decide +kernel
theorem dev60_eq (c : Dev nD) : (⟨k0_dev60 c, k0_dev60_lt c⟩ : Dev nD) = shift c 29 := by revert c; decide +kernel
theorem dev61_eq (c : Dev nD) : (⟨k0_dev61 c, k0_dev61_lt c⟩ : Dev nD) = shift c 30 := by revert c; decide +kernel
theorem dev62_eq (c : Dev nD) : (⟨k0_dev62 c, k0_dev62_lt c⟩ : Dev nD) = shift c 31 := by revert c; decide +kernel
theorem off4_1_eq (c : Dev nD) : k0_off4 c 1#32 = ![(shift c 1).val] := by revert c; decide +kernel
theorem off4_2_eq (c : Dev nD) : k0_off4 c 2#32 = ![(shift c 2).val] := by revert c; decide +kernel
theorem off4_3_eq (c : Dev nD) : k0_off4 c 3#32 = ![(shift c 3).val] := by revert c; decide +kernel
theorem off4_4_eq (c : Dev nD) : k0_off4 c 4#32 = ![(shift c 4).val] := by revert c; decide +kernel
theorem off4_5_eq (c : Dev nD) : k0_off4 c 5#32 = ![(shift c 5).val] := by revert c; decide +kernel
theorem off4_6_eq (c : Dev nD) : k0_off4 c 6#32 = ![(shift c 6).val] := by revert c; decide +kernel
theorem off4_7_eq (c : Dev nD) : k0_off4 c 7#32 = ![(shift c 7).val] := by revert c; decide +kernel
theorem off4_8_eq (c : Dev nD) : k0_off4 c 8#32 = ![(shift c 8).val] := by revert c; decide +kernel
theorem off4_9_eq (c : Dev nD) : k0_off4 c 9#32 = ![(shift c 9).val] := by revert c; decide +kernel
theorem off4_10_eq (c : Dev nD) : k0_off4 c 10#32 = ![(shift c 10).val] := by revert c; decide +kernel
theorem off4_11_eq (c : Dev nD) : k0_off4 c 11#32 = ![(shift c 11).val] := by revert c; decide +kernel
theorem off4_12_eq (c : Dev nD) : k0_off4 c 12#32 = ![(shift c 12).val] := by revert c; decide +kernel
theorem off4_13_eq (c : Dev nD) : k0_off4 c 13#32 = ![(shift c 13).val] := by revert c; decide +kernel
theorem off4_14_eq (c : Dev nD) : k0_off4 c 14#32 = ![(shift c 14).val] := by revert c; decide +kernel
theorem off4_15_eq (c : Dev nD) : k0_off4 c 15#32 = ![(shift c 15).val] := by revert c; decide +kernel
theorem off4_16_eq (c : Dev nD) : k0_off4 c 16#32 = ![(shift c 16).val] := by revert c; decide +kernel
theorem off4_17_eq (c : Dev nD) : k0_off4 c 17#32 = ![(shift c 17).val] := by revert c; decide +kernel
theorem off4_18_eq (c : Dev nD) : k0_off4 c 18#32 = ![(shift c 18).val] := by revert c; decide +kernel
theorem off4_19_eq (c : Dev nD) : k0_off4 c 19#32 = ![(shift c 19).val] := by revert c; decide +kernel
theorem off4_20_eq (c : Dev nD) : k0_off4 c 20#32 = ![(shift c 20).val] := by revert c; decide +kernel
theorem off4_21_eq (c : Dev nD) : k0_off4 c 21#32 = ![(shift c 21).val] := by revert c; decide +kernel
theorem off4_22_eq (c : Dev nD) : k0_off4 c 22#32 = ![(shift c 22).val] := by revert c; decide +kernel
theorem off4_23_eq (c : Dev nD) : k0_off4 c 23#32 = ![(shift c 23).val] := by revert c; decide +kernel
theorem off4_24_eq (c : Dev nD) : k0_off4 c 24#32 = ![(shift c 24).val] := by revert c; decide +kernel
theorem off4_25_eq (c : Dev nD) : k0_off4 c 25#32 = ![(shift c 25).val] := by revert c; decide +kernel
theorem off4_26_eq (c : Dev nD) : k0_off4 c 26#32 = ![(shift c 26).val] := by revert c; decide +kernel
theorem off4_27_eq (c : Dev nD) : k0_off4 c 27#32 = ![(shift c 27).val] := by revert c; decide +kernel
theorem off4_28_eq (c : Dev nD) : k0_off4 c 28#32 = ![(shift c 28).val] := by revert c; decide +kernel
theorem off4_29_eq (c : Dev nD) : k0_off4 c 29#32 = ![(shift c 29).val] := by revert c; decide +kernel
theorem off4_30_eq (c : Dev nD) : k0_off4 c 30#32 = ![(shift c 30).val] := by revert c; decide +kernel
theorem off4_31_eq (c : Dev nD) : k0_off4 c 31#32 = ![(shift c 31).val] := by revert c; decide +kernel
theorem off5_1_eq (c : Dev nD) : k0_off5 c 1#32 = ![(shift c 1).val, 0, 0] := by revert c; decide +kernel
theorem off5_2_eq (c : Dev nD) : k0_off5 c 2#32 = ![(shift c 2).val, 0, 0] := by revert c; decide +kernel
theorem off5_3_eq (c : Dev nD) : k0_off5 c 3#32 = ![(shift c 3).val, 0, 0] := by revert c; decide +kernel
theorem off5_4_eq (c : Dev nD) : k0_off5 c 4#32 = ![(shift c 4).val, 0, 0] := by revert c; decide +kernel
theorem off5_5_eq (c : Dev nD) : k0_off5 c 5#32 = ![(shift c 5).val, 0, 0] := by revert c; decide +kernel
theorem off5_6_eq (c : Dev nD) : k0_off5 c 6#32 = ![(shift c 6).val, 0, 0] := by revert c; decide +kernel
theorem off5_7_eq (c : Dev nD) : k0_off5 c 7#32 = ![(shift c 7).val, 0, 0] := by revert c; decide +kernel
theorem off5_8_eq (c : Dev nD) : k0_off5 c 8#32 = ![(shift c 8).val, 0, 0] := by revert c; decide +kernel
theorem off5_9_eq (c : Dev nD) : k0_off5 c 9#32 = ![(shift c 9).val, 0, 0] := by revert c; decide +kernel
theorem off5_10_eq (c : Dev nD) : k0_off5 c 10#32 = ![(shift c 10).val, 0, 0] := by revert c; decide +kernel
theorem off5_11_eq (c : Dev nD) : k0_off5 c 11#32 = ![(shift c 11).val, 0, 0] := by revert c; decide +kernel
theorem off5_12_eq (c : Dev nD) : k0_off5 c 12#32 = ![(shift c 12).val, 0, 0] := by revert c; decide +kernel
theorem off5_13_eq (c : Dev nD) : k0_off5 c 13#32 = ![(shift c 13).val, 0, 0] := by revert c; decide +kernel
theorem off5_14_eq (c : Dev nD) : k0_off5 c 14#32 = ![(shift c 14).val, 0, 0] := by revert c; decide +kernel
theorem off5_15_eq (c : Dev nD) : k0_off5 c 15#32 = ![(shift c 15).val, 0, 0] := by revert c; decide +kernel
theorem off5_16_eq (c : Dev nD) : k0_off5 c 16#32 = ![(shift c 16).val, 0, 0] := by revert c; decide +kernel
theorem off5_17_eq (c : Dev nD) : k0_off5 c 17#32 = ![(shift c 17).val, 0, 0] := by revert c; decide +kernel
theorem off5_18_eq (c : Dev nD) : k0_off5 c 18#32 = ![(shift c 18).val, 0, 0] := by revert c; decide +kernel
theorem off5_19_eq (c : Dev nD) : k0_off5 c 19#32 = ![(shift c 19).val, 0, 0] := by revert c; decide +kernel
theorem off5_20_eq (c : Dev nD) : k0_off5 c 20#32 = ![(shift c 20).val, 0, 0] := by revert c; decide +kernel
theorem off5_21_eq (c : Dev nD) : k0_off5 c 21#32 = ![(shift c 21).val, 0, 0] := by revert c; decide +kernel
theorem off5_22_eq (c : Dev nD) : k0_off5 c 22#32 = ![(shift c 22).val, 0, 0] := by revert c; decide +kernel
theorem off5_23_eq (c : Dev nD) : k0_off5 c 23#32 = ![(shift c 23).val, 0, 0] := by revert c; decide +kernel
theorem off5_24_eq (c : Dev nD) : k0_off5 c 24#32 = ![(shift c 24).val, 0, 0] := by revert c; decide +kernel
theorem off5_25_eq (c : Dev nD) : k0_off5 c 25#32 = ![(shift c 25).val, 0, 0] := by revert c; decide +kernel
theorem off5_26_eq (c : Dev nD) : k0_off5 c 26#32 = ![(shift c 26).val, 0, 0] := by revert c; decide +kernel
theorem off5_27_eq (c : Dev nD) : k0_off5 c 27#32 = ![(shift c 27).val, 0, 0] := by revert c; decide +kernel
theorem off5_28_eq (c : Dev nD) : k0_off5 c 28#32 = ![(shift c 28).val, 0, 0] := by revert c; decide +kernel
theorem off5_29_eq (c : Dev nD) : k0_off5 c 29#32 = ![(shift c 29).val, 0, 0] := by revert c; decide +kernel
theorem off5_30_eq (c : Dev nD) : k0_off5 c 30#32 = ![(shift c 30).val, 0, 0] := by revert c; decide +kernel
theorem off5_31_eq (c : Dev nD) : k0_off5 c 31#32 = ![(shift c 31).val, 0, 0] := by revert c; decide +kernel

end Cert.KernelRun

end
-- ==== Proof.KernelRun.Sched.lean ====
/- The protocol of the thirty-two kernels, as a schedule of duties.

   Every device owns one barrier cell, thirty-two send cells and thirty-two receive cells. At entry it signals the
   barrier cell of each of its thirty-one peers, and with the signal to peer `t` it hands `t` row `t` of its own
   buffer of statistics — the row `t` will write — and the fact that its receive cell for `t` is at round 0. It stores
   its own statistics in its own row, waits for the thirty-one signals, and then copies its own row into that row of
   every peer's buffer: the copy at offset `d` completes on the sender's send cell `d` (giving back the share of the
   row it read) and on the target's receive cell for the sender (handing over the row, now holding the sender's
   statistics). After the thirty-one receive waits a device holds every row at the gathered statistics. -/
import proofs.«901066_g7700000000001067_dist_softmax_colshard_i_m512_n256_v7x_i32_bf16_1_alg».proof.Proof.KernelRun.DevTable
import proofs.«901066_g7700000000001067_dist_softmax_colshard_i_m512_n256_v7x_i32_bf16_1_alg».proof.Proof.Gen.Kernel.Skeleton
import proofs.«901066_g7700000000001067_dist_softmax_colshard_i_m512_n256_v7x_i32_bf16_1_alg».proof.Proof.Gen.Kernel.Launch
import Idealize.ShloMosaic.Lib.Pipeline.Launch
import Idealize.ShloMosaic.Lib.Pipeline.Kit
import Idealize.ShloMosaic.Lib.Transfers
import Idealize.ShloMosaic.Lib.Ring
import Idealize.ShloMosaic.Lib.Tactic

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's own (duties named by a number below 32) -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Memrefs, semaphores, cells -/

abbrev xM : Memref sig .tc .vmem S512x256 .f32 := Memref.whole cc0_stg0_0
abbrev oM : Memref sig .tc .vmem S512x256 .f32 := Memref.whole cc0_stg1_0
abbrev sM : Memref sig .tc .vmem S32x2x512 .f32 := Memref.whole cc0_scratch0

theorem row_inb (p : Dev nD) : ∀ a, (![p.val, 0, 0] : Fin 3 → Nat) a + S1x2x512.size a ≤ S32x2x512.size a := by
  revert p; decide

/-- Row `p` of the buffer of statistics, as the kernel names it: the 1×2×512 slice at `[p, 0, 0]`, squeezed to 2×512. -/
abbrev rowM (p : Dev nD) : Memref sig .tc .vmem S2x512 .f32 :=
  (sM.slice (Rect.unit (s := S32x2x512) ![p.val, 0, 0] S1x2x512.size (row_inb p)) (fun _ => rfl)).squeeze S2x512 squeezes_S1x2x512_S2x512

theorem sem_inb (d : Fin 32) : ∀ a, (![d.val] : Fin 1 → Nat) a + S1.size a ≤ S32.size a := by
  revert d; decide

/-- The runtime's barrier semaphore of collective id 0; send semaphore `d`; receive semaphore `j`. -/
abbrev barS : Sem sig := (SemArray.scalar (sig.barrier 0 rfl) : Sems sig S_).sem
abbrev sendS (d : Fin 32) : DmaSem sig := ((cc0_scratch1.slice (Rect.unit (s := S32) ![d.val] S1.size (sem_inb d))).squeeze S_ squeezes_S1_S_).sem
abbrev recvS (j : Fin 32) : DmaSem sig := ((cc0_scratch2.slice (Rect.unit (s := S32) ![j.val] S1.size (sem_inb j))).squeeze S_ squeezes_S1_S_).sem

abbrev barCell (c : Dev nD) : GSem nD τ sig := ((c : Thread nD τ), .reg barS)
abbrev sendCell (c : Dev nD) (d : Fin 32) : GSem nD τ sig := ((c : Thread nD τ), .dma (sendS d))
abbrev recvCell (c : Dev nD) (j : Fin 32) : GSem nD τ sig := ((c : Thread nD τ), .dma (recvS j))

/-- Which send (receive) semaphore a DMA semaphore is, if any: the two arrays lie at 2 … 33 and 34 … 65 of the pool. -/
def sendOf (q : DmaSem sig) : Option (Fin 32) := if h : 2 ≤ q.val ∧ q.val < 34 then some ⟨q.val - 2, by omega⟩ else none
def recvOf (q : DmaSem sig) : Option (Fin 32) := if h : 34 ≤ q.val then some ⟨q.val - 34, by have := q.isLt; have h66 : sig.nDmaSem = 66 := rfl; omega⟩ else none

/-- The credit of one row's transfer, in the DMA semaphores' units. -/
abbrev N : ℕ := (rowM (0 : Dev nD)).view.dmaCredit

/-! ## Contents -/

/-- Device `c`'s block of the input as staged for the body. -/
def xstg (c : Dev nD) : (cc0_stg0_0 : Ref sig .tc).ty.Contents (Elt F) :=
  (win0_0.blk (0 : Fin 1)).view.read (Elt F) ((s₀ m ρ).mem ((c : Thread nD τ).loc main_arg0))

/-- An index of the buffer of statistics read as an index of one row of it. -/
abbrev rowIdx (i : S32x2x512.Idx) : S1x2x512.Idx := fun a => match a with
  | ⟨0, _⟩ => ⟨0, Nat.one_pos⟩
  | ⟨1, _⟩ => ⟨(i 1).val, (i 1).isLt⟩
  | ⟨2, _⟩ => ⟨(i 2).val, (i 2).isLt⟩

/-- The gathered statistics: row `p` holds what device `p` computes of its own block. -/
def allStats : (cc0_scratch0 : Ref sig .tc).ty.Contents (Elt F) :=
  fun i => k0_pay4 (xstg m ρ ⟨(i 0).val, (i 0).isLt⟩) (rowIdx i)

/-- What device `c` stores as its result. -/
def outAt (c : Dev nD) : (cc0_stg1_0 : Ref sig .tc).ty.Contents (Elt F) :=
  k0_pay5 (k0_pay2 (xstg m ρ c)) (k0_pay3 (xstg m ρ c)) (allStats m ρ)

/-- Row `j` of device `p`'s buffer of statistics held at share `q` and contents `f`. -/
def rowPts (p j : Dev nD) (q : PosShare TreeShare) (f : (cc0_scratch0 : Ref sig .tc).ty.Contents (Elt F)) : sProp 𝕄 :=
  (rowM j).view.loc (p : Thread nD τ) ↦[(rowM j).view.set]{q} f

/-! ## The schedule -/

/-- With its signal to `t`'s barrier cell, device `p` hands `t` row `t` of its own buffer and that its receive cell
    for `t` has reached round 0. -/
def barPay (t p : Dev nD) : sProp 𝕄 := iprop((∃ f, rowPts p t fullShare f) ∗ reached ER (recvCell p t) 0)
/-- The copy from `j` landing on `p`'s receive cell `j` hands `p` its row `j` at the gathered statistics. -/
def recvPay (p j : Dev nD) : sProp 𝕄 := rowPts p j fullShare (allStats m ρ)
/-- The copy at offset `d` read out gives `c` back the share of its own row that copy read. -/
def sendPay (c : Dev nD) (d : Fin 32) : sProp 𝕄 := rowPts c c (Transfers.shareTok fullShare 32 d) (allStats m ρ)

/-- One round, round 0: a barrier cell has one duty per peer, named by the peer, of one unit; send cell `d ≠ 0` and
    receive cell `j ≠` its owner have the one duty `0` of a row's credit; the two unused cells have none. -/
def Rd : Rounds.Schedule (GSem nD τ sig) (Fin 32) 𝕄 where
  duties g r :=
    if r = 0 ∧ g.1.2 = .tc then
      match g.2 with
      | .reg s => if s = barS then Finset.univ.erase g.1.1 else ∅
      | .dma q =>
        match sendOf q, recvOf q with
        | some d, _ => if d = 0 then ∅ else {0}
        | none, some j => if j = g.1.1 then ∅ else {0}
        | none, none => ∅
    else ∅
  unitless _ := False
  amount g _ _ := if g.2 = .reg barS then 1 else N
  payload g _ d :=
    match g.2 with
    | .reg _ => barPay g.1.1 d
    | .dma q =>
      match sendOf q, recvOf q with
      | some k, _ => sendPay m ρ g.1.1 k
      | none, some j => recvPay m ρ g.1.1 j
      | none, none => iprop(emp)
  amount_pos g _ _ _ := by
    by_cases h : g.2 = .reg barS
    · rw [if_pos h]; exact Nat.one_pos
    · rw [if_neg h]; exact View.dmaCredit_pos _ (by decide)

end Cert.KernelRun

end
-- ==== Proof.KernelRun.Tables.lean ====
/- The schedule's tables read at each kind of cell: which duties, what amounts, which payloads; and the
   peers of a device listed by their offset around the ring. -/
import proofs.«901066_g7700000000001067_dist_softmax_colshard_i_m512_n256_v7x_i32_bf16_1_alg».proof.Proof.KernelRun.Sched

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- Send semaphore d is the pool's semaphore 2 + d. -/
theorem sendS_val (d : Fin 32) : (sendS d).val = 2 + d.val := by revert d; decide
/-- Receive semaphore j is the pool's semaphore 34 + j. -/
theorem recvS_val (j : Fin 32) : (recvS j).val = 34 + j.val := by revert j; decide

theorem sendOf_of_val (q : DmaSem sig) (d : Fin 32) (h : q.val = 2 + d.val) : sendOf q = some d := by
  have := d.isLt
  unfold sendOf
  rw [dif_pos ⟨by omega, by omega⟩]
  exact congrArg some (Fin.ext (by show q.val - 2 = d.val; omega))
theorem recvOf_of_val (q : DmaSem sig) (j : Fin 32) (h : q.val = 34 + j.val) : recvOf q = some j := by
  have := j.isLt
  unfold recvOf
  rw [dif_pos (by omega)]
  exact congrArg some (Fin.ext (by show q.val - 34 = j.val; omega))
theorem sendOf_of_ge (q : DmaSem sig) (h : 34 ≤ q.val) : sendOf q = none := by
  unfold sendOf
  rw [dif_neg (by omega)]

theorem sendOf_sendS (d : Fin 32) : sendOf (sendS d) = some d := sendOf_of_val _ d (sendS_val d)
theorem recvOf_recvS (j : Fin 32) : recvOf (recvS j) = some j := recvOf_of_val _ j (recvS_val j)
theorem sendOf_recvS (j : Fin 32) : sendOf (recvS j) = none := sendOf_of_ge _ (by rw [recvS_val]; omega)
theorem sendS_inj {d d' : Fin 32} (h : sendS d = sendS d') : d = d' := by
  have := congrArg Fin.val h
  rw [sendS_val, sendS_val] at this
  exact Fin.ext (by omega)
theorem recvS_inj {j j' : Fin 32} (h : recvS j = recvS j') : j = j' := by
  have := congrArg Fin.val h
  rw [recvS_val, recvS_val] at this
  exact Fin.ext (by omega)
theorem sendS_ne_recvS (d j : Fin 32) : sendS d ≠ recvS j := by
  intro h
  have := congrArg Fin.val h
  rw [sendS_val, recvS_val] at this
  have := d.isLt
  omega
theorem send_ne_bar (d : Fin 32) : (SemLoc.dma (sendS d) : SemLoc sig) ≠ .reg barS := fun h => by cases h
theorem recv_ne_bar (j : Fin 32) : (SemLoc.dma (recvS j) : SemLoc sig) ≠ .reg barS := fun h => by cases h

/-! ## Duties, amounts, payloads -/

section Tables
variable (c : Dev nD)

theorem duties_bar : (Rd (F := F) m ρ).duties (barCell c) 0 = Finset.univ.erase c := by
  dsimp only [Rd]; rw [if_pos ⟨rfl, rfl⟩, if_pos rfl]
theorem duties_send (d : Fin 32) (hd : d ≠ 0) : (Rd (F := F) m ρ).duties (sendCell c d) 0 = {0} := by
  dsimp only [Rd]; rw [if_pos ⟨rfl, rfl⟩, sendOf_sendS]; exact if_neg hd
theorem duties_send_zero (r : ℕ) : (Rd (F := F) m ρ).duties (sendCell c 0) r = ∅ := by
  dsimp only [Rd]; rw [sendOf_sendS]; exact ite_eq_right_iff.mpr fun _ => if_pos rfl
theorem duties_recv (j : Dev nD) (hj : j ≠ c) : (Rd (F := F) m ρ).duties (recvCell c j) 0 = {0} := by
  dsimp only [Rd]; rw [if_pos ⟨rfl, rfl⟩, sendOf_recvS, recvOf_recvS]; exact if_neg hj
theorem duties_recv_self (r : ℕ) : (Rd (F := F) m ρ).duties (recvCell c c) r = ∅ := by
  dsimp only [Rd]; rw [sendOf_recvS, recvOf_recvS]; exact ite_eq_right_iff.mpr fun _ => if_pos rfl
theorem duties_later (g : GSem nD τ sig) : ∀ r, 1 ≤ r → (Rd (F := F) m ρ).duties g r = ∅ := fun r hr => by
  dsimp only [Rd]; rw [if_neg fun h => by have := h.1; omega]

theorem amount_bar (r : ℕ) (p : Fin 32) : (Rd (F := F) m ρ).amount (barCell c) r p = 1 := by
  dsimp only [Rd]; exact if_pos rfl
theorem amount_send (d : Fin 32) (r : ℕ) (k : Fin 32) : (Rd (F := F) m ρ).amount (sendCell c d) r k = N := by
  dsimp only [Rd]; exact if_neg (send_ne_bar d)
theorem amount_recv (j : Fin 32) (r : ℕ) (k : Fin 32) : (Rd (F := F) m ρ).amount (recvCell c j) r k = N := by
  dsimp only [Rd]; exact if_neg (recv_ne_bar j)

theorem expect_bar : (Rd (F := F) m ρ).expect (barCell c) 0 = 31 := by
  unfold Schedule.expect Schedule.amountOf
  rw [duties_bar, Finset.sum_congr rfl fun p _ => amount_bar m ρ c 0 p, Finset.sum_const,
    Finset.card_erase_of_mem (Finset.mem_univ c), Finset.card_univ, Fintype.card_fin, smul_eq_mul]
  rfl
theorem expect_send (d : Fin 32) (hd : d ≠ 0) : (Rd (F := F) m ρ).expect (sendCell c d) 0 = N := by
  unfold Schedule.expect Schedule.amountOf; rw [duties_send m ρ c d hd, Finset.sum_singleton, amount_send]
theorem expect_recv (j : Dev nD) (hj : j ≠ c) : (Rd (F := F) m ρ).expect (recvCell c j) 0 = N := by
  unfold Schedule.expect Schedule.amountOf; rw [duties_recv m ρ c j hj, Finset.sum_singleton, amount_recv]

theorem payload_bar (r : ℕ) (p : Dev nD) : (Rd (F := F) m ρ).payload (barCell c) r p = barPay c p := rfl
theorem payload_send (d : Fin 32) (r : ℕ) (k : Fin 32) : (Rd (F := F) m ρ).payload (sendCell c d) r k = sendPay m ρ c d := by
  dsimp only [Rd]; rw [sendOf_sendS] <;> rfl
theorem payload_recv (j : Dev nD) (r : ℕ) (k : Fin 32) : (Rd (F := F) m ρ).payload (recvCell c j) r k = recvPay m ρ c j := by
  dsimp only [Rd]; rw [sendOf_recvS, recvOf_recvS] <;> rfl

/-- The whole of the barrier cell's round, no duty taken: every peer's payload. -/
theorem rest_bar : bigSep ((Rd (F := F) m ρ).duties (barCell c) 0 \ ∅) (fun p => (Rd (F := F) m ρ).payload (barCell c) 0 p)
    = bigSep (Finset.univ.erase c) (fun p : Dev nD => barPay (F := F) c p) := by
  rw [Finset.sdiff_empty, duties_bar]
  exact bigSep_congr fun p _ => payload_bar m ρ c 0 p
theorem rest_send (d : Fin 32) (hd : d ≠ 0) :
    bigSep ((Rd (F := F) m ρ).duties (sendCell c d) 0 \ ∅) (fun k => (Rd (F := F) m ρ).payload (sendCell c d) 0 k) = sendPay m ρ c d := by
  rw [Finset.sdiff_empty, duties_send m ρ c d hd, bigSep_singleton, payload_send]
theorem rest_recv (j : Dev nD) (hj : j ≠ c) :
    bigSep ((Rd (F := F) m ρ).duties (recvCell c j) 0 \ ∅) (fun k => (Rd (F := F) m ρ).payload (recvCell c j) 0 k) = recvPay m ρ c j := by
  rw [Finset.sdiff_empty, duties_recv m ρ c j hj, bigSep_singleton, payload_recv]

end Tables

/-! ## A device's peers, by offset -/

/-- The offsets of a device's thirty-one peers. -/
abbrev offs : List ℕ := List.range' 1 31

/-- The chain over the image of a list under a map is the chain of the composed family over the list. -/
theorem bigSepL_map {M : Type _} [URA M] {I J : Type _} (f : J → I) (l : List J) (Φ : I → sProp M) :
    bigSepL (l.map f) Φ = bigSepL l (fun j => Φ (f j)) := by
  induction l with
  | nil => rfl
  | cons j l ih => rw [List.map_cons, bigSepL_cons, bigSepL_cons, ih]

/-- A family over a device's peers is the family over the offsets 1 … 31, each peer named `shift c d`. -/
theorem peers_list (c : Dev nD) (Φ : Dev nD → sProp 𝕄) :
    bigSep (Finset.univ.erase c) Φ = bigSepL offs (fun d => Φ (shift c d)) := by
  have hmem : ∀ d ∈ offs, 1 ≤ d ∧ d < 32 := by
    intro d hd; rw [List.mem_range'_1] at hd; omega
  have hnd : (offs.map (shift c)).Nodup := by
    refine List.Nodup.map_on ?_ (by decide : offs.Nodup)
    intro d hd d' hd' h
    exact shift_inj c (hmem d hd).2 (hmem d' hd').2 h
  have hset : Finset.univ.erase c = (offs.map (shift c)).toFinset := by
    ext p
    simp only [Finset.mem_erase, Finset.mem_univ, _root_.and_true, List.mem_toFinset, List.mem_map]
    constructor
    · intro hp
      exact ⟨offTo c p, by rw [List.mem_range'_1]; exact ⟨offTo_pos hp, by have := offTo_lt c p; omega⟩, shift_offTo c p⟩
    · rintro ⟨d, hd, rfl⟩
      exact shift_ne_self c (hmem d hd).1 (hmem d hd).2
  rw [bigSep_eq_bigSepL_of_eq _ hset hnd, bigSepL_map]

end Cert.KernelRun

end
-- ==== Proof.KernelRun.State.lean ====
/- What a device's body starts from and what it leaves: the cells' invariants, the device's positions in its own
   cells, the tokens of the duties it pays, the credit it is owed, what it owes, and the pipeline's proof data. -/
import proofs.«901066_g7700000000001067_dist_softmax_colshard_i_m512_n256_v7x_i32_bf16_1_alg».proof.Proof.KernelRun.Tables

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device owes at launch, and the levels -/

/-- One unit to the barrier cell of each peer at the offsets `ds`; -/
def owedBar (c : Dev nD) : List ℕ → CellTallies nD τ sig Unit
  | [] => 0
  | d :: ds => owedBar c ds + tallyAt (barCell (shift c d)) () 1
/-- a row's credit to the receive cell for `c` of each peer at the offsets `ds`. -/
def owedRecv (c : Dev nD) : List ℕ → CellTallies nD τ sig Unit
  | [] => 0
  | d :: ds => owedRecv c ds + tallyAt (recvCell (shift c d) c) () N

/-- At launch a device owes both to every peer. -/
def O₀ (c : Dev nD) : CellTallies nD τ sig Unit := owedRecv c offs + owedBar c offs

def L (g : GSem nD τ sig) : Finset Unit := if g.1.2 = .tc then {()} else ∅
/-- Barrier cells at level 1, receive cells at 2, everything else (staging, send) at 0. -/
def lv (g : GSem nD τ sig) (_ : Unit) : ℕ :=
  if g.2 = .reg barS then 1 else match g.2 with
    | .reg _ => 0
    | .dma q => if (recvOf q).isSome ∧ (sendOf q).isNone then 2 else 0

/-! ## The ghost state -/

/-- Every device's cells' invariants at the names `K`, and that each cell has reached round 0. -/
def records (K : GSem nD τ sig → ℕ) : sProp 𝕄 :=
  iprop((bigSep Finset.univ fun t : Dev nD => iprop(cellInv ER (Rd m ρ) (K (barCell t)) (barCell t)
      ∗ (bigSep Finset.univ fun d : Fin 32 => cellInv ER (Rd m ρ) (K (sendCell t d)) (sendCell t d))
      ∗ (bigSep Finset.univ fun j : Fin 32 => cellInv ER (Rd m ρ) (K (recvCell t j)) (recvCell t j))))
    ∗ (bigSep Finset.univ fun t : Dev nD => iprop(reached ER (barCell t) 0
      ∗ (bigSep Finset.univ fun d : Fin 32 => reached ER (sendCell t d) 0)
      ∗ (bigSep Finset.univ fun j : Fin 32 => reached ER (recvCell t j) 0))))

instance records_persistent (K : GSem nD τ sig → ℕ) : BI.Persistent (records m ρ K) := by unfold records; infer_instance

/-- What stays with device `c`: its positions at round 0 of its own cells, and the tokens of the duties IT pays —
    each peer's barrier duty named `c`, each peer's receive-for-`c` duty, its own send duties. -/
def linear (c : Dev nD) : sProp 𝕄 :=
  iprop((atPos ER (barCell c) 0 ∅ 0
      ∗ (bigSep Finset.univ fun d : Fin 32 => atPos ER (sendCell c d) 0 ∅ 0)
      ∗ (bigSep Finset.univ fun j : Fin 32 => atPos ER (recvCell c j) 0 ∅ 0))
    ∗ (bigSep (Finset.univ.erase c) fun t : Dev nD => dutyTok ER (barCell t) 0 c)
    ∗ (bigSep (Finset.univ.erase c) fun t : Dev nD => dutyTok ER (recvCell t c) 0 0)
    ∗ (bigSep (Finset.univ.erase (0 : Fin 32)) fun d : Fin 32 => dutyTok ER (sendCell c d) 0 0))

/-- The ghost state device `c` starts from, at the names `K`. -/
def ghost (K : GSem nD τ sig → ℕ) (c : Dev nD) : sProp 𝕄 := iprop(records m ρ K ∗ linear c)

/-- The credit a device is owed at launch: its barrier's thirty-one units and a row's credit on its receive cell for
    each peer. -/
def launchCreds (c : Dev nD) : sProp 𝕄 :=
  iprop(cred (tallyAt (barCell c) () 31) ∗ bigSep (Finset.univ.erase c) fun j : Dev nD => cred (tallyAt (recvCell c j) () N))

/-- What device `c`'s body starts from besides its buffers. -/
def start (c : Dev nD) : sProp 𝕄 := iprop((∃ K, ghost m ρ K c) ∗ launchCreds c ∗ levAts L lv)

/-- Before the point: that and the buffer of statistics, whole, at any contents. -/
def Φ₀ (c : Dev nD) : sProp 𝕄 := iprop(start m ρ c ∗ ∃ f, (((c : Thread nD τ).loc cc0_scratch0) ↦{fullShare} f))
/-- After it: the buffer whole again, and every own send and receive cell closed, its counter at zero. -/
def Φ₁ (c : Dev nD) : sProp 𝕄 :=
  iprop((∃ f, (((c : Thread nD τ).loc cc0_scratch0) ↦{fullShare} f))
    ∗ (bigSep Finset.univ fun d : Fin 32 => semVal (sendCell c d) 0)
    ∗ (bigSep Finset.univ fun j : Fin 32 => semVal (recvCell c j) 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.KernelRun

end
-- ==== Proof.KernelRun.Rows.lean ====
/- The buffer of statistics row by row: the thirty-two rows are pairwise disjoint and cover it, so holding the buffer
   is holding its rows; what the store into a device's own row and a copy landing in a row leave there. -/
import proofs.«901066_g7700000000001067_dist_softmax_colshard_i_m512_n256_v7x_i32_bf16_1_alg».proof.Proof.KernelRun.Sched

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A row's elements are the unit rectangle of one row at the row's offset. -/
theorem rowM_set (j : Dev nD) :
    (rowM j).view.set = (Rect.unit (s := S32x2x512) ![j.val, 0, 0] S1x2x512.size (row_inb j)).set := by
  show ((View.slice (View.whole cc0_scratch0) _).reshape S2x512 _).set = _
  rw [View.set_reshape, View.set_slice_whole]

omit [FloatOps F] in
/-- Distinct rows share no element. -/
theorem rows_disjoint (j j' : Dev nD) (h : j ≠ j') :
    Disjoint (rowM j).view.set (rowM j').view.set := by
  rw [rowM_set, rowM_set]
  exact Ring.lead_disjoint (s := S32x2x512) (NB := 32) (0 : Fin 3) 1 (fun p : Fin 32 => ![p.val, 0, 0]) S1x2x512.size row_inb
    (fun b => by simp) (by decide) j j' h

omit [FloatOps F] in
/-- The rows cover the buffer. -/
theorem rows_cover :
    Finset.univ.biUnion (fun j : Dev nD => (rowM j).view.set) = (Finset.univ : Finset (rowM (0 : Dev nD)).view.ty.Idx) := by
  ext i
  simp only [Finset.mem_biUnion, Finset.mem_univ, true_and, iff_true]
  have h0 : (i 0).val < 32 := (i 0).isLt
  have h1 : (i 1).val < 2 := (i 1).isLt
  have h2 : (i 2).val < 512 := (i 2).isLt
  refine ⟨⟨(i 0).val, h0⟩, ?_⟩
  rw [rowM_set]
  refine Rect.mem_set_unit.mpr fun a => ?_
  match a with
  | ⟨0, _⟩ => exact ⟨Nat.le_refl _, Nat.lt_succ_self _⟩
  | ⟨1, _⟩ => exact ⟨Nat.zero_le _, by simpa using h1⟩
  | ⟨2, _⟩ => exact ⟨Nat.zero_le _, by simpa using h2⟩

omit [FloatOps F] in
/-- The buffer held whole is its rows held one by one, at any share and contents. -/
theorem scratch_rows (p : Dev nD) (q : PosShare TreeShare) (f : (cc0_scratch0 : Ref sig .tc).ty.Contents (Elt F)) :
    ((((p : Thread nD τ).loc cc0_scratch0) ↦{q} f) : sProp 𝕄) = bigSep Finset.univ fun j : Dev nD => rowPts p j q f := by
  have hd : ∀ t ∈ (Finset.univ : Finset (Dev nD)), ∀ t' ∈ (Finset.univ : Finset (Dev nD)), t ≠ t' →
      Disjoint ((rowM t).view.set : Finset (Idx ((p : Thread nD τ).loc cc0_scratch0))) ((rowM t').view.set) :=
    fun b _ b' _ h => rows_disjoint b b' h
  have h := pointsTo_biUnion (nD := nD) (τ := τ) (sig := sig) (Ix := Unit) (Val := Elt F) (Name := ℕ) (U := UU) (Lvl := ℕ) (ℓ := (p : Thread nD τ).loc cc0_scratch0) (q := q) (f := f) Finset.univ
    (fun j : Dev nD => ((rowM j).view.set : Finset (Idx ((p : Thread nD τ).loc cc0_scratch0)))) hd
  have hc : Finset.univ.biUnion (fun j : Dev nD => (rowM j).view.set)
      = (Finset.univ : Finset ((p : Thread nD τ).loc cc0_scratch0).ty.Idx) := rows_cover
  rw [hc] at h
  exact h

omit [FloatOps F] in
/-- A row's points-to, spelled at the buffer's own location. -/
theorem rowPts_eq (p j : Dev nD) (q : PosShare TreeShare) (f : (cc0_scratch0 : Ref sig .tc).ty.Contents (Elt F)) :
    (rowPts p j q f : sProp 𝕄) = (((p : Thread nD τ).loc cc0_scratch0) ↦[(rowM j).view.set]{q} f) := rfl

omit [FloatOps F] in
/-- Rows held each at some contents join to the buffer held whole at some contents. -/
theorem scratch_rows_join (p : Dev nD) :
    (bigSep Finset.univ fun j : Dev nD => iprop(∃ f, rowPts (F := F) p j fullShare f))
      ⊢ (iprop(∃ g, (((p : Thread nD τ).loc cc0_scratch0) ↦{fullShare} g)) : sProp 𝕄) := by
  have hd : ∀ t t' : Dev nD, t ≠ t' →
      Disjoint ((rowM t).view.set : Finset (Idx ((p : Thread nD τ).loc cc0_scratch0))) ((rowM t').view.set) :=
    fun b b' h => rows_disjoint b b' h
  have hc : Finset.univ.biUnion (fun j : Dev nD => (rowM j).view.set)
      = (Finset.univ : Finset ((p : Thread nD τ).loc cc0_scratch0).ty.Idx) := rows_cover
  simp only [rowPts_eq]
  -- row 0's contents name a buffer's worth of contents for the join to start from
  rw [bigSep_univ_at _ (0 : Dev nD)]
  iintro ⟨⟨%f₀, H0⟩, Hrest⟩
  iapply (Ring.pointsTo_blocks_join_exists (nD := nD) (τ := τ) (sig := sig) (Ix := Unit) (Val := Elt F) (Name := ℕ) (U := UU) (Lvl := ℕ) (ℓ := (p : Thread nD τ).loc cc0_scratch0) (q := fullShare)
    (fun j : Dev nD => ((rowM j).view.set : Finset (Idx ((p : Thread nD τ).loc cc0_scratch0)))) hd hc f₀)
  rw [bigSep_univ_at _ (0 : Dev nD)]
  isplitl [H0]
  · iexists f₀; iexact H0
  · iexact Hrest

omit [FloatOps F] in
/-- Every row's transfer credits a DMA semaphore the same amount. -/
theorem row_amount (j : Dev nD) (q : DmaSem sig) : (rowM j).view.amount (.dma q) = N := rfl

omit [FloatOps F] in
/-- The wait on a row's transfer waits for this amount. -/
theorem row_credit (j : Dev nD) : (rowM j).view.dmaCredit = N := rfl

omit [FloatOps F] in
/-- The kernel's own-row rectangle (its printed offset chain) lies in the device's own row: for the store … -/
theorem store_own_sub (c : Dev nD) :
    (sM.access (Rect.unit (s := S32x2x512) (k0_off1 c) S1x2x512.size (k0_off1_inb c))).setOn Finset.univ
      ⊆ (rowM c).view.set := by
  rw [View.setOn_univ, rowM_set]
  show ((View.whole cc0_scratch0).slice _).set ⊆ _
  rw [View.set_slice_whole, Rect.unit_congr (k0_off1_eq c) (k0_off1_inb c) (row_inb c)]
omit [FloatOps F] in
/-- … and for the load before it. -/
theorem load_own_sub (c : Dev nD) :
    sM.view.setOn (Rect.unit (s := S32x2x512) (k0_off1 c) S1x2x512.size (k0_off1_inb c)).toLoadRect.set
      ⊆ (rowM c).view.set := by
  rw [rowM_set, Rect.unit_congr (k0_off1_eq c) (k0_off1_inb c) (row_inb c)]
  show Finset.map (Function.Embedding.refl _) _ ⊆ _
  rw [Finset.map_refl]

omit [FloatOps F] in
/-- Writing a whole row's worth through the unit rectangle at row `c`'s offset leaves, on row `c`, the payload at the
    element's index within the row. -/
theorem write_row_aux (c : Dev nD) (off : Fin 3 → ℕ) (h : off = ![c.val, 0, 0]) (inb : ∀ a, off a + S1x2x512.size a ≤ S32x2x512.size a)
    (f : (cc0_scratch0 : Ref sig .tc).ty.Contents (Elt F)) (w : S1x2x512.Idx → Elt F .f32)
    (i : S32x2x512.Idx) (hi : i ∈ (rowM c).view.set) :
    (sM.access (Rect.unit (s := S32x2x512) off S1x2x512.size inb)).write (Elt F) f w Finset.univ i = w (rowIdx i) := by
  subst h
  rw [rowM_set, ← Rect.map_emb_univ] at hi
  obtain ⟨x, -, rfl⟩ := Finset.mem_map.mp hi
  have hx : rowIdx ((Rect.unit (s := S32x2x512) ![c.val, 0, 0] S1x2x512.size (row_inb c)).emb x) = x := by
    funext a
    match a with
    | ⟨0, _⟩ => exact Fin.ext (by have h : (x 0).val < 1 := (x 0).isLt; show (0 : ℕ) = (x 0).val; omega)
    | ⟨1, _⟩ => exact Fin.ext (show ((![c.val, 0, 0] : Fin 3 → ℕ) 1 + 1 * (x 1).val) = (x 1).val by simp)
    | ⟨2, _⟩ => exact Fin.ext (show ((![c.val, 0, 0] : Fin 3 → ℕ) 2 + 1 * (x 2).val) = (x 2).val by simp)
  rw [hx]
  have hw := View.write_emb_of_mem (v := sM.access (Rect.unit (s := S32x2x512) ![c.val, 0, 0] S1x2x512.size inb)) (Val := Elt F) f w
    (M := Finset.univ) (x := x) (Finset.mem_univ _)
  rw [cast_eq] at hw
  exact hw

/-- After the store of its statistics, a device's own row holds the gathered statistics' row for it. -/
theorem store_own_val (c : Dev nD) (f : (cc0_scratch0 : Ref sig .tc).ty.Contents (Elt F))
    (i : S32x2x512.Idx) (hi : i ∈ (rowM c).view.set) :
    (sM.access (Rect.unit (s := S32x2x512) (k0_off1 c) S1x2x512.size (k0_off1_inb c))).write (Elt F) f (k0_pay4 (xstg m ρ c)) Finset.univ i
      = allStats m ρ i := by
  rw [write_row_aux c _ (k0_off1_eq c) _ f _ i hi]
  have h0 : (⟨(i 0).val, (i 0).isLt⟩ : Dev nD) = c := by
    rw [rowM_set] at hi
    have h := (Rect.mem_set_unit.mp hi) 0
    have h1 : (![c.val, 0, 0] : Fin 3 → ℕ) 0 = c.val := rfl
    have h2 : S1x2x512.size 0 = 1 := rfl
    rw [h1, h2] at h
    exact Fin.ext (by show (i 0).val = c.val; omega)
  unfold allStats
  rw [h0]

omit [FloatOps F] in
/-- A copy of row `c` landing in row `c` of another buffer leaves there what the source held there. -/
theorem landed_val (c : Dev nD) (fd fs : (cc0_scratch0 : Ref sig .tc).ty.Contents (Elt F))
    (i : S32x2x512.Idx) (hi : i ∈ (rowM c).view.set) :
    (rowM c).view.write (Elt F) fd ((rowM c).view.read (Elt F) fs) Finset.univ i = fs i := by
  obtain ⟨x, -, rfl⟩ := Finset.mem_map.mp hi
  rw [View.write_emb_of_mem _ _ (Finset.mem_univ _), View.read_apply, cast_cast, cast_eq]

/-- The offsets of the whole buffer's load are zero on every axis. -/
theorem zero3 : (![0, 0, 0] : Fin 3 → ℕ) = fun _ => 0 := by
  funext a; match a with
  | ⟨0, _⟩ => rfl
  | ⟨1, _⟩ => rfl
  | ⟨2, _⟩ => rfl

omit [FloatOps F] in
/-- The load of the whole buffer reads its contents. -/
theorem read_scratch (f : (cc0_scratch0 : Ref sig .tc).ty.Contents (Elt F)) :
    sM.view.readAt (Elt F) (Rect.unit (s := S32x2x512) ![0, 0, 0] S32x2x512.size inb_S32x2x512_S32x2x512_0_0_0).toLoadRect f = f :=
  Memref.readAt_unit_zero (Elt F) cc0_scratch0 zero3 _ f

end Cert.KernelRun

end
-- ==== Proof.KernelRun.Levels.lean ====
/- The order in which waits are allowed: a wait on a cell is allowed while everything the waiter still owes sits on
   cells of a higher level. Barrier cells are at level 1, receive cells at 2, the rest at 0. And the credit the
   launch deals a device: its barrier's thirty-one units and each receive cell's row credit. -/
import proofs.«901066_g7700000000001067_dist_softmax_colshard_i_m512_n256_v7x_i32_bf16_1_alg».proof.Proof.KernelRun.State

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl

omit [FloatOps F] in
theorem lv_bar (c : Dev nD) : lv (barCell c) () = 1 := if_pos rfl
omit [FloatOps F] in
theorem lv_recv (c : Dev nD) (j : Fin 32) : lv (recvCell c j) () = 2 := by
  unfold lv
  rw [if_neg (recv_ne_bar j)]
  show (if (recvOf (recvS j)).isSome ∧ (sendOf (recvS j)).isNone then 2 else 0) = 2
  rw [recvOf_recvS, sendOf_recvS]
  exact if_pos ⟨rfl, rfl⟩
omit [FloatOps F] in
theorem lv_send (c : Dev nD) (d : Fin 32) : lv (sendCell c d) () = 0 := by
  unfold lv
  rw [if_neg (send_ne_bar d)]
  show (if (recvOf (sendS d)).isSome ∧ (sendOf (sendS d)).isNone then 2 else 0) = 0
  rw [sendOf_sendS]
  exact if_neg fun h => Bool.noConfusion h.2

omit [FloatOps F] in
/-- Whatever the offsets, a device's receive debts sit on receive cells for it. -/
theorem owedRecv_pos {c : Dev nD} {ds : List ℕ} {g : GSem nD τ sig} {u : Unit} (h : 0 < owedRecv c ds g u) :
    ∃ t : Dev nD, g = recvCell t c := by
  induction ds with
  | nil => exact absurd h (Nat.lt_irrefl 0)
  | cons d ds ih =>
    rcases Pipeline.add_pos_cases (show 0 < (owedRecv c ds + tallyAt (recvCell (shift c d) c) () N) g u from h) with h1 | h1
    · exact ih h1
    · exact ⟨shift c d, (Pipeline.tallyAt_pos h1).1⟩

omit [FloatOps F] in
/-- Whatever the offsets, a device's barrier debts sit on barrier cells. -/
theorem owedBar_pos {c : Dev nD} {ds : List ℕ} {g : GSem nD τ sig} {u : Unit} (h : 0 < owedBar c ds g u) :
    ∃ t : Dev nD, g = barCell t := by
  induction ds with
  | nil => exact absurd h (Nat.lt_irrefl 0)
  | cons d ds ih =>
    rcases Pipeline.add_pos_cases (show 0 < (owedBar c ds + tallyAt (barCell (shift c d)) () 1) g u from h) with h1 | h1
    · exact ih h1
    · exact ⟨shift c d, (Pipeline.tallyAt_pos h1).1⟩

omit [FloatOps F] in
/-- A cell a device owes to at launch is a peer's receive cell or a peer's barrier cell. -/
theorem O₀_pos {c : Dev nD} {g : GSem nD τ sig} {u : Unit} (h : 0 < O₀ c g u) :
    (∃ t : Dev nD, g = recvCell t c) ∨ (∃ t : Dev nD, g = barCell t) := by
  rcases Pipeline.add_pos_cases (show 0 < (owedRecv c offs + owedBar c offs) g u from h) with h1 | h1
  · exact Or.inl (owedRecv_pos h1)
  · exact Or.inr (owedBar_pos h1)

omit [FloatOps F] in
/-- A wait on a cell of level 0 (a staging cell, a send cell) is allowed whatever of the launch's debts is left. -/
theorem mayWait_zero_level (c : Dev nD) (q : DmaSem sig) (hq : lv ((c : Thread nD τ), .dma q) () = 0)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨t, rfl⟩ | ⟨t, rfl⟩ <;> (rw [L_tc]; exact Finset.mem_singleton_self _))
      (fun p hp => by rw [Finset.mem_singleton.mp hp]; exact Nat.le_of_eq hq)
      (fun g u hg => by
        rcases O₀_pos hg with ⟨t, rfl⟩ | ⟨t, rfl⟩
        · rw [lv_recv]; decide
        · rw [lv_bar]; decide)
  · rw [MayWait_zero]; iintro -; iempintro

omit [FloatOps F] in
/-- At its barrier wait a device owes its peers' receive credits only: receive cells, above its barrier cell. -/
theorem mayWait_bar (c : Dev nD) :
    (levAts L lv : sProp 𝕄) ⊢ MayWait (c : Thread nD τ) (.reg barS) () (owedRecv c offs) :=
  MayOwe.of_cut (L := L) (lev := lv) 1 (fun p hp => by rw [Finset.mem_singleton.mp hp, L_tc]; exact Finset.mem_singleton_self _)
    (fun g u hg => by obtain ⟨t, rfl⟩ := owedRecv_pos hg; rw [L_tc]; exact Finset.mem_singleton_self _)
    (fun p hp => by rw [Finset.mem_singleton.mp hp]; exact Nat.le_of_eq (lv_bar c))
    (fun g u hg => by obtain ⟨t, rfl⟩ := owedRecv_pos hg; rw [lv_recv]; decide)

omit [FloatOps F] in
/-- The level of a transfer cell is read off its semaphore alone. -/
theorem lv_dma (t : Thread nD τ) (q : DmaSem sig) :
    lv (t, .dma q) () = if (recvOf q).isSome ∧ (sendOf q).isNone then 2 else 0 := by
  unfold lv
  rw [if_neg (fun h => by cases h)]

/-- The pipeline's own staging waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_zero_level c _ (by rw [lv_dma]; fin_cases w <;> fin_cases s <;> decide) _ (by
      rcases t with ⟨_ | _, ht⟩
      · exact Or.inl rfl
      · exact Or.inr rfl)

/-! ## The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} {j j' : Fin 32} : Iff (recvCell a j = recvCell b j') (a = b ∧ j = j') :=
  ⟨fun h => ⟨Fin.ext (congrArg (fun g : GSem nD τ sig => g.1.1.val) h), recvS_inj (SemLoc.dma.inj (congrArg Prod.snd h))⟩,
    fun h => by rw [h.1, h.2]⟩

omit [FloatOps F] in
/-- The device whose k-th successor is c is the k-th predecessor of c. -/
theorem shift_eq_iff (d c : Dev nD) (k : ℕ) : Iff (shift d k = c) (d = unshift c k) :=
  ⟨fun h => by rw [← h, unshift_shift], fun h => by rw [h, shift_unshift]⟩

omit [FloatOps F] in
/-- Receive debts put nothing on a barrier cell, -/
theorem owedRecv_bar (d c : Dev nD) (ds : List ℕ) : owedRecv d ds (barCell c) () = 0 := by
  induction ds with
  | nil => rfl
  | cons k ds ih =>
    show (owedRecv d ds + tallyAt (recvCell (shift d k) d) () N) (barCell c) () = 0
    rw [Pi.add_apply, Finsupp.add_apply, ih, tallyAt_ne_cell (fun h => recv_ne_bar d (congrArg Prod.snd h).symm), Finsupp.zero_apply, Nat.add_zero]

omit [FloatOps F] in
/-- barrier debts nothing on a receive cell, -/
theorem owedBar_recv (d c : Dev nD) (j : Fin 32) (ds : List ℕ) : owedBar d ds (recvCell c j) () = 0 := by
  induction ds with
  | nil => rfl
  | cons k ds ih =>
    show (owedBar d ds + tallyAt (barCell (shift d k)) () 1) (recvCell c j) () = 0
    rw [Pi.add_apply, Finsupp.add_apply, ih, tallyAt_ne_cell (fun h => recv_ne_bar j (congrArg Prod.snd h)), Finsupp.zero_apply, Nat.add_zero]

omit [FloatOps F] in
/-- and a device's receive debts nothing on a receive cell for another device. -/
theorem owedRecv_other {d j : Dev nD} (h : d ≠ j) (c : Dev nD) (ds : List ℕ) : owedRecv d ds (recvCell c j) () = 0 := by
  induction ds with
  | nil => rfl
  | cons k ds ih =>
    show (owedRecv d ds + tallyAt (recvCell (shift d k) d) () N) (recvCell c j) () = 0
    rw [Pi.add_apply, Finsupp.add_apply, ih, tallyAt_ne_cell (fun h' => h (recv_eq_iff.mp h').2.symm), Finsupp.zero_apply, Nat.add_zero]

omit [FloatOps F] in
/-- Summed over the devices, the barrier debts at the offsets ds put one unit per offset on a barrier cell: at offset k
    the one device that owes it is the k-th predecessor of its owner. -/
theorem sum_owedBar (c : Dev nD) (ds : List ℕ) : ∑ d : Dev nD, owedBar d ds (barCell c) () = ds.length := by
  induction ds with
  | nil => exact Finset.sum_const_zero
  | cons k ds ih =>
    have hd : ∀ d : Dev nD, owedBar d (k :: ds) (barCell c) () = owedBar d ds (barCell c) () + if d = unshift c k then 1 else 0 := fun d => by
      show (owedBar d ds + tallyAt (barCell (shift d k)) () 1) (barCell c) () = _
      rw [Pi.add_apply, Finsupp.add_apply, tallyAt_apply]
      by_cases h : d = unshift c k
      · rw [if_pos h, if_pos ⟨by rw [h, shift_unshift], rfl⟩]
      · rw [if_neg h, if_neg (fun h' => h ((shift_eq_iff d c k).mp (bar_eq_iff.mp h'.1).symm))]
    rw [Finset.sum_congr rfl fun d _ => hd d, Finset.sum_add_distrib, ih, Finset.sum_ite_eq' Finset.univ (unshift c k) fun _ => 1,
      if_pos (Finset.mem_univ _), List.length_cons]

omit [FloatOps F] in
/-- Over distinct offsets below 32, a device's receive debts put a row's credit on the receive cell for it of the device
    c exactly when the offset from it to c is among them. -/
theorem owedRecv_self (j c : Dev nD) (ds : List ℕ) (hnd : ds.Nodup) (hlt : ∀ k ∈ ds, k < 32) :
    owedRecv j ds (recvCell c j) () = if offTo j c ∈ ds then N else 0 := by
  induction ds with
  | nil => rw [if_neg (List.not_mem_nil)]; rfl
  | cons k ds ih =>
    have hk : k < 32 := hlt k List.mem_cons_self
    show (owedRecv j ds + tallyAt (recvCell (shift j k) j) () N) (recvCell c j) () = _
    rw [Pi.add_apply, Finsupp.add_apply, ih (List.nodup_cons.mp hnd).2 (fun k' hk' => hlt k' (List.mem_cons_of_mem _ hk')), tallyAt_apply]
    by_cases h : k = offTo j c
    · have hn : offTo j c ∉ ds := h ▸ (List.nodup_cons.mp hnd).1
      rw [if_neg hn, if_pos ⟨by rw [h, shift_offTo], rfl⟩, if_pos (h ▸ List.mem_cons_self), Nat.zero_add]
    · have hs : ¬ (recvCell c j = recvCell (shift j k) j ∧ () = ()) := fun h' =>
        h (shift_inj j hk (offTo_lt j c) ((recv_eq_iff.mp h'.1).1.symm.trans (shift_offTo j c).symm))
      rw [if_neg hs, Nat.add_zero]
      by_cases hm : offTo j c ∈ ds
      · rw [if_pos hm, if_pos (List.mem_cons_of_mem _ hm)]
      · rw [if_neg hm, if_neg (fun h' => by
          rcases List.mem_cons.mp h' with h'' | h''
          · exact h h''.symm
          · exact hm h'')]

omit [FloatOps F] in
/-- What device d owes the receive cell of c for a peer j: a row's credit when d is that peer. -/
theorem owed_recv (d c j : Dev nD) (hj : j ≠ c) : O₀ d (recvCell c j) () = if d = j then N else 0 := by
  show (owedRecv d offs + owedBar d offs) (recvCell c j) () = _
  rw [Pi.add_apply, Finsupp.add_apply, owedBar_recv, Nat.add_zero]
  by_cases h : d = j
  · subst h
    rw [if_pos rfl, owedRecv_self d c offs List.nodup_range' (fun k hk => by have := List.mem_range'_1.mp hk; omega),
      if_pos (List.mem_range'_1.mpr ⟨offTo_pos hj.symm, by have := offTo_lt d c; omega⟩)]
  · rw [if_neg h, owedRecv_other h]

omit [FloatOps F] in
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  have hd : ∀ d : Dev nD, O₀ d (barCell c) () = owedBar d offs (barCell c) () := fun d => by
    show (owedRecv d offs + owedBar d offs) (barCell c) () = _
    rw [Pi.add_apply, Finsupp.add_apply, owedRecv_bar, Nat.zero_add]
  rw [Pipeline.launchCredit_owing, Finsupp.single_eq_same, Finset.sum_congr rfl fun d _ => hd d, sum_owedBar]
  rfl

omit [FloatOps F] in
theorem launch_recv (c j : Dev nD) (hj : j ≠ c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j hj,
    Finset.sum_ite_eq' Finset.univ j fun _ => N, if_pos (Finset.mem_univ _)]

omit [FloatOps F] in
/-- What every device owes a barrier cell adds up to thirty-one units, a receive cell for a peer to a row's credit. -/
theorem creds (c : Dev nD) : (Pipeline.launchCred O₀ c : sProp 𝕄) ⊢ launchCreds c := by
  unfold Pipeline.launchCred launchCreds
  rw [bigSep_univ_at _ (SemLoc.reg barS), launch_bar]
  refine sep_mono_right ?_
  have hinj : Function.Injective fun j : Dev nD => (SemLoc.dma (recvS j) : SemLoc sig) := fun a b h => recvS_inj (SemLoc.dma.inj h)
  have hmap : (bigSep (Finset.univ.erase c) fun j : Dev nD => (cred (tallyAt (recvCell c j) () N) : sProp 𝕄))
      = bigSep ((Finset.univ.erase c).map ⟨_, hinj⟩) fun sm : SemLoc sig =>
          (cred (tallyOn ((c : Thread nD τ), sm) (launchCredit (Pipeline.owing O₀) 0 ((c : Thread nD τ), sm))) : sProp 𝕄) := by
    rw [bigSep_map]
    exact bigSep_congr fun j hj => by rw [← launch_recv c j (Finset.ne_of_mem_erase hj)]; rfl
  rw [hmap]
  refine bigSep_subset fun sm hsm => ?_
  obtain ⟨j, _, rfl⟩ := Finset.mem_map.mp hsm
  exact Finset.mem_erase.mpr ⟨recv_ne_bar j, Finset.mem_univ _⟩

end Cert.KernelRun

end
-- ==== Proof.KernelRun.SemTable.lean ====
import proofs.«901066_g7700000000001067_dist_softmax_colshard_i_m512_n256_v7x_i32_bf16_1_alg».proof.Proof.KernelRun.Sched

noncomputable section

namespace Cert.KernelRun

open Cert.Kernel Cert.Kernel.Gen
open Idealize.ShloMosaic

theorem rowP3_eq (c : Dev nD) (h : ∀ a, k0_off3 c a + S1x2x512.size a ≤ S32x2x512.size a) (hs) :
    ((Memref.whole cc0_scratch0 : Memref sig .tc .vmem S32x2x512 .f32).slice (Rect.unit (s := S32x2x512) (k0_off3 c) S1x2x512.size h) hs).squeeze S2x512 squeezes_S1x2x512_S2x512 = rowM c := by
  rw [Memref.slice_unit_congr _ (k0_off3_eq c) h (row_inb c) hs (fun _ => rfl)]
theorem recvOwn_eq (c : Dev nD) (h : ∀ a, k0_off2 c a + S1.size a ≤ S32.size a) :
    ((cc0_scratch2.slice (Rect.unit (s := S32) (k0_off2 c) S1.size h)).squeeze S_ squeezes_S1_S_).sem = recvS c := by
  rw [SemArray.slice_unit_congr _ (k0_off2_eq c) h (sem_inb c)]
theorem rowP5_1_eq (c : Dev nD) (h : ∀ a, k0_off5 c 1#32 a + S1x2x512.size a ≤ S32x2x512.size a) (hs) :
    ((Memref.whole cc0_scratch0 : Memref sig .tc .vmem S32x2x512 .f32).slice (Rect.unit (s := S32x2x512) (k0_off5 c 1#32) S1x2x512.size h) hs).squeeze S2x512 squeezes_S1x2x512_S2x512 = rowM (shift c 1) := by
  rw [Memref.slice_unit_congr _ (off5_1_eq c) h (row_inb (shift c 1)) hs (fun _ => rfl)]
theorem rowP5_2_eq (c : Dev nD) (h : ∀ a, k0_off5 c 2#32 a + S1x2x512.size a ≤ S32x2x512.size a) (hs) :
    ((Memref.whole cc0_scratch0 : Memref sig .tc .vmem S32x2x512 .f32).slice (Rect.unit (s := S32x2x512) (k0_off5 c 2#32) S1x2x512.size h) hs).squeeze S2x512 squeezes_S1x2x512_S2x512 = rowM (shift c 2) := by
  rw [Memref.slice_unit_congr _ (off5_2_eq c) h (row_inb (shift c 2)) hs (fun _ => rfl)]
theorem rowP5_3_eq (c : Dev nD) (h : ∀ a, k0_off5 c 3#32 a + S1x2x512.size a ≤ S32x2x512.size a) (hs) :
    ((Memref.whole cc0_scratch0 : Memref sig .tc .vmem S32x2x512 .f32).slice (Rect.unit (s := S32x2x512) (k0_off5 c 3#32) S1x2x512.size h) hs).squeeze S2x512 squeezes_S1x2x512_S2x512 = rowM (shift c 3) := by
  rw [Memref.slice_unit_congr _ (off5_3_eq c) h (row_inb (shift c 3)) hs (fun _ => rfl)]
theorem rowP5_4_eq (c : Dev nD) (h : ∀ a, k0_off5 c 4#32 a + S1x2x512.size a ≤ S32x2x512.size a) (hs) :
    ((Memref.whole cc0_scratch0 : Memref sig .tc .vmem S32x2x512 .f32).slice (Rect.unit (s := S32x2x512) (k0_off5 c 4#32) S1x2x512.size h) hs).squeeze S2x512 squeezes_S1x2x512_S2x512 = rowM (shift c 4) := by
  rw [Memref.slice_unit_congr _ (off5_4_eq c) h (row_inb (shift c 4)) hs (fun _ => rfl)]
theorem rowP5_5_eq (c : Dev nD) (h : ∀ a, k0_off5 c 5#32 a + S1x2x512.size a ≤ S32x2x512.size a) (hs) :
    ((Memref.whole cc0_scratch0 : Memref sig .tc .vmem S32x2x512 .f32).slice (Rect.unit (s := S32x2x512) (k0_off5 c 5#32) S1x2x512.size h) hs).squeeze S2x512 squeezes_S1x2x512_S2x512 = rowM (shift c 5) := by
  rw [Memref.slice_unit_congr _ (off5_5_eq c) h (row_inb (shift c 5)) hs (fun _ => rfl)]
theorem rowP5_6_eq (c : Dev nD) (h : ∀ a, k0_off5 c 6#32 a + S1x2x512.size a ≤ S32x2x512.size a) (hs) :
    ((Memref.whole cc0_scratch0 : Memref sig .tc .vmem S32x2x512 .f32).slice (Rect.unit (s := S32x2x512) (k0_off5 c 6#32) S1x2x512.size h) hs).squeeze S2x512 squeezes_S1x2x512_S2x512 = rowM (shift c 6) := by
  rw [Memref.slice_unit_congr _ (off5_6_eq c) h (row_inb (shift c 6)) hs (fun _ => rfl)]
theorem rowP5_7_eq (c : Dev nD) (h : ∀ a, k0_off5 c 7#32 a + S1x2x512.size a ≤ S32x2x512.size a) (hs) :
    ((Memref.whole cc0_scratch0 : Memref sig .tc .vmem S32x2x512 .f32).slice (Rect.unit (s := S32x2x512) (k0_off5 c 7#32) S1x2x512.size h) hs).squeeze S2x512 squeezes_S1x2x512_S2x512 = rowM (shift c 7) := by
  rw [Memref.slice_unit_congr _ (off5_7_eq c) h (row_inb (shift c 7)) hs (fun _ => rfl)]
theorem rowP5_8_eq (c : Dev nD) (h : ∀ a, k0_off5 c 8#32 a + S1x2x512.size a ≤ S32x2x512.size a) (hs) :
    ((Memref.whole cc0_scratch0 : Memref sig .tc .vmem S32x2x512 .f32).slice (Rect.unit (s := S32x2x512) (k0_off5 c 8#32) S1x2x512.size h) hs).squeeze S2x512 squeezes_S1x2x512_S2x512 = rowM (shift c 8) := by
  rw [Memref.slice_unit_congr _ (off5_8_eq c) h (row_inb (shift c 8)) hs (fun _ => rfl)]
theorem rowP5_9_eq (c : Dev nD) (h : ∀ a, k0_off5 c 9#32 a + S1x2x512.size a ≤ S32x2x512.size a) (hs) :
    ((Memref.whole cc0_scratch0 : Memref sig .tc .vmem S32x2x512 .f32).slice (Rect.unit (s := S32x2x512) (k0_off5 c 9#32) S1x2x512.size h) hs).squeeze S2x512 squeezes_S1x2x512_S2x512 = rowM (shift c 9) := by
  rw [Memref.slice_unit_congr _ (off5_9_eq c) h (row_inb (shift c 9)) hs (fun _ => rfl)]
theorem rowP5_10_eq (c : Dev nD) (h : ∀ a, k0_off5 c 10#32 a + S1x2x512.size a ≤ S32x2x512.size a) (hs) :
    ((Memref.whole cc0_scratch0 : Memref sig .tc .vmem S32x2x512 .f32).slice (Rect.unit (s := S32x2x512) (k0_off5 c 10#32) S1x2x512.size h) hs).squeeze S2x512 squeezes_S1x2x512_S2x512 = rowM (shift c 10) := by
  rw [Memref.slice_unit_congr _ (off5_10_eq c) h (row_inb (shift c 10)) hs (fun _ => rfl)]
theorem rowP5_11_eq (c : Dev nD) (h : ∀ a, k0_off5 c 11#32 a + S1x2x512.size a ≤ S32x2x512.size a) (hs) :
    ((Memref.whole cc0_scratch0 : Memref sig .tc .vmem S32x2x512 .f32).slice (Rect.unit (s := S32x2x512) (k0_off5 c 11#32) S1x2x512.size h) hs).squeeze S2x512 squeezes_S1x2x512_S2x512 = rowM (shift c 11) := by
  rw [Memref.slice_unit_congr _ (off5_11_eq c) h (row_inb (shift c 11)) hs (fun _ => rfl)]
theorem rowP5_12_eq (c : Dev nD) (h : ∀ a, k0_off5 c 12#32 a + S1x2x512.size a ≤ S32x2x512.size a) (hs) :
    ((Memref.whole cc0_scratch0 : Memref sig .tc .vmem S32x2x512 .f32).slice (Rect.unit (s := S32x2x512) (k0_off5 c 12#32) S1x2x512.size h) hs).squeeze S2x512 squeezes_S1x2x512_S2x512 = rowM (shift c 12) := by
  rw [Memref.slice_unit_congr _ (off5_12_eq c) h (row_inb (shift c 12)) hs (fun _ => rfl)]
theorem rowP5_13_eq (c : Dev nD) (h : ∀ a, k0_off5 c 13#32 a + S1x2x512.size a ≤ S32x2x512.size a) (hs) :
    ((Memref.whole cc0_scratch0 : Memref sig .tc .vmem S32x2x512 .f32).slice (Rect.unit (s := S32x2x512) (k0_off5 c 13#32) S1x2x512.size h) hs).squeeze S2x512 squeezes_S1x2x512_S2x512 = rowM (shift c 13) := by
  rw [Memref.slice_unit_congr _ (off5_13_eq c) h (row_inb (shift c 13)) hs (fun _ => rfl)]
theorem rowP5_14_eq (c : Dev nD) (h : ∀ a, k0_off5 c 14#32 a + S1x2x512.size a ≤ S32x2x512.size a) (hs) :
    ((Memref.whole cc0_scratch0 : Memref sig .tc .vmem S32x2x512 .f32).slice (Rect.unit (s := S32x2x512) (k0_off5 c 14#32) S1x2x512.size h) hs).squeeze S2x512 squeezes_S1x2x512_S2x512 = rowM (shift c 14) := by
  rw [Memref.slice_unit_congr _ (off5_14_eq c) h (row_inb (shift c 14)) hs (fun _ => rfl)]
theorem rowP5_15_eq (c : Dev nD) (h : ∀ a, k0_off5 c 15#32 a + S1x2x512.size a ≤ S32x2x512.size a) (hs) :
    ((Memref.whole cc0_scratch0 : Memref sig .tc .vmem S32x2x512 .f32).slice (Rect.unit (s := S32x2x512) (k0_off5 c 15#32) S1x2x512.size h) hs).squeeze S2x512 squeezes_S1x2x512_S2x512 = rowM (shift c 15) := by
  rw [Memref.slice_unit_congr _ (off5_15_eq c) h (row_inb (shift c 15)) hs (fun _ => rfl)]
theorem rowP5_16_eq (c : Dev nD) (h : ∀ a, k0_off5 c 16#32 a + S1x2x512.size a ≤ S32x2x512.size a) (hs) :
    ((Memref.whole cc0_scratch0 : Memref sig .tc .vmem S32x2x512 .f32).slice (Rect.unit (s := S32x2x512) (k0_off5 c 16#32) S1x2x512.size h) hs).squeeze S2x512 squeezes_S1x2x512_S2x512 = rowM (shift c 16) := by
  rw [Memref.slice_unit_congr _ (off5_16_eq c) h (row_inb (shift c 16)) hs (fun _ => rfl)]
theorem rowP5_17_eq (c : Dev nD) (h : ∀ a, k0_off5 c 17#32 a + S1x2x512.size a ≤ S32x2x512.size a) (hs) :
    ((Memref.whole cc0_scratch0 : Memref sig .tc .vmem S32x2x512 .f32).slice (Rect.unit (s := S32x2x512) (k0_off5 c 17#32) S1x2x512.size h) hs).squeeze S2x512 squeezes_S1x2x512_S2x512 = rowM (shift c 17) := by
  rw [Memref.slice_unit_congr _ (off5_17_eq c) h (row_inb (shift c 17)) hs (fun _ => rfl)]
theorem rowP5_18_eq (c : Dev nD) (h : ∀ a, k0_off5 c 18#32 a + S1x2x512.size a ≤ S32x2x512.size a) (hs) :
    ((Memref.whole cc0_scratch0 : Memref sig .tc .vmem S32x2x512 .f32).slice (Rect.unit (s := S32x2x512) (k0_off5 c 18#32) S1x2x512.size h) hs).squeeze S2x512 squeezes_S1x2x512_S2x512 = rowM (shift c 18) := by
  rw [Memref.slice_unit_congr _ (off5_18_eq c) h (row_inb (shift c 18)) hs (fun _ => rfl)]
theorem rowP5_19_eq (c : Dev nD) (h : ∀ a, k0_off5 c 19#32 a + S1x2x512.size a ≤ S32x2x512.size a) (hs) :
    ((Memref.whole cc0_scratch0 : Memref sig .tc .vmem S32x2x512 .f32).slice (Rect.unit (s := S32x2x512) (k0_off5 c 19#32) S1x2x512.size h) hs).squeeze S2x512 squeezes_S1x2x512_S2x512 = rowM (shift c 19) := by
  rw [Memref.slice_unit_congr _ (off5_19_eq c) h (row_inb (shift c 19)) hs (fun _ => rfl)]
theorem rowP5_20_eq (c : Dev nD) (h : ∀ a, k0_off5 c 20#32 a + S1x2x512.size a ≤ S32x2x512.size a) (hs) :
    ((Memref.whole cc0_scratch0 : Memref sig .tc .vmem S32x2x512 .f32).slice (Rect.unit (s := S32x2x512) (k0_off5 c 20#32) S1x2x512.size h) hs).squeeze S2x512 squeezes_S1x2x512_S2x512 = rowM (shift c 20) := by
  rw [Memref.slice_unit_congr _ (off5_20_eq c) h (row_inb (shift c 20)) hs (fun _ => rfl)]
theorem rowP5_21_eq (c : Dev nD) (h : ∀ a, k0_off5 c 21#32 a + S1x2x512.size a ≤ S32x2x512.size a) (hs) :
    ((Memref.whole cc0_scratch0 : Memref sig .tc .vmem S32x2x512 .f32).slice (Rect.unit (s := S32x2x512) (k0_off5 c 21#32) S1x2x512.size h) hs).squeeze S2x512 squeezes_S1x2x512_S2x512 = rowM (shift c 21) := by
  rw [Memref.slice_unit_congr _ (off5_21_eq c) h (row_inb (shift c 21)) hs (fun _ => rfl)]
theorem rowP5_22_eq (c : Dev nD) (h : ∀ a, k0_off5 c 22#32 a + S1x2x512.size a ≤ S32x2x512.size a) (hs) :
    ((Memref.whole cc0_scratch0 : Memref sig .tc .vmem S32x2x512 .f32).slice (Rect.unit (s := S32x2x512) (k0_off5 c 22#32) S1x2x512.size h) hs).squeeze S2x512 squeezes_S1x2x512_S2x512 = rowM (shift c 22) := by
  rw [Memref.slice_unit_congr _ (off5_22_eq c) h (row_inb (shift c 22)) hs (fun _ => rfl)]
theorem rowP5_23_eq (c : Dev nD) (h : ∀ a, k0_off5 c 23#32 a + S1x2x512.size a ≤ S32x2x512.size a) (hs) :
    ((Memref.whole cc0_scratch0 : Memref sig .tc .vmem S32x2x512 .f32).slice (Rect.unit (s := S32x2x512) (k0_off5 c 23#32) S1x2x512.size h) hs).squeeze S2x512 squeezes_S1x2x512_S2x512 = rowM (shift c 23) := by
  rw [Memref.slice_unit_congr _ (off5_23_eq c) h (row_inb (shift c 23)) hs (fun _ => rfl)]
theorem rowP5_24_eq (c : Dev nD) (h : ∀ a, k0_off5 c 24#32 a + S1x2x512.size a ≤ S32x2x512.size a) (hs) :
    ((Memref.whole cc0_scratch0 : Memref sig .tc .vmem S32x2x512 .f32).slice (Rect.unit (s := S32x2x512) (k0_off5 c 24#32) S1x2x512.size h) hs).squeeze S2x512 squeezes_S1x2x512_S2x512 = rowM (shift c 24) := by
  rw [Memref.slice_unit_congr _ (off5_24_eq c) h (row_inb (shift c 24)) hs (fun _ => rfl)]
theorem rowP5_25_eq (c : Dev nD) (h : ∀ a, k0_off5 c 25#32 a + S1x2x512.size a ≤ S32x2x512.size a) (hs) :
    ((Memref.whole cc0_scratch0 : Memref sig .tc .vmem S32x2x512 .f32).slice (Rect.unit (s := S32x2x512) (k0_off5 c 25#32) S1x2x512.size h) hs).squeeze S2x512 squeezes_S1x2x512_S2x512 = rowM (shift c 25) := by
  rw [Memref.slice_unit_congr _ (off5_25_eq c) h (row_inb (shift c 25)) hs (fun _ => rfl)]
theorem rowP5_26_eq (c : Dev nD) (h : ∀ a, k0_off5 c 26#32 a + S1x2x512.size a ≤ S32x2x512.size a) (hs) :
    ((Memref.whole cc0_scratch0 : Memref sig .tc .vmem S32x2x512 .f32).slice (Rect.unit (s := S32x2x512) (k0_off5 c 26#32) S1x2x512.size h) hs).squeeze S2x512 squeezes_S1x2x512_S2x512 = rowM (shift c 26) := by
  rw [Memref.slice_unit_congr _ (off5_26_eq c) h (row_inb (shift c 26)) hs (fun _ => rfl)]
theorem rowP5_27_eq (c : Dev nD) (h : ∀ a, k0_off5 c 27#32 a + S1x2x512.size a ≤ S32x2x512.size a) (hs) :
    ((Memref.whole cc0_scratch0 : Memref sig .tc .vmem S32x2x512 .f32).slice (Rect.unit (s := S32x2x512) (k0_off5 c 27#32) S1x2x512.size h) hs).squeeze S2x512 squeezes_S1x2x512_S2x512 = rowM (shift c 27) := by
  rw [Memref.slice_unit_congr _ (off5_27_eq c) h (row_inb (shift c 27)) hs (fun _ => rfl)]
theorem rowP5_28_eq (c : Dev nD) (h : ∀ a, k0_off5 c 28#32 a + S1x2x512.size a ≤ S32x2x512.size a) (hs) :
    ((Memref.whole cc0_scratch0 : Memref sig .tc .vmem S32x2x512 .f32).slice (Rect.unit (s := S32x2x512) (k0_off5 c 28#32) S1x2x512.size h) hs).squeeze S2x512 squeezes_S1x2x512_S2x512 = rowM (shift c 28) := by
  rw [Memref.slice_unit_congr _ (off5_28_eq c) h (row_inb (shift c 28)) hs (fun _ => rfl)]
theorem rowP5_29_eq (c : Dev nD) (h : ∀ a, k0_off5 c 29#32 a + S1x2x512.size a ≤ S32x2x512.size a) (hs) :
    ((Memref.whole cc0_scratch0 : Memref sig .tc .vmem S32x2x512 .f32).slice (Rect.unit (s := S32x2x512) (k0_off5 c 29#32) S1x2x512.size h) hs).squeeze S2x512 squeezes_S1x2x512_S2x512 = rowM (shift c 29) := by
  rw [Memref.slice_unit_congr _ (off5_29_eq c) h (row_inb (shift c 29)) hs (fun _ => rfl)]
theorem rowP5_30_eq (c : Dev nD) (h : ∀ a, k0_off5 c 30#32 a + S1x2x512.size a ≤ S32x2x512.size a) (hs) :
    ((Memref.whole cc0_scratch0 : Memref sig .tc .vmem S32x2x512 .f32).slice (Rect.unit (s := S32x2x512) (k0_off5 c 30#32) S1x2x512.size h) hs).squeeze S2x512 squeezes_S1x2x512_S2x512 = rowM (shift c 30) := by
  rw [Memref.slice_unit_congr _ (off5_30_eq c) h (row_inb (shift c 30)) hs (fun _ => rfl)]
theorem rowP5_31_eq (c : Dev nD) (h : ∀ a, k0_off5 c 31#32 a + S1x2x512.size a ≤ S32x2x512.size a) (hs) :
    ((Memref.whole cc0_scratch0 : Memref sig .tc .vmem S32x2x512 .f32).slice (Rect.unit (s := S32x2x512) (k0_off5 c 31#32) S1x2x512.size h) hs).squeeze S2x512 squeezes_S1x2x512_S2x512 = rowM (shift c 31) := by
  rw [Memref.slice_unit_congr _ (off5_31_eq c) h (row_inb (shift c 31)) hs (fun _ => rfl)]
theorem recvw_1_eq (c : Dev nD) (h : ∀ a, k0_off4 c 1#32 a + S1.size a ≤ S32.size a) :
    ((cc0_scratch2.slice (Rect.unit (s := S32) (k0_off4 c 1#32) S1.size h)).squeeze S_ squeezes_S1_S_).sem = recvS (shift c 1) := by
  rw [SemArray.slice_unit_congr _ (off4_1_eq c) h (sem_inb (shift c 1))]
theorem recvw_2_eq (c : Dev nD) (h : ∀ a, k0_off4 c 2#32 a + S1.size a ≤ S32.size a) :
    ((cc0_scratch2.slice (Rect.unit (s := S32) (k0_off4 c 2#32) S1.size h)).squeeze S_ squeezes_S1_S_).sem = recvS (shift c 2) := by
  rw [SemArray.slice_unit_congr _ (off4_2_eq c) h (sem_inb (shift c 2))]
theorem recvw_3_eq (c : Dev nD) (h : ∀ a, k0_off4 c 3#32 a + S1.size a ≤ S32.size a) :
    ((cc0_scratch2.slice (Rect.unit (s := S32) (k0_off4 c 3#32) S1.size h)).squeeze S_ squeezes_S1_S_).sem = recvS (shift c 3) := by
  rw [SemArray.slice_unit_congr _ (off4_3_eq c) h (sem_inb (shift c 3))]
theorem recvw_4_eq (c : Dev nD) (h : ∀ a, k0_off4 c 4#32 a + S1.size a ≤ S32.size a) :
    ((cc0_scratch2.slice (Rect.unit (s := S32) (k0_off4 c 4#32) S1.size h)).squeeze S_ squeezes_S1_S_).sem = recvS (shift c 4) := by
  rw [SemArray.slice_unit_congr _ (off4_4_eq c) h (sem_inb (shift c 4))]
theorem recvw_5_eq (c : Dev nD) (h : ∀ a, k0_off4 c 5#32 a + S1.size a ≤ S32.size a) :
    ((cc0_scratch2.slice (Rect.unit (s := S32) (k0_off4 c 5#32) S1.size h)).squeeze S_ squeezes_S1_S_).sem = recvS (shift c 5) := by
  rw [SemArray.slice_unit_congr _ (off4_5_eq c) h (sem_inb (shift c 5))]
theorem recvw_6_eq (c : Dev nD) (h : ∀ a, k0_off4 c 6#32 a + S1.size a ≤ S32.size a) :
    ((cc0_scratch2.slice (Rect.unit (s := S32) (k0_off4 c 6#32) S1.size h)).squeeze S_ squeezes_S1_S_).sem = recvS (shift c 6) := by
  rw [SemArray.slice_unit_congr _ (off4_6_eq c) h (sem_inb (shift c 6))]
theorem recvw_7_eq (c : Dev nD) (h : ∀ a, k0_off4 c 7#32 a + S1.size a ≤ S32.size a) :
    ((cc0_scratch2.slice (Rect.unit (s := S32) (k0_off4 c 7#32) S1.size h)).squeeze S_ squeezes_S1_S_).sem = recvS (shift c 7) := by
  rw [SemArray.slice_unit_congr _ (off4_7_eq c) h (sem_inb (shift c 7))]
theorem recvw_8_eq (c : Dev nD) (h : ∀ a, k0_off4 c 8#32 a + S1.size a ≤ S32.size a) :
    ((cc0_scratch2.slice (Rect.unit (s := S32) (k0_off4 c 8#32) S1.size h)).squeeze S_ squeezes_S1_S_).sem = recvS (shift c 8) := by
  rw [SemArray.slice_unit_congr _ (off4_8_eq c) h (sem_inb (shift c 8))]
theorem recvw_9_eq (c : Dev nD) (h : ∀ a, k0_off4 c 9#32 a + S1.size a ≤ S32.size a) :
    ((cc0_scratch2.slice (Rect.unit (s := S32) (k0_off4 c 9#32) S1.size h)).squeeze S_ squeezes_S1_S_).sem = recvS (shift c 9) := by
  rw [SemArray.slice_unit_congr _ (off4_9_eq c) h (sem_inb (shift c 9))]
theorem recvw_10_eq (c : Dev nD) (h : ∀ a, k0_off4 c 10#32 a + S1.size a ≤ S32.size a) :
    ((cc0_scratch2.slice (Rect.unit (s := S32) (k0_off4 c 10#32) S1.size h)).squeeze S_ squeezes_S1_S_).sem = recvS (shift c 10) := by
  rw [SemArray.slice_unit_congr _ (off4_10_eq c) h (sem_inb (shift c 10))]
theorem recvw_11_eq (c : Dev nD) (h : ∀ a, k0_off4 c 11#32 a + S1.size a ≤ S32.size a) :
    ((cc0_scratch2.slice (Rect.unit (s := S32) (k0_off4 c 11#32) S1.size h)).squeeze S_ squeezes_S1_S_).sem = recvS (shift c 11) := by
  rw [SemArray.slice_unit_congr _ (off4_11_eq c) h (sem_inb (shift c 11))]
theorem recvw_12_eq (c : Dev nD) (h : ∀ a, k0_off4 c 12#32 a + S1.size a ≤ S32.size a) :
    ((cc0_scratch2.slice (Rect.unit (s := S32) (k0_off4 c 12#32) S1.size h)).squeeze S_ squeezes_S1_S_).sem = recvS (shift c 12) := by
  rw [SemArray.slice_unit_congr _ (off4_12_eq c) h (sem_inb (shift c 12))]
theorem recvw_13_eq (c : Dev nD) (h : ∀ a, k0_off4 c 13#32 a + S1.size a ≤ S32.size a) :
    ((cc0_scratch2.slice (Rect.unit (s := S32) (k0_off4 c 13#32) S1.size h)).squeeze S_ squeezes_S1_S_).sem = recvS (shift c 13) := by
  rw [SemArray.slice_unit_congr _ (off4_13_eq c) h (sem_inb (shift c 13))]
theorem recvw_14_eq (c : Dev nD) (h : ∀ a, k0_off4 c 14#32 a + S1.size a ≤ S32.size a) :
    ((cc0_scratch2.slice (Rect.unit (s := S32) (k0_off4 c 14#32) S1.size h)).squeeze S_ squeezes_S1_S_).sem = recvS (shift c 14) := by
  rw [SemArray.slice_unit_congr _ (off4_14_eq c) h (sem_inb (shift c 14))]
theorem recvw_15_eq (c : Dev nD) (h : ∀ a, k0_off4 c 15#32 a + S1.size a ≤ S32.size a) :
    ((cc0_scratch2.slice (Rect.unit (s := S32) (k0_off4 c 15#32) S1.size h)).squeeze S_ squeezes_S1_S_).sem = recvS (shift c 15) := by
  rw [SemArray.slice_unit_congr _ (off4_15_eq c) h (sem_inb (shift c 15))]
theorem recvw_16_eq (c : Dev nD) (h : ∀ a, k0_off4 c 16#32 a + S1.size a ≤ S32.size a) :
    ((cc0_scratch2.slice (Rect.unit (s := S32) (k0_off4 c 16#32) S1.size h)).squeeze S_ squeezes_S1_S_).sem = recvS (shift c 16) := by
  rw [SemArray.slice_unit_congr _ (off4_16_eq c) h (sem_inb (shift c 16))]
theorem recvw_17_eq (c : Dev nD) (h : ∀ a, k0_off4 c 17#32 a + S1.size a ≤ S32.size a) :
    ((cc0_scratch2.slice (Rect.unit (s := S32) (k0_off4 c 17#32) S1.size h)).squeeze S_ squeezes_S1_S_).sem = recvS (shift c 17) := by
  rw [SemArray.slice_unit_congr _ (off4_17_eq c) h (sem_inb (shift c 17))]
theorem recvw_18_eq (c : Dev nD) (h : ∀ a, k0_off4 c 18#32 a + S1.size a ≤ S32.size a) :
    ((cc0_scratch2.slice (Rect.unit (s := S32) (k0_off4 c 18#32) S1.size h)).squeeze S_ squeezes_S1_S_).sem = recvS (shift c 18) := by
  rw [SemArray.slice_unit_congr _ (off4_18_eq c) h (sem_inb (shift c 18))]
theorem recvw_19_eq (c : Dev nD) (h : ∀ a, k0_off4 c 19#32 a + S1.size a ≤ S32.size a) :
    ((cc0_scratch2.slice (Rect.unit (s := S32) (k0_off4 c 19#32) S1.size h)).squeeze S_ squeezes_S1_S_).sem = recvS (shift c 19) := by
  rw [SemArray.slice_unit_congr _ (off4_19_eq c) h (sem_inb (shift c 19))]
theorem recvw_20_eq (c : Dev nD) (h : ∀ a, k0_off4 c 20#32 a + S1.size a ≤ S32.size a) :
    ((cc0_scratch2.slice (Rect.unit (s := S32) (k0_off4 c 20#32) S1.size h)).squeeze S_ squeezes_S1_S_).sem = recvS (shift c 20) := by
  rw [SemArray.slice_unit_congr _ (off4_20_eq c) h (sem_inb (shift c 20))]
theorem recvw_21_eq (c : Dev nD) (h : ∀ a, k0_off4 c 21#32 a + S1.size a ≤ S32.size a) :
    ((cc0_scratch2.slice (Rect.unit (s := S32) (k0_off4 c 21#32) S1.size h)).squeeze S_ squeezes_S1_S_).sem = recvS (shift c 21) := by
  rw [SemArray.slice_unit_congr _ (off4_21_eq c) h (sem_inb (shift c 21))]
theorem recvw_22_eq (c : Dev nD) (h : ∀ a, k0_off4 c 22#32 a + S1.size a ≤ S32.size a) :
    ((cc0_scratch2.slice (Rect.unit (s := S32) (k0_off4 c 22#32) S1.size h)).squeeze S_ squeezes_S1_S_).sem = recvS (shift c 22) := by
  rw [SemArray.slice_unit_congr _ (off4_22_eq c) h (sem_inb (shift c 22))]
theorem recvw_23_eq (c : Dev nD) (h : ∀ a, k0_off4 c 23#32 a + S1.size a ≤ S32.size a) :
    ((cc0_scratch2.slice (Rect.unit (s := S32) (k0_off4 c 23#32) S1.size h)).squeeze S_ squeezes_S1_S_).sem = recvS (shift c 23) := by
  rw [SemArray.slice_unit_congr _ (off4_23_eq c) h (sem_inb (shift c 23))]
theorem recvw_24_eq (c : Dev nD) (h : ∀ a, k0_off4 c 24#32 a + S1.size a ≤ S32.size a) :
    ((cc0_scratch2.slice (Rect.unit (s := S32) (k0_off4 c 24#32) S1.size h)).squeeze S_ squeezes_S1_S_).sem = recvS (shift c 24) := by
  rw [SemArray.slice_unit_congr _ (off4_24_eq c) h (sem_inb (shift c 24))]
theorem recvw_25_eq (c : Dev nD) (h : ∀ a, k0_off4 c 25#32 a + S1.size a ≤ S32.size a) :
    ((cc0_scratch2.slice (Rect.unit (s := S32) (k0_off4 c 25#32) S1.size h)).squeeze S_ squeezes_S1_S_).sem = recvS (shift c 25) := by
  rw [SemArray.slice_unit_congr _ (off4_25_eq c) h (sem_inb (shift c 25))]
theorem recvw_26_eq (c : Dev nD) (h : ∀ a, k0_off4 c 26#32 a + S1.size a ≤ S32.size a) :
    ((cc0_scratch2.slice (Rect.unit (s := S32) (k0_off4 c 26#32) S1.size h)).squeeze S_ squeezes_S1_S_).sem = recvS (shift c 26) := by
  rw [SemArray.slice_unit_congr _ (off4_26_eq c) h (sem_inb (shift c 26))]
theorem recvw_27_eq (c : Dev nD) (h : ∀ a, k0_off4 c 27#32 a + S1.size a ≤ S32.size a) :
    ((cc0_scratch2.slice (Rect.unit (s := S32) (k0_off4 c 27#32) S1.size h)).squeeze S_ squeezes_S1_S_).sem = recvS (shift c 27) := by
  rw [SemArray.slice_unit_congr _ (off4_27_eq c) h (sem_inb (shift c 27))]
theorem recvw_28_eq (c : Dev nD) (h : ∀ a, k0_off4 c 28#32 a + S1.size a ≤ S32.size a) :
    ((cc0_scratch2.slice (Rect.unit (s := S32) (k0_off4 c 28#32) S1.size h)).squeeze S_ squeezes_S1_S_).sem = recvS (shift c 28) := by
  rw [SemArray.slice_unit_congr _ (off4_28_eq c) h (sem_inb (shift c 28))]
theorem recvw_29_eq (c : Dev nD) (h : ∀ a, k0_off4 c 29#32 a + S1.size a ≤ S32.size a) :
    ((cc0_scratch2.slice (Rect.unit (s := S32) (k0_off4 c 29#32) S1.size h)).squeeze S_ squeezes_S1_S_).sem = recvS (shift c 29) := by
  rw [SemArray.slice_unit_congr _ (off4_29_eq c) h (sem_inb (shift c 29))]
theorem recvw_30_eq (c : Dev nD) (h : ∀ a, k0_off4 c 30#32 a + S1.size a ≤ S32.size a) :
    ((cc0_scratch2.slice (Rect.unit (s := S32) (k0_off4 c 30#32) S1.size h)).squeeze S_ squeezes_S1_S_).sem = recvS (shift c 30) := by
  rw [SemArray.slice_unit_congr _ (off4_30_eq c) h (sem_inb (shift c 30))]
theorem recvw_31_eq (c : Dev nD) (h : ∀ a, k0_off4 c 31#32 a + S1.size a ≤ S32.size a) :
    ((cc0_scratch2.slice (Rect.unit (s := S32) (k0_off4 c 31#32) S1.size h)).squeeze S_ squeezes_S1_S_).sem = recvS (shift c 31) := by
  rw [SemArray.slice_unit_congr _ (off4_31_eq c) h (sem_inb (shift c 31))]

end Cert.KernelRun

end
-- ==== Proof.KernelRun.Steps.lean ====
/- One thread's body, step by step. Each of the four kinds of remote step — the signal to a peer's barrier cell, the
   copy of the device's own row to a peer, the wait for a peer's row, the wait for a copy to have been read out — is
   stated once at a symbolic offset `d`, over what is left for the offsets still to come (a list). -/
import proofs.«901066_g7700000000001067_dist_softmax_colshard_i_m512_n256_v7x_i32_bf16_1_alg».proof.Proof.KernelRun.State
import proofs.«901066_g7700000000001067_dist_softmax_colshard_i_m512_n256_v7x_i32_bf16_1_alg».proof.Proof.KernelRun.Rows
import proofs.«901066_g7700000000001067_dist_softmax_colshard_i_m512_n256_v7x_i32_bf16_1_alg».proof.Proof.KernelRun.Levels
import proofs.«901066_g7700000000001067_dist_softmax_colshard_i_m512_n256_v7x_i32_bf16_1_alg».proof.Proof.KernelRun.SemTable

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- An offset as a semaphore index. -/
def fo (d : ℕ) : Fin 32 := shift (0 : Dev nD) d

/-- The left and the right of a separating conjunction alone. -/
theorem sepL {M : Type _} [URA M] {P Q : sProp M} : iprop(P ∗ Q) ⊢ P := by iintro ⟨H, -⟩; iexact H
theorem sepR {M : Type _} [URA M] {P Q : sProp M} : iprop(P ∗ Q) ⊢ Q := by iintro ⟨-, H⟩; iexact H

section Access
variable (K : GSem nD τ sig → ℕ)

theorem inv_bar (t : Dev nD) : records m ρ K ⊢ cellInv ER (Rd m ρ) (K (barCell t)) (barCell t) := by
  unfold records
  exact sepL.trans ((bigSep_elim (Finset.mem_univ t)).trans sepL)
theorem inv_send (t : Dev nD) (d : Fin 32) : records m ρ K ⊢ cellInv ER (Rd m ρ) (K (sendCell t d)) (sendCell t d) := by
  unfold records
  exact sepL.trans ((bigSep_elim (Finset.mem_univ t)).trans (sepR.trans (sepL.trans (bigSep_elim (Finset.mem_univ d)))))
theorem inv_recv (t : Dev nD) (j : Fin 32) : records m ρ K ⊢ cellInv ER (Rd m ρ) (K (recvCell t j)) (recvCell t j) := by
  unfold records
  exact sepL.trans ((bigSep_elim (Finset.mem_univ t)).trans (sepR.trans (sepR.trans (bigSep_elim (Finset.mem_univ j)))))
theorem reached_bar (t : Dev nD) : records m ρ K ⊢ reached ER (barCell t) 0 := by
  unfold records
  exact sepR.trans ((bigSep_elim (Finset.mem_univ t)).trans sepL)
theorem reached_send (t : Dev nD) (d : Fin 32) : records m ρ K ⊢ reached ER (sendCell t d) 0 := by
  unfold records
  exact sepR.trans ((bigSep_elim (Finset.mem_univ t)).trans (sepR.trans (sepL.trans (bigSep_elim (Finset.mem_univ d)))))
theorem reached_recv (t : Dev nD) (j : Fin 32) : records m ρ K ⊢ reached ER (recvCell t j) 0 := by
  unfold records
  exact sepR.trans ((bigSep_elim (Finset.mem_univ t)).trans (sepR.trans (sepR.trans (bigSep_elim (Finset.mem_univ j)))))

end Access

/-- The chain over a list with a head is the head's assertion beside the tail's chain. -/
theorem bigSepL_cons' {M : Type _} [URA M] {I : Type _} (i : I) (l : List I) (Φ : I → sProp M) :
    bigSepL (i :: l) Φ = iprop(Φ i ∗ bigSepL l Φ) := bigSepL_cons i l Φ

/-- Every row's transfer credit is the one amount. -/
theorem row_credit_local (j : Dev nD) : (rowM j : Memref sig .tc .vmem S2x512 .f32).view.dmaCredit = N := by
  first | rfl | (revert j; decide)

section Steps
variable (K : GSem nD τ sig → ℕ) (c : Dev nD)

/-- What the signal to the peer at offset `d` spends: that peer's barrier duty named `c`, and row `shift c d` of
    `c`'s own buffer, which goes to that peer. -/
def sigRes (d : ℕ) : sProp 𝕄 := iprop(dutyTok ER (barCell (shift c d)) 0 c ∗ ∃ f, rowPts (F := F) c (shift c d) fullShare f)

/-- THE SIGNAL to the peer at offset `d`. -/
theorem step_signal (d : ℕ) (hd1 : 1 ≤ d) (hd : d < 32) (ds : List ℕ) (W : Waits sig Unit)
    {α : Type} {Q : α → sProp 𝕄} {k : PUnit → Prog (TpuEff nD τ sig (Elt F) Λ₀ .tc) α} :
    iprop(records m ρ K ∗ owes (c : Thread nD τ) (owedRecv c offs + owedBar c (d :: ds)) W ∗ bigSepL (d :: ds) (sigRes (F := F) c))
      ⊢ iprop((iprop(owes (c : Thread nD τ) (owedRecv c offs + owedBar c ds) W ∗ bigSepL ds (sigRes (F := F) c))
            -∗ wp frame (wpE' (defs₀ (F := F)) 𝒱₀ (c : Thread nD τ) none PendingWaitsCtx.empty) Set.univ (k ⟨⟩) Q)
          -∗ wp frame (wpE' (defs₀ (F := F)) 𝒱₀ (c : Thread nD τ) none PendingWaitsCtx.empty) Set.univ (.op (.semSignal (shift c d : Thread nD τ) barS (1#32).toNat) k) Q) := by
  rw [show bigSepL (d :: ds) (sigRes (F := F) c) = iprop(sigRes (F := F) c d ∗ bigSepL ds (sigRes (F := F) c)) from bigSepL_cons _ _ _]
  unfold sigRes
  iintro ⟨#HR, HO, ⟨Htok, %f, Hrow⟩, Hres⟩ Hk
  have hne : shift c d ≠ c := shift_ne_self c hd1 hd
  iapply (Rounds.wp_signal 𝒱₀ ER (Rd m ρ) (c : Thread nD τ) none (dst := (shift c d : Thread nD τ)) (sem := barS) (r := 0) (d := c)
      (κ := K (barCell (shift c d)))
      (by rw [duties_bar]; exact Finset.mem_erase.mpr ⟨hne.symm, Finset.mem_univ _⟩)
      ((amount_bar m ρ (shift c d) 0 c).trans (by decide)) () (owedRecv c offs + owedBar c ds)
      (by
        show owedRecv c offs + (owedBar c ds + tallyAt (barCell (shift c d)) () 1) = _
        exact (add_assoc _ _ _).symm) (W := W))
    $$ [HO Htok Hrow]
  · isplitr; · iapply (inv_bar m ρ K (shift c d)); iexact HR
    isplitl [HO]; · iexact HO
    isplitl [Htok]; · iexact Htok
    isplitl [Hrow]
    · rw [payload_bar]; unfold barPay
      isplitl [Hrow]; · iexists f; iexact Hrow
      iapply (reached_recv m ρ K c (shift c d)); iexact HR
    · iapply (reached_bar m ρ K (shift c d)); iexact HR
  iintro HO
  iapply Hk
  isplitl [HO]; · iexact HO
  iexact Hres

/-- What the copy to the peer at offset `d` spends: that peer's row `c` (it came with the peer's barrier signal), the
    peer's receive-for-`c` duty, `c`'s own send duty `d`, and the share of `c`'s own row this copy reads. -/
def sendRes (d : ℕ) : sProp 𝕄 :=
  iprop((∃ f, rowPts (F := F) (shift c d) c fullShare f) ∗ dutyTok ER (recvCell (shift c d) c) 0 0
    ∗ dutyTok ER (sendCell c (fo d)) 0 0 ∗ rowPts c c (Transfers.shareTok fullShare 32 (fo d)) (allStats m ρ))

/-- The credit a copy leaves on its send cell. -/
def sendCred (d : ℕ) : sProp 𝕄 := cred (tallyAt (sendCell c (fo d)) () N)

/-- THE COPY of `c`'s own row into row `c` of the peer at offset `d`. -/
theorem step_send (d : ℕ) (hd1 : 1 ≤ d) (hd : d < 32) (ds : List ℕ) (W : Waits sig Unit)
    {hsc : (rowM c : Memref sig (Dev.tc (shift c d) : Thread nD τ).2.kind .vmem S2x512 .f32).view.ref.isScScratch = false}
    {hsrc : (rowM c : Memref sig .tc .vmem S2x512 .f32).view.WordExact} {hdst : (rowM c : Memref sig .tc .vmem S2x512 .f32).view.WordExact}
    {hsem : DmaTarget.Typed .vmem (.dma (recvS c)) (.remote (Dev.tc (shift c d) : Thread nD τ) (rowM c : Memref sig .tc .vmem S2x512 .f32) (.dma (sendS (fo d))) hsc)}
    {α : Type} {Q : α → sProp 𝕄} {k : PUnit → Prog (TpuEff nD τ sig (Elt F) Λ₀ .tc) α} :
    iprop(records m ρ K ∗ owes (c : Thread nD τ) (owedRecv c (d :: ds)) W ∗ bigSepL (d :: ds) (sendRes m ρ c))
      ⊢ iprop((iprop(owes (c : Thread nD τ) (owedRecv c ds) W ∗ bigSepL ds (sendRes m ρ c) ∗ sendCred (F := F) c d)
            -∗ wp frame (wpE' (defs₀ (F := F)) 𝒱₀ (c : Thread nD τ) none PendingWaitsCtx.empty) Set.univ (k ⟨⟩) Q)
          -∗ wp frame (wpE' (defs₀ (F := F)) 𝒱₀ (c : Thread nD τ) none PendingWaitsCtx.empty) Set.univ
              (.op (.enqueueDma (rowM c) (.remote (Dev.tc (shift c d) : Thread nD τ) (rowM c) (.dma (sendS (fo d))) hsc) (.dma (recvS c)) hsrc hdst hsem) k) Q) := by
  rw [show bigSepL (d :: ds) (sendRes m ρ c) = iprop(sendRes m ρ c d ∗ bigSepL ds (sendRes m ρ c)) from bigSepL_cons _ _ _]
  unfold sendRes
  iintro ⟨#HR, HO, ⟨⟨%f, Hdst⟩, HtokR, HtokS, Hsrc⟩, Hres⟩ Hk
  have hne : shift c d ≠ c := shift_ne_self c hd1 hd
  have hfo : fo d ≠ 0 := shift_ne_self (0 : Dev nD) hd1 hd
  unfold rowPts
  iapply (Rounds.wp_send_pointsTo 𝒱₀ ER (Rd m ρ) (c : Thread nD τ) none (c' := (shift c d : Thread nD τ)) (src := rowM c) (dst := rowM c)
      (q := Transfers.shareTok fullShare 32 (fo d)) (fs := allStats m ρ) (fd := f)
      (sS := .dma (sendS (fo d))) (sem := .dma (recvS c)) (r₁ := 0) (r₂ := 0) (d₁ := 0) (d₂ := 0)
      (κ₁ := K (sendCell c (fo d))) (κ₂ := K (recvCell (shift c d) c))
      (by rw [duties_send m ρ c (fo d) hfo]; exact Finset.mem_singleton_self _)
      (by rw [duties_recv m ρ (shift c d) c hne.symm]; exact Finset.mem_singleton_self _)
      () () N (row_amount c (recvS c)) (amount_send m ρ c (fo d) 0 0) (amount_recv m ρ (shift c d) c 0 0)
      (owedRecv c ds) rfl (W := W)
      (by rw [payload_send]; unfold sendPay rowPts; exact .rfl)
      (by
        rw [payload_recv]; unfold recvPay rowPts
        exact Entails.of_eq (pointsTo_congr fun i hi => landed_val c f (allStats m ρ) i hi)))
    $$ [HO Hdst HtokR HtokS Hsrc]
  · isplitr; · iapply (inv_send m ρ K c (fo d)); iexact HR
    isplitr; · iapply (inv_recv m ρ K (shift c d) c); iexact HR
    isplitl [Hsrc]; · iexact Hsrc
    isplitl [Hdst]; · iexact Hdst
    isplitl [HO]; · iexact HO
    isplitl [HtokS]; · iexact HtokS
    isplitr; · iapply (reached_send m ρ K c (fo d)); iexact HR
    isplitl [HtokR]; · iexact HtokR
    iapply (reached_recv m ρ K (shift c d) c); iexact HR
  iintro ⟨Hc, HO⟩
  iapply Hk
  isplitl [HO]; · iexact HO
  isplitl [Hres]; · iexact Hres
  unfold sendCred
  iexact Hc

/-- What the wait for the peer at offset `d`'s row spends: the credit on the receive cell for that peer, and `c`'s
    position in that cell. -/
def recvRes (d : ℕ) : sProp 𝕄 :=
  iprop(cred (tallyAt (recvCell c (shift c d)) () N) ∗ atPos ER (recvCell c (shift c d)) 0 ∅ 0)
/-- What it leaves: row `shift c d` of `c`'s buffer at the gathered statistics, and the cell closed, its counter at zero. -/
def recvGot (d : ℕ) : sProp 𝕄 :=
  iprop(rowPts c (shift c d) fullShare (allStats m ρ) ∗ semVal (recvCell c (shift c d)) 0)

/-- THE WAIT for the row of the peer at offset `d`, owing nothing. -/
theorem step_recv_wait (d : ℕ) (hd1 : 1 ≤ d) (hd : d < 32) (ds : List ℕ) (W : Waits sig Unit)
    {sp' : Space} {s' : Shape} {e' : EltTy} {src : Memref sig .tc sp' s' e'} {hsrc : src.view.WordExact}
    {hdst : (rowM (shift c d) : Memref sig .tc .vmem S2x512 .f32).view.WordExact}
    {α : Type} {Q : α → sProp 𝕄} {k : PUnit → Prog (TpuEff nD τ sig (Elt F) Λ₀ .tc) α} :
    iprop(records m ρ K ∗ owes (c : Thread nD τ) 0 W ∗ bigSepL (d :: ds) (recvRes (F := F) c))
      ⊢ iprop((iprop((∃ W', owes (c : Thread nD τ) 0 W') ∗ bigSepL ds (recvRes (F := F) c) ∗ recvGot m ρ c d)
            -∗ wp frame (wpE' (defs₀ (F := F)) 𝒱₀ (c : Thread nD τ) none PendingWaitsCtx.empty) Set.univ (k ⟨⟩) Q)
          -∗ wp frame (wpE' (defs₀ (F := F)) 𝒱₀ (c : Thread nD τ) none PendingWaitsCtx.empty) Set.univ (.op (.waitDma2 (recvS (shift c d)) src (rowM (shift c d)) hsrc hdst) k) Q) := by
  have hne : shift c d ≠ c := shift_ne_self c hd1 hd
  rw [bigSepL_cons', show recvRes (F := F) c d
      = iprop(cred (tallyAt (recvCell c (shift c d)) () N) ∗ atPos ER (recvCell c (shift c d)) 0 ∅ 0) from rfl]
  iintro ⟨#HR, HO, ⟨Hc, Hat⟩, Hrest⟩ Hk
  ihave #HI := (inv_recv m ρ K c (shift c d)) $$ HR
  iapply (Rounds.wp_wait_rest_token 𝒱₀ ER (Rd m ρ) (c : Thread nD τ) none (κ := K (recvCell c (shift c d)))
      (sm := .dma (recvS (shift c d))) (k' := (rowM (shift c d) : Memref sig .tc .vmem S2x512 .f32).view.dmaCredit)
      (wpE_waitDma2_eq 𝒱₀ (c : Thread nD τ) none Set.univ) (Set.mem_univ _) () (O := 0) (W := W) (R := 0) (m := 0) (T := ∅)
      (by rw [Nat.zero_add, expect_recv m ρ c (shift c d) hne] <;> exact row_credit_local _)) $$ [Hc HO Hat]
  · isplitr; · iexact HI
    isplitl [Hc]; · rw [row_credit_local]; iexact Hc
    isplitl [HO]; · iexact HO
    isplitr; · rw [MayWait_zero]; iempintro
    iexact Hat
  iintro ⟨HO, Hat, -, Hpay⟩
  ihave Hrow := (Entails.of_eq (rest_recv m ρ c (shift c d) hne)) $$ Hpay
  imod (Rounds.cell_close ER (Rd m ρ) (Set.mem_univ (K (recvCell c (shift c d)))) (fun h => h) (R := 0 + 1)
      (duties_later m ρ (recvCell c (shift c d)))) $$ [Hat] with Hz
  · isplitr; · iexact HI
    iexact Hat
  iapply Hk
  isplitl [HO]; · iexists _; iexact HO
  isplitl [Hrest]; · iexact Hrest
  unfold recvGot recvPay
  isplitl [Hrow]; · iexact Hrow
  iexact Hz

/-- What the wait for the copy at offset `d` to have been read out spends, -/
def sendWaitRes (d : ℕ) : sProp 𝕄 :=
  iprop(sendCred (F := F) c d ∗ atPos ER (sendCell c (fo d)) 0 ∅ 0)
/-- and what it leaves: the share of the own row that copy read, back, and the cell closed. -/
def sendGot (d : ℕ) : sProp 𝕄 :=
  iprop(rowPts c c (Transfers.shareTok fullShare 32 (fo d)) (allStats m ρ) ∗ semVal (sendCell c (fo d)) 0)

/-- THE WAIT for the copy at offset `d` to have been read out of the own row, owing nothing. -/
theorem step_send_wait (d : ℕ) (hd1 : 1 ≤ d) (hd : d < 32) (ds : List ℕ) (W : Waits sig Unit)
    {sp' : Space} {s' : Shape} {e' : EltTy} {src : Memref sig .tc sp' s' e'} {hsrc : src.view.WordExact}
    {hdst : (rowM c : Memref sig .tc .vmem S2x512 .f32).view.WordExact}
    {α : Type} {Q : α → sProp 𝕄} {k : PUnit → Prog (TpuEff nD τ sig (Elt F) Λ₀ .tc) α} :
    iprop(records m ρ K ∗ owes (c : Thread nD τ) 0 W ∗ bigSepL (d :: ds) (sendWaitRes (F := F) c))
      ⊢ iprop((iprop((∃ W', owes (c : Thread nD τ) 0 W') ∗ bigSepL ds (sendWaitRes (F := F) c) ∗ sendGot m ρ c d)
            -∗ wp frame (wpE' (defs₀ (F := F)) 𝒱₀ (c : Thread nD τ) none PendingWaitsCtx.empty) Set.univ (k ⟨⟩) Q)
          -∗ wp frame (wpE' (defs₀ (F := F)) 𝒱₀ (c : Thread nD τ) none PendingWaitsCtx.empty) Set.univ (.op (.waitDma2 (sendS (fo d)) src (rowM c) hsrc hdst) k) Q) := by
  have hfo : fo d ≠ 0 := shift_ne_self (0 : Dev nD) hd1 hd
  rw [bigSepL_cons', show sendWaitRes (F := F) c d
      = iprop(cred (tallyAt (sendCell c (fo d)) () N) ∗ atPos ER (sendCell c (fo d)) 0 ∅ 0) from rfl]
  iintro ⟨#HR, HO, ⟨Hc, Hat⟩, Hrest⟩ Hk
  ihave #HI := (inv_send m ρ K c (fo d)) $$ HR
  iapply (Rounds.wp_wait_rest_token 𝒱₀ ER (Rd m ρ) (c : Thread nD τ) none (κ := K (sendCell c (fo d)))
      (sm := .dma (sendS (fo d))) (k' := (rowM c : Memref sig .tc .vmem S2x512 .f32).view.dmaCredit)
      (wpE_waitDma2_eq 𝒱₀ (c : Thread nD τ) none Set.univ) (Set.mem_univ _) () (O := 0) (W := W) (R := 0) (m := 0) (T := ∅)
      (by rw [Nat.zero_add, expect_send m ρ c (fo d) hfo] <;> exact row_credit_local _)) $$ [Hc HO Hat]
  · isplitr; · iexact HI
    isplitl [Hc]; · rw [row_credit_local]; iexact Hc
    isplitl [HO]; · iexact HO
    isplitr; · rw [MayWait_zero]; iempintro
    iexact Hat
  iintro ⟨HO, Hat, -, Hpay⟩
  ihave Hrow := (Entails.of_eq (rest_send m ρ c (fo d) hfo)) $$ Hpay
  imod (Rounds.cell_close ER (Rd m ρ) (Set.mem_univ (K (sendCell c (fo d)))) (fun h => h) (R := 0 + 1)
      (duties_later m ρ (sendCell c (fo d)))) $$ [Hat] with Hz
  · isplitr; · iexact HI
    iexact Hat
  iapply Hk
  isplitl [HO]; · iexists _; iexact HO
  isplitl [Hrest]; · iexact Hrest
  unfold sendGot sendPay
  isplitl [Hrow]; · iexact Hrow
  iexact Hz

end Steps

end Cert.KernelRun

end
-- ==== Proof.KernelRun.Prep.lean ====
/- Regrouping what a device holds between the phases of its body: the families over its peers turned into lists over
   the offsets 1 … 31 that the steps consume one at a time; the shares of its own row that the thirty-one copies read;
   the buffer of statistics put together for the load of it all, and taken apart again. -/
import proofs.«901066_g7700000000001067_dist_softmax_colshard_i_m512_n256_v7x_i32_bf16_1_alg».proof.Proof.KernelRun.Steps

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Lists -/

omit [FloatOps F] in
/-- A chain's head and tail, written with the separating conjunction of the logic's own notation. -/
theorem bigSepL_cons_sep (d : ℕ) (l : List ℕ) (A : ℕ → sProp 𝕄) : bigSepL (d :: l) A = iprop(A d ∗ bigSepL l A) := bigSepL_cons d l A

omit [FloatOps F] in
/-- A family over a device's peers is the family over the offsets 1 … 31, each peer named by its offset. -/
theorem peers_list' (c : Dev nD) (Φ : Dev nD → sProp 𝕄) :
    bigSep (Finset.univ.erase c) Φ = bigSepL offs (fun d => Φ (shift c d)) := by
  have hmem : ∀ d ∈ offs, 1 ≤ d ∧ d < 32 := by
    intro d hd; rw [List.mem_range'_1] at hd; omega
  have hnd : (offs.map (shift c)).Nodup := by
    refine List.Nodup.map_on ?_ (List.nodup_range' : offs.Nodup)
    intro d hd d' hd' h
    exact shift_inj c (hmem d hd).2 (hmem d' hd').2 h
  have hset : Finset.univ.erase c = (offs.map (shift c)).toFinset := by
    ext p
    rw [Finset.mem_erase, List.mem_toFinset, List.mem_map]
    constructor
    · intro hp
      exact ⟨offTo c p, List.mem_range'_1.mpr ⟨offTo_pos hp.1, by have := offTo_lt c p; omega⟩, shift_offTo c p⟩
    · rintro ⟨d, hd, rfl⟩
      exact ⟨shift_ne_self c (hmem d hd).1 (hmem d hd).2, Finset.mem_univ _⟩
  rw [bigSep_eq_bigSepL_of_eq _ hset hnd, bigSepL_map]

omit [FloatOps F] in
theorem bigSepL_sep (l : List ℕ) (A B : ℕ → sProp 𝕄) :
    (iprop(bigSepL l A ∗ bigSepL l B) : sProp 𝕄) ⊣⊢ bigSepL l (fun d => iprop(A d ∗ B d)) := by
  induction l with
  | nil => exact ⟨by iintro -; iempintro, by iintro -; isplitl <;> iempintro⟩
  | cons d l ih =>
    rw [bigSepL_cons_sep, bigSepL_cons_sep, bigSepL_cons_sep]
    constructor
    · iintro ⟨⟨Ha, Hla⟩, Hb, Hlb⟩
      isplitl [Ha Hb]
      · isplitl [Ha] <;> iassumption
      · iapply ih.1; isplitl [Hla] <;> iassumption
    · iintro ⟨⟨Ha, Hb⟩, Hl⟩
      ihave Hl' := ih.2 $$ Hl
      icases Hl' with ⟨Hla, Hlb⟩
      isplitl [Ha Hla]
      · isplitl [Ha] <;> iassumption
      · isplitl [Hb] <;> iassumption
omit [FloatOps F] in
theorem bigSepL_mono (l : List ℕ) (A B : ℕ → sProp 𝕄) (h : ∀ d ∈ l, A d ⊢ B d) : bigSepL l A ⊢ bigSepL l B := by
  induction l with
  | nil => exact .rfl
  | cons d l ih =>
    rw [bigSepL_cons_sep, bigSepL_cons_sep]
    exact (sep_mono_left (h d List.mem_cons_self)).trans (sep_mono_right (ih fun d' hd' => h d' (List.mem_cons_of_mem _ hd')))
omit [FloatOps F] in
/-- A chain with one more offset at its end. -/
theorem bigSepL_snoc (l : List ℕ) (d : ℕ) (A : ℕ → sProp 𝕄) : (bigSepL (l ++ [d]) A : sProp 𝕄) ⊣⊢ iprop(bigSepL l A ∗ A d) := by
  induction l with
  | nil =>
    show (A d : sProp 𝕄) ⊣⊢ iprop(emp ∗ A d)
    constructor
    · iintro H; isplitr
      · iempintro
      · iexact H
    · iintro ⟨-, H⟩; iexact H
  | cons x l ih =>
    rw [List.cons_append, bigSepL_cons_sep, bigSepL_cons_sep]
    constructor
    · iintro ⟨Hx, Hl⟩
      ihave Hl' := ih.1 $$ Hl
      icases Hl' with ⟨Hl, Hd⟩
      isplitl [Hx Hl]
      · isplitl [Hx] <;> iassumption
      · iexact Hd
    · iintro ⟨⟨Hx, Hl⟩, Hd⟩
      isplitl [Hx]; · iexact Hx
      iapply ih.2; isplitl [Hl] <;> iassumption
omit [FloatOps F] in
theorem bigSepL_reverse (l : List ℕ) (A : ℕ → sProp 𝕄) : (bigSepL l.reverse A : sProp 𝕄) ⊣⊢ bigSepL l A := by
  induction l with
  | nil => exact ⟨.rfl, .rfl⟩
  | cons x l ih =>
    rw [List.reverse_cons, bigSepL_cons_sep]
    constructor
    · refine (bigSepL_snoc _ x A).1.trans ?_
      iintro ⟨Hl, Hx⟩
      isplitl [Hx]; · iexact Hx
      iapply ih.1; iexact Hl
    · refine .trans ?_ (bigSepL_snoc _ x A).2
      iintro ⟨Hx, Hl⟩
      isplitl [Hl]
      · iapply ih.2; iexact Hl
      · iexact Hx

omit [FloatOps F] in
/-- A family over the nonzero semaphore indices is the family over the offsets 1 … 31. -/
theorem sends_list (Φ : Fin 32 → sProp 𝕄) :
    bigSep (Finset.univ.erase (0 : Fin 32)) Φ = bigSepL offs (fun d => Φ (fo d)) :=
  peers_list' (0 : Dev nD) Φ

omit [FloatOps F] in
theorem fo_ne_zero {d : ℕ} (hd1 : 1 ≤ d) (hd : d < 32) : fo d ≠ 0 := shift_ne_self (0 : Dev nD) hd1 hd

/-! ## Before the signals -/

section Prep
variable (c : Dev nD)

omit [FloatOps F] in
/-- The buffer of statistics held whole: the device's own row, and the rows it will hand to its peers. -/
theorem scratch_own (q : PosShare TreeShare) (f : (cc0_scratch0 : Ref sig .tc).ty.Contents (Elt F)) :
    ((((c : Thread nD τ).loc cc0_scratch0) ↦{q} f) : sProp 𝕄)
      ⊣⊢ iprop(rowPts c c q f ∗ bigSep (Finset.univ.erase c) fun t : Dev nD => rowPts c t q f) := by
  rw [scratch_rows, bigSep_univ_at _ c]

omit [FloatOps F] in
/-- What the thirty-one signals spend, offset by offset. -/
theorem prep_signals (f : (cc0_scratch0 : Ref sig .tc).ty.Contents (Elt F)) :
    iprop((bigSep (Finset.univ.erase c) fun t : Dev nD => dutyTok ER (barCell t) 0 c)
        ∗ (bigSep (Finset.univ.erase c) fun t : Dev nD => rowPts (F := F) c t fullShare f))
      ⊢ bigSepL offs (sigRes (F := F) c) := by
  rw [← bigSep_sep', peers_list' c]
  refine bigSepL_mono _ _ _ fun d hd => ?_
  unfold sigRes
  iintro ⟨H1, H2⟩
  isplitl [H1]; · iexact H1
  iexists f; iexact H2

/-! ## The own row's shares -/

omit [FloatOps F] in
/-- The own row held in full: what stays with the device for its own loads, the token no copy uses, and one token for
    each of the thirty-one copies. -/
theorem own_row_shares (f : (cc0_scratch0 : Ref sig .tc).ty.Contents (Elt F)) :
    (rowPts c c fullShare f : sProp 𝕄)
      ⊣⊢ iprop(rowPts c c (Transfers.shareDrop fullShare 32) f ∗ rowPts c c (Transfers.shareTok fullShare 32 0) f
          ∗ bigSepL offs (fun d => rowPts c c (Transfers.shareTok fullShare 32 (fo d)) f)) := by
  have h : (rowPts c c fullShare f : sProp 𝕄)
      ⊣⊢ iprop(rowPts c c (Transfers.shareDrop fullShare 32) f
          ∗ bigSep Finset.univ (fun i : Fin 32 => rowPts c c (Transfers.shareTok fullShare 32 i) f)) :=
    Transfers.pointsTo_toks fullShare 32
  rw [bigSep_univ_at _ (0 : Fin 32), sends_list] at h
  exact h

/-! ## Before the copies, before the waits -/

/-- What the thirty-one copies spend, offset by offset: the peers' rows that came with their barrier signals, the
    tokens of the duties the copies pay, and the shares of the own row they read. -/
theorem prep_sends :
    iprop((bigSep (Finset.univ.erase c) fun p : Dev nD => barPay (F := F) c p)
        ∗ (bigSep (Finset.univ.erase c) fun t : Dev nD => dutyTok ER (recvCell t c) 0 0)
        ∗ (bigSep (Finset.univ.erase (0 : Fin 32)) fun d : Fin 32 => dutyTok ER (sendCell c d) 0 0)
        ∗ bigSepL offs (fun d => rowPts c c (Transfers.shareTok fullShare 32 (fo d)) (allStats m ρ)))
      ⊢ bigSepL offs (sendRes m ρ c) := by
  rw [peers_list' c, peers_list' c, sends_list]
  refine (sep_mono_right (sep_mono_right (bigSepL_sep offs _ _).1)).trans ?_
  refine (sep_mono_right (bigSepL_sep offs _ _).1).trans ?_
  refine (bigSepL_sep offs _ _).1.trans (bigSepL_mono _ _ _ fun d hd => ?_)
  unfold sendRes barPay
  iintro ⟨⟨H1, -⟩, H2, H3, H4⟩
  isplitl [H1]; · iexact H1
  isplitl [H2]; · iexact H2
  isplitl [H3]; · iexact H3
  iexact H4

omit [FloatOps F] in
theorem prep_recvs :
    iprop((bigSep (Finset.univ.erase c) fun j : Dev nD => cred (tallyAt (recvCell c j) () N))
        ∗ (bigSep (Finset.univ.erase c) fun j : Dev nD => atPos ER (recvCell c j) 0 ∅ 0))
      ⊢ bigSepL offs (recvRes (F := F) c) := by
  rw [← bigSep_sep', peers_list' c]
  refine bigSepL_mono _ _ _ fun d hd => ?_
  unfold recvRes
  exact .rfl

omit [FloatOps F] in
theorem prep_send_waits :
    iprop(bigSepL offs (sendCred (F := F) c)
        ∗ (bigSep (Finset.univ.erase (0 : Fin 32)) fun d : Fin 32 => atPos ER (sendCell c d) 0 ∅ 0))
      ⊢ bigSepL offs (sendWaitRes (F := F) c) := by
  rw [sends_list]
  refine (bigSepL_sep offs _ _).1.trans (bigSepL_mono _ _ _ fun d hd => ?_)
  unfold sendWaitRes
  exact .rfl

/-! ## The gathered buffer -/

/-- After the receive waits: the whole buffer at the share the device kept of its own row, holding the gathered
    statistics — enough to load it —, and the way back to the rows in full. -/
theorem gather (W : (cc0_scratch0 : Ref sig .tc).ty.Contents (Elt F)) (hW : W = allStats m ρ) :
    iprop(rowPts c c (Transfers.shareDrop fullShare 32) W
        ∗ bigSepL offs (fun d => rowPts c (shift c d) fullShare W))
      ⊢ iprop(((((c : Thread nD τ).loc cc0_scratch0) ↦{Transfers.shareDrop fullShare 32} W) : sProp 𝕄)
          ∗ (((((c : Thread nD τ).loc cc0_scratch0) ↦{Transfers.shareDrop fullShare 32} W) : sProp 𝕄)
              -∗ iprop(rowPts c c (Transfers.shareDrop fullShare 32) W
                  ∗ bigSep (Finset.univ.erase c) fun t : Dev nD => rowPts c t fullShare W))) := by
  have hsplit : ∀ t : Dev nD, (rowPts c t fullShare W : sProp 𝕄)
      = iprop(rowPts c t (Transfers.shareDrop fullShare 32) W
          ∗ bigSep Finset.univ (fun i : Fin 32 => rowPts c t (Transfers.shareTok fullShare 32 i) W)) := fun t =>
    BI.Entails.antisymm (Transfers.pointsTo_toks fullShare 32).1 (Transfers.pointsTo_toks fullShare 32).2
  have key : (iprop(rowPts c c (Transfers.shareDrop fullShare 32) W
          ∗ bigSep (Finset.univ.erase c) fun t : Dev nD => rowPts c t fullShare W) : sProp 𝕄)
      = iprop(((((c : Thread nD τ).loc cc0_scratch0) ↦{Transfers.shareDrop fullShare 32} W) : sProp 𝕄)
          ∗ bigSep (Finset.univ.erase c) fun t : Dev nD =>
              bigSep Finset.univ (fun i : Fin 32 => rowPts c t (Transfers.shareTok fullShare 32 i) W)) := by
    rw [bigSep_congr (fun t _ => hsplit t), bigSep_sep', BI.Entails.antisymm (scratch_own c (Transfers.shareDrop fullShare 32) W).1 (scratch_own c (Transfers.shareDrop fullShare 32) W).2]
    refine BI.Entails.antisymm (show _ ⊢ (_ : sProp 𝕄) from ?_) (show _ ⊢ (_ : sProp 𝕄) from ?_)
    · iintro ⟨H1, H2, H3⟩
      isplitl [H1 H2]
      · isplitl [H1] <;> iassumption
      · iexact H3
    · iintro ⟨⟨H1, H2⟩, H3⟩
      isplitl [H1]; · iexact H1
      isplitl [H2] <;> iassumption
  rw [← peers_list' c (fun t : Dev nD => rowPts (F := F) c t fullShare W), key]
  iintro ⟨HX, HF⟩
  isplitl [HX]; · iexact HX
  iintro HX
  isplitl [HX]; · iexact HX
  iexact HF

/-! ## At the end -/

omit [FloatOps F] in
theorem finish_send_sems :
    iprop(semVal (sendCell c 0) 0 ∗ bigSepL offs (fun d => (semVal (sendCell c (fo d)) 0 : sProp 𝕄)))
      ⊢ bigSep Finset.univ fun d : Fin 32 => (semVal (sendCell c d) 0 : sProp 𝕄) := by
  rw [bigSep_univ_at _ (0 : Fin 32), sends_list]
omit [FloatOps F] in
theorem finish_recv_sems :
    iprop(semVal (recvCell c c) 0 ∗ bigSepL offs (fun d => (semVal (recvCell c (shift c d)) 0 : sProp 𝕄)))
      ⊢ bigSep Finset.univ fun j : Fin 32 => (semVal (recvCell c j) 0 : sProp 𝕄) := by
  rw [bigSep_univ_at _ c, peers_list' c]

end Prep

end Cert.KernelRun

end
-- ==== Proof.KernelRun.Body.lean ====
/- One thread's body, from what the launch hands it to what it leaves: thirty-one signals, the local statistics,
   the barrier wait, thirty-one copies, thirty-one receive waits, the gathered statistics loaded and the result
   stored, thirty-one send waits. -/
import proofs.«901066_g7700000000001067_dist_softmax_colshard_i_m512_n256_v7x_i32_bf16_1_alg».proof.Proof.KernelRun.Prep

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem offs_eq : offs = [1, 2, 3, 4, 5, 6, 7, 8, 9, 10, 11, 12, 13, 14, 15, 16, 17, 18, 19, 20, 21, 22, 23, 24, 25, 26, 27, 28, 29, 30, 31] := by decide

section Body
variable (K : GSem nD τ sig → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ launchCreds c ∗ levAts L lv ∗ ∃ f, (((c : Thread nD τ).loc cc0_scratch0) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

theorem fetch_0 (t : Fin cfg0.N) : (cfg0.win (0 : Fin 2)).fetch t = true := by rw [fin_N t]; rfl

abbrev r0 : Rect S512x256 := Rect.unit (s := S512x256) ![0, 0] S512x256.size inb_S512x256_S512x256_0_0
omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S512x256 .f32).view.readAt (Elt F) r0.toLoadRect f = f :=
  Memref.readAt_unit_zero (Elt F) cc0_stg0_0 hz _ f
omit [FloatOps F] in
theorem write_out (f w : (cc0_stg1_0 : Ref sig .tc).ty.Contents (Elt F)) :
    ((oM : Memref sig .tc .vmem S512x256 .f32).access r0 : View sig .tc _ _ _).write (Elt F) f w Finset.univ = w :=
  Memref.write_access_unit_zero_univ (Elt F) cc0_stg1_0 hz _ f w

set_option hygiene false in
macro "sig_step" d:num : tactic => `(tactic| (
  iapply (step_signal m ρ K c $d (by decide) (by decide) _ W) $$ [HO Hsig]
  · isplitr; · iexact HR
    isplitl [HO] <;> iassumption
  iintro ⟨HO, Hsig⟩))

omit [FloatOps F] in
theorem rev_eq : ([31, 30, 29, 28, 27, 26, 25, 24, 23, 22, 21, 20, 19, 18, 17, 16, 15, 14, 13, 12, 11, 10, 9, 8, 7, 6, 5, 4, 3, 2, 1] : List ℕ) = offs.reverse := by decide

/-- The copy step with the target device named by an equation (substituted, not rewritten: the transfer's typing
    evidence depends on the device). -/
theorem step_send' (c : Dev nD) (d : ℕ) (hd1 : 1 ≤ d) (hd : d < 32) (ds : List ℕ) (W : Waits sig Unit) (n : Dev nD) (hn : n = shift c d)
    {hsc : (rowM c : Memref sig (Dev.tc n : Thread nD τ).2.kind .vmem S2x512 .f32).view.ref.isScScratch = false}
    {hsrc : (rowM c : Memref sig .tc .vmem S2x512 .f32).view.WordExact} {hdst : (rowM c : Memref sig .tc .vmem S2x512 .f32).view.WordExact}
    {hsem : DmaTarget.Typed .vmem (.dma (recvS c)) (.remote (Dev.tc n : Thread nD τ) (rowM c : Memref sig .tc .vmem S2x512 .f32) (.dma (sendS (fo d))) hsc)}
    {α : Type} {Q : α → sProp 𝕄} {k : PUnit → Prog (TpuEff nD τ sig (Elt F) Λ₀ .tc) α} :
    iprop(records m ρ K ∗ owes (c : Thread nD τ) (owedRecv c (d :: ds)) W ∗ bigSepL (d :: ds) (sendRes m ρ c))
      ⊢ iprop((iprop(owes (c : Thread nD τ) (owedRecv c ds) W ∗ bigSepL ds (sendRes m ρ c) ∗ sendCred (F := F) c d)
            -∗ wp frame (wpE' (defs₀ (F := F)) 𝒱₀ (c : Thread nD τ) none PendingWaitsCtx.empty) Set.univ (k ⟨⟩) Q)
          -∗ wp frame (wpE' (defs₀ (F := F)) 𝒱₀ (c : Thread nD τ) none PendingWaitsCtx.empty) Set.univ
              (.op (.enqueueDma (rowM c) (.remote (Dev.tc n : Thread nD τ) (rowM c) (.dma (sendS (fo d))) hsc) (.dma (recvS c)) hsrc hdst hsem) k) Q) := by
  subst hn
  exact step_send m ρ K c d hd1 hd ds W

open Lean in
set_option hygiene false in
macro "send_step" d:num : tactic => do
  let id := mkIdent (Name.mkSimple s!"dev{d.getNat + 31}_eq")
  `(tactic| (
  iapply (step_send' m ρ K c $d (by decide) (by decide) _ _ _ ($id c)) $$ [HO Hsend]
  · isplitr; · iexact HR
    isplitl [HO] <;> iassumption
  iintro ⟨HO, Hsend, Hc1⟩
  ihave Hcr := (Entails.of_eq (bigSepL_cons' $d _ (sendCred (F := F) c)).symm) $$ [Hc1 Hcr]
  · isplitl [Hc1] <;> iassumption))

set_option hygiene false in
macro "recv_step" d:num : tactic => `(tactic| (
  iapply (step_recv_wait m ρ K c $d (by decide) (by decide) _ _) $$ [HO Hrecv]
  · isplitr; · iexact HR
    isplitl [HO] <;> iassumption
  iintro ⟨⟨%W', HO⟩, Hrecv, Hg1⟩
  ihave Hgot := (Entails.of_eq (bigSepL_cons' $d _ (recvGot m ρ c)).symm) $$ [Hg1 Hgot]
  · isplitl [Hg1] <;> iassumption))

set_option hygiene false in
macro "sendw_step" d:num : tactic => `(tactic| (
  iapply (step_send_wait m ρ K c $d (by decide) (by decide) _ _) $$ [HO Hsw]
  · isplitr; · iexact HR
    isplitl [HO] <;> iassumption
  iintro ⟨⟨%W', HO⟩, Hsw, Hg1⟩
  ihave Hsgot := (Entails.of_eq (bigSepL_cons' $d _ (sendGot m ρ c)).symm) $$ [Hg1 Hsgot]
  · isplitl [Hg1] <;> iassumption))

attribute [local sl_rounds] duties_bar amount_bar payload_bar expect_bar barPay rowPts

set_option maxRecDepth 100000 in
set_option maxHeartbeats 16000000 in
/-- The body, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel,
    semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c, dev11_eq c, dev12_eq c, dev13_eq c, dev14_eq c, dev15_eq c, dev16_eq c, dev17_eq c, dev18_eq c, dev19_eq c, dev20_eq c, dev21_eq c, dev22_eq c, dev23_eq c, dev24_eq c, dev25_eq c, dev26_eq c, dev27_eq c, dev28_eq c, dev29_eq c, dev30_eq c, dev31_eq c, dev32_eq c, dev33_eq c, dev34_eq c, dev35_eq c, dev36_eq c, dev37_eq c, dev38_eq c, dev39_eq c, dev40_eq c, dev41_eq c, dev42_eq c, dev43_eq c, dev44_eq c, dev45_eq c, dev46_eq c, dev47_eq c, dev48_eq c, dev49_eq c, dev50_eq c, dev51_eq c, dev52_eq c, dev53_eq c, dev54_eq c, dev55_eq c, dev56_eq c, dev57_eq c, dev58_eq c, dev59_eq c, dev60_eq c, dev61_eq c, dev62_eq c, rowP3_eq c, recvOwn_eq c, rowP5_1_eq c, rowP5_2_eq c, rowP5_3_eq c, rowP5_4_eq c, rowP5_5_eq c, rowP5_6_eq c, rowP5_7_eq c, rowP5_8_eq c, rowP5_9_eq c, rowP5_10_eq c, rowP5_11_eq c, rowP5_12_eq c, rowP5_13_eq c, rowP5_14_eq c, rowP5_15_eq c, rowP5_16_eq c, rowP5_17_eq c, rowP5_18_eq c, rowP5_19_eq c, rowP5_20_eq c, rowP5_21_eq c, rowP5_22_eq c, rowP5_23_eq c, rowP5_24_eq c, rowP5_25_eq c, rowP5_26_eq c, rowP5_27_eq c, rowP5_28_eq c, rowP5_29_eq c, rowP5_30_eq c, rowP5_31_eq c, recvw_1_eq c, recvw_2_eq c, recvw_3_eq c, recvw_4_eq c, recvw_5_eq c, recvw_6_eq c, recvw_7_eq c, recvw_8_eq c, recvw_9_eq c, recvw_10_eq c, recvw_11_eq c, recvw_12_eq c, recvw_13_eq c, recvw_14_eq c, recvw_15_eq c, recvw_16_eq c, recvw_17_eq c, recvw_18_eq c, recvw_19_eq c, recvw_20_eq c, recvw_21_eq c, recvw_22_eq c, recvw_23_eq c, recvw_24_eq c, recvw_25_eq c, recvw_26_eq c, recvw_27_eq c, recvw_28_eq c, recvw_29_eq c, recvw_30_eq c, recvw_31_eq c]
  unfold bodyPre ghost linear launchCreds
  iintro ⟨⟨⟨⟨#HR, ⟨HatB, HatS, HatV⟩, HtB, HtV, HtS⟩, ⟨HcB, HcV⟩, #Hlev, ⟨%f0, Hscr⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  ihave HO := (Entails.of_eq (congrArg (fun O => (owes (c : Thread nD τ) O W : sProp 𝕄))
    (show (dats m ρ 0 c).owed t₀.castSucc = owedRecv c offs + owedBar c [1, 2, 3, 4, 5, 6, 7, 8, 9, 10, 11, 12, 13, 14, 15, 16, 17, 18, 19, 20, 21, 22, 23, 24, 25, 26, 27, 28, 29, 30, 31] from congrArg (fun l => owedRecv c offs + owedBar c l) offs_eq))) $$ HO
  -- the buffer of statistics: the own row, and the rows that go to the peers with the signals
  ihave Hrows := (scratch_own c fullShare f0).1 $$ Hscr
  icases Hrows with ⟨Hown, Hpeers⟩
  ihave Hsig := (prep_signals c f0) $$ [HtB Hpeers]
  · isplitl [HtB] <;> iassumption
  ihave Hsig := (Entails.of_eq (congrArg (fun l => (bigSepL l (sigRes (F := F) c) : sProp 𝕄)) offs_eq)) $$ Hsig
  -- (1) the thirty-one signals
  sig_step 1
  sig_step 2
  sig_step 3
  sig_step 4
  sig_step 5
  sig_step 6
  sig_step 7
  sig_step 8
  sig_step 9
  sig_step 10
  sig_step 11
  sig_step 12
  sig_step 13
  sig_step 14
  sig_step 15
  sig_step 16
  sig_step 17
  sig_step 18
  sig_step 19
  sig_step 20
  sig_step 21
  sig_step 22
  sig_step 23
  sig_step 24
  sig_step 25
  sig_step 26
  sig_step 27
  sig_step 28
  sig_step 29
  sig_step 30
  sig_step 31
  ihave HO := (Entails.of_eq (congrArg (fun O => (owes (c : Thread nD τ) O W : sProp 𝕄))
    (show owedRecv c offs + owedBar c [] = owedRecv c offs from add_zero _))) $$ HO
  -- (2) the local statistics, stored in the own row
  ihave Hx := (Entails.of_eq (show (((c : Thread nD τ).loc cc0_stg0_0 ↦{fullShare} xstg m ρ c) : sProp 𝕄) = (xM.view.loc (c : Thread nD τ) ↦[xM.view.set]{fullShare} xstg m ρ c) from by simp only [Memref.view_whole, View.set_whole] <;> rfl)) $$ Hx
  ihave Hown := (Entails.of_eq (show (rowPts c c fullShare f0 : sProp 𝕄) = ((rowM c).view.loc (c : Thread nD τ) ↦[(rowM c).view.set]{fullShare} f0) from rfl)) $$ Hown
  ihave #HIbc := (inv_bar m ρ K c) $$ HR
  ihave #Hmw := (mayWait_bar c) $$ Hlev
  sl_exec
  sl_unfold_words
  rw [read_x]
  ihave Hx := (Entails.of_eq (show (((c : Thread nD τ).loc cc0_stg0_0 ↦{fullShare} xstg m ρ c) : sProp 𝕄) = (xM.view.loc (c : Thread nD τ) ↦[xM.view.set]{fullShare} xstg m ρ c) from by simp only [Memref.view_whole, View.set_whole] <;> rfl).symm) $$ Hx
  ihave Hown : ((((c : Thread nD τ).loc cc0_scratch0) ↦[(rowM c).view.set]{fullShare} (sM.access (Rect.unit (s := S32x2x512) (k0_off1 c) S1x2x512.size (k0_off1_inb c))).write (Elt F) f0 (k0_pay4 (xstg m ρ c)) Finset.univ) : sProp 𝕄) $$ [Hown]
  · iexact Hown
  ihave Hown := (Entails.of_eq ((pointsTo_congr fun i hi => store_own_val m ρ c f0 i hi).trans (rowPts_eq c c fullShare (allStats m ρ)).symm)) $$ Hown
  ihave Hown := (own_row_shares c (allStats m ρ)).1 $$ Hown
  icases Hown with ⟨Hkeep, Htok0, Htoks⟩
  -- (3) the wait for the thirty-one signals: every peer's row for this device comes with them
  ihave Hp : bigSep (Finset.univ.erase c) (fun p : Dev nD => barPay (F := F) c p) $$ [HatB_pay1]
  · iexact HatB_pay1
  ihave HO : owes (c : Thread nD τ) (owedRecv c offs) (insert (SemLoc.reg barS, ()) W) $$ [HO]
  · iexact HO
  -- (4) the thirty-one copies
  ihave Hsend := (prep_sends m ρ c) $$ [Hp HtV HtS Htoks]
  · isplitl [Hp]; · iexact Hp
    isplitl [HtV]; · iexact HtV
    isplitl [HtS] <;> iassumption
  ihave Hsend := (Entails.of_eq (congrArg (fun l => (bigSepL l (sendRes m ρ c) : sProp 𝕄)) offs_eq)) $$ Hsend
  ihave HO := (Entails.of_eq (congrArg (fun l => (owes (c : Thread nD τ) (owedRecv c l) (insert (SemLoc.reg barS, ()) W) : sProp 𝕄)) offs_eq)) $$ HO
  ihave Hcr : bigSepL ([] : List ℕ) (sendCred (F := F) c) $$ []
  · iempintro
  send_step 1
  send_step 2
  send_step 3
  send_step 4
  send_step 5
  send_step 6
  send_step 7
  send_step 8
  send_step 9
  send_step 10
  send_step 11
  send_step 12
  send_step 13
  send_step 14
  send_step 15
  send_step 16
  send_step 17
  send_step 18
  send_step 19
  send_step 20
  send_step 21
  send_step 22
  send_step 23
  send_step 24
  send_step 25
  send_step 26
  send_step 27
  send_step 28
  send_step 29
  send_step 30
  send_step 31
  -- (5) the thirty-one receive waits
  ihave HO := (Entails.of_eq (congrArg (fun O => (owes (c : Thread nD τ) O (insert (SemLoc.reg barS, ()) W) : sProp 𝕄))
    (show owedRecv c [] = 0 from rfl))) $$ HO
  ihave HatV := (Entails.of_eq (bigSep_univ_at (fun j : Fin 32 => (atPos ER (recvCell c j) 0 ∅ 0 : sProp 𝕄)) c)) $$ HatV
  icases HatV with ⟨HatVc, HatVp⟩
  ihave Hrecv := (prep_recvs c) $$ [HcV HatVp]
  · isplitl [HcV] <;> iassumption
  ihave Hrecv := (Entails.of_eq (congrArg (fun l => (bigSepL l (recvRes (F := F) c) : sProp 𝕄)) offs_eq)) $$ Hrecv
  ihave Hgot : bigSepL ([] : List ℕ) (recvGot m ρ c) $$ []
  · iempintro
  recv_step 1
  recv_step 2
  recv_step 3
  recv_step 4
  recv_step 5
  recv_step 6
  recv_step 7
  recv_step 8
  recv_step 9
  recv_step 10
  recv_step 11
  recv_step 12
  recv_step 13
  recv_step 14
  recv_step 15
  recv_step 16
  recv_step 17
  recv_step 18
  recv_step 19
  recv_step 20
  recv_step 21
  recv_step 22
  recv_step 23
  recv_step 24
  recv_step 25
  recv_step 26
  recv_step 27
  recv_step 28
  recv_step 29
  recv_step 30
  recv_step 31
  -- (6) the gathered statistics loaded, the result stored
  ihave Hgot := (Entails.of_eq (congrArg (fun l => (bigSepL l (recvGot m ρ c) : sProp 𝕄)) rev_eq)) $$ Hgot
  ihave Hgot := (bigSepL_reverse offs (recvGot m ρ c)).1 $$ Hgot
  ihave Hgot := (Entails.of_eq (show (bigSepL offs (recvGot m ρ c) : sProp 𝕄)
    = bigSepL offs (fun d => iprop(rowPts c (shift c d) fullShare (allStats m ρ) ∗ semVal (recvCell c (shift c d)) 0)) from rfl)) $$ Hgot
  ihave Hgot := (bigSepL_sep offs (fun d => rowPts c (shift c d) fullShare (allStats m ρ)) (fun d => (semVal (recvCell c (shift c d)) 0 : sProp 𝕄))).2 $$ Hgot
  icases Hgot with ⟨Hprows, Hvsems⟩
  ihave Hg := (gather m ρ c (allStats m ρ) rfl) $$ [Hkeep Hprows]
  · isplitl [Hkeep] <;> iassumption
  icases Hg with ⟨Hbuf, Hback⟩
  ihave Hbuf := (Entails.of_eq (show (((c : Thread nD τ).loc cc0_scratch0 ↦{Transfers.shareDrop fullShare 32} allStats m ρ) : sProp 𝕄) = (sM.view.loc (c : Thread nD τ) ↦[sM.view.set]{Transfers.shareDrop fullShare 32} allStats m ρ) from by simp only [Memref.view_whole, View.set_whole] <;> rfl)) $$ Hbuf
  ihave Hout := (Entails.of_eq (show (((c : Thread nD τ).loc cc0_stg1_0 ↦{fullShare} g1) : sProp 𝕄) = (oM.view.loc (c : Thread nD τ) ↦[oM.view.set]{fullShare} g1) from by simp only [Memref.view_whole, View.set_whole] <;> rfl)) $$ Hout
  sl_exec
  sl_unfold_words
  rw [read_scratch]
  ihave Hout : ((oM.view.loc (c : Thread nD τ) ↦[oM.view.set]{fullShare} ((oM : Memref sig .tc .vmem S512x256 .f32).access r0 : View sig .tc _ _ _).write (Elt F) g1 (k0_pay5 (k0_pay2 (xstg m ρ c)) (k0_pay3 (xstg m ρ c)) (allStats m ρ)) Finset.univ) : sProp 𝕄) $$ [Hout]
  · iexact Hout
  rw [write_out]
  ihave Hbuf := (Entails.of_eq (show (((c : Thread nD τ).loc cc0_scratch0 ↦{Transfers.shareDrop fullShare 32} allStats m ρ) : sProp 𝕄) = (sM.view.loc (c : Thread nD τ) ↦[sM.view.set]{Transfers.shareDrop fullShare 32} allStats m ρ) from by simp only [Memref.view_whole, View.set_whole] <;> rfl).symm) $$ Hbuf
  ihave Hout := (Entails.of_eq (show (((c : Thread nD τ).loc cc0_stg1_0 ↦{fullShare} (k0_pay5 (k0_pay2 (xstg m ρ c)) (k0_pay3 (xstg m ρ c)) (allStats m ρ))) : sProp 𝕄) = (oM.view.loc (c : Thread nD τ) ↦[oM.view.set]{fullShare} (k0_pay5 (k0_pay2 (xstg m ρ c)) (k0_pay3 (xstg m ρ c)) (allStats m ρ))) from by simp only [Memref.view_whole, View.set_whole] <;> rfl).symm) $$ Hout
  ihave Hr := Hback $$ Hbuf
  icases Hr with ⟨Hkeep, Hprows⟩
  -- (7) the thirty-one send waits
  ihave Hcr := (Entails.of_eq (congrArg (fun l => (bigSepL l (sendCred (F := F) c) : sProp 𝕄)) rev_eq)) $$ Hcr
  ihave Hcr := (bigSepL_reverse offs (sendCred (F := F) c)).1 $$ Hcr
  ihave HatS := (Entails.of_eq (bigSep_univ_at (fun d : Fin 32 => (atPos ER (sendCell c d) 0 ∅ 0 : sProp 𝕄)) 0)) $$ HatS
  icases HatS with ⟨HatS0, HatSp⟩
  ihave Hsw := (prep_send_waits c) $$ [Hcr HatSp]
  · isplitl [Hcr] <;> iassumption
  ihave Hsw := (Entails.of_eq (congrArg (fun l => (bigSepL l (sendWaitRes (F := F) c) : sProp 𝕄)) offs_eq)) $$ Hsw
  ihave Hsgot : bigSepL ([] : List ℕ) (sendGot m ρ c) $$ []
  · iempintro
  sendw_step 1
  sendw_step 2
  sendw_step 3
  sendw_step 4
  sendw_step 5
  sendw_step 6
  sendw_step 7
  sendw_step 8
  sendw_step 9
  sendw_step 10
  sendw_step 11
  sendw_step 12
  sendw_step 13
  sendw_step 14
  sendw_step 15
  sendw_step 16
  sendw_step 17
  sendw_step 18
  sendw_step 19
  sendw_step 20
  sendw_step 21
  sendw_step 22
  sendw_step 23
  sendw_step 24
  sendw_step 25
  sendw_step 26
  sendw_step 27
  sendw_step 28
  sendw_step 29
  sendw_step 30
  sendw_step 31
  -- (8) the two unused cells closed, the shares of the own row put together, the buffer whole again
  imod (Rounds.cell_close ER (Rd m ρ) (Set.mem_univ (K (sendCell c 0))) (fun h => h) (R := 0) (fun r _ => duties_send_zero m ρ c r)) $$ [HatS0] with Hz0
  · isplitr; · iapply (inv_send m ρ K c 0); iexact HR
    iexact HatS0
  imod (Rounds.cell_close ER (Rd m ρ) (Set.mem_univ (K (recvCell c c))) (fun h => h) (R := 0) (fun r _ => duties_recv_self m ρ c r)) $$ [HatVc] with Hzc
  · isplitr; · iapply (inv_recv m ρ K c c); iexact HR
    iexact HatVc
  ihave Hsgot := (Entails.of_eq (congrArg (fun l => (bigSepL l (sendGot m ρ c) : sProp 𝕄)) rev_eq)) $$ Hsgot
  ihave Hsgot := (bigSepL_reverse offs (sendGot m ρ c)).1 $$ Hsgot
  ihave Hsgot := (Entails.of_eq (show (bigSepL offs (sendGot m ρ c) : sProp 𝕄)
    = bigSepL offs (fun d => iprop(rowPts c c (Transfers.shareTok fullShare 32 (fo d)) (allStats m ρ) ∗ semVal (sendCell c (fo d)) 0)) from rfl)) $$ Hsgot
  ihave Hsgot := (bigSepL_sep offs (fun d => rowPts c c (Transfers.shareTok fullShare 32 (fo d)) (allStats m ρ)) (fun d => (semVal (sendCell c (fo d)) 0 : sProp 𝕄))).2 $$ Hsgot
  icases Hsgot with ⟨Htoks, Hssems⟩
  ihave Hown := (own_row_shares c (allStats m ρ)).2 $$ [Hkeep Htok0 Htoks]
  · isplitl [Hkeep]; · iexact Hkeep
    isplitl [Htok0] <;> iassumption
  ihave Hscr := (scratch_own c fullShare (allStats m ρ)).2 $$ [Hown Hprows]
  · isplitl [Hown] <;> iassumption
  ihave HzS := (finish_send_sems (F := F) c) $$ [Hz0 Hssems]
  · isplitl [Hz0] <;> iassumption
  ihave HzV := (finish_recv_sems (F := F) c) $$ [Hzc Hvsems]
  · isplitl [Hzc] <;> iassumption
  rw [wp_ret]; imodintro
  iapply Hk
  unfold bodyPost Φ₁ Dat.owesAt Pipeline.owesWithin
  rw [show (dats m ρ 0 c).owed t₀.succ = 0 from rfl]
  isplitl [Hscr HzS HzV]
  · isplitl [Hscr]; · iexists _; iexact Hscr
    isplitl [HzS]; · iexact HzS
    iexact HzV
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Body

set_option maxRecDepth 100000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 100000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-- info: 'Cert.KernelRun.body_obligation' depends on axioms: [propext, Classical.choice, Quot.sound] -/
#guard_msgs in #print axioms body_obligation

end Cert.KernelRun

end
-- ==== Proof.KernelRun.Launch.Fund.lean ====
/- The protocol's ghost state at launch: the cells of the thirty-two devices and their duty tokens as one launch
   element, what that element deals each device, and the one update that allocates every cell's invariant and hands each
   device the ghost state its body starts from. -/
import proofs.«901066_g7700000000001067_dist_softmax_colshard_i_m512_n256_v7x_i32_bf16_1_alg».proof.Proof.KernelRun.Levels
import proofs.«901066_g7700000000001067_dist_softmax_colshard_i_m512_n256_v7x_i32_bf16_1_alg».proof.Proof.KernelRun.Rows

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's sixty-five cells -/

/-- The cells of one device: its barrier cell, its thirty-two send cells, its thirty-two receive cells. -/
abbrev KI : Type := Unit ⊕ Fin 32 ⊕ Fin 32

abbrev csem : KI → SemLoc sig
  | .inl _ => .reg barS
  | .inr (.inl d) => .dma (sendS d)
  | .inr (.inr j) => .dma (recvS j)

abbrev kcell (ck : Dev nD × KI) : GSem nD τ sig := ((ck.1 : Thread nD τ), csem ck.2)

theorem csem_injective : Function.Injective csem := by
  rintro (_ | d | j) (_ | d' | j') h
  · rfl
  · exact absurd h.symm (send_ne_bar d')
  · exact absurd h.symm (recv_ne_bar j')
  · exact absurd h (send_ne_bar d)
  · rw [sendS_inj (SemLoc.dma.inj h)]
  · exact absurd (SemLoc.dma.inj h) (sendS_ne_recvS d j')
  · exact absurd h (recv_ne_bar j)
  · exact absurd (SemLoc.dma.inj h).symm (sendS_ne_recvS d' j)
  · rw [recvS_inj (SemLoc.dma.inj h)]

theorem kcell_injective : Function.Injective (kcell : Dev nD × KI → GSem nD τ sig) := by
  rintro ⟨c, k⟩ ⟨c', k'⟩ h
  have h1 : c = c' := congrArg (fun g : GSem nD τ sig => g.1.1) h
  subst h1
  have hk : k = k' := csem_injective (congrArg Prod.snd h)
  subst hk; rfl

/-- All the protocol's cells, on every device. -/
def ringCells : Finset (GSem nD τ sig) := Finset.univ.map ⟨kcell, kcell_injective⟩

/-- The kernel's own scoped semaphores, as the launch indexes them: the send semaphores, then the receive semaphores. -/
abbrev osem : Fin 32 ⊕ Fin 32 → SemLoc sig
  | .inl d => .dma (sendS d)
  | .inr j => .dma (recvS j)

/-! ## The duty tokens -/

/-- The tokens minted with a device's own cells: its barrier cell's duty for every name, its send cells' and its
    receive cells' duty 0. -/
abbrev tokOf (ck : Dev nD × (Fin 32 ⊕ Fin 32 ⊕ Fin 32)) : GSem nD τ sig × ℕ × Fin 32 := match ck.2 with
  | .inl p => (barCell ck.1, 0, p)
  | .inr (.inl d) => (sendCell ck.1 d, 0, 0)
  | .inr (.inr j) => (recvCell ck.1 j, 0, 0)

theorem tokOf_injective : Function.Injective (tokOf : Dev nD × (Fin 32 ⊕ Fin 32 ⊕ Fin 32) → GSem nD τ sig × ℕ × Fin 32) := by
  rintro ⟨c, k⟩ ⟨c', k'⟩ h
  have h1 : c = c' := by
    have := congrArg (fun x : GSem nD τ sig × ℕ × Fin 32 => x.1.1.1) h
    rcases k with p | d | j <;> rcases k' with p' | d' | j' <;> exact this
  subst h1
  have hg := congrArg (fun x : GSem nD τ sig × ℕ × Fin 32 => x.1.2) h
  have hd := congrArg (fun x : GSem nD τ sig × ℕ × Fin 32 => x.2.2) h
  rcases k with p | d | j <;> rcases k' with p' | d' | j'
  · have hp : p = p' := hd
    subst hp; rfl
  · exact absurd hg.symm (send_ne_bar d')
  · exact absurd hg.symm (recv_ne_bar j')
  · exact absurd hg (send_ne_bar d)
  · have hp : d = d' := sendS_inj (SemLoc.dma.inj hg)
    subst hp; rfl
  · exact absurd (SemLoc.dma.inj hg) (sendS_ne_recvS d j')
  · exact absurd hg (recv_ne_bar j)
  · exact absurd (SemLoc.dma.inj hg).symm (sendS_ne_recvS d' j)
  · have hp : j = j' := recvS_inj (SemLoc.dma.inj hg)
    subst hp; rfl

def ringToks : Finset (GSem nD τ sig × ℕ × Fin 32) := Finset.univ.map ⟨tokOf, tokOf_injective⟩

/-- The launch element: the pipeline's copy for the staging cells, the protocol's for its own. -/
def u₀ : UU :=
  (initOf (Pipeline.cells cfgs cellOf_inj) (Pipeline.launchToks cfgs cellOf_inj), initOf ringCells ringToks)

/-- The tokens of the duties of device `c`'s own cells: its barrier cell's one per peer, its send cell's at each
    nonzero offset, its receive cell's for each peer. -/
def toks (c : Dev nD) : sProp 𝕄 :=
  iprop((bigSep (Finset.univ.erase c) fun p : Dev nD => dutyTok ER (barCell c) 0 p)
    ∗ (bigSep (Finset.univ.erase (0 : Fin 32)) fun d : Fin 32 => dutyTok ER (sendCell c d) 0 0)
    ∗ (bigSep (Finset.univ.erase c) fun j : Dev nD => dutyTok ER (recvCell c j) 0 0))

/-- What the launch element deals device `c`: the round state at counter zero of each of its cells, its position
    in each and that each has reached round 0, and its own cells' duty tokens. -/
def G (c : Dev nD) : sProp 𝕄 :=
  iprop((bigSep Finset.univ fun k : KI => roundState ER (Rd m ρ) (kcell (c, k)) 0)
    ∗ (bigSep Finset.univ fun k : KI => iprop(atPos ER (kcell (c, k)) 0 ∅ 0 ∗ reached ER (kcell (c, k)) 0)) ∗ toks c)

/-- What the global step makes of it: the ghost state the device's body starts from, at some names. -/
def G' (c : Dev nD) : sProp 𝕄 := iprop(∃ K, ghost m ρ K c)

/-- The kernel's sixty-four scoped semaphores are scoped, pairwise distinct, and no staging semaphore. -/
theorem ownSemFacts : Pipeline.OwnSemFacts cfg0.spec osem := by decide

/-- Every payload of the schedule is a points-to, or one beside a persistent mark. -/
instance launch_payload_storable (g : GSem nD τ sig) (r : ℕ) (d : Fin 32) :
    BI.Storable (upEmb : UEmb _ 𝕄) ((Rd (F := F) m ρ).payload g r d) := by
  show BI.Storable upEmb (match g.2 with
    | .reg _ => barPay g.1.1 d
    | .dma q =>
      match sendOf q, recvOf q with
      | some k, _ => sendPay m ρ g.1.1 k
      | none, some j => recvPay m ρ g.1.1 j
      | none, none => iprop(emp))
  unfold barPay recvPay sendPay rowPts
  (repeat' split) <;> infer_instance

omit [FloatOps F] in
/-- A family over a device's cells, cell by cell. -/
theorem bigSep_cells (c : Dev nD) (Φ : GSem nD τ sig → sProp 𝕄) :
    (bigSep Finset.univ fun k : KI => Φ (kcell (c, k)))
      = iprop(Φ (barCell c) ∗ (bigSep Finset.univ fun d : Fin 32 => Φ (sendCell c d)) ∗ bigSep Finset.univ fun j : Fin 32 => Φ (recvCell c j)) := by
  rw [bigSep_univ_sum, bigSep_univ_sum, bigSep_univ_of_subsingleton ()]; rfl

omit [FloatOps F] in
/-- The kernel's own semaphores at zero are its send cells' and its receive cells' counters at zero; -/
theorem ownSems0_eq (c : Dev nD) : (Pipeline.ownSems0 (Ix := Unit) (Name := ℕ) (U := UU) (Lvl := ℕ) (Val := Elt F) (τ := τ) osem c : sProp 𝕄)
    = iprop((bigSep Finset.univ fun d : Fin 32 => semVal (sendCell c d) 0) ∗ (bigSep Finset.univ fun j : Fin 32 => semVal (recvCell c j) 0)) := by
  unfold Pipeline.ownSems0; rw [bigSep_univ_sum]; rfl

omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KI => semVal (kcell (c, k)) 0 : sProp 𝕄) := by
  rw [ownSems0_eq, unscopedSems0_eq, bigSep_cells c (fun g => semVal g 0)]
  iintro ⟨⟨HS, HV⟩, HB⟩
  isplitl [HB]; · iexact HB
  isplitl [HS] <;> iassumption

/-- The protocol's launch element is every device's part. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : KI => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    refine bigSep_mono fun c _ => ?_
    rw [bigSep_univ_sum, bigSep_univ_sum]
    unfold toks
    exact Idealize.SL.BI.sep_mono (bigSep_subset (Finset.erase_subset c Finset.univ))
      (Idealize.SL.BI.sep_mono (bigSep_subset (Finset.erase_subset (0 : Fin 32) Finset.univ)) (bigSep_subset (Finset.erase_subset c Finset.univ)))
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- The launch element funds the pipeline's copy and deals every device its part of the protocol's. -/
theorem fund_all : (ownU (u₀ : UU) : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_ring m ρ) $$ HX with HG
  imodintro
  isplitl [HP] <;> iassumption

/-- One device's cells allocated: each cell's invariant at some name, from its counter at zero and its round state. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : KI => iprop(∃ κ : ℕ, cellInv ER (Rd m ρ) κ (kcell (c, k))))
          ∗ (bigSep Finset.univ fun k : KI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : KI => semVal (kcell (c, k)) 0) ∗ bigSep Finset.univ fun k : KI => roundState ER (Rd m ρ) (kcell (c, k)) 0)
      ⊢ (|={Set.univ}=> bigSep Finset.univ fun k : KI => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Every device's starting ghost state -/

/-- The records, cell by cell over all devices. -/
theorem records_eq (K : GSem nD τ sig → ℕ) :
    records m ρ K = iprop((bigSep Finset.univ fun ck : Dev nD × KI => cellInv ER (Rd m ρ) (K (kcell ck)) (kcell ck))
      ∗ bigSep Finset.univ fun ck : Dev nD × KI => reached ER (kcell ck) 0) := by
  unfold records
  rw [bigSep_univ_prod, bigSep_univ_prod,
    bigSep_congr (s := Finset.univ) fun (t : Dev nD) _ => bigSep_cells t (fun g => cellInv ER (Rd m ρ) (K g) g),
    bigSep_congr (s := Finset.univ) fun (t : Dev nD) _ => bigSep_cells (F := F) t (fun g => reached ER g 0)]

/-- The tokens as the devices hold them at their bodies' start: each device holds the tokens of the duties it pays. -/
def payToks (c : Dev nD) : sProp 𝕄 :=
  iprop((bigSep (Finset.univ.erase c) fun t : Dev nD => dutyTok ER (barCell t) 0 c)
    ∗ (bigSep (Finset.univ.erase c) fun t : Dev nD => dutyTok ER (recvCell t c) 0 0)
    ∗ (bigSep (Finset.univ.erase (0 : Fin 32)) fun d : Fin 32 => dutyTok ER (sendCell c d) 0 0))

omit [FloatOps F] in
/-- The tokens dealt to their payers: a barrier cell's token named `p` goes to device `p`, a receive cell's token to
    the device the cell receives from; the send cells' stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_erase_comm (fun c p : Dev nD => (dutyTok ER (barCell c) 0 p : sProp 𝕄)),
    bigSep_erase_comm (fun c j : Dev nD => (dutyTok ER (recvCell c j) 0 0 : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : GSem nD τ sig → ℕ) (c : Dev nD) : iprop(records m ρ K ∗ linear c) ⊢ G' m ρ c := by
  unfold G'
  iintro H
  iexists K
  unfold ghost
  iexact H

theorem regroup :
    (bigSep Finset.univ fun c : Dev nD => iprop((bigSep Finset.univ fun k : KI => iprop(∃ κ : ℕ, cellInv ER (Rd m ρ) κ (kcell (c, k))))
          ∗ (bigSep Finset.univ fun k : KI => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × KI => iprop(∃ κ : ℕ, cellInv ER (Rd m ρ) κ (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun ck : Dev nD × KI => (reached ER (kcell ck) 0 : sProp 𝕄))]
  iintro ⟨HI, ⟨Hat, #HR⟩, Htok⟩
  ihave HK := (BI.bigSep_exists_pi Finset.univ (fun (ck : Dev nD × KI) (κ : ℕ) => (cellInv ER (Rd m ρ) κ (kcell ck) : sProp 𝕄))) $$ HI
  icases HK with ⟨%K', #HI⟩
  obtain ⟨K, hK⟩ : ∃ K : GSem nD τ sig → ℕ, ∀ ck, K (kcell ck) = K' ck :=
    ⟨fun g => K' (Function.invFun kcell g), fun ck => congrArg K' (Function.leftInverse_invFun kcell_injective ck)⟩
  have eI : (bigSep Finset.univ fun ck : Dev nD × KI => (cellInv ER (Rd m ρ) (K (kcell ck)) (kcell ck) : sProp 𝕄))
      = bigSep Finset.univ fun ck : Dev nD × KI => cellInv ER (Rd m ρ) (K' ck) (kcell ck) :=
    bigSep_congr fun ck _ => by rw [hK ck]
  ihave Htk := (toks_around (F := F)) $$ Htok
  iapply (bigSep_with_persistent (R := records m ρ K) fun c _ => ghost_intro m ρ K c)
  isplitr
  · rw [records_eq, eI]
    isplitl; · iexact HI
    iexact HR
  · iapply ((Entails.of_eq (bigSep_sep' Finset.univ (fun c : Dev nD => bigSep Finset.univ fun k : KI => (atPos ER (kcell (c, k)) 0 ∅ 0 : sProp 𝕄)) payToks).symm).trans
      (bigSep_mono fun c _ => show _ ⊢ linear c from Entails.of_eq (by unfold linear payToks; rw [bigSep_cells c (fun g => atPos ER g 0 ∅ 0)])))
    isplitl [Hat]; · iexact Hat
    iexact Htk

/-- The global step: from every device's own and unscoped semaphores at zero and its part of the launch element, every
    cell's invariant allocated and every device's starting ghost state. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.KernelRun.fund_all' depends on axioms: [propext, Classical.choice, Quot.sound] -/
#guard_msgs in #print axioms fund_all

/-- info: 'Cert.KernelRun.glob' depends on axioms: [propext, Classical.choice, Quot.sound] -/
#guard_msgs in #print axioms glob

end Cert.KernelRun

end
-- ==== Proof.KernelRun.Launch.lean ====
/- The launch: the protocol's ghost state funded and dealt to the devices, every cell's invariant allocated, the
   credit tokens read off what the devices owe, and the run of all thirty-two kernels to its end with each device's
   result array at its computed contents and the input unchanged. -/
import proofs.«901066_g7700000000001067_dist_softmax_colshard_i_m512_n256_v7x_i32_bf16_1_alg».proof.Proof.KernelRun.Launch.Fund

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The staged block of the input is the device's whole input array. -/
theorem xstg_eq (c : Dev nD) : xstg m ρ c = m ((c : Thread nD τ).loc main_arg0) := by
  unfold xstg s₀
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-! ## The arrays after the run -/

/-- The arrays after the run, as the pipeline's proof data name them. -/
def finalA (c : Dev nD) (w : Fin cfg0.W) : Buf (Elt F) ((cfg0.win w).arr.view.loc (c : Thread nD τ)) := (dats m ρ 0 c).arrAt w cfg0.N

/-- The input array is never written: after the run it holds what it held. -/
theorem finalA_x (c : Dev nD) : finalA m ρ c (0 : Fin 2) = m ((c : Thread nD τ).loc main_arg0) :=
  (dats (F := F) m ρ 0 c).arrAt_in (0 : Fin 2) rfl _

/-- The result array's one block is the whole array, written back once: after the run it holds what the body left
    in the staging buffer. -/
theorem finalA_o (c : Dev nD) : finalA m ρ c (1 : Fin 2) = outAt m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  have hz : (fun a => (win0_1.index (0 : Fin 1)) a * main_v1.ty.shape.size a) = fun _ => 0 :=
    funext fun a => by fin_cases a <;> decide
  exact Memref.write_access_unit_zero_univ (Elt F) main_v1 hz (fun a => by fin_cases a <;> decide) _ _

/-! ## The launch theorem's side conditions -/

theorem share_eq (c : Dev nD) (w : Fin cfg0.W) : (dats m ρ 0 c).share w = fullShare := by unfold Dat.share; split <;> rfl

/-- What a device's body starts from, out of what the launch hands it: its ghost state, its credit, the levels. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- Before the one point: that and the buffer of statistics, the kernel's one scoped buffer that is no staging buffer. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

/-- After it: the buffer whole again and the kernel's own semaphores at zero go back to the launch. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨Hr, HzS, HzV⟩
  isplitr; · iempintro
  isplitl [HzS HzV]
  · isplitl [HzS] <;> iassumption
  iexact Hr

/-! ## The run -/

set_option maxRecDepth 8000 in
/-- At the compiled mesh of thirty-two devices, for any float values, from any memory with zero counters: given the
    body's obligation on every device, every weakly fair execution of @main terminates, and every final state has
    each device's result array at the computed contents and its input array unchanged. -/
theorem run_values (hbody : ∀ c : Dev nD, BodyObligation (dats (F := F) m ρ 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := fund_all m ρ)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c => ⟨((h c).1 (1 : Fin 2)).trans (finalA_o m ρ c), ((h c).1 (0 : Fin 2)).trans (finalA_x m ρ c)⟩)

/-- info: 'Cert.KernelRun.run_values' depends on axioms: [propext, Classical.choice, Quot.sound] -/
#guard_msgs in #print axioms run_values

end Cert.KernelRun

end
-- ==== Proof.Softmax.Spec.lean ====
/- The softmax of each row of a real matrix with 8192 columns, computed two ways: over the whole row, and from
   thirty-two blocks of 256 columns — each block's own maximum and sum of exponentials, rescaled to the maximum of
   the block maxima and added up. The two agree: exp (x − m) · exp (m − M) = exp (x − M), termwise. -/
import Mathlib.Analysis.SpecialFunctions.Exp
import Mathlib.Algebra.BigOperators.Fin

noncomputable section

namespace Cert.Softmax

/-- Column `j` of block `c` is column `256 c + j` of the whole row. -/
def col (c : Fin 32) (j : Fin 256) : Fin 8192 := ⟨256 * c.val + j.val, by have := c.isLt; have := j.isLt; omega⟩

variable (x : Fin 512 → Fin 8192 → ℝ)

/-- The row's maximum, -/
def rowMax (r : Fin 512) : ℝ := Finset.univ.sup' Finset.univ_nonempty fun J : Fin 8192 => x r J
/-- the sum of its exponentials taken below that maximum, -/
def rowSum (r : Fin 512) : ℝ := ∑ J : Fin 8192, Real.exp (x r J - rowMax x r)
/-- and the softmax. -/
def soft (r : Fin 512) (J : Fin 8192) : ℝ := Real.exp (x r J - rowMax x r) / rowSum x r

/-- Block `c`'s own maximum of the row, -/
def blkMax (c : Fin 32) (r : Fin 512) : ℝ := Finset.univ.sup' Finset.univ_nonempty fun j : Fin 256 => x r (col c j)
/-- its exponentials below that, -/
def blkExp (c : Fin 32) (r : Fin 512) (j : Fin 256) : ℝ := Real.exp (x r (col c j) - blkMax x c r)
/-- and their sum. -/
def blkSum (c : Fin 32) (r : Fin 512) : ℝ := ∑ j : Fin 256, blkExp x c r j
/-- The maximum of the block maxima, -/
def allMax (r : Fin 512) : ℝ := Finset.univ.sup' Finset.univ_nonempty fun c : Fin 32 => blkMax x c r
/-- the block sums rescaled to it and added, -/
def allSum (r : Fin 512) : ℝ := ∑ c : Fin 32, blkSum x c r * Real.exp (blkMax x c r - allMax x r)
/-- and what block `c` makes of its exponentials with the two. -/
def out (c : Fin 32) (r : Fin 512) (j : Fin 256) : ℝ :=
  blkExp x c r j * (Real.exp (blkMax x c r - allMax x r) / allSum x r)

/-- Every column of the row is column `j` of block `c` for `c` the quotient and `j` the remainder by 256. -/
theorem col_surj (J : Fin 8192) : ∃ c j, col c j = J :=
  ⟨⟨J.val / 256, by have := J.isLt; omega⟩, ⟨J.val % 256, Nat.mod_lt _ (by norm_num)⟩, by
    apply Fin.ext; simp only [col]; omega⟩

/-- `(c, j) ↦ col c j` is a bijection from the pairs (block, column in the block) to the columns of the row. -/
def colEquiv : Fin 32 × Fin 256 ≃ Fin 8192 where
  toFun p := col p.1 p.2
  invFun J := (⟨J.val / 256, by have := J.isLt; omega⟩, ⟨J.val % 256, Nat.mod_lt _ (by norm_num)⟩)
  left_inv := by
    rintro ⟨c, j⟩
    have hc := c.isLt
    have hj := j.isLt
    apply Prod.ext
    · apply Fin.ext; simp only [col]; omega
    · apply Fin.ext; simp only [col]; omega
  right_inv := by
    intro J
    apply Fin.ext; simp only [col]; omega

/-- A sum over the row is the sum over the blocks of the sums over each block. -/
theorem sum_col (g : Fin 8192 → ℝ) : ∑ J : Fin 8192, g J = ∑ c : Fin 32, ∑ j : Fin 256, g (col c j) := by
  calc ∑ J : Fin 8192, g J = ∑ p : Fin 32 × Fin 256, g (col p.1 p.2) :=
        (Fintype.sum_equiv colEquiv (fun p => g (col p.1 p.2)) g (fun _ => rfl)).symm
    _ = ∑ c : Fin 32, ∑ j : Fin 256, g (col c j) := Fintype.sum_prod_type' (fun c j => g (col c j))

/-- The maximum of the block maxima is the row's maximum. -/
theorem allMax_eq (r : Fin 512) : allMax x r = rowMax x r := by
  unfold allMax rowMax blkMax
  apply le_antisymm
  · apply Finset.sup'_le
    intro c _
    apply Finset.sup'_le
    intro j _
    exact Finset.le_sup' (fun J : Fin 8192 => x r J) (Finset.mem_univ (col c j))
  · apply Finset.sup'_le
    intro J _
    obtain ⟨c, j, rfl⟩ := col_surj J
    exact le_trans (Finset.le_sup' (fun j : Fin 256 => x r (col c j)) (Finset.mem_univ j))
      (Finset.le_sup' (fun c : Fin 32 => Finset.univ.sup' Finset.univ_nonempty fun j : Fin 256 => x r (col c j))
        (Finset.mem_univ c))

/-- The rescaled block sums add up to the row's sum: exp (x − m) · exp (m − M) = exp (x − M), termwise. -/
theorem allSum_eq (r : Fin 512) : allSum x r = rowSum x r := by
  unfold allSum rowSum blkSum blkExp
  rw [allMax_eq, sum_col]
  apply Finset.sum_congr rfl
  intro c _
  rw [Finset.sum_mul]
  apply Finset.sum_congr rfl
  intro j _
  rw [← Real.exp_add]
  congr 1
  ring

/-- The blockwise result is the softmax of the whole row. -/
theorem out_eq_soft (c : Fin 32) (r : Fin 512) (j : Fin 256) : out x c r j = soft x r (col c j) := by
  unfold out soft blkExp
  rw [allSum_eq, allMax_eq, ← mul_div_assoc, ← Real.exp_add]
  congr 2
  ring

end Cert.Softmax

end
-- ==== Proof.LibOnlineSoftmax.lean ====
/-
  The online softmax against the plain one, over the extended reals.

  A row of real logits is cut into n blocks of B columns. The online softmax walks the blocks keeping the
  running maximum m and the running sum l of the exponentials relative to it; a new block with maximum m₀ moves
  the state to (max m m₀, exp (m - max m m₀) · l + Σ_q exp (s q - max m m₀)). The state before the first block is
  (-∞, 0). After the last block the state is (M, Σ exp (s - M)) with M the maximum of the whole row, so
  m + log l is the row's log-sum-exp, and the cross-entropy term read off it equals the one read off the
  plain log-softmax over all n · B columns.
-/
import Idealize.ShloMosaic.PureOps.Ideal
import Mathlib.Data.Finset.Fold
import Mathlib.Algebra.BigOperators.Fin
import Mathlib.Logic.Equiv.Fin.Basic
import Mathlib.Analysis.SpecialFunctions.Log.Basic
import Mathlib.Analysis.SpecialFunctions.Exp

noncomputable section

namespace OnlineSoftmax

open Idealize.ShloMosaic

/-! ### Coercion facts -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with the binary maximum. -/
theorem coe_max (x y : ℝ) : ((max x y : ℝ) : EReal) = max (x : EReal) (y : EReal) :=
  EReal.coe_strictMono.monotone.map_max

/-- The maximum of a nonempty finite family of reals, folded from -∞ in the extended reals, is the real
    maximum of the family: it bounds the family, is attained, and is the fold's value. -/
theorem fold_max_real {N : ℕ} (hN : 0 < N) (f : Fin N → ℝ) :
    ∃ M : ℝ, (∀ j, f j ≤ M) ∧ (∃ j, f j = M) ∧
      Finset.univ.fold max (⊥ : EReal) (fun j => ((f j : ℝ) : EReal)) = (M : EReal) := by
  obtain ⟨j0, -, hj0⟩ := Finset.exists_max_image Finset.univ f ⟨⟨0, hN⟩, Finset.mem_univ _⟩
  refine ⟨f j0, fun j => hj0 j (Finset.mem_univ j), ⟨j0, rfl⟩, le_antisymm ?_ ?_⟩
  · rw [Finset.fold_max_le]
    exact ⟨bot_le, fun x _ => EReal.coe_le_coe_iff.mpr (hj0 x (Finset.mem_univ x))⟩
  · rw [Finset.le_fold_max]
    exact Or.inr ⟨j0, Finset.mem_univ _, le_rfl⟩

/-! ### The online softmax's state -/

/-- One step of the online softmax: the state (m, l) — the running maximum and the running sum of the
    exponentials relative to it — meets a block of B columns. The new maximum m' is the larger of m and the
    block's maximum; the old sum is rescaled by exp (m - m') and the block's exponentials relative to m' are
    added. -/
def upd {B : ℕ} (row : Fin B → EReal) (ml : EReal × EReal) : EReal × EReal :=
  let m' := max ml.1 (Finset.univ.fold max (⊥ : EReal) row)
  (m', Ideal.exp (ml.1 - m') * ml.2 + ∑ q, Ideal.exp (row q - m'))

/-- The online softmax's state after the first k blocks of the row s; before the first block it is
    (-∞, 0). -/
def acc {B : ℕ} (s : ℕ → Fin B → EReal) : ℕ → EReal × EReal
  | 0 => (⊥, 0)
  | k + 1 => upd (s k) (acc s k)

/-- The new running maximum of a step. -/
theorem upd_fst {B : ℕ} (row : Fin B → EReal) (ml : EReal × EReal) :
    (upd row ml).1 = max ml.1 (Finset.univ.fold max (⊥ : EReal) row) := rfl

/-- The new running sum of a step. -/
theorem upd_snd {B : ℕ} (row : Fin B → EReal) (ml : EReal × EReal) :
    (upd row ml).2 = Ideal.exp (ml.1 - (upd row ml).1) * ml.2 + ∑ q, Ideal.exp (row q - (upd row ml).1) := rfl

/-- The state before the first block. -/
theorem acc_zero {B : ℕ} (s : ℕ → Fin B → EReal) : acc s 0 = (⊥, 0) := rfl

/-- The state after one more block. -/
theorem acc_succ {B : ℕ} (s : ℕ → Fin B → EReal) (k : ℕ) : acc s (k + 1) = upd (s k) (acc s k) := rfl

/-- The exponentials of a real block relative to a real maximum sum to a real. -/
theorem sum_exp_coe {B : ℕ} (row : Fin B → ℝ) (M : ℝ) :
    ∑ q, Ideal.exp (((row q : ℝ) : EReal) - (M : EReal)) = ((∑ q, Real.exp (row q - M) : ℝ) : EReal) := by
  rw [coe_sum]
  refine Finset.sum_congr rfl fun q _ => ?_
  rw [← EReal.coe_sub, Ideal.exp_coe]

/-- After k ≥ 1 blocks of real logits the state is real: the running maximum is the maximum M of the logits
    seen so far (it bounds them and is attained) and the running sum is Σ exp (s - M) over them. -/
theorem acc_real {B : ℕ} (hB : 0 < B) (s : ℕ → Fin B → ℝ) (k : ℕ) (hk : 0 < k) :
    ∃ M : ℝ, (∀ j, j < k → ∀ q, s j q ≤ M) ∧ (∃ j, j < k ∧ ∃ q, s j q = M) ∧
      (acc (fun j q => ((s j q : ℝ) : EReal)) k).1 = (M : EReal) ∧
      (acc (fun j q => ((s j q : ℝ) : EReal)) k).2
        = ((∑ j ∈ Finset.range k, ∑ q, Real.exp (s j q - M) : ℝ) : EReal) := by
  obtain ⟨k, rfl⟩ : ∃ k', k = k' + 1 := ⟨k - 1, by omega⟩
  clear hk
  induction k with
  | zero =>
    obtain ⟨M, hle, ⟨q0, hq0⟩, hM⟩ := fold_max_real hB (s 0)
    have h1 : (acc (fun j q => ((s j q : ℝ) : EReal)) (0 + 1)).1 = (M : EReal) := by
      rw [acc_succ, upd_fst, acc_zero, hM]; exact max_eq_right bot_le
    refine ⟨M, ?_, ⟨0, Nat.zero_lt_one, q0, hq0⟩, h1, ?_⟩
    · intro j hj q
      obtain rfl : j = 0 := by omega
      exact hle q
    · have hu : (upd (fun q => ((s 0 q : ℝ) : EReal)) (acc (fun j q => ((s j q : ℝ) : EReal)) 0)).1
          = (M : EReal) := h1
      rw [acc_succ, upd_snd, hu, acc_zero, mul_zero, zero_add, sum_exp_coe, Finset.sum_range_one]
  | succ k ih =>
    obtain ⟨M, hle, ⟨j1, hj1, q1, hq1⟩, h1, h2⟩ := ih
    obtain ⟨Mk, hlek, ⟨q0, hq0⟩, hMk⟩ := fold_max_real hB (s (k + 1))
    have h1' : (acc (fun j q => ((s j q : ℝ) : EReal)) (k + 1 + 1)).1 = ((max M Mk : ℝ) : EReal) := by
      rw [acc_succ, upd_fst, h1, hMk, coe_max]
    refine ⟨max M Mk, ?_, ?_, h1', ?_⟩
    · intro j hj q
      rcases Nat.lt_succ_iff_lt_or_eq.mp hj with h | rfl
      · exact le_trans (hle j h q) (le_max_left _ _)
      · exact le_trans (hlek q) (le_max_right _ _)
    · rcases le_total M Mk with h | h
      · exact ⟨k + 1, Nat.lt_succ_self _, q0, by rw [hq0, max_eq_right h]⟩
      · exact ⟨j1, Nat.lt_succ_of_lt hj1, q1, by rw [hq1, max_eq_left h]⟩
    · have hu : (upd (fun q => ((s (k + 1) q : ℝ) : EReal))
          (acc (fun j q => ((s j q : ℝ) : EReal)) (k + 1))).1 = ((max M Mk : ℝ) : EReal) := h1'
      rw [acc_succ, upd_snd, hu, h1, h2, sum_exp_coe, ← EReal.coe_sub, Ideal.exp_coe,
        ← EReal.coe_mul, ← EReal.coe_add, Finset.sum_range_succ _ (k + 1), Finset.mul_sum]
      congr 2
      refine Finset.sum_congr rfl fun j _ => ?_
      rw [Finset.mul_sum]
      refine Finset.sum_congr rfl fun q _ => ?_
      rw [← Real.exp_add]
      congr 1
      ring

/-! ### The blocks of a row -/

/-- Column q of block j lies in the row: j · B + q < n · B for j < n. -/
theorem blk_lt {n B j : ℕ} (h : j < n) (q : Fin B) : j * B + q.val < n * B :=
  calc j * B + q.val < j * B + B := Nat.add_lt_add_left q.isLt _
    _ = (j + 1) * B := (Nat.succ_mul j B).symm
    _ ≤ n * B := Nat.mul_le_mul_right B h

/-- A sum over the n · B columns of a row is the sum over its n blocks of the sums over each block's B
    columns, column q of block j being column j · B + q. -/
theorem sum_blocks {n B : ℕ} (g : Fin (n * B) → ℝ) :
    ∑ j : Fin n, ∑ q : Fin B, g ⟨j.val * B + q.val, blk_lt j.isLt q⟩ = ∑ c : Fin (n * B), g c := by
  rw [← Fintype.sum_prod_type'
    (f := fun (j : Fin n) (q : Fin B) => g ⟨j.val * B + q.val, blk_lt j.isLt q⟩)]
  refine Fintype.sum_equiv finProdFinEquiv _ _ fun p => ?_
  congr 1
  apply Fin.ext
  simp [finProdFinEquiv, mul_comm, add_comm]

/-- The same with the blocks counted by a natural number below n and the row's columns read through a
    function F: the block-wise double sum of F over the row is the sum of F over all n · B columns. -/
theorem sum_range_blocks {n B : ℕ} (sf : Fin (n * B) → ℝ) (F : ℝ → ℝ) :
    ∑ j ∈ Finset.range n, ∑ q : Fin B, F (if h : j < n then sf ⟨j * B + q.val, blk_lt h q⟩ else 0)
      = ∑ c : Fin (n * B), F (sf c) := by
  rw [← sum_blocks (fun c => F (sf c)), ← Fin.sum_univ_eq_sum_range
    (fun j => ∑ q : Fin B, F (if h : j < n then sf ⟨j * B + q.val, blk_lt h q⟩ else 0)) n]
  refine Finset.sum_congr rfl fun j _ => Finset.sum_congr rfl fun q _ => ?_
  rw [dif_pos j.isLt]

/-! ### The cross-entropy term of a row -/

/-- The online softmax's final state over the n blocks of a row of n · B real logits sf (column q of block j
    is column j · B + q): the running maximum is the row's maximum M — it bounds the row, is attained, and is
    the value of the row's fold from -∞ — and the running sum is Σ_c exp (sf c - M) over all the columns. -/
theorem acc_row {n B : ℕ} (hn : 0 < n) (hB : 0 < B) (sf : Fin (n * B) → ℝ) :
    ∃ M : ℝ, (∀ c, sf c ≤ M) ∧ (∃ c, sf c = M) ∧
      Finset.univ.fold max (⊥ : EReal) (fun j => ((sf j : ℝ) : EReal)) = (M : EReal) ∧
      (acc (fun j (q : Fin B) =>
        (((if h : j < n then sf ⟨j * B + q.val, blk_lt h q⟩ else 0 : ℝ)) : EReal)) n).1 = (M : EReal) ∧
      (acc (fun j (q : Fin B) =>
        (((if h : j < n then sf ⟨j * B + q.val, blk_lt h q⟩ else 0 : ℝ)) : EReal)) n).2
          = ((∑ c, Real.exp (sf c - M) : ℝ) : EReal) := by
  obtain ⟨M, hMle, ⟨jM, hjM, qM, hqM⟩, ha1, ha2⟩ :=
    acc_real hB (fun j q => if h : j < n then sf ⟨j * B + q.val, blk_lt h q⟩ else 0) n hn
  obtain ⟨M', hM'le, ⟨c0, hc0⟩, hM'⟩ := fold_max_real (Nat.mul_pos hn hB) sf
  -- the blocks' maximum is the row's maximum
  have hMM : M' = M := by
    apply le_antisymm
    · rw [← hc0]
      have hdiv : c0.val / B < n := Nat.div_lt_of_lt_mul (lt_of_lt_of_eq c0.isLt (Nat.mul_comm n B))
      have hb : (if h : c0.val / B < n then
          sf ⟨c0.val / B * B + c0.val % B, blk_lt h ⟨c0.val % B, Nat.mod_lt _ hB⟩⟩ else 0) ≤ M :=
        hMle (c0.val / B) hdiv ⟨c0.val % B, Nat.mod_lt _ hB⟩
      rw [dif_pos hdiv] at hb
      have hc : (⟨c0.val / B * B + c0.val % B, blk_lt hdiv ⟨c0.val % B, Nat.mod_lt _ hB⟩⟩ : Fin (n * B))
          = c0 := Fin.ext (Nat.div_add_mod' _ _)
      rw [hc] at hb
      exact hb
    · rw [← hqM]
      show (if h : jM < n then sf ⟨jM * B + qM.val, blk_lt h qM⟩ else 0) ≤ M'
      rw [dif_pos hjM]
      exact hM'le _
  subst hMM
  refine ⟨M', hM'le, ⟨c0, hc0⟩, hM', ha1, ?_⟩
  -- the blocks' sum of exponentials is the row's
  rw [ha2, sum_range_blocks sf (fun x => Real.exp (x - M'))]

/-- The cross-entropy term of one row of n · B real logits sf with label weight lab at column i. On the left
    the row's log-sum-exp is m + log l for the online softmax's final state (m, l) over the n blocks of B
    columns (column q of block j is column j · B + q); on the right it is the plain log-softmax: the maximum
    Mref over all columns (folded from -∞), the logits shifted by it, and a sum over the columns in which only
    column i carries the label weight. The two are equal. -/
theorem row_loss {n B : ℕ} (hn : 0 < n) (hB : 0 < B) (sf : Fin (n * B) → ℝ) (lab : ℝ) (i : Fin (n * B)) :
    let sb : ℕ → Fin B → ℝ := fun j q => if h : j < n then sf ⟨j * B + q.val, blk_lt h q⟩ else 0
    let a := acc (fun j q => ((sb j q : ℝ) : EReal)) n
    let Mref : EReal := max ⊥ (Finset.univ.fold max (⊥ : EReal) (fun j => ((sf j : ℝ) : EReal)))
    (0 - (lab : EReal)) * (((sf i : ℝ) : EReal) - (a.1 + Ideal.log a.2))
      = (0 : EReal) + ∑ j : Fin (n * B), (-(if j = i then (lab : EReal) else 0)) *
          ((((sf j : ℝ) : EReal) - Mref) - Ideal.log ((0 : EReal) +
            ∑ j' : Fin (n * B), Ideal.exp (((sf j' : ℝ) : EReal) - Mref))) := by
  intro sb a Mref
  obtain ⟨M, -, -, hM, ha1, ha2⟩ := acc_row hn hB sf
  have hSpos : 0 < ∑ c, Real.exp (sf c - M) :=
    Finset.sum_pos (fun _ _ => Real.exp_pos _) ⟨i, Finset.mem_univ _⟩
  have ha1' : a.1 = (M : EReal) := ha1
  have ha2' : a.2 = ((∑ c, Real.exp (sf c - M) : ℝ) : EReal) := ha2
  have hMref : Mref = (M : EReal) := by
    show max ⊥ (Finset.univ.fold max (⊥ : EReal) (fun j => ((sf j : ℝ) : EReal))) = (M : EReal)
    rw [hM, max_eq_right bot_le]
  have hlog : Ideal.log ((∑ c, Real.exp (sf c - M) : ℝ) : EReal)
      = ((Real.log (∑ c, Real.exp (sf c - M)) : ℝ) : EReal) := by
    rw [Ideal.log_coe, if_neg (not_le.mpr hSpos)]
  rw [ha1', ha2', hMref, zero_add, zero_add, sum_exp_coe, hlog]
  refine Eq.trans ?_ (Finset.sum_eq_single i ?_ ?_).symm
  · have hr : sf i - (M + Real.log (∑ c, Real.exp (sf c - M)))
        = sf i - M - Real.log (∑ c, Real.exp (sf c - M)) := by ring
    rw [if_pos rfl, zero_sub, ← EReal.coe_add, ← EReal.coe_sub, ← EReal.coe_sub, ← EReal.coe_sub, hr]
  · intro j _ hji
    rw [if_neg hji, neg_zero, ← EReal.coe_sub, ← EReal.coe_sub, zero_mul]
  · intro h
    exact absurd (Finset.mem_univ i) h

end OnlineSoftmax
-- ==== Proof.KernelValue.lean ====
/- What a device's kernel body writes, index by index, over real inputs: the blockwise softmax of Softmax/Spec.lean. -/
import proofs.«901066_g7700000000001067_dist_softmax_colshard_i_m512_n256_v7x_i32_bf16_1_alg».proof.Proof.Gen.KernelIdeal.Skeleton
import proofs.«901066_g7700000000001067_dist_softmax_colshard_i_m512_n256_v7x_i32_bf16_1_alg».proof.Proof.Softmax.Spec
import Idealize.ShloMosaic.Lib.Layout
import proofs.«901066_g7700000000001067_dist_softmax_colshard_i_m512_n256_v7x_i32_bf16_1_alg».proof.Proof.LibOnlineSoftmax
import Idealize.ShloMosaic.Lib.ValueIdx
import Idealize.ShloMosaic.Lib.Pipeline.Value
import Idealize.ShloMosaic.PureOps.Ideal.Laws

noncomputable section

namespace Cert.KernelValue

open Cert.KernelIdeal Cert.KernelIdeal.Gen
open Idealize.ShloMosaic

/-- The whole input array, at the ideal instance. -/
abbrev Whole : Type := (⟨⟨2, ![512, 8192]⟩, .f32⟩ : BufTy).Contents (Elt Ideal)

/-- Device `c`'s block of the whole array: its 256 columns. -/
def blk (X : Whole) (c : Dev nD) : Vec Ideal S512x256 .f32 := Layout.block ⟨2, ![512, 256]⟩ ⟨2, ![512, 8192]⟩ 1 32 c X

/-- An index of the gathered statistics read as an index of one device's row of them. -/
abbrev rowIdx (i : S32x2x512.Idx) : S1x2x512.Idx := fun a => match a with
  | ⟨0, _⟩ => ⟨0, Nat.one_pos⟩
  | ⟨1, _⟩ => ⟨(i 1).val, (i 1).isLt⟩
  | ⟨2, _⟩ => ⟨(i 2).val, (i 2).isLt⟩

/-- The gathered statistics: row `p` holds what device `p` computed of its own block (its row maxima, then its row sums). -/
def stats (X : Whole) : Vec Ideal S32x2x512 .f32 := fun i => k0_pay4 (blk X ⟨(i 0).val, (i 0).isLt⟩) (rowIdx i)

/-- What device `c` stores as its result, from its own block and the gathered statistics. -/
def outAt (X : Whole) (c : Dev nD) : Vec Ideal S512x256 .f32 := k0_pay5 (k0_pay2 (blk X c)) (k0_pay3 (blk X c)) (stats X)

open Idealize.ShloMosaic.ValueIdx

/-- A fold of the maximum from -∞ over a nonempty finite family of reals is the family's real supremum. -/
theorem fold_max_sup' {ι : Type} [Fintype ι] [Nonempty ι] (f : ι → ℝ) :
    Finset.univ.fold max (⊥ : EReal) (fun j => ((f j : ℝ) : EReal))
      = ((Finset.univ.sup' Finset.univ_nonempty f : ℝ) : EReal) := by
  refine le_antisymm ?_ ?_
  · rw [Finset.fold_max_le]
    exact ⟨bot_le, fun j hj => EReal.coe_le_coe_iff.mpr (Finset.le_sup' f hj)⟩
  · rw [Finset.le_fold_max]
    obtain ⟨j, hj, e⟩ := Finset.exists_mem_eq_sup' Finset.univ_nonempty f
    exact Or.inr ⟨j, hj, by rw [e]⟩

theorem ofBits_neg_inf : Ideal.ofBits .f32 0xFF800000#32 = (⊥ : EReal) := by simp [Ideal.ofBits, Ideal.ieee]

theorem pay1_eq (v : Vec Ideal S512x256 .f32) : k0_pay1 (F := Ideal) v = v := by
  unfold k0_pay1
  exact shapeCast_self v _

/-- The row maxima of a block of reals. -/
theorem pay2_apply (v : Vec Ideal S512x256 .f32) (y : Fin 512 → Fin 256 → ℝ)
    (hv : ∀ r j, (v (ix2 r j) : EReal) = ((y r j : ℝ) : EReal)) (r : Fin 512) (z : Fin 1) :
    (k0_pay2 (F := Ideal) v (ix2 r z) : EReal) = ((Finset.univ.sup' Finset.univ_nonempty (y r) : ℝ) : EReal) := by
  unfold k0_pay2
  refine (shapeCast_apply _ _ (ix2 r z) (ix1 r) ?_).trans ?_
  · rw [Shape.rowMajor_val_one, Shape.rowMajor_val_two]
    show r.val = r.val * 1 + z.val
    omega
  refine (Ideal.multiReduction_maximumf_single _ _ _ _ _ (ix1 r)).trans ?_
  rw [pay1_eq]
  rw [← fold_max_sup']
  show Finset.univ.fold max (Ideal.ofBits .f32 0xFF800000#32) _ = _
  rw [ofBits_neg_inf]
  congr 1
  funext k
  show v (reduces_S512x256_S512.lift (ix1 r) k) = _
  rw [← hv r k]
  congr 1
  funext a
  match a with
  | ⟨0, _⟩ => exact Fin.ext rfl
  | ⟨1, _⟩ => exact Fin.ext rfl

/-- The exponentials below the row maxima. -/
theorem pay3_apply (v : Vec Ideal S512x256 .f32) (y : Fin 512 → Fin 256 → ℝ)
    (hv : ∀ r j, (v (ix2 r j) : EReal) = ((y r j : ℝ) : EReal)) (r : Fin 512) (j : Fin 256) :
    (k0_pay3 (F := Ideal) v (ix2 r j) : EReal)
      = ((Real.exp (y r j - Finset.univ.sup' Finset.univ_nonempty (y r)) : ℝ) : EReal) := by
  unfold k0_pay3
  show Ideal.exp (k0_pay1 (F := Ideal) v (ix2 r j) - broadcastTo S512x256 (k0_pay2 (F := Ideal) v) broadcasts_S512x1_S512x256 (ix2 r j)) = _
  rw [pay1_eq, hv]
  rw [broadcastTo_apply _ _ (ix2 r j) (ix2 r (0 : Fin 1)) (fun a => by
    match a with
    | ⟨0, _⟩ => rfl
    | ⟨1, _⟩ => rfl)]
  rw [pay2_apply v y hv r 0, ← EReal.coe_sub, Ideal.exp_coe]

/-- The block's statistics, first row: the row maxima. -/
theorem pay4_apply_max (v : Vec Ideal S512x256 .f32) (y : Fin 512 → Fin 256 → ℝ)
    (hv : ∀ r j, (v (ix2 r j) : EReal) = ((y r j : ℝ) : EReal)) (r : Fin 512) :
    (k0_pay4 (F := Ideal) v (ix3 (0 : Fin 1) (0 : Fin 2) r) : EReal)
      = ((Finset.univ.sup' Finset.univ_nonempty (y r) : ℝ) : EReal) := by
  unfold k0_pay4
  rw [shapeCast_self]
  refine (shapeCast_apply _ _ (ix3 (0 : Fin 1) (0 : Fin 2) r) (ix2 (0 : Fin 2) r) ?_).trans ?_
  · rw [Shape.rowMajor_val_two, Shape.rowMajor_val_three]
    show 0 * 512 + r.val = (0 * 2 + 0) * 512 + r.val
    omega
  refine (transpose_apply _ _ _ (ix2 (0 : Fin 2) r) (ix2 r (0 : Fin 2)) (fun b => by
    match b with
    | ⟨0, _⟩ => rfl
    | ⟨1, _⟩ => rfl)).trans ?_
  refine (concatenate_pair_apply_left (s₁ := S512x1) (s₂ := S512x1) _ _ _ _ (ix2 r (0 : Fin 2)) rfl (ix2 r (0 : Fin 1)) (fun b => by
    match b with
    | ⟨0, _⟩ => rfl
    | ⟨1, _⟩ => rfl)).trans ?_
  exact pay2_apply v y hv r 0

/-- The block's statistics, second row: the row sums of the exponentials. -/
theorem pay4_apply_sum (v : Vec Ideal S512x256 .f32) (y : Fin 512 → Fin 256 → ℝ)
    (hv : ∀ r j, (v (ix2 r j) : EReal) = ((y r j : ℝ) : EReal)) (r : Fin 512) :
    (k0_pay4 (F := Ideal) v (ix3 (0 : Fin 1) (1 : Fin 2) r) : EReal)
      = ((∑ j : Fin 256, Real.exp (y r j - Finset.univ.sup' Finset.univ_nonempty (y r)) : ℝ) : EReal) := by
  unfold k0_pay4
  rw [shapeCast_self]
  refine (shapeCast_apply _ _ (ix3 (0 : Fin 1) (1 : Fin 2) r) (ix2 (1 : Fin 2) r) ?_).trans ?_
  · rw [Shape.rowMajor_val_two, Shape.rowMajor_val_three]
    show 1 * 512 + r.val = (0 * 2 + 1) * 512 + r.val
    omega
  refine (transpose_apply _ _ _ (ix2 (1 : Fin 2) r) (ix2 r (1 : Fin 2)) (fun b => by
    match b with
    | ⟨0, _⟩ => rfl
    | ⟨1, _⟩ => rfl)).trans ?_
  refine (concatenate_pair_apply_right (s₁ := S512x1) (s₂ := S512x1) _ _ _ _ (ix2 r (1 : Fin 2)) rfl rfl (ix2 r (0 : Fin 1)) (fun b hb => by
    match b with
    | ⟨0, _⟩ => rfl
    | ⟨1, _⟩ => exact absurd rfl hb) rfl).trans ?_
  refine (shapeCast_apply _ _ (ix2 r (0 : Fin 1)) (ix1 r) ?_).trans ?_
  · rw [Shape.rowMajor_val_one, Shape.rowMajor_val_two]
    show r.val = r.val * 1 + 0
    omega
  refine (Ideal.multiReduction_add_single _ _ _ _ _ (ix1 r)).trans ?_
  rw [OnlineSoftmax.coe_sum]
  refine Finset.sum_congr rfl fun k _ => ?_
  rw [← pay3_apply v y hv r k]
  congr 1
  funext a
  match a with
  | ⟨0, _⟩ => exact Fin.ext rfl
  | ⟨1, _⟩ => exact Fin.ext rfl

/-- The maximum over the devices of the gathered row maxima, as the kernel forms it. -/
def gMaxV (w : Vec Ideal S32x2x512 .f32) : FVec Ideal S1x512 .f32 :=
  multiReduction .maximumf [0] S1x512 (extractStridedSlice S32x1x512 ![0, 0, 0] w slices_S32x2x512_o0_0_0_S32x1x512)
    0xFF800000#32 reduces_S32x1x512_S1x512 (.inl rfl) rfl

/-- The gathered row sums rescaled to that maximum and added over the devices, as the kernel forms it. -/
def gSumV (w : Vec Ideal S32x2x512 .f32) : FVec Ideal S1x512 .f32 :=
  multiReduction .add [0] S1x512
    (mulf (extractStridedSlice S32x1x512 ![0, 1, 0] w slices_S32x2x512_o0_1_0_S32x1x512)
      (exp (subf (extractStridedSlice S32x1x512 ![0, 0, 0] w slices_S32x2x512_o0_0_0_S32x1x512)
        (broadcastTo S32x1x512 (shapeCast S1x1x512 (gMaxV w) shapeCasts_S1x512_S1x1x512) broadcasts_S1x1x512_S32x1x512))))
    0x00000000#32 reduces_S32x1x512_S1x512 (.inl rfl) rfl

/-- The two, side by side per row. -/
def statT (w : Vec Ideal S32x2x512 .f32) : FVec Ideal S512x2 .f32 :=
  transpose S512x2 [1, 0]
    (concatenate S2x512 0 [⟨S1x512, gMaxV w⟩, ⟨S1x512, gSumV w⟩] concatenates_S1x512_S1x512_S2x512_d0)
    transposes_S2x512_p1_0_S512x2

theorem lift_dev (r : Fin 512) (p : Fin 32) :
    reduces_S32x1x512_S1x512.lift (ix2 (0 : Fin 1) r) p = ix3 p (0 : Fin 1) r := by
  funext a
  match a with
  | ⟨0, _⟩ => exact Fin.ext rfl
  | ⟨1, _⟩ => exact Fin.ext rfl
  | ⟨2, _⟩ => exact Fin.ext rfl

theorem slice_max_apply (w : Vec Ideal S32x2x512 .f32) (p : Fin 32) (r : Fin 512) :
    extractStridedSlice S32x1x512 ![0, 0, 0] w slices_S32x2x512_o0_0_0_S32x1x512 (ix3 p (0 : Fin 1) r)
      = w (ix3 p (0 : Fin 2) r) :=
  extractStridedSlice_apply _ _ _ _ _ (fun a => by
    match a with
    | ⟨0, _⟩ => show p.val = 0 + p.val; omega
    | ⟨1, _⟩ => rfl
    | ⟨2, _⟩ => show r.val = 0 + r.val; omega)

theorem slice_sum_apply (w : Vec Ideal S32x2x512 .f32) (p : Fin 32) (r : Fin 512) :
    extractStridedSlice S32x1x512 ![0, 1, 0] w slices_S32x2x512_o0_1_0_S32x1x512 (ix3 p (0 : Fin 1) r)
      = w (ix3 p (1 : Fin 2) r) :=
  extractStridedSlice_apply _ _ _ _ _ (fun a => by
    match a with
    | ⟨0, _⟩ => show p.val = 0 + p.val; omega
    | ⟨1, _⟩ => rfl
    | ⟨2, _⟩ => show r.val = 0 + r.val; omega)

theorem gMaxV_apply (w : Vec Ideal S32x2x512 .f32) (M : Fin 32 → Fin 512 → ℝ)
    (hM : ∀ p r, (w (ix3 p (0 : Fin 2) r) : EReal) = ((M p r : ℝ) : EReal)) (r : Fin 512) :
    (gMaxV w (ix2 (0 : Fin 1) r) : EReal)
      = ((Finset.univ.sup' Finset.univ_nonempty (fun p : Fin 32 => M p r) : ℝ) : EReal) := by
  unfold gMaxV
  refine (Ideal.multiReduction_maximumf_single _ _ _ _ _ (ix2 (0 : Fin 1) r)).trans ?_
  rw [← fold_max_sup']
  show Finset.univ.fold max (Ideal.ofBits .f32 0xFF800000#32) _ = _
  rw [ofBits_neg_inf]
  congr 1
  refine funext fun (p : Fin 32) => ?_
  show extractStridedSlice S32x1x512 ![0, 0, 0] w slices_S32x2x512_o0_0_0_S32x1x512
    (reduces_S32x1x512_S1x512.lift (ix2 (0 : Fin 1) r) p) = _
  rw [lift_dev, slice_max_apply, hM]

theorem gSumV_apply (w : Vec Ideal S32x2x512 .f32) (M S : Fin 32 → Fin 512 → ℝ)
    (hM : ∀ p r, (w (ix3 p (0 : Fin 2) r) : EReal) = ((M p r : ℝ) : EReal))
    (hS : ∀ p r, (w (ix3 p (1 : Fin 2) r) : EReal) = ((S p r : ℝ) : EReal)) (r : Fin 512) :
    (gSumV w (ix2 (0 : Fin 1) r) : EReal)
      = ((∑ p : Fin 32, S p r * Real.exp (M p r - Finset.univ.sup' Finset.univ_nonempty (fun p : Fin 32 => M p r)) : ℝ) : EReal) := by
  unfold gSumV
  refine (Ideal.multiReduction_add_single _ _ _ _ _ (ix2 (0 : Fin 1) r)).trans ?_
  rw [OnlineSoftmax.coe_sum]
  refine Finset.sum_congr rfl fun (p : Fin 32) _ => ?_
  rw [lift_dev]
  show extractStridedSlice S32x1x512 ![0, 1, 0] w slices_S32x2x512_o0_1_0_S32x1x512 (ix3 p (0 : Fin 1) r)
    * Ideal.exp (extractStridedSlice S32x1x512 ![0, 0, 0] w slices_S32x2x512_o0_0_0_S32x1x512 (ix3 p (0 : Fin 1) r)
      - broadcastTo S32x1x512 (shapeCast S1x1x512 (gMaxV w) shapeCasts_S1x512_S1x1x512) broadcasts_S1x1x512_S32x1x512 (ix3 p (0 : Fin 1) r)) = _
  rw [slice_sum_apply, slice_max_apply,
    broadcastTo_apply _ _ (ix3 p (0 : Fin 1) r) (ix3 (0 : Fin 1) (0 : Fin 1) r) (fun a => by
      match a with
      | ⟨0, _⟩ => rfl
      | ⟨1, _⟩ => rfl
      | ⟨2, _⟩ => rfl),
    shapeCast_apply _ _ (ix3 (0 : Fin 1) (0 : Fin 1) r) (ix2 (0 : Fin 1) r) (by
      rw [Shape.rowMajor_val_two, Shape.rowMajor_val_three]
      show 0 * 512 + r.val = (0 * 1 + 0) * 512 + r.val
      omega),
    gMaxV_apply w M hM r, hM, hS, ← EReal.coe_sub, Ideal.exp_coe, ← EReal.coe_mul]

theorem statT_apply_max (w : Vec Ideal S32x2x512 .f32) (M : Fin 32 → Fin 512 → ℝ)
    (hM : ∀ p r, (w (ix3 p (0 : Fin 2) r) : EReal) = ((M p r : ℝ) : EReal)) (r : Fin 512) :
    (statT w (ix2 r (0 : Fin 2)) : EReal)
      = ((Finset.univ.sup' Finset.univ_nonempty (fun p : Fin 32 => M p r) : ℝ) : EReal) := by
  unfold statT
  refine (transpose_apply _ _ _ (ix2 r (0 : Fin 2)) (ix2 (0 : Fin 2) r) (fun b => by
    match b with
    | ⟨0, _⟩ => rfl
    | ⟨1, _⟩ => rfl)).trans ?_
  refine (concatenate_pair_apply_left (s₁ := S1x512) (s₂ := S1x512) _ _ _ _ (ix2 (0 : Fin 2) r) rfl (ix2 (0 : Fin 1) r) (fun b => by
    match b with
    | ⟨0, _⟩ => rfl
    | ⟨1, _⟩ => rfl)).trans ?_
  exact gMaxV_apply w M hM r

theorem statT_apply_sum (w : Vec Ideal S32x2x512 .f32) (M S : Fin 32 → Fin 512 → ℝ)
    (hM : ∀ p r, (w (ix3 p (0 : Fin 2) r) : EReal) = ((M p r : ℝ) : EReal))
    (hS : ∀ p r, (w (ix3 p (1 : Fin 2) r) : EReal) = ((S p r : ℝ) : EReal)) (r : Fin 512) :
    (statT w (ix2 r (1 : Fin 2)) : EReal)
      = ((∑ p : Fin 32, S p r * Real.exp (M p r - Finset.univ.sup' Finset.univ_nonempty (fun p : Fin 32 => M p r)) : ℝ) : EReal) := by
  unfold statT
  refine (transpose_apply _ _ _ (ix2 r (1 : Fin 2)) (ix2 (1 : Fin 2) r) (fun b => by
    match b with
    | ⟨0, _⟩ => rfl
    | ⟨1, _⟩ => rfl)).trans ?_
  refine (concatenate_pair_apply_right (s₁ := S1x512) (s₂ := S1x512) _ _ _ _ (ix2 (1 : Fin 2) r) rfl rfl (ix2 (0 : Fin 1) r) (fun b hb => by
    match b with
    | ⟨0, _⟩ => exact absurd rfl hb
    | ⟨1, _⟩ => rfl) rfl).trans ?_
  exact gSumV_apply w M S hM hS r

/-- The stored result from a block's maxima and exponentials and the gathered statistics, all real. -/
theorem pay5_apply (v410 : FVec Ideal S512x1 .f32) (v413 : FVec Ideal S512x256 .f32) (w : Vec Ideal S32x2x512 .f32)
    (m : Fin 512 → ℝ) (e : Fin 512 → Fin 256 → ℝ) (M S : Fin 32 → Fin 512 → ℝ)
    (h410 : ∀ r, (v410 (ix2 r (0 : Fin 1)) : EReal) = ((m r : ℝ) : EReal))
    (h413 : ∀ r j, (v413 (ix2 r j) : EReal) = ((e r j : ℝ) : EReal))
    (hM : ∀ p r, (w (ix3 p (0 : Fin 2) r) : EReal) = ((M p r : ℝ) : EReal))
    (hS : ∀ p r, (w (ix3 p (1 : Fin 2) r) : EReal) = ((S p r : ℝ) : EReal)) (r : Fin 512) (j : Fin 256)
    (hpos : (∑ p : Fin 32, S p r * Real.exp (M p r - Finset.univ.sup' Finset.univ_nonempty (fun p : Fin 32 => M p r))) ≠ 0) :
    (k0_pay5 (F := Ideal) v410 v413 w (ix2 r j) : EReal)
      = ((e r j * (Real.exp (m r - Finset.univ.sup' Finset.univ_nonempty (fun p : Fin 32 => M p r))
          / ∑ p : Fin 32, S p r * Real.exp (M p r - Finset.univ.sup' Finset.univ_nonempty (fun p : Fin 32 => M p r))) : ℝ) : EReal) := by
  unfold k0_pay5
  show v413 (ix2 r j) * broadcastTo S512x256
    (divf (exp (subf v410 (extractStridedSlice S512x1 ![0, 0] (statT w) slices_S512x2_o0_0_S512x1)))
      (extractStridedSlice S512x1 ![0, 1] (statT w) slices_S512x2_o0_1_S512x1)) broadcasts_S512x1_S512x256 (ix2 r j) = _
  rw [broadcastTo_apply _ _ (ix2 r j) (ix2 r (0 : Fin 1)) (fun a => by
    match a with
    | ⟨0, _⟩ => rfl
    | ⟨1, _⟩ => rfl)]
  show v413 (ix2 r j) * Ideal.div
    (Ideal.exp (v410 (ix2 r (0 : Fin 1)) - extractStridedSlice S512x1 ![0, 0] (statT w) slices_S512x2_o0_0_S512x1 (ix2 r (0 : Fin 1))))
    (extractStridedSlice S512x1 ![0, 1] (statT w) slices_S512x2_o0_1_S512x1 (ix2 r (0 : Fin 1))) = _
  rw [extractStridedSlice_apply ![0, 0] (statT w) slices_S512x2_o0_0_S512x1 (ix2 r (0 : Fin 1)) (ix2 r (0 : Fin 2)) (fun a => by
      match a with
      | ⟨0, _⟩ => show r.val = 0 + r.val; omega
      | ⟨1, _⟩ => rfl),
    extractStridedSlice_apply ![0, 1] (statT w) slices_S512x2_o0_1_S512x1 (ix2 r (0 : Fin 1)) (ix2 r (1 : Fin 2)) (fun a => by
      match a with
      | ⟨0, _⟩ => show r.val = 0 + r.val; omega
      | ⟨1, _⟩ => rfl),
    statT_apply_max w M hM r, statT_apply_sum w M S hM hS r, h410, h413, ← EReal.coe_sub, Ideal.exp_coe,
    Ideal.div_coe hpos, ← EReal.coe_mul, ← EReal.coe_mul, mul_one_div]

/-- A device's block of a real array is real: its entry (r, j) is the whole's entry (r, 256 c + j). -/
theorem blk_apply (X : Whole) (x : Fin 512 → Fin 8192 → ℝ)
    (hX : ∀ i : (⟨2, ![512, 8192]⟩ : Shape).Idx, (X i : EReal) = ((x ⟨(i 0).val, (i 0).isLt⟩ ⟨(i 1).val, (i 1).isLt⟩ : ℝ) : EReal))
    (c : Fin 32) (r : Fin 512) (j : Fin 256) :
    (blk X c (ix2 r j) : EReal) = ((x r (Softmax.col c j) : ℝ) : EReal) := by
  unfold blk
  rw [Layout.block_apply, hX]
  congr 2
  exact Fin.ext (by
    show c.val * 256 + j.val = 256 * c.val + j.val
    omega)

theorem rowIdx_max (p : Fin 32) (r : Fin 512) :
    rowIdx (ix3 p (0 : Fin 2) r) = ix3 (0 : Fin 1) (0 : Fin 2) r := by
  funext a
  match a with
  | ⟨0, _⟩ => rfl
  | ⟨1, _⟩ => rfl
  | ⟨2, _⟩ => rfl

theorem rowIdx_sum (p : Fin 32) (r : Fin 512) :
    rowIdx (ix3 p (1 : Fin 2) r) = ix3 (0 : Fin 1) (1 : Fin 2) r := by
  funext a
  match a with
  | ⟨0, _⟩ => rfl
  | ⟨1, _⟩ => rfl
  | ⟨2, _⟩ => rfl

/-- The gathered statistics over a real array: device `p`'s row maxima, -/
theorem stats_apply_max (X : Whole) (x : Fin 512 → Fin 8192 → ℝ)
    (hX : ∀ i : (⟨2, ![512, 8192]⟩ : Shape).Idx, (X i : EReal) = ((x ⟨(i 0).val, (i 0).isLt⟩ ⟨(i 1).val, (i 1).isLt⟩ : ℝ) : EReal))
    (p : Fin 32) (r : Fin 512) :
    (stats X (ix3 p (0 : Fin 2) r) : EReal) = ((Softmax.blkMax x p r : ℝ) : EReal) := by
  show k0_pay4 (F := Ideal) (blk X p) (rowIdx (ix3 p (0 : Fin 2) r)) = _
  rw [rowIdx_max]
  exact pay4_apply_max (blk X p) (fun r j => x r (Softmax.col p j)) (blk_apply X x hX p) r

/-- and its row sums. -/
theorem stats_apply_sum (X : Whole) (x : Fin 512 → Fin 8192 → ℝ)
    (hX : ∀ i : (⟨2, ![512, 8192]⟩ : Shape).Idx, (X i : EReal) = ((x ⟨(i 0).val, (i 0).isLt⟩ ⟨(i 1).val, (i 1).isLt⟩ : ℝ) : EReal))
    (p : Fin 32) (r : Fin 512) :
    (stats X (ix3 p (1 : Fin 2) r) : EReal) = ((Softmax.blkSum x p r : ℝ) : EReal) := by
  show k0_pay4 (F := Ideal) (blk X p) (rowIdx (ix3 p (1 : Fin 2) r)) = _
  rw [rowIdx_sum]
  exact pay4_apply_sum (blk X p) (fun r j => x r (Softmax.col p j)) (blk_apply X x hX p) r

/-- The rescaled block sums add up to a positive real. -/
theorem allSum_pos (x : Fin 512 → Fin 8192 → ℝ) (r : Fin 512) : 0 < Softmax.allSum x r :=
  Finset.sum_pos (fun c _ => mul_pos (Finset.sum_pos (fun j _ => Real.exp_pos _) Finset.univ_nonempty) (Real.exp_pos _))
    Finset.univ_nonempty

/-- Over real inputs, the stored result is the blockwise softmax. -/
theorem outAt_apply (X : Whole) (x : Fin 512 → Fin 8192 → ℝ)
    (hX : ∀ i : (⟨2, ![512, 8192]⟩ : Shape).Idx, (X i : EReal) = ((x ⟨(i 0).val, (i 0).isLt⟩ ⟨(i 1).val, (i 1).isLt⟩ : ℝ) : EReal))
    (c : Dev nD) (r : Fin 512) (j : Fin 256) :
    (outAt X c (ValueIdx.ix2 r j) : EReal) = ((Softmax.out x c r j : ℝ) : EReal) := by
  unfold outAt
  exact pay5_apply (k0_pay2 (F := Ideal) (blk X c)) (k0_pay3 (F := Ideal) (blk X c)) (stats X)
    (fun r => Softmax.blkMax x c r) (fun r j => Softmax.blkExp x c r j)
    (fun p r => Softmax.blkMax x p r) (fun p r => Softmax.blkSum x p r)
    (fun r => pay2_apply (blk X c) (fun r j => x r (Softmax.col c j)) (blk_apply X x hX c) r 0)
    (fun r j => pay3_apply (blk X c) (fun r j => x r (Softmax.col c j)) (blk_apply X x hX c) r j)
    (stats_apply_max X x hX) (stats_apply_sum X x hX) r j (allSum_pos x r).ne'

end Cert.KernelValue

end
-- ==== Proof.RefValue.lean ====
/- The reference's whole-array softmax read off its generated run, index by index, over real inputs. -/
import proofs.«901066_g7700000000001067_dist_softmax_colshard_i_m512_n256_v7x_i32_bf16_1_alg».proof.Proof.Gen.ReferenceIdeal.Run
import proofs.«901066_g7700000000001067_dist_softmax_colshard_i_m512_n256_v7x_i32_bf16_1_alg».proof.Proof.Gen.ReferenceIdeal.Read
import proofs.«901066_g7700000000001067_dist_softmax_colshard_i_m512_n256_v7x_i32_bf16_1_alg».proof.Proof.Softmax.Spec
import proofs.«901066_g7700000000001067_dist_softmax_colshard_i_m512_n256_v7x_i32_bf16_1_alg».proof.Proof.LibOnlineSoftmax
import Idealize.ShloMosaic.Lib.ValueIdx
import Idealize.ShloMosaic.PureOps.Ideal.Laws

noncomputable section

namespace Cert.RefValue

open Cert.ReferenceIdeal Cert.ReferenceIdeal.Gen
open Idealize.ShloMosaic
open Cert.ReferenceIdeal.Read

/-- The maximum of a nonempty finite family of reals, folded from -∞ in the extended reals, is the
    coercion of the family's supremum. -/
theorem fold_max_eq_sup' {N : ℕ} (hne : (Finset.univ : Finset (Fin N)).Nonempty) (f : Fin N → ℝ) :
    Finset.univ.fold max (⊥ : EReal) (fun j => ((f j : ℝ) : EReal))
      = ((Finset.univ.sup' hne f : ℝ) : EReal) := by
  have hN : 0 < N := by
    obtain ⟨j, -⟩ := hne
    exact Nat.lt_of_le_of_lt (Nat.zero_le _) j.isLt
  obtain ⟨M, hle, ⟨j, hj⟩, hfold⟩ := OnlineSoftmax.fold_max_real hN f
  rw [hfold]
  congr 1
  refine le_antisymm ?_ ?_
  · rw [← hj]; exact Finset.le_sup' f (Finset.mem_univ j)
  · exact Finset.sup'_le hne f fun k _ => hle k

/-- The sum of the exponentials of a row is positive. -/
theorem rowSum_pos (x : Fin 512 → Fin 8192 → ℝ) (r : Fin 512) : 0 < Softmax.rowSum x r :=
  Finset.sum_pos (fun _ _ => Real.exp_pos _) Finset.univ_nonempty

/-- The maximum-reduce at row r is the row's maximum. -/
theorem v0_apply (X : (⟨S512x8192, .f32⟩ : BufTy).Contents (Elt Ideal)) (x : Fin 512 → Fin 8192 → ℝ)
    (hX : ∀ i : S512x8192.Idx, (X i : EReal) = ((x ⟨(i 0).val, (i 0).isLt⟩ ⟨(i 1).val, (i 1).isLt⟩ : ℝ) : EReal))
    (j : S512.Idx) :
    (val_main_v0 (F := Ideal) X j : EReal) = ((Softmax.rowMax x ⟨(j 0).val, (j 0).isLt⟩ : ℝ) : EReal) := by
  unfold val_main_v0
  have h : S512x8192.Reduces [1] S512 := by decide
  refine (Host.reduce_eq_fold_single (FloatOps.maximumf (F := Ideal) (φ := .f32)) X (val_main_cst (F := Ideal)) reducesTo_S512x8192_S512_d1 h h_S_ j).trans ?_
  have hf : (X ∘ h.lift j) = fun k : Fin 8192 => ((x ⟨(j 0).val, (j 0).isLt⟩ k : ℝ) : EReal) := by
    funext k
    show X (h.lift j k) = _
    rw [hX]
    rfl
  have hb : (val_main_cst (F := Ideal) (Shape.Idx.first h_S_) : EReal) = ⊥ := by
    show Ideal.ofBits .f32 0xFF800000#32 = ⊥
    simp [Ideal.ofBits, Ideal.ieee]
  rw [hf, hb]
  exact fold_max_eq_sup' Finset.univ_nonempty _

/-- The row's maximum broadcast over the whole array. -/
theorem v2_apply (X : (⟨S512x8192, .f32⟩ : BufTy).Contents (Elt Ideal)) (x : Fin 512 → Fin 8192 → ℝ)
    (hX : ∀ i : S512x8192.Idx, (X i : EReal) = ((x ⟨(i 0).val, (i 0).isLt⟩ ⟨(i 1).val, (i 1).isLt⟩ : ℝ) : EReal))
    (i : S512x8192.Idx) :
    (val_main_v2 (F := Ideal) X i : EReal) = ((Softmax.rowMax x ⟨(i 0).val, (i 0).isLt⟩ : ℝ) : EReal) := by
  rw [val_main_v2_apply, val_main_v1_apply, v0_apply X x hX]

/-- The exponential of an entry below its row's maximum. -/
theorem v4_apply (X : (⟨S512x8192, .f32⟩ : BufTy).Contents (Elt Ideal)) (x : Fin 512 → Fin 8192 → ℝ)
    (hX : ∀ i : S512x8192.Idx, (X i : EReal) = ((x ⟨(i 0).val, (i 0).isLt⟩ ⟨(i 1).val, (i 1).isLt⟩ : ℝ) : EReal))
    (i : S512x8192.Idx) :
    (val_main_v4 (F := Ideal) X i : EReal)
      = ((Real.exp (x ⟨(i 0).val, (i 0).isLt⟩ ⟨(i 1).val, (i 1).isLt⟩ - Softmax.rowMax x ⟨(i 0).val, (i 0).isLt⟩) : ℝ) : EReal) := by
  rw [val_main_v4_apply, val_main_v3_apply, v2_apply X x hX, hX i]
  show Ideal.exp (((x ⟨(i 0).val, (i 0).isLt⟩ ⟨(i 1).val, (i 1).isLt⟩ : ℝ) : EReal) - ((Softmax.rowMax x ⟨(i 0).val, (i 0).isLt⟩ : ℝ) : EReal)) = _
  rw [← EReal.coe_sub, Ideal.exp_coe]

/-- The sum-reduce at row r is the row's sum of exponentials. -/
theorem v5_apply (X : (⟨S512x8192, .f32⟩ : BufTy).Contents (Elt Ideal)) (x : Fin 512 → Fin 8192 → ℝ)
    (hX : ∀ i : S512x8192.Idx, (X i : EReal) = ((x ⟨(i 0).val, (i 0).isLt⟩ ⟨(i 1).val, (i 1).isLt⟩ : ℝ) : EReal))
    (j : S512.Idx) :
    (val_main_v5 (F := Ideal) X j : EReal) = ((Softmax.rowSum x ⟨(j 0).val, (j 0).isLt⟩ : ℝ) : EReal) := by
  rw [val_main_v5_apply, val_main_cst_0_apply]
  show Ideal.ofBits .f32 0x00000000#32 + ∑ k : Fin 8192, (val_main_v4 (F := Ideal) X (idx_main_v5 j k) : EReal) = _
  rw [Ideal.ofBits_zero_f32, zero_add]
  unfold Softmax.rowSum
  rw [OnlineSoftmax.coe_sum]
  refine Finset.sum_congr rfl fun k _ => ?_
  rw [v4_apply X x hX]

/-- The row's sum broadcast over the whole array. -/
theorem v7_apply (X : (⟨S512x8192, .f32⟩ : BufTy).Contents (Elt Ideal)) (x : Fin 512 → Fin 8192 → ℝ)
    (hX : ∀ i : S512x8192.Idx, (X i : EReal) = ((x ⟨(i 0).val, (i 0).isLt⟩ ⟨(i 1).val, (i 1).isLt⟩ : ℝ) : EReal))
    (i : S512x8192.Idx) :
    (val_main_v7 (F := Ideal) X i : EReal) = ((Softmax.rowSum x ⟨(i 0).val, (i 0).isLt⟩ : ℝ) : EReal) := by
  rw [val_main_v7_apply, val_main_v6_apply, v5_apply X x hX]

/-- Over real inputs, the reference's result is the softmax of each row. -/
theorem ref_apply (X : (⟨S512x8192, .f32⟩ : BufTy).Contents (Elt Ideal)) (x : Fin 512 → Fin 8192 → ℝ)
    (hX : ∀ i : S512x8192.Idx, (X i : EReal) = ((x ⟨(i 0).val, (i 0).isLt⟩ ⟨(i 1).val, (i 1).isLt⟩ : ℝ) : EReal))
    (i : S512x8192.Idx) :
    (Cert.ReferenceIdeal.Read.val_main_v8 (F := Ideal) X i : EReal)
      = ((Softmax.soft x ⟨(i 0).val, (i 0).isLt⟩ ⟨(i 1).val, (i 1).isLt⟩ : ℝ) : EReal) := by
  rw [val_main_v8_apply, v4_apply X x hX, v7_apply X x hX]
  show Ideal.div _ _ = _
  rw [Ideal.div_coe (rowSum_pos x _).ne', ← EReal.coe_mul]
  unfold Softmax.soft
  rw [mul_one_div]

end Cert.RefValue

end
-- ==== Proof.ValueJoin.lean ====
/- The two sides joined: over finite inputs, what device `c` stores is its block of the reference's softmax. -/
import proofs.«901066_g7700000000001067_dist_softmax_colshard_i_m512_n256_v7x_i32_bf16_1_alg».proof.Proof.KernelValue
import proofs.«901066_g7700000000001067_dist_softmax_colshard_i_m512_n256_v7x_i32_bf16_1_alg».proof.Proof.RefValue
import proofs.«901066_g7700000000001067_dist_softmax_colshard_i_m512_n256_v7x_i32_bf16_1_alg».proof.Defs
import proofs.«901066_g7700000000001067_dist_softmax_colshard_i_m512_n256_v7x_i32_bf16_1_alg».proof.Proof.Gen.Pre_finite_inputs_Kernel
import proofs.«901066_g7700000000001067_dist_softmax_colshard_i_m512_n256_v7x_i32_bf16_1_alg».proof.Proof.Gen.KernelIdeal
import Idealize.ShloMosaic.Lib.ReduceAll

noncomputable section

namespace Cert.ValueJoin

open Cert.KernelIdeal Cert.KernelIdeal.Gen
open Idealize.ShloMosaic Idealize.ShloMosaic.TcCoe Idealize.SL.Sem

/-- Under the precondition every entry of every device's block of the input is a real number. -/
theorem finite_of_pre (m : (ℓ : Loc Cert.KernelIdeal.nD Cert.KernelIdeal.τ Cert.KernelIdeal.sig) → Buf (Elt Ideal) ℓ)
    (hpre : Cert.Pre_KernelIdeal (hPre_finite_inputs_Kernel := Cert.Pre_finite_inputs_Kernel.Gen.facts) m)
    (c : Dev Cert.KernelIdeal.nD) (i : S512x256.Idx) :
    (show EReal from m ((c.tc : Thread Cert.KernelIdeal.nD Cert.KernelIdeal.τ).loc Cert.KernelIdeal.main_arg0) i) ≠ (⊤ : EReal)
      ∧ (show EReal from m ((c.tc : Thread Cert.KernelIdeal.nD Cert.KernelIdeal.τ).loc Cert.KernelIdeal.main_arg0) i) ≠ (⊥ : EReal) := by
  have h := congrFun (hpre c) ValueIdx.ix0
  dsimp only [Cert.Pre_finite_inputs_Kernel.fn] at h
  haveI : Subsingleton Cert.Pre_finite_inputs_Kernel.S_.Idx := ⟨fun a b => funext fun d => d.elim0⟩
  have hall := Host.reduce_andi_all _ _ _ _ _ h i
  change Ideal.cmp .olt (max (show EReal from m ((c.tc : Thread Cert.KernelIdeal.nD Cert.KernelIdeal.τ).loc Cert.KernelIdeal.main_arg0) i)
    (-(show EReal from m ((c.tc : Thread Cert.KernelIdeal.nD Cert.KernelIdeal.τ).loc Cert.KernelIdeal.main_arg0) i)))
    (Ideal.ofBits .f32 0x7F800000#32) = 1#1 at hall
  rw [show Ideal.ofBits .f32 0x7F800000#32 = (⊤ : EReal) by simp [Ideal.ofBits, Ideal.ieee]] at hall
  generalize (show EReal from m ((c.tc : Thread Cert.KernelIdeal.nD Cert.KernelIdeal.τ).loc Cert.KernelIdeal.main_arg0) i) = a at hall ⊢
  have hlt : max a (-a) < ⊤ := by
    by_contra hn
    simp [Ideal.cmp, hn] at hall
  constructor
  · rintro rfl
    simp at hlt
  · rintro rfl
    simp at hlt

/-- A whole array every one of whose blocks is real-valued is real-valued. -/
theorem whole_real (X : KernelValue.Whole)
    (hblk : ∀ (c : Dev nD) (i : S512x256.Idx), (show EReal from KernelValue.blk X c i) ≠ (⊤ : EReal) ∧ (show EReal from KernelValue.blk X c i) ≠ (⊥ : EReal)) :
    ∃ x : Fin 512 → Fin 8192 → ℝ, ∀ i : (⟨2, ![512, 8192]⟩ : Shape).Idx,
      (X i : EReal) = ((x ⟨(i 0).val, (i 0).isLt⟩ ⟨(i 1).val, (i 1).isLt⟩ : ℝ) : EReal) := by
  refine ⟨fun r J => (show EReal from X (ValueIdx.ix2 r J)).toReal, fun i => ?_⟩
  obtain ⟨r, J, rfl⟩ : ∃ (r : Fin 512) (J : Fin 8192), i = ValueIdx.ix2 r J := ⟨i 0, i 1, ValueIdx.eq_ix2 i⟩
  obtain ⟨c, j, rfl⟩ := Softmax.col_surj J
  have h := hblk c (ValueIdx.ix2 r j)
  have e : KernelValue.blk X c (ValueIdx.ix2 r j) = X (ValueIdx.ix2 r (Softmax.col c j)) := by
    unfold KernelValue.blk
    rw [Layout.block_apply]
    congr 1
    funext a
    match a with
    | ⟨0, _⟩ => exact Fin.ext rfl
    | ⟨1, _⟩ =>
      exact Fin.ext (by
        show c.val * 256 + j.val = 256 * c.val + j.val
        omega)
  rw [e] at h
  exact (EReal.coe_toReal h.1 h.2).symm

/-- Over real inputs device `c`'s stored result is block `c` of the reference's result. -/
theorem out_eq_block (X : KernelValue.Whole) (x : Fin 512 → Fin 8192 → ℝ)
    (hX : ∀ i : (⟨2, ![512, 8192]⟩ : Shape).Idx, (X i : EReal) = ((x ⟨(i 0).val, (i 0).isLt⟩ ⟨(i 1).val, (i 1).isLt⟩ : ℝ) : EReal))
    (c : Dev nD) :
    KernelValue.outAt X c
      = Layout.block ⟨2, ![512, 256]⟩ ⟨2, ![512, 8192]⟩ 1 32 c (Cert.ReferenceIdeal.Read.val_main_v8 (F := Ideal) X) := by
  funext i
  obtain ⟨r, j, rfl⟩ : ∃ (r : Fin 512) (j : Fin 256), i = ValueIdx.ix2 r j := ⟨i 0, i 1, ValueIdx.eq_ix2 i⟩
  have e1 := KernelValue.outAt_apply X x hX c r j
  have e2 := RefValue.ref_apply X x hX
    ((by decide : Layout.Tiles ⟨2, ![512, 256]⟩ ⟨2, ![512, 8192]⟩ 1 32).idx c (ValueIdx.ix2 r j))
  refine e1.trans ?_
  rw [Layout.block_apply]
  refine Eq.trans ?_ e2.symm
  rw [Softmax.out_eq_soft]
  congr 2
  exact Fin.ext (by
    show 256 * c.val + j.val = c.val * 256 + j.val
    omega)

end Cert.ValueJoin

end
-- ==== Proof.Bridge.lean ====
/- The kernel's run read against the reference's: when every device's input is its block of a whole array, what a
   device stores is a function of that whole array alone, and over finite inputs it is the device's block of the
   reference's result. -/
import proofs.«901066_g7700000000001067_dist_softmax_colshard_i_m512_n256_v7x_i32_bf16_1_alg».proof.Proof.KernelIdealRun.Launch
import proofs.«901066_g7700000000001067_dist_softmax_colshard_i_m512_n256_v7x_i32_bf16_1_alg».proof.Proof.ValueJoin

noncomputable section

namespace Cert.Bridge

open Cert.KernelIdeal Cert.KernelIdeal.Gen
open Idealize.ShloMosaic Idealize.ShloMosaic.TcCoe Idealize.SL.Sem

/-- With each device's input its block of `X`, a device's stored result is the whole-array function of `X`. -/
theorem outAt_eq (m : (ℓ : Loc nD τ sig) → Buf (Elt Ideal) ℓ) (ρ : Dev nD → PrngReg) (X : KernelValue.Whole)
    (hagree : ∀ c : Dev nD, m ((c.tc : Thread nD τ).loc main_arg0) = Layout.block ⟨2, ![512, 256]⟩ ⟨2, ![512, 8192]⟩ 1 32 c X)
    (c : Dev nD) : Cert.KernelIdealRun.outAt (F := Ideal) m ρ c = KernelValue.outAt X c := by
  have hx : ∀ p : Dev nD, Cert.KernelIdealRun.xstg (F := Ideal) m ρ p = KernelValue.blk X p :=
    fun p => (Cert.KernelIdealRun.xstg_eq m ρ p).trans (hagree p)
  have hs : Cert.KernelIdealRun.allStats (F := Ideal) m ρ = KernelValue.stats X := by
    funext i
    unfold Cert.KernelIdealRun.allStats KernelValue.stats
    rw [hx]
    rfl
  unfold Cert.KernelIdealRun.outAt KernelValue.outAt
  rw [hx, hs]

end Cert.Bridge

end
-- ==== Proof.lean ====
/- The proof of `Cert.Claim`: five conjuncts.
   The three frames: the kernel as printed (word level), the kernel read over the extended reals, and the
   reference each run to the end from any memory with zero counters, nothing faulting, and leave their argument
   arrays as they found them. The kernel's two are its run on the thirty-two devices with the values dropped; the
   reference's is the run of its eleven host operations.
   `preserves`: the idealized kernel is the kernel's own text read over the extended reals; no operation was
   rewritten, and the conjunct is `True`.
   `algebraic`: over the extended reals, with every device's input its block of columns of one whole array of
   finite entries, device `c` ends holding block `c` of the reference's row-wise softmax of the whole array.
   Each device computes of its own 256 columns the row maxima `m` and the row sums of `exp (x − m)`; the devices
   exchange these; with `M` the maximum of the thirty-two maxima, the law
   `exp (x − m) · exp (m − M) = exp (x − M)` turns each device's sum into its share of the sum of `exp (x − M)`
   over the whole row, and the thirty-two shares, a sum over blocks of columns, regroup into the sum over all
   8192 columns: the reference's denominator. The same law turns the device's `exp (x − m)` into the reference's
   numerator on its columns. -/
import proofs.«901066_g7700000000001067_dist_softmax_colshard_i_m512_n256_v7x_i32_bf16_1_alg».proof.Defs
import proofs.«901066_g7700000000001067_dist_softmax_colshard_i_m512_n256_v7x_i32_bf16_1_alg».proof.Proof.Gen.Kernel
import proofs.«901066_g7700000000001067_dist_softmax_colshard_i_m512_n256_v7x_i32_bf16_1_alg».proof.Proof.Gen.Kernel.Skeleton
import proofs.«901066_g7700000000001067_dist_softmax_colshard_i_m512_n256_v7x_i32_bf16_1_alg».proof.Proof.Gen.Kernel.Launch
import proofs.«901066_g7700000000001067_dist_softmax_colshard_i_m512_n256_v7x_i32_bf16_1_alg».proof.Proof.Gen.Kernel.Points
import proofs.«901066_g7700000000001067_dist_softmax_colshard_i_m512_n256_v7x_i32_bf16_1_alg».proof.Proof.Gen.Kernel.Frame
import proofs.«901066_g7700000000001067_dist_softmax_colshard_i_m512_n256_v7x_i32_bf16_1_alg».proof.Proof.Gen.KernelIdeal
import proofs.«901066_g7700000000001067_dist_softmax_colshard_i_m512_n256_v7x_i32_bf16_1_alg».proof.Proof.Gen.KernelIdeal.Skeleton
import proofs.«901066_g7700000000001067_dist_softmax_colshard_i_m512_n256_v7x_i32_bf16_1_alg».proof.Proof.Gen.KernelIdeal.Launch
import proofs.«901066_g7700000000001067_dist_softmax_colshard_i_m512_n256_v7x_i32_bf16_1_alg».proof.Proof.Gen.KernelIdeal.Points
import proofs.«901066_g7700000000001067_dist_softmax_colshard_i_m512_n256_v7x_i32_bf16_1_alg».proof.Proof.Gen.KernelIdeal.Frame
import proofs.«901066_g7700000000001067_dist_softmax_colshard_i_m512_n256_v7x_i32_bf16_1_alg».proof.Proof.Gen.ReferenceIdeal
import proofs.«901066_g7700000000001067_dist_softmax_colshard_i_m512_n256_v7x_i32_bf16_1_alg».proof.Proof.Gen.Pre_finite_inputs_Kernel
import proofs.«901066_g7700000000001067_dist_softmax_colshard_i_m512_n256_v7x_i32_bf16_1_alg».proof.Proof.Gen.Pre_finite_inputs_ReferenceIdeal
import proofs.«901066_g7700000000001067_dist_softmax_colshard_i_m512_n256_v7x_i32_bf16_1_alg».proof.Proof.Gen.ReferenceIdeal.Run
import proofs.«901066_g7700000000001067_dist_softmax_colshard_i_m512_n256_v7x_i32_bf16_1_alg».proof.Proof.Gen.ReferenceIdeal.Read
import proofs.«901066_g7700000000001067_dist_softmax_colshard_i_m512_n256_v7x_i32_bf16_1_alg».proof.Proof.KernelIdealRun.Body
import proofs.«901066_g7700000000001067_dist_softmax_colshard_i_m512_n256_v7x_i32_bf16_1_alg».proof.Proof.KernelIdealRun.Launch
import proofs.«901066_g7700000000001067_dist_softmax_colshard_i_m512_n256_v7x_i32_bf16_1_alg».proof.Proof.KernelRun.Body
import proofs.«901066_g7700000000001067_dist_softmax_colshard_i_m512_n256_v7x_i32_bf16_1_alg».proof.Proof.KernelRun.Launch
import proofs.«901066_g7700000000001067_dist_softmax_colshard_i_m512_n256_v7x_i32_bf16_1_alg».proof.Proof.Bridge
import proofs.«901066_g7700000000001067_dist_softmax_colshard_i_m512_n256_v7x_i32_bf16_1_alg».proof.Proof.ValueJoin
import Idealize.ShloMosaic.Adequacy
import Idealize.ShloMosaic.Init

noncomputable section

namespace Cert.Proof

open Idealize.ShloMosaic Idealize.ShloMosaic.TcCoe Idealize.SL.Sem

/-! ## The frames -/

/-- The kernel as printed runs to the end and leaves its argument arrays unchanged: its run with the values dropped. -/
theorem frame_k : Cert.frame_Kernel := fun m g _ =>
  (θ_run (Cert.Kernel.defs (F := Bits)) _ _).mono (fun _ h c => (h c).2)
    (Cert.KernelRun.run_values (F := Bits) m g (Cert.KernelRun.body_obligation m g))

/-- The kernel over the extended reals likewise. -/
theorem frame_ki : Cert.frame_KernelIdeal := fun m g _ =>
  (θ_run (Cert.KernelIdeal.defs (F := Ideal)) _ _).mono (fun _ h c => (h c).2)
    (Cert.KernelIdealRun.run_values (F := Ideal) m g (Cert.KernelIdealRun.body_obligation m g))

/-- The reference runs to the end and leaves its argument array unchanged. -/
theorem frame_r : Cert.frame_ReferenceIdeal := fun m g _ =>
  (θ_run (Cert.ReferenceIdeal.defs (F := Ideal)) _ _).mono (fun _ h c => (h c).2)
    (Cert.ReferenceIdeal.Value.run (F := Ideal) m g)

/-! ## The value -/

/-- With every device's input its block of a whole array `X` of finite entries, what device `c` stores is block `c`
    of the reference's softmax of `X`. -/
theorem out_block (m : (ℓ : Loc Cert.KernelIdeal.nD Cert.KernelIdeal.τ Cert.KernelIdeal.sig) → Buf (Elt Ideal) ℓ)
    (g : Dev Cert.KernelIdeal.nD → PrngReg) (X : KernelValue.Whole) (hpre : Cert.Pre_KernelIdeal m)
    (hagree : ∀ c : Dev Cert.KernelIdeal.nD,
      m ((c.tc : Thread Cert.KernelIdeal.nD Cert.KernelIdeal.τ).loc Cert.KernelIdeal.main_arg0) = Layout.block ⟨2, ![512, 256]⟩ ⟨2, ![512, 8192]⟩ 1 32 c X)
    (c : Dev Cert.KernelIdeal.nD) :
    Cert.KernelIdealRun.outAt (F := Ideal) m g c
      = Layout.block ⟨2, ![512, 256]⟩ ⟨2, ![512, 8192]⟩ 1 32 c (Cert.ReferenceIdeal.Read.val_main_v8 (F := Ideal) X) := by
  have hblk : ∀ (p : Dev Cert.KernelIdeal.nD) (i : Cert.KernelIdeal.S512x256.Idx),
      (show EReal from KernelValue.blk X p i) ≠ (⊤ : EReal) ∧ (show EReal from KernelValue.blk X p i) ≠ (⊥ : EReal) := fun p i => by
    have h := Cert.ValueJoin.finite_of_pre m hpre p i
    rw [hagree p] at h
    exact h
  obtain ⟨x, hX⟩ := Cert.ValueJoin.whole_real X hblk
  exact (Cert.Bridge.outAt_eq m g X hagree c).trans (Cert.ValueJoin.out_eq_block X x hX c)

/-- Both programs run; the reference's result is its softmax of the whole array, each device's result its block of
    it, and the arguments of both end unchanged. -/
theorem algebraic : Cert.algebraic_KernelIdeal_ReferenceIdeal := by
  intro m g m' g' hpre hagree
  refine ⟨Cert.ReferenceIdeal.Read.val_main_v8 (F := Ideal)
      (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨(h c).1.trans (out_block m g _ hpre hagree c), (h c).2⟩)
      (Cert.KernelIdealRun.run_values (F := Ideal) m g (Cert.KernelIdealRun.body_obligation m g))
  · exact (θ_run (Cert.ReferenceIdeal.defs (F := Ideal)) _ _).mono
      (fun _ h => ⟨(h 0).1.trans (Cert.ReferenceIdeal.Read.val_main_v8_eq _), (h 0).2⟩)
      (Cert.ReferenceIdeal.Value.run (F := Ideal) m' g')

/-! ## The claim -/

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_r, trivial, algebraic⟩

/-- info: 'Cert.Proof.claim' depends on axioms: [propext, Classical.choice, Quot.sound] -/
#guard_msgs in #print axioms claim

end Cert.Proof

end
